-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S800000 : Shape := ⟨1, ![800000]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_v15 : IVec S_ 1) (main_c_5 : IVec S_ 32) : IVec S_ 1 :=
  let main_v16 : IVec S800000 32 := broadcastInDim S800000 ![] bcast_S_S800000 main_c_5
  let main_v17 : IVec S800000 1 := cmpi .sge main_arg3 main_v16
  let main_c_6 : IVec S_ 32 := constantI S_ 32 60000#32
  let main_v18 : IVec S800000 32 := broadcastInDim S800000 ![] bcast_S_S800000 main_c_6
  let main_v19 : IVec S800000 1 := cmpi .slt main_arg3 main_v18
  let main_v20 : IVec S800000 1 := andi main_v17 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v15 main_v21
  main_v22

def fn {F : FTy → Type} [FloatOps F] (main_arg0 : FVec F S30000x64 .f32) (main_arg1 : FVec F S30000x64 .f32) (main_arg2 : IVec S800000 32) (main_arg3 : IVec S800000 32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_c_2 : IVec S_ 32 := constantI S_ 32 0#32
  let main_v9 : IVec S800000 32 := broadcastInDim S800000 ![] bcast_S_S800000 main_c_2
  let main_v10 : IVec S800000 1 := cmpi .sge main_arg2 main_v9
  let main_c_3 : IVec S_ 32 := constantI S_ 32 60000#32
  let main_v11 : IVec S800000 32 := broadcastInDim S800000 ![] bcast_S_S800000 main_c_3
  let main_v12 : IVec S800000 1 := cmpi .slt main_arg2 main_v11
  let main_v13 : IVec S800000 1 := andi main_v10 main_v12
  let main_c_4 : IVec S_ 1 := constantI S_ 1 1#1
  let main_v14 : IVec S_ 1 := (fun x v => Host.reduce IntOp.andi x v reducesTo_S800000_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S30000x64 : Shape := ⟨2, ![30000, 64]⟩
abbrev S800000 : Shape := ⟨1, ![800000]⟩
abbrev S60000x64 : Shape := ⟨2, ![60000, 64]⟩
abbrev S64 : Shape := ⟨1, ![64]⟩
abbrev S_ : Shape := ⟨0, ![]⟩
abbrev S64x1 : Shape := ⟨2, ![64, 1]⟩
abbrev S1x4 : Shape := ⟨2, ![1, 4]⟩
abbrev S64x4 : Shape := ⟨2, ![64, 4]⟩
abbrev S4x64 : Shape := ⟨2, ![4, 64]⟩
abbrev S800000x4 : Shape := ⟨2, ![800000, 4]⟩
abbrev S8000x4 : Shape := ⟨2, ![8000, 4]⟩
abbrev S8000 : Shape := ⟨1, ![8000]⟩
abbrev S8000x1 : Shape := ⟨2, ![8000, 1]⟩
abbrev S60000x4 : Shape := ⟨2, ![60000, 4]⟩
abbrev S800000x1 : Shape := ⟨2, ![800000, 1]⟩
abbrev S6000x4 : Shape := ⟨2, ![6000, 4]⟩
abbrev S6000x64 : Shape := ⟨2, ![6000, 64]⟩
abbrev S1 : Shape := ⟨1, ![1]⟩
abbrev S1x1 : Shape := ⟨2, ![1, 1]⟩
abbrev S800000x64 : Shape := ⟨2, ![800000, 64]⟩
abbrev S8000x64 : Shape := ⟨2, ![8000, 64]⟩
abbrev S2000x64 : Shape := ⟨2, ![2000, 64]⟩
abbrev S2000x4 : Shape := ⟨2, ![2000, 4]⟩

abbrev nBuf : Space → Nat
  | .hbm => 238
  | .vmem => 72
  | .smem => 0
  | _ => 0

abbrev hbmTy0_0 (i : Nat) : BufTy := match i % 128 with
  | 0 => ⟨S30000x64, .f32⟩
  | 1 => ⟨S30000x64, .f32⟩
  | 2 => ⟨S800000, .i32⟩
  | 3 => ⟨S800000, .i32⟩
  | 4 => ⟨S60000x64, .f32⟩
  | 5 => ⟨S64, .i32⟩
  | 6 => ⟨S_, .i32⟩
  | 7 => ⟨S_, .i32⟩
  | 8 => ⟨S64, .i32⟩
  | 9 => ⟨S64, .i32⟩
  | 10 => ⟨S64, .i32⟩
  | 11 => ⟨S_, .i32⟩
  | 12 => ⟨S64, .i32⟩
  | 13 => ⟨S64, .i1⟩
  | 14 => ⟨S64, .i32⟩
  | 15 => ⟨S64, .i32⟩
  | 16 => ⟨S_, .i32⟩
  | 17 => ⟨S64, .i32⟩
  | 18 => ⟨S64, .i1⟩
  | 19 => ⟨S64, .i1⟩
  | 20 => ⟨S_, .i32⟩
  | 21 => ⟨S64, .i32⟩
  | 22 => ⟨S64, .i32⟩
  | 23 => ⟨S64, .i32⟩
  | 24 => ⟨S64x1, .i32⟩
  | 25 => ⟨S1x4, .i32⟩
  | 26 => ⟨S64x4, .i32⟩
  | 27 => ⟨S64x4, .i32⟩
  | 28 => ⟨S64x4, .i1⟩
  | 29 => ⟨S64x4, .f32⟩
  | 30 => ⟨S4x64, .f32⟩
  | 31 => ⟨S_, .f32⟩
  | 32 => ⟨S800000x4, .f32⟩
  | 33 => ⟨S800000x4, .f32⟩
  | 34 => ⟨S_, .f32⟩
  | 35 => ⟨S60000x4, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S60000x4, .f32⟩
  | 45 => ⟨S60000x4, .f32⟩
  | 46 => ⟨S_, .f32⟩
  | 47 => ⟨S60000x4, .f32⟩
  | 48 => ⟨S60000x4, .f32⟩
  | 49 => ⟨S60000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x64, .f32⟩
  | 69 => ⟨S800000x64, .i1⟩
  | 70 => ⟨S_, .f32⟩
  | 71 => ⟨S800000x64, .f32⟩
  | 72 => ⟨S800000x64, .f32⟩
  | 73 => ⟨S800000x64, .f32⟩
  | 74 => ⟨S_, .f32⟩
  | 75 => ⟨S60000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S60000x64, .f32⟩
  | 85 => ⟨S60000x64, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S1, .i32⟩
  | 95 => ⟨S_, .i32⟩
  | 96 => ⟨S800000x1, .i32⟩
  | 97 => ⟨S800000x1, .i1⟩
  | 98 => ⟨S1x1, .i32⟩
  | 99 => ⟨S800000x1, .i32⟩
  | 100 => ⟨S800000x1, .i1⟩
  | 101 => ⟨S800000x1, .i1⟩
  | 102 => ⟨S_, .i1⟩
  | 103 => ⟨S800000, .i1⟩
  | 104 => ⟨S800000x64, .f32⟩
  | 105 => ⟨S800000x64, .i1⟩
  | 106 => ⟨S_, .f32⟩
  | 107 => ⟨S800000x64, .f32⟩
  | 108 => ⟨S800000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x64, .f32⟩
  | _ => ⟨S30000x64, .f32⟩

abbrev hbmTy0_1 (i : Nat) : BufTy := match i % 128 with
  | 0 => ⟨S800000x64, .i1⟩
  | 1 => ⟨S_, .f32⟩
  | 2 => ⟨S800000x64, .f32⟩
  | 3 => ⟨S800000x64, .f32⟩
  | 4 => ⟨S800000x4, .f32⟩
  | 5 => ⟨S800000x4, .f32⟩
  | 6 => ⟨S800000x4, .f32⟩
  | 7 => ⟨S_, .f32⟩
  | 8 => ⟨S60000x4, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S60000x4, .f32⟩
  | 18 => ⟨S60000x4, .f32⟩
  | 19 => ⟨S_, .f32⟩
  | 20 => ⟨S60000x4, .f32⟩
  | 21 => ⟨S60000x4, .f32⟩
  | 22 => ⟨S60000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x64, .f32⟩
  | 42 => ⟨S800000x64, .i1⟩
  | 43 => ⟨S_, .f32⟩
  | 44 => ⟨S800000x64, .f32⟩
  | 45 => ⟨S800000x64, .f32⟩
  | 46 => ⟨S800000x64, .f32⟩
  | 47 => ⟨S_, .f32⟩
  | 48 => ⟨S60000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S60000x64, .f32⟩
  | 58 => ⟨S60000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x64, .f32⟩
  | 78 => ⟨S800000x64, .i1⟩
  | 79 => ⟨S_, .f32⟩
  | 80 => ⟨S800000x64, .f32⟩
  | 81 => ⟨S800000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S1, .i32⟩
  | 91 => ⟨S_, .i32⟩
  | 92 => ⟨S800000x1, .i32⟩
  | 93 => ⟨S800000x1, .i1⟩
  | 94 => ⟨S1x1, .i32⟩
  | 95 => ⟨S800000x1, .i32⟩
  | 96 => ⟨S800000x1, .i1⟩
  | 97 => ⟨S800000x1, .i1⟩
  | 98 => ⟨S_, .i1⟩
  | 99 => ⟨S800000, .i1⟩
  | 100 => ⟨S800000x64, .f32⟩
  | 101 => ⟨S800000x64, .i1⟩
  | 102 => ⟨S_, .f32⟩
  | 103 => ⟨S800000x64, .f32⟩
  | 104 => ⟨S800000x64, .f32⟩
  | 105 => ⟨S800000x4, .f32⟩
  | 106 => ⟨S800000x4, .f32⟩
  | 107 => ⟨S60000x64, .f32⟩
  | 108 => ⟨S30000x64, .f32⟩
  | 109 => ⟨S30000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S6000x4, .f32⟩
  | .local _ .vmem, ⟨5, _⟩ => ⟨S6000x4, .f32⟩
  | .local _ .vmem, ⟨6, _⟩ => ⟨S6000x64, .f32⟩
  | .local _ .vmem, ⟨7, _⟩ => ⟨S6000x64, .f32⟩
  | .local _ .vmem, ⟨8, _⟩ => ⟨S4x64, .f32⟩
  | .local _ .vmem, ⟨9, _⟩ => ⟨S6000x64, .f32⟩
  | .local _ .vmem, ⟨10, _⟩ => ⟨S6000x64, .f32⟩
  | .local _ .vmem, ⟨11, _⟩ => ⟨S8000x4, .f32⟩
  | .local _ .vmem, ⟨12, _⟩ => ⟨S8000x4, .f32⟩
  | .local _ .vmem, ⟨13, _⟩ => ⟨S8000x64, .f32⟩
  | .local _ .vmem, ⟨14, _⟩ => ⟨S8000x64, .f32⟩
  | .local _ .vmem, ⟨15, _⟩ => ⟨S4x64, .f32⟩
  | .local _ .vmem, ⟨16, _⟩ => ⟨S8000x64, .f32⟩
  | .local _ .vmem, ⟨17, _⟩ => ⟨S8000x64, .f32⟩
  | .local _ .vmem, ⟨18, _⟩ => ⟨S6000x4, .f32⟩
  | .local _ .vmem, ⟨19, _⟩ => ⟨S6000x4, .f32⟩
  | .local _ .vmem, ⟨20, _⟩ => ⟨S6000x64, .f32⟩
  | .local _ .vmem, ⟨21, _⟩ => ⟨S6000x64, .f32⟩
  | .local _ .vmem, ⟨22, _⟩ => ⟨S4x64, .f32⟩
  | .local _ .vmem, ⟨23, _⟩ => ⟨S6000x64, .f32⟩
  | .local _ .vmem, ⟨24, _⟩ => ⟨S6000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S64x4, .f32⟩
  | .local _ .vmem, ⟨30, _⟩ => ⟨S4x64, .f32⟩
  | .local _ .vmem, ⟨31, _⟩ => ⟨S2000x4, .f32⟩
  | .local _ .vmem, ⟨32, _⟩ => ⟨S2000x4, .f32⟩
  | .local _ .vmem, ⟨33, _⟩ => ⟨S8000x4, .f32⟩
  | .local _ .vmem, ⟨34, _⟩ => ⟨S8000x4, .f32⟩
  | .local _ .vmem, ⟨35, _⟩ => ⟨S8000x4, .f32⟩
  | .local _ .vmem, ⟨36, _⟩ => ⟨S8000x4, .f32⟩
  | .local _ .vmem, ⟨37, _⟩ => ⟨S6000x4, .f32⟩
  | .local _ .vmem, ⟨38, _⟩ => ⟨S6000x4, .f32⟩
  | .local _ .vmem, ⟨39, _⟩ => ⟨S6000x64, .f32⟩
  | .local _ .vmem, ⟨40, _⟩ => ⟨S6000x64, .f32⟩
  | .local _ .vmem, ⟨41, _⟩ => ⟨S4x64, .f32⟩
  | .local _ .vmem, ⟨42, _⟩ => ⟨S6000x64, .f32⟩
  | .local _ .vmem, ⟨43, _⟩ => ⟨S6000x64, .f32⟩
  | .local _ .vmem, ⟨44, _⟩ => ⟨S8000x4, .f32⟩
  | .local _ .vmem, ⟨45, _⟩ => ⟨S8000x4, .f32⟩
  | .local _ .vmem, ⟨46, _⟩ => ⟨S8000x64, .f32⟩
  | .local _ .vmem, ⟨47, _⟩ => ⟨S8000x64, .f32⟩
  | .local _ .vmem, ⟨48, _⟩ => ⟨S4x64, .f32⟩
  | .local _ .vmem, ⟨49, _⟩ => ⟨S8000x64, .f32⟩
  | .local _ .vmem, ⟨50, _⟩ => ⟨S8000x64, .f32⟩
  | .local _ .vmem, ⟨51, _⟩ => ⟨S6000x4, .f32⟩
  | .local _ .vmem, ⟨52, _⟩ => ⟨S6000x4, .f32⟩
  | .local _ .vmem, ⟨53, _⟩ => ⟨S6000x64, .f32⟩
  | .local _ .vmem, ⟨54, _⟩ => ⟨S6000x64, .f32⟩
  | .local _ .vmem, ⟨55, _⟩ => ⟨S4x64, .f32⟩
  | .local _ .vmem, ⟨56, _⟩ => ⟨S6000x64, .f32⟩
  | .local _ .vmem, ⟨57, _⟩ => ⟨S6000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S64x4, .f32⟩
  | .local _ .vmem, ⟨63, _⟩ => ⟨S4x64, .f32⟩
  | .local _ .vmem, ⟨64, _⟩ => ⟨S2000x4, .f32⟩
  | .local _ .vmem, ⟨65, _⟩ => ⟨S2000x4, .f32⟩
  | .local _ .vmem, ⟨66, _⟩ => ⟨S6000x64, .f32⟩
  | .local _ .vmem, ⟨67, _⟩ => ⟨S6000x64, .f32⟩
  | .local _ .vmem, ⟨68, _⟩ => ⟨S6000x64, .f32⟩
  | .local _ .vmem, ⟨69, _⟩ => ⟨S6000x64, .f32⟩
  | .local _ .vmem, ⟨70, _⟩ => ⟨S6000x64, .f32⟩
  | .local _ .vmem, ⟨71, _⟩ => ⟨S6000x64, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v19 : Ref sig .tc := ⟨.hbm, 72, rfl⟩
abbrev main_v20 : Ref sig .tc := ⟨.hbm, 73, rfl⟩
abbrev main_cst_4 : Ref sig .tc := ⟨.hbm, 74, rfl⟩
abbrev main_v21 : Ref sig .tc := ⟨.hbm, 75, rfl⟩
abbrev main_c_5 : Ref sig .tc := ⟨.hbm, 76, rfl⟩
abbrev main_v22 : Ref sig .tc := ⟨.hbm, 77, rfl⟩
abbrev main_v23 : Ref sig .tc := ⟨.hbm, 78, rfl⟩
abbrev main_c_6 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v30 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_call4_cst : Ref sig .tc := ⟨.hbm, 129, rfl⟩
abbrev main_call4_v15 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_cst_7 : Ref sig .tc := ⟨.hbm, 135, rfl⟩
abbrev main_v35 : Ref sig .tc := ⟨.hbm, 136, rfl⟩
abbrev main_c_8 : Ref sig .tc := ⟨.hbm, 137, rfl⟩
abbrev main_v36 : Ref sig .tc := ⟨.hbm, 138, rfl⟩
abbrev main_v37 : Ref sig .tc := ⟨.hbm, 139, rfl⟩
abbrev main_c_9 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_cst_10 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_call5_c : Ref sig .tc := ⟨.hbm, 151, rfl⟩
abbrev main_call5_v0 : Ref sig .tc := ⟨.hbm, 152, rfl⟩
abbrev main_call5_v1 : Ref sig .tc := ⟨.hbm, 153, rfl⟩
abbrev main_call5_c_0 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_c_1 : Ref sig .tc := ⟨.hbm, 159, rfl⟩
abbrev main_call5_c_2 : Ref sig .tc := ⟨.hbm, 160, rfl⟩
abbrev main_call5_v6 : Ref sig .tc := ⟨.hbm, 161, rfl⟩
abbrev main_call5_v7 : Ref sig .tc := ⟨.hbm, 162, rfl⟩
abbrev main_call5_v8 : Ref sig .tc := ⟨.hbm, 163, rfl⟩
abbrev main_call5_v9 : Ref sig .tc := ⟨.hbm, 164, rfl⟩
abbrev main_call5_v10 : Ref sig .tc := ⟨.hbm, 165, rfl⟩
abbrev main_call5_v11 : Ref sig .tc := ⟨.hbm, 166, rfl⟩
abbrev main_call5_c_3 : Ref sig .tc := ⟨.hbm, 167, rfl⟩
abbrev main_call5_v12 : Ref sig .tc := ⟨.hbm, 168, rfl⟩
abbrev main_call5_v13 : Ref sig .tc := ⟨.hbm, 169, rfl⟩
abbrev main_call5_v14 : Ref sig .tc := ⟨.hbm, 170, rfl⟩
abbrev main_call5_cst : Ref sig .tc := ⟨.hbm, 171, rfl⟩
abbrev main_call5_v15 : Ref sig .tc := ⟨.hbm, 172, rfl⟩
abbrev main_v47 : Ref sig .tc := ⟨.hbm, 173, rfl⟩
abbrev main_v48 : Ref sig .tc := ⟨.hbm, 174, rfl⟩
abbrev main_cst_11 : Ref sig .tc := ⟨.hbm, 175, rfl⟩
abbrev main_v49 : Ref sig .tc := ⟨.hbm, 176, rfl⟩
abbrev main_c_12 : Ref sig .tc := ⟨.hbm, 177, rfl⟩
abbrev main_v50 : Ref sig .tc := ⟨.hbm, 178, rfl⟩
abbrev main_v51 : Ref sig .tc := ⟨.hbm, 179, rfl⟩
abbrev main_c_13 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v58 : Ref sig .tc := ⟨.hbm, 209, rfl⟩
abbrev main_call7_c : Ref sig .tc := ⟨.hbm, 210, rfl⟩
abbrev main_call7_v0 : Ref sig .tc := ⟨.hbm, 211, rfl⟩
abbrev main_call7_v1 : Ref sig .tc := ⟨.hbm, 212, rfl⟩
abbrev main_call7_c_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_c_1 : Ref sig .tc := ⟨.hbm, 218, rfl⟩
abbrev main_call7_c_2 : Ref sig .tc := ⟨.hbm, 219, rfl⟩
abbrev main_call7_v6 : Ref sig .tc := ⟨.hbm, 220, rfl⟩
abbrev main_call7_v7 : Ref sig .tc := ⟨.hbm, 221, rfl⟩
abbrev main_call7_v8 : Ref sig .tc := ⟨.hbm, 222, rfl⟩
abbrev main_call7_v9 : Ref sig .tc := ⟨.hbm, 223, rfl⟩
abbrev main_call7_v10 : Ref sig .tc := ⟨.hbm, 224, rfl⟩
abbrev main_call7_v11 : Ref sig .tc := ⟨.hbm, 225, rfl⟩
abbrev main_call7_c_3 : Ref sig .tc := ⟨.hbm, 226, rfl⟩
abbrev main_call7_v12 : Ref sig .tc := ⟨.hbm, 227, rfl⟩
abbrev main_call7_v13 : Ref sig .tc := ⟨.hbm, 228, rfl⟩
abbrev main_call7_v14 : Ref sig .tc := ⟨.hbm, 229, rfl⟩
abbrev main_call7_cst : Ref sig .tc := ⟨.hbm, 230, rfl⟩
abbrev main_call7_v15 : Ref sig .tc := ⟨.hbm, 231, rfl⟩
abbrev main_v59 : Ref sig .tc := ⟨.hbm, 232, rfl⟩
abbrev main_v60 : Ref sig .tc := ⟨.hbm, 233, rfl⟩
abbrev main_v61 : Ref sig .tc := ⟨.hbm, 234, rfl⟩
abbrev main_v62 : Ref sig .tc := ⟨.hbm, 235, rfl⟩
abbrev main_v63 : Ref sig .tc := ⟨.hbm, 236, rfl⟩
abbrev main_v64 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg4_0 : Ref sig .tc := ⟨.vmem, 64, rfl⟩
abbrev cc9_stg4_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem3_0 : DmaSem sig := 63
abbrev cc9_sem4_0 : DmaSem sig := 64
abbrev cc9_sem4_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem2_1 : DmaSem sig := 71

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S6000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x4 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x4 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S4x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S6000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x4 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S4x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6000x4 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S4x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S6000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![400], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x4 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S4x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x4 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S6000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  concatenates_S30000x64_S30000x64_S60000x64_d0 : Shape.Concatenates [S30000x64, S30000x64] S60000x64 0
  bcast_S_S64 : S_.BroadcastsInDim S64 (![] : Fin 0 → Fin S64.rank)
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  transposes_S64x4_S4x64_1_0 : S64x4.Transposes [1, 0] S4x64
  bcast_S_S800000x4 : S_.BroadcastsInDim S800000x4 (![] : Fin 0 → Fin S800000x4.rank)
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  reduces_S8000x4_S8000 : S8000x4.Reduces [1] S8000
  shapeCasts_S8000_S8000x1 : S8000.ShapeCasts S8000x1
  broadcasts_S8000x1_S8000x4 : S8000x1.Broadcasts S8000x4
  bcast_S_S60000x4 : S_.BroadcastsInDim S60000x4 (![] : Fin 0 → Fin S60000x4.rank)
  bcast_S_S800000 : S_.BroadcastsInDim S800000 (![] : Fin 0 → Fin S800000.rank)
  bcast_S800000_S800000x1_0 : S800000.BroadcastsInDim S800000x1 (![0] : Fin 1 → Fin S800000x1.rank)
  inb_S6000x4_S6000x4_0_0 : ∀ a, (![0, 0] : Fin 2 → Nat) a + S6000x4.size a ≤ S6000x4.size a
  h_S6000x4 : 0 < S6000x4.numel
  shapeCasts_S6000x4_S6000x4 : S6000x4.ShapeCasts S6000x4
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S60000x64 : S_.BroadcastsInDim S60000x64 (![] : Fin 0 → Fin S60000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S2000x4_S2000x4_0_0 : ∀ a, (![0, 0] : Fin 2 → Nat) a + S2000x4.size a ≤ S2000x4.size a
  h_S2000x4 : 0 < S2000x4.numel
  slices_S60000x64_S30000x64_0_0 : S60000x64.Slices ![0, 0] S30000x64
  slices_S60000x64_S30000x64_30000_0 : S60000x64.Slices ![30000, 0] S30000x64
  scatter_S60000x4_S800000x1_S800000x4_1_0_0_1_wf : ScatterDims.WF S60000x4 S800000x1 S800000x4 [1] [0] [0] 1
  dot_S6000x4_S4x64_S6000x64_1_0_0_1_n_n_wf : DotDims.WF S6000x4 S4x64 S6000x64 [1] [0] [0] [1] [] []
  gather_S60000x64_S800000x1_S800000x64_1_0_n_n_0_1_164_wf : GatherDims.WF S60000x64 S800000x1 S800000x64 [1] [0] [] [0] [] 1 ![1, 64]
  dot_S8000x4_S4x64_S8000x64_1_0_0_1_n_n_wf : DotDims.WF S8000x4 S4x64 S8000x64 [1] [0] [0] [1] [] []
  scatter_S60000x64_S800000x1_S800000x64_1_0_0_1_wf : ScatterDims.WF S60000x64 S800000x1 S800000x64 [1] [0] [0] 1
  dot_S2000x64_S64x4_S2000x4_1_0_0_1_n_n_wf : DotDims.WF S2000x64 S64x4 S2000x4 [1] [0] [0] [1] [] []
  dot_S2000x4_S4x64_S2000x64_1_0_0_1_n_n_wf : DotDims.WF S2000x4 S4x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S800000x4.size a
  hwx0_0 : ∀ i : grid0.Coords, EltTy.bits .f32 = 32 ∨ (Rect.block (s := S800000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S800000x4.size a
  hwx0_1 : ∀ i : grid0.Coords, EltTy.bits .f32 = 32 ∨ (Rect.block (s := S800000x4) S8000x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x4.size a ≤ S60000x4.size a
  hwx1_0 : ∀ i : grid1.Coords, EltTy.bits .f32 = 32 ∨ (Rect.block (s := S60000x4) S6000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S60000x64.size a
  hwx1_1 : ∀ i : grid1.Coords, EltTy.bits .f32 = 32 ∨ (Rect.block (s := S60000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x64.size a ≤ S60000x64.size a
  hwx1_3 : ∀ i : grid1.Coords, EltTy.bits .f32 = 32 ∨ (Rect.block (s := S60000x64) S6000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S800000x4.size a
  hwx2_0 : ∀ i : grid2.Coords, EltTy.bits .f32 = 32 ∨ (Rect.block (s := S800000x4) S8000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S800000x64.size a
  hwx2_3 : ∀ i : grid2.Coords, EltTy.bits .f32 = 32 ∨ (Rect.block (s := S800000x64) S8000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x4.size a ≤ S60000x4.size a
  hwx3_0 : ∀ i : grid3.Coords, EltTy.bits .f32 = 32 ∨ (Rect.block (s := S60000x4) S6000x4.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S60000x64.size a
  hwx3_1 : ∀ i : grid3.Coords, EltTy.bits .f32 = 32 ∨ (Rect.block (s := S60000x64) S6000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x64.size a ≤ S4x64.size a
  hwx3_2 : ∀ i : grid3.Coords, EltTy.bits .f32 = 32 ∨ (Rect.block (s := S4x64) S4x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6000x64.size a ≤ S60000x64.size a
  hwx3_3 : ∀ i : grid3.Coords, EltTy.bits .f32 = 32 ∨ (Rect.block (s := S60000x64) S6000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S800000x64.size a
  hwx4_0 : ∀ i : grid4.Coords, EltTy.bits .f32 = 32 ∨ (Rect.block (s := S800000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S800000x64.size a
  hwx4_1 : ∀ i : grid4.Coords, EltTy.bits .f32 = 32 ∨ (Rect.block (s := S800000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x4.size a ≤ S64x4.size a
  hwx4_2 : ∀ i : grid4.Coords, EltTy.bits .f32 = 32 ∨ (Rect.block (s := S64x4) S64x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4x64.size a ≤ S4x64.size a
  hwx4_3 : ∀ i : grid4.Coords, EltTy.bits .f32 = 32 ∨ (Rect.block (s := S4x64) S4x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x4.size a ≤ S800000x4.size a
  hwx4_4 : ∀ i : grid4.Coords, EltTy.bits .f32 = 32 ∨ (Rect.block (s := S800000x4) S2000x4.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x4.size a ≤ S800000x4.size a
  hwx5_0 : ∀ i : grid5.Coords, EltTy.bits .f32 = 32 ∨ (Rect.block (s := S800000x4) S8000x4.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x4.size a ≤ S800000x4.size a
  hwx5_1 : ∀ i : grid5.Coords, EltTy.bits .f32 = 32 ∨ (Rect.block (s := S800000x4) S8000x4.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x4.size a ≤ S60000x4.size a
  hwx6_0 : ∀ i : grid6.Coords, EltTy.bits .f32 = 32 ∨ (Rect.block (s := S60000x4) S6000x4.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S60000x64.size a
  hwx6_1 : ∀ i : grid6.Coords, EltTy.bits .f32 = 32 ∨ (Rect.block (s := S60000x64) S6000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S4x64.size a ≤ S4x64.size a
  hwx6_2 : ∀ i : grid6.Coords, EltTy.bits .f32 = 32 ∨ (Rect.block (s := S4x64) S4x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6000x64.size a ≤ S60000x64.size a
  hwx6_3 : ∀ i : grid6.Coords, EltTy.bits .f32 = 32 ∨ (Rect.block (s := S60000x64) S6000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x4.size a ≤ S800000x4.size a
  hwx7_0 : ∀ i : grid7.Coords, EltTy.bits .f32 = 32 ∨ (Rect.block (s := S800000x4) S8000x4.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S800000x64.size a
  hwx7_1 : ∀ i : grid7.Coords, EltTy.bits .f32 = 32 ∨ (Rect.block (s := S800000x64) S8000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S4x64.size a ≤ S4x64.size a
  hwx7_2 : ∀ i : grid7.Coords, EltTy.bits .f32 = 32 ∨ (Rect.block (s := S4x64) S4x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x64.size a ≤ S800000x64.size a
  hwx7_3 : ∀ i : grid7.Coords, EltTy.bits .f32 = 32 ∨ (Rect.block (s := S800000x64) S8000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6000x4.size a ≤ S60000x4.size a
  hwx8_0 : ∀ i : grid8.Coords, EltTy.bits .f32 = 32 ∨ (Rect.block (s := S60000x4) S6000x4.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S6000x64.size a ≤ S60000x64.size a
  hwx8_1 : ∀ i : grid8.Coords, EltTy.bits .f32 = 32 ∨ (Rect.block (s := S60000x64) S6000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S4x64.size a ≤ S4x64.size a
  hwx8_2 : ∀ i : grid8.Coords, EltTy.bits .f32 = 32 ∨ (Rect.block (s := S4x64) S4x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S6000x64.size a ≤ S60000x64.size a
  hwx8_3 : ∀ i : grid8.Coords, EltTy.bits .f32 = 32 ∨ (Rect.block (s := S60000x64) S6000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S800000x64.size a
  hwx9_0 : ∀ i : grid9.Coords, EltTy.bits .f32 = 32 ∨ (Rect.block (s := S800000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S800000x64.size a
  hwx9_1 : ∀ i : grid9.Coords, EltTy.bits .f32 = 32 ∨ (Rect.block (s := S800000x64) S2000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x4.size a ≤ S64x4.size a
  hwx9_2 : ∀ i : grid9.Coords, EltTy.bits .f32 = 32 ∨ (Rect.block (s := S64x4) S64x4.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S4x64.size a ≤ S4x64.size a
  hwx9_3 : ∀ i : grid9.Coords, EltTy.bits .f32 = 32 ∨ (Rect.block (s := S4x64) S4x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x4.size a ≤ S800000x4.size a
  hwx9_4 : ∀ i : grid9.Coords, EltTy.bits .f32 = 32 ∨ (Rect.block (s := S800000x4) S2000x4.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6000x64.size a ≤ S60000x64.size a
  hwx10_0 : ∀ i : grid10.Coords, EltTy.bits .f32 = 32 ∨ (Rect.block (s := S60000x64) S6000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6000x64.size a ≤ S60000x64.size a
  hwx10_1 : ∀ i : grid10.Coords, EltTy.bits .f32 = 32 ∨ (Rect.block (s := S60000x64) S6000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S6000x64.size a ≤ S60000x64.size a
  hwx10_2 : ∀ i : grid10.Coords, EltTy.bits .f32 = 32 ∨ (Rect.block (s := S60000x64) S6000x64.size (cc10_transform_2 i) (hinb10_2 i)).WholeWords (EltTy.packing .f32)

variable [Facts₀]

def scatter_S60000x4_S800000x1_S800000x4_1_0_0_1 : ScatterDims S60000x4 S800000x1 S800000x4 where
  updateWindowDims := [1]
  insertedWindowDims := [0]
  scatterDimsToOperandDims := [0]
  indexVectorDim := 1
  wf := scatter_S60000x4_S800000x1_S800000x4_1_0_0_1_wf
def dot_S6000x4_S4x64_S6000x64_1_0_0_1_n_n : DotDims S6000x4 S4x64 S6000x64 where
  lhsContracting := [1]
  rhsContracting := [0]
  lhsNonContracting := [0]
  rhsNonContracting := [1]
  lhsBatch := []
  rhsBatch := []
  wf := dot_S6000x4_S4x64_S6000x64_1_0_0_1_n_n_wf
def gather_S60000x64_S800000x1_S800000x64_1_0_n_n_0_1_164 : GatherDims S60000x64 S800000x1 S800000x64 where
  offsetDims := [1]
  collapsedSliceDims := [0]
  operandBatchingDims := []
  startIndicesBatchingDims := []
  startIndexMap := [0]
  indexVectorDim := 1
  sliceSizes := ![1, 64]
  wf := gather_S60000x64_S800000x1_S800000x64_1_0_n_n_0_1_164_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S60000x64_S800000x1_S800000x64_1_0_0_1 : ScatterDims S60000x64 S800000x1 S800000x64 where
  updateWindowDims := [1]
  insertedWindowDims := [0]
  scatterDimsToOperandDims := [0]
  indexVectorDim := 1
  wf := scatter_S60000x64_S800000x1_S800000x64_1_0_0_1_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf

abbrev win0_0 : Pipeline.Window sig grid0 :=
  Pipeline.Window.ofSpec (Memref.whole main_v5) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v17) S6000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S6000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v17) S6000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S4x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S6000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S64x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S4x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S2000x4.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v33) S8000x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S8000x4.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v45) S6000x4.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v0) S6000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v4) S4x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v46) S6000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v34) S8000x4.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v47) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S4x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v48) S8000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v45) S6000x4.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v56) S6000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v4) S4x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v57) S6000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v58) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v59) S2000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v3) S64x4.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v4) S4x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v60) S2000x4.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v0) S6000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v57) S6000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v62) S6000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S30000x64 : Shape := ⟨2, ![30000, 64]⟩
abbrev S800000 : Shape := ⟨1, ![800000]⟩
abbrev S60000x64 : Shape := ⟨2, ![60000, 64]⟩
abbrev S_ : Shape := ⟨0, ![]⟩
abbrev S4x800000 : Shape := ⟨2, ![4, 800000]⟩
abbrev S60000x4x16 : Shape := ⟨3, ![60000, 4, 16]⟩
abbrev S4x60000x16 : Shape := ⟨3, ![4, 60000, 16]⟩
abbrev S1x800000 : Shape := ⟨2, ![1, 800000]⟩
abbrev S4x60000 : Shape := ⟨2, ![4, 60000]⟩
abbrev S800000x1 : Shape := ⟨2, ![800000, 1]⟩
abbrev S4x60000x1 : Shape := ⟨3, ![4, 60000, 1]⟩
abbrev S4x800000x1 : Shape := ⟨3, ![4, 800000, 1]⟩
abbrev S4x800000x16 : Shape := ⟨3, ![4, 800000, 16]⟩
abbrev S60000x1x64 : Shape := ⟨3, ![60000, 1, 64]⟩
abbrev S60000x2x64 : Shape := ⟨3, ![60000, 2, 64]⟩

abbrev nBuf : Space → Nat
  | .hbm => 223
  | .vmem => 0
  | .smem => 0
  | _ => 0

abbrev hbmTy0_0 (i : Nat) : BufTy := match i % 128 with
  | 0 => ⟨S30000x64, .f32⟩
  | 1 => ⟨S30000x64, .f32⟩
  | 2 => ⟨S800000, .i32⟩
  | 3 => ⟨S800000, .i32⟩
  | 4 => ⟨S60000x64, .f32⟩
  | 5 => ⟨S_, .f32⟩
  | 6 => ⟨S4x800000, .f32⟩
  | 7 => ⟨S60000x4x16, .f32⟩
  | 8 => ⟨S4x60000x16, .f32⟩
  | 9 => ⟨S_, .f32⟩
  | 10 => ⟨S800000, .f32⟩
  | 11 => ⟨S_, .f32⟩
  | 12 => ⟨S800000, .f32⟩
  | 13 => ⟨S800000, .f32⟩
  | 14 => ⟨S1x800000, .f32⟩
  | 15 => ⟨S4x800000, .f32⟩
  | 16 => ⟨S4x800000, .f32⟩
  | 17 => ⟨S4x800000, .f32⟩
  | 18 => ⟨S_, .f32⟩
  | 19 => ⟨S800000, .f32⟩
  | 20 => ⟨S1x800000, .f32⟩
  | 21 => ⟨S4x800000, .f32⟩
  | 22 => ⟨S4x800000, .f32⟩
  | 23 => ⟨S_, .f32⟩
  | 24 => ⟨S4x60000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S4x60000, .f32⟩
  | 34 => ⟨S4x60000, .f32⟩
  | 35 => ⟨S_, .f32⟩
  | 36 => ⟨S4x60000, .f32⟩
  | 37 => ⟨S4x60000, .f32⟩
  | 38 => ⟨S4x60000x1, .f32⟩
  | 39 => ⟨S4x60000x16, .f32⟩
  | 40 => ⟨S4x60000x16, .f32⟩
  | 41 => ⟨S4x800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S4x800000x16, .f32⟩
  | 51 => ⟨S4x800000x16, .f32⟩
  | 52 => ⟨S4x800000x16, .f32⟩
  | 53 => ⟨S_, .f32⟩
  | 54 => ⟨S4x60000x16, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S4x60000x16, .f32⟩
  | 64 => ⟨S4x60000x1, .f32⟩
  | 65 => ⟨S4x60000x16, .f32⟩
  | 66 => ⟨S4x60000x16, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S4x800000x16, .f32⟩
  | 76 => ⟨S4x800000x16, .f32⟩
  | 77 => ⟨S_, .f32⟩
  | 78 => ⟨S4x800000, .f32⟩
  | 79 => ⟨S4x800000x1, .f32⟩
  | 80 => ⟨S_, .f32⟩
  | 81 => ⟨S4x800000x1, .f32⟩
  | 82 => ⟨S4x800000x1, .f32⟩
  | 83 => ⟨S4x800000x1, .f32⟩
  | 84 => ⟨S4x800000x16, .f32⟩
  | 85 => ⟨S4x800000x16, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S4x800000x16, .f32⟩
  | 95 => ⟨S4x800000x16, .f32⟩
  | 96 => ⟨S_, .f32⟩
  | 97 => ⟨S4x800000, .f32⟩
  | 98 => ⟨S4x800000x1, .f32⟩
  | 99 => ⟨S_, .f32⟩
  | 100 => ⟨S4x800000x1, .f32⟩
  | 101 => ⟨S4x800000x1, .f32⟩
  | 102 => ⟨S4x800000x1, .f32⟩
  | 103 => ⟨S4x800000x16, .f32⟩
  | 104 => ⟨S4x800000x16, .f32⟩
  | 105 => ⟨S4x800000x16, .f32⟩
  | 106 => ⟨S4x800000x16, .f32⟩
  | 107 => ⟨S_, .f32⟩
  | 108 => ⟨S4x800000, .f32⟩
  | 109 => ⟨S4x800000, .f32⟩
  | 110 => ⟨S_, .f32⟩
  | 111 => ⟨S800000, .f32⟩
  | 112 => ⟨S_, .f32⟩
  | 113 => ⟨S800000, .f32⟩
  | 114 => ⟨S800000, .f32⟩
  | 115 => ⟨S1x800000, .f32⟩
  | 116 => ⟨S4x800000, .f32⟩
  | 117 => ⟨S4x800000, .f32⟩
  | 118 => ⟨S4x800000, .f32⟩
  | 119 => ⟨S_, .f32⟩
  | 120 => ⟨S800000, .f32⟩
  | 121 => ⟨S1x800000, .f32⟩
  | 122 => ⟨S4x800000, .f32⟩
  | 123 => ⟨S4x800000, .f32⟩
  | 124 => ⟨S_, .f32⟩
  | 125 => ⟨S4x60000, .f32⟩
  | 126 => ⟨S_, .i32⟩
  | 127 => ⟨S800000, .i32⟩
  | _ => ⟨S30000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S4x60000, .f32⟩
  | 7 => ⟨S4x60000, .f32⟩
  | 8 => ⟨S_, .f32⟩
  | 9 => ⟨S4x60000, .f32⟩
  | 10 => ⟨S4x60000, .f32⟩
  | 11 => ⟨S4x60000x1, .f32⟩
  | 12 => ⟨S4x60000x16, .f32⟩
  | 13 => ⟨S4x60000x16, .f32⟩
  | 14 => ⟨S4x800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S4x800000x16, .f32⟩
  | 24 => ⟨S4x800000x16, .f32⟩
  | 25 => ⟨S4x800000x16, .f32⟩
  | 26 => ⟨S_, .f32⟩
  | 27 => ⟨S4x60000x16, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S4x60000x16, .f32⟩
  | 37 => ⟨S4x60000x1, .f32⟩
  | 38 => ⟨S4x60000x16, .f32⟩
  | 39 => ⟨S4x60000x16, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S4x800000x16, .f32⟩
  | 49 => ⟨S4x800000x16, .f32⟩
  | 50 => ⟨S_, .f32⟩
  | 51 => ⟨S4x800000, .f32⟩
  | 52 => ⟨S4x800000x1, .f32⟩
  | 53 => ⟨S_, .f32⟩
  | 54 => ⟨S4x800000x1, .f32⟩
  | 55 => ⟨S4x800000x1, .f32⟩
  | 56 => ⟨S4x800000x1, .f32⟩
  | 57 => ⟨S4x800000x16, .f32⟩
  | 58 => ⟨S4x800000x16, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S4x800000x16, .f32⟩
  | 68 => ⟨S4x800000x16, .f32⟩
  | 69 => ⟨S_, .f32⟩
  | 70 => ⟨S4x800000, .f32⟩
  | 71 => ⟨S4x800000x1, .f32⟩
  | 72 => ⟨S_, .f32⟩
  | 73 => ⟨S4x800000x1, .f32⟩
  | 74 => ⟨S4x800000x1, .f32⟩
  | 75 => ⟨S4x800000x1, .f32⟩
  | 76 => ⟨S4x800000x16, .f32⟩
  | 77 => ⟨S4x800000x16, .f32⟩
  | 78 => ⟨S4x800000x16, .f32⟩
  | 79 => ⟨S4x800000x16, .f32⟩
  | 80 => ⟨S_, .f32⟩
  | 81 => ⟨S4x800000, .f32⟩
  | 82 => ⟨S4x800000, .f32⟩
  | 83 => ⟨S60000x4x16, .f32⟩
  | 84 => ⟨S60000x64, .f32⟩
  | 85 => ⟨S60000x1x64, .f32⟩
  | 86 => ⟨S60000x1x64, .f32⟩
  | 87 => ⟨S60000x2x64, .f32⟩
  | 88 => ⟨S_, .f32⟩
  | 89 => ⟨S60000x64, .f32⟩
  | 90 => ⟨S_, .f32⟩
  | 91 => ⟨S60000x64, .f32⟩
  | 92 => ⟨S60000x64, .f32⟩
  | 93 => ⟨S30000x64, .f32⟩
  | 94 => ⟨S30000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_15 : Ref sig .tc := ⟨.hbm, 86, rfl⟩
abbrev main_v65 : Ref sig .tc := ⟨.hbm, 87, rfl⟩
abbrev main_v66 : Ref sig .tc := ⟨.hbm, 88, rfl⟩
abbrev main_c_16 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩
abbrev main_cst_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_cst_20 : Ref sig .tc := ⟨.hbm, 110, rfl⟩
abbrev main_v84 : Ref sig .tc := ⟨.hbm, 111, rfl⟩
abbrev main_cst_21 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_22 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_23 : Ref sig .tc := ⟨.hbm, 124, rfl⟩
abbrev main_v95 : Ref sig .tc := ⟨.hbm, 125, rfl⟩
abbrev main_c_24 : Ref sig .tc := ⟨.hbm, 126, rfl⟩
abbrev main_v96 : Ref sig .tc := ⟨.hbm, 127, rfl⟩
abbrev main_v97 : Ref sig .tc := ⟨.hbm, 128, rfl⟩
abbrev main_c_25 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_26 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_27 : Ref sig .tc := ⟨.hbm, 143, rfl⟩
abbrev main_v110 : Ref sig .tc := ⟨.hbm, 144, rfl⟩
abbrev main_v111 : Ref sig .tc := ⟨.hbm, 145, rfl⟩
abbrev main_c_28 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_29 : Ref sig .tc := ⟨.hbm, 154, rfl⟩
abbrev main_v119 : Ref sig .tc := ⟨.hbm, 155, rfl⟩
abbrev main_c_30 : Ref sig .tc := ⟨.hbm, 156, rfl⟩
abbrev main_v120 : Ref sig .tc := ⟨.hbm, 157, rfl⟩
abbrev main_v121 : Ref sig .tc := ⟨.hbm, 158, rfl⟩
abbrev main_c_31 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_32 : Ref sig .tc := ⟨.hbm, 168, rfl⟩
abbrev main_v130 : Ref sig .tc := ⟨.hbm, 169, rfl⟩
abbrev main_v131 : Ref sig .tc := ⟨.hbm, 170, rfl⟩
abbrev main_c_33 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_34 : Ref sig .tc := ⟨.hbm, 178, rfl⟩
abbrev main_v138 : Ref sig .tc := ⟨.hbm, 179, rfl⟩
abbrev main_v139 : Ref sig .tc := ⟨.hbm, 180, rfl⟩
abbrev main_cst_35 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_c_36 : Ref sig .tc := ⟨.hbm, 187, rfl⟩
abbrev main_v145 : Ref sig .tc := ⟨.hbm, 188, rfl⟩
abbrev main_v146 : Ref sig .tc := ⟨.hbm, 189, rfl⟩
abbrev main_c_37 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_38 : Ref sig .tc := ⟨.hbm, 197, rfl⟩
abbrev main_v153 : Ref sig .tc := ⟨.hbm, 198, rfl⟩
abbrev main_v154 : Ref sig .tc := ⟨.hbm, 199, rfl⟩
abbrev main_cst_39 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_40 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_41 : Ref sig .tc := ⟨.hbm, 216, rfl⟩
abbrev main_v169 : Ref sig .tc := ⟨.hbm, 217, rfl⟩
abbrev main_cst_42 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩

abbrev nD : Nat := 1
abbrev τ : Topo := Topo.v7x

variable {F : FTy → Type} [FloatOps F]

class Facts₀ : Prop where
  concatenates_S30000x64_S30000x64_S60000x64_d0 : Shape.Concatenates [S30000x64, S30000x64] S60000x64 0
  bcast_S_S4x800000 : S_.BroadcastsInDim S4x800000 (![] : Fin 0 → Fin S4x800000.rank)
  shapeCasts_S60000x64_S60000x4x16 : S60000x64.ShapeCasts S60000x4x16
  transposes_S60000x4x16_S4x60000x16_1_0_2 : S60000x4x16.Transposes [1, 0, 2] S4x60000x16
  reducesTo_S4x800000_S800000_d0 : S4x800000.ReducesTo [0] S800000
  h_S_ : 0 < S_.numel
  bcast_S_S800000 : S_.BroadcastsInDim S800000 (![] : Fin 0 → Fin S800000.rank)
  bcast_S800000_S1x800000_1 : S800000.BroadcastsInDim S1x800000 (![1] : Fin 1 → Fin S1x800000.rank)
  bcast_S1x800000_S4x800000_0_1 : S1x800000.BroadcastsInDim S4x800000 (![0, 1] : Fin 2 → Fin S4x800000.rank)
  bcast_S_S4x60000 : S_.BroadcastsInDim S4x60000 (![] : Fin 0 → Fin S4x60000.rank)
  bcast_S800000_S800000x1_0 : S800000.BroadcastsInDim S800000x1 (![0] : Fin 1 → Fin S800000x1.rank)
  bcast_S4x60000_S4x60000x1_0_1 : S4x60000.BroadcastsInDim S4x60000x1 (![0, 1] : Fin 2 → Fin S4x60000x1.rank)
  bcast_S4x60000x1_S4x60000x16_0_1_2 : S4x60000x1.BroadcastsInDim S4x60000x16 (![0, 1, 2] : Fin 3 → Fin S4x60000x16.rank)
  bcast_S4x800000_S4x800000x1_0_1 : S4x800000.BroadcastsInDim S4x800000x1 (![0, 1] : Fin 2 → Fin S4x800000x1.rank)
  bcast_S4x800000x1_S4x800000x16_0_1_2 : S4x800000x1.BroadcastsInDim S4x800000x16 (![0, 1, 2] : Fin 3 → Fin S4x800000x16.rank)
  bcast_S_S4x60000x16 : S_.BroadcastsInDim S4x60000x16 (![] : Fin 0 → Fin S4x60000x16.rank)
  reducesTo_S4x800000x16_S4x800000_d2 : S4x800000x16.ReducesTo [2] S4x800000
  bcast_S_S4x800000x1 : S_.BroadcastsInDim S4x800000x1 (![] : Fin 0 → Fin S4x800000x1.rank)
  transposes_S4x60000x16_S60000x4x16_1_0_2 : S4x60000x16.Transposes [1, 0, 2] S60000x4x16
  shapeCasts_S60000x4x16_S60000x64 : S60000x4x16.ShapeCasts S60000x64
  bcast_S60000x64_S60000x1x64_0_2 : S60000x64.BroadcastsInDim S60000x1x64 (![0, 2] : Fin 2 → Fin S60000x1x64.rank)
  concatenates_S60000x1x64_S60000x1x64_S60000x2x64_d1 : Shape.Concatenates [S60000x1x64, S60000x1x64] S60000x2x64 1
  reducesTo_S60000x2x64_S60000x64_d1 : S60000x2x64.ReducesTo [1] S60000x64
  bcast_S_S60000x64 : S_.BroadcastsInDim S60000x64 (![] : Fin 0 → Fin S60000x64.rank)
  slices_S60000x64_S30000x64_0_0 : S60000x64.Slices ![0, 0] S30000x64
  slices_S60000x64_S30000x64_30000_0 : S60000x64.Slices ![30000, 0] S30000x64
  scatter_S4x60000_S800000x1_S4x800000_0_1_1_1_wf : ScatterDims.WF S4x60000 S800000x1 S4x800000 [0] [1] [1] 1
  gather_S4x60000x16_S800000x1_S4x800000x16_02_1_n_n_1_1_4116_wf : GatherDims.WF S4x60000x16 S800000x1 S4x800000x16 [0, 2] [1] [] [1] [] 1 ![4, 1, 16]
  scatter_S4x60000x16_S800000x1_S4x800000x16_02_1_1_1_wf : ScatterDims.WF S4x60000x16 S800000x1 S4x800000x16 [0, 2] [1] [1] 1

variable [Facts₀]

def scatter_S4x60000_S800000x1_S4x800000_0_1_1_1 : ScatterDims S4x60000 S800000x1 S4x800000 where
  updateWindowDims := [0]
  insertedWindowDims := [1]
  scatterDimsToOperandDims := [1]
  indexVectorDim := 1
  wf := scatter_S4x60000_S800000x1_S4x800000_0_1_1_1_wf
def gather_S4x60000x16_S800000x1_S4x800000x16_02_1_n_n_1_1_4116 : GatherDims S4x60000x16 S800000x1 S4x800000x16 where
  offsetDims := [0, 2]
  collapsedSliceDims := [1]
  operandBatchingDims := []
  startIndicesBatchingDims := []
  startIndexMap := [1]
  indexVectorDim := 1
  sliceSizes := ![4, 1, 16]
  wf := gather_S4x60000x16_S800000x1_S4x800000x16_02_1_n_n_1_1_4116_wf
def scatter_S4x60000x16_S800000x1_S4x800000x16_02_1_1_1 : ScatterDims S4x60000x16 S800000x1 S4x800000x16 where
  updateWindowDims := [0, 2]
  insertedWindowDims := [1]
  scatterDimsToOperandDims := [1]
  indexVectorDim := 1
  wf := scatter_S4x60000x16_S800000x1_S4x800000x16_02_1_1_1_wf

class Facts : Prop extends Facts₀ where

variable [Facts]
-- ==== Proof.Spec.lean ====
/-
  The mathematics both programs compute, stated once over plain coordinates.

  A graph has 60000 nodes and 800000 edges; an edge `e` has a head `eh e` and a tail `et e`. Every node
  carries 64 channels, cut into 4 groups ("intents") of 16 consecutive channels: channel `k` lies in group
  `k / 16`, and group `i` holds the channels `16 i + d`, `d < 16`. One routing round takes logits `A e i`
  (one per edge and group) and returns new node features `Z` and new logits:

    S e i   = softmax of `A e ·` over the four groups,
    deg n i = the sum of `S e i` over the edges whose head is `n`,
    D n i   = 1 / sqrt (deg n i),
    Y n k   = D n (k/16) · x n k,
    M e k   = S e (k/16) · Y (et e) k,
    Zr n k  = the sum of `M e k` over the edges whose head is `n`,
    Z n k   = D n (k/16) · Zr n k,
    A' e i  = A e i + Σ_d  unit (Z (eh e)) (16 i + d) · tanh (unit (x (et e)) (16 i + d)),

  where `unit v k = v k / sqrt (max (Σ_d v (16 (k/16) + d)²) ε)` scales each group of a row to unit length.
  Two rounds are run from logits all equal to one; the result is the mean of the input features and the
  second round's `Z`. All arithmetic is that of the extended reals.
-/
import Idealize.ShloMosaic.PureOps.Ideal

noncomputable section

namespace Cert.Routing

open Idealize.ShloMosaic

/-- The group of channel `k`. -/
def grp (k : Fin 64) : Fin 4 := ⟨k.val / 16, by omega⟩

/-- Channel `d` of group `i`. -/
def chan (i : Fin 4) (d : Fin 16) : Fin 64 := ⟨16 * i.val + d.val, by omega⟩

theorem grp_chan (i : Fin 4) (d : Fin 16) : grp (chan i d) = i := by
  apply Fin.ext; simp only [grp, chan]; omega

/-- The three float constants the programs share, as the extended reals their words denote. -/
def one32 : EReal := Ideal.ofBits .f32 0x3F800000#32
def eps32 : EReal := Ideal.ofBits .f32 0x2B8CBCCC#32
def half32 : EReal := Ideal.ofBits .f32 0x3F000000#32

variable (x : Fin 60000 → Fin 64 → EReal) (eh et : Fin 800000 → Fin 60000)

/-- Softmax of an edge's four logits. -/
def soft (A : Fin 800000 → Fin 4 → EReal) (e : Fin 800000) (i : Fin 4) : EReal :=
  Ideal.div (Ideal.exp (A e i - Finset.univ.sup (A e)))
    (∑ i' : Fin 4, Ideal.exp (A e i' - Finset.univ.sup (A e)))

/-- Per node and group: the summed weight of the edges headed there. -/
def deg (S : Fin 800000 → Fin 4 → EReal) (n : Fin 60000) (i : Fin 4) : EReal :=
  ∑ e ∈ Finset.univ.filter (fun e => eh e = n), S e i

/-- The normaliser `1 / sqrt deg`. -/
def dinv (S : Fin 800000 → Fin 4 → EReal) (n : Fin 60000) (i : Fin 4) : EReal :=
  Ideal.div one32 (Ideal.sqrt (deg eh S n i))

/-- Node features scaled by the normaliser of their group. -/
def scaled (S : Fin 800000 → Fin 4 → EReal) (n : Fin 60000) (k : Fin 64) : EReal :=
  dinv eh S n (grp k) * x n k

/-- The message along an edge: the tail's scaled features weighted by the edge's group weight. -/
def msg (S : Fin 800000 → Fin 4 → EReal) (e : Fin 800000) (k : Fin 64) : EReal :=
  S e (grp k) * scaled x eh S (et e) k

/-- Messages summed at the heads. -/
def gathered (S : Fin 800000 → Fin 4 → EReal) (n : Fin 60000) (k : Fin 64) : EReal :=
  ∑ e ∈ Finset.univ.filter (fun e => eh e = n), msg x eh et S e k

/-- One round's node features. -/
def feat (S : Fin 800000 → Fin 4 → EReal) (n : Fin 60000) (k : Fin 64) : EReal :=
  dinv eh S n (grp k) * gathered x eh et S n k

/-- A 64-channel row with each of its four groups scaled to unit length (the length floored at `eps32`). -/
def unit (v : Fin 64 → EReal) (k : Fin 64) : EReal :=
  Ideal.div (v k) (Ideal.sqrt (max (∑ d : Fin 16, v (chan (grp k) d) * v (chan (grp k) d)) eps32))

/-- The logit update of one round. -/
def bump (S : Fin 800000 → Fin 4 → EReal) (e : Fin 800000) (i : Fin 4) : EReal :=
  ∑ d : Fin 16, unit (feat x eh et S (eh e)) (chan i d) * Ideal.tanh (unit (x (et e)) (chan i d))

/-- The starting logits. -/
def A1 : Fin 800000 → Fin 4 → EReal := fun _ _ => one32
def S1 : Fin 800000 → Fin 4 → EReal := soft A1
def A2 : Fin 800000 → Fin 4 → EReal := fun e i => A1 e i + bump x eh et S1 e i
def S2 : Fin 800000 → Fin 4 → EReal := soft (A2 x eh et)

/-- The result: the mean of the input features and the second round's features. -/
def result (n : Fin 60000) (k : Fin 64) : EReal :=
  (x n k + feat x eh et (S2 x eh et) n k) * half32

end Cert.Routing

end
-- ==== Proof.Inputs.lean ====
/-
  The programs' four argument arrays read as the graph the mathematics speaks of: the two feature arrays stacked
  into one table of 60000 rows, and each index array read as a function from edges to nodes.
-/
import proofs.«418341_j39728447488527_3_alg».proof.Proof.Spec
import Idealize.ShloMosaic.Lib.ValueIdx

noncomputable section

namespace Cert.Routing

open Idealize.ShloMosaic Idealize.ShloMosaic.ValueIdx

/-- Row `n` of the stacked feature table: rows below 30000 come from the first array, the rest from the second. -/
def feats (a0 a1 : (⟨2, ![30000, 64]⟩ : Shape).Idx → EReal) (n : Fin 60000) (k : Fin 64) : EReal :=
  if h : n.val < 30000 then a0 (ix2 ⟨n.val, h⟩ k) else a1 (ix2 ⟨n.val - 30000, by omega⟩ k)

/-- The node an index array names at edge `e` (reduced into range, so that it is total). -/
def node (v : IVec (⟨1, ![800000]⟩ : Shape) 32) (e : Fin 800000) : Fin 60000 :=
  ⟨(v (ix1 e)).toNat % 60000, Nat.mod_lt _ (by decide)⟩

/-- Every entry of an index array, read signed, names a node. -/
def InRange (v : IVec (⟨1, ![800000]⟩ : Shape) 32) : Prop :=
  ∀ e : Fin 800000, 0 ≤ (v (ix1 e)).toInt ∧ (v (ix1 e)).toInt < 60000

/-- In range, the signed reading of an entry is the node it names. -/
theorem node_toInt {v : IVec (⟨1, ![800000]⟩ : Shape) 32} (hv : InRange v) (e : Fin 800000) :
    (v (ix1 e)).toInt = ((node v e).val : Int) := by
  obtain ⟨h0, h1⟩ := hv e
  have hn : (v (ix1 e)).toInt = ((v (ix1 e)).toNat : Int) := by
    rw [BitVec.toInt_eq_toNat_cond]
    split
    · rfl
    · rename_i hge
      exfalso
      rw [BitVec.toInt_eq_toNat_cond, if_neg hge] at h0
      have := (v (ix1 e)).isLt
      omega
  simp only [node]
  rw [hn] at h1 ⊢
  have : (v (ix1 e)).toNat < 60000 := by exact_mod_cast h1
  rw [Nat.mod_eq_of_lt this]

/-- In range, the unsigned reading agrees too. -/
theorem node_toNat {v : IVec (⟨1, ![800000]⟩ : Shape) 32} (hv : InRange v) (e : Fin 800000) :
    (v (ix1 e)).toNat = (node v e).val := by
  have h := node_toInt hv e
  obtain ⟨h0, h1⟩ := hv e
  have hn : (v (ix1 e)).toInt = ((v (ix1 e)).toNat : Int) := by
    rw [BitVec.toInt_eq_toNat_cond]
    split
    · rfl
    · rename_i hge
      exfalso
      rw [BitVec.toInt_eq_toNat_cond, if_neg hge] at h0
      have := (v (ix1 e)).isLt
      omega
  rw [hn] at h
  exact_mod_cast h

end Cert.Routing

end
-- ==== Proof.PreRange.lean ====
/-
  The precondition's index-range conjuncts, decoded: both index arrays name nodes at every edge.
-/
import proofs.«418341_j39728447488527_3_alg».proof.Defs
import proofs.«418341_j39728447488527_3_alg».proof.Proof.Gen.Pre_finite_inputs
import proofs.«418341_j39728447488527_3_alg».proof.Proof.Inputs
import Idealize.ShloMosaic.Lib.ReduceAll
import Idealize.ShloMosaic.Lib.StableHlo.Predicate

noncomputable section

namespace Cert.KernelIdeal.Val

open Idealize.ShloMosaic Idealize.ShloMosaic.ValueIdx Idealize.SL.Sem Cert.Routing

/-- The rank-0 shape has one index. -/
theorem scalarIdx_subsingleton : Subsingleton (Cert.Pre_finite_inputs.S_).Idx := ⟨fun _ _ => funext fun i => i.elim0⟩

/-- An entry that passes `0 ≤ ·` and `· < 60000`, both read signed, is in range. -/
theorem inRange_of_bits (v : IVec (⟨1, ![800000]⟩ : Shape) 32)
    (h : ∀ i, IntOp.andi (IntOp.cmpi .sge (v i) 0#32) (IntOp.cmpi .slt (v i) 60000#32) = 1#1) : InRange v := by
  intro e
  obtain ⟨h0, h1⟩ := IntOp.andi_eq_one.1 (h (ix1 e))
  rw [IntOp.cmpi_sge] at h0
  rw [IntOp.cmpi_slt] at h1
  have z : (0#32 : BitVec 32).toInt = 0 := by decide
  have s : (60000#32 : BitVec 32).toInt = 60000 := by decide
  rw [z] at h0
  rw [s] at h1
  exact ⟨h0, h1⟩

/-- Under the precondition both index arrays, as launched on any core, name a node at every edge. -/
theorem inRange_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    InRange (m ((c.tc : Thread Cert.KernelIdeal.nD Cert.KernelIdeal.τ).loc Cert.KernelIdeal.main_arg2))
      ∧ InRange (m ((c.tc : Thread Cert.KernelIdeal.nD Cert.KernelIdeal.τ).loc Cert.KernelIdeal.main_arg3)) := by
  haveI := scalarIdx_subsingleton
  have e := congrFun (h c) ix0
  dsimp only [Cert.Pre_finite_inputs.fn, Cert.Pre_finite_inputs.fn_part1] at e
  obtain ⟨e15, e21⟩ := IntOp.andi_eq_one.1 e
  obtain ⟨-, e14⟩ := IntOp.andi_eq_one.1 e15
  constructor
  · apply inRange_of_bits
    intro i
    exact Host.reduce_andi_all _ _ _ _ _ e14 i
  · apply inRange_of_bits
    intro i
    exact Host.reduce_andi_all _ _ _ _ _ e21 i

end Cert.KernelIdeal.Val

end
-- ==== Proof.OneHot.lean ====
/-
  Sums against the 0/1 matrix that says which group a channel lies in.

  `oh k i` is one when channel `k` lies in group `i` and zero otherwise. Contracting a row of four group values
  against it picks the value of the channel's own group; contracting a row of 64 channel values against it sums the
  sixteen channels of the group. Both hold for every extended real: the terms that drop out are products with an
  exact zero, and `x * 0 = 0` also at the infinities.
-/
import proofs.«418341_j39728447488527_3_alg».proof.Proof.Spec
import Mathlib.Algebra.BigOperators.Fin
import Mathlib.Logic.Equiv.Fin.Basic

noncomputable section

namespace Cert.Routing

open Idealize.ShloMosaic

/-- The weight of channel `k` in group `i`: one if `k` lies in `i`, else zero. -/
def oh (k : Fin 64) (i : Fin 4) : EReal := if grp k = i then 1 else 0

/-- Four group values contracted against a channel's column give the value of the channel's group. -/
theorem sum_mul_oh_grp (f : Fin 4 → EReal) (k : Fin 64) : ∑ i : Fin 4, f i * oh k i = f (grp k) := by
  simp only [oh, mul_ite, mul_one, mul_zero, Finset.sum_ite_eq, Finset.mem_univ, if_true]

/-- The pair (group, offset) of a channel, as an equivalence with the channels. -/
def chanEquiv : Fin 4 × Fin 16 ≃ Fin 64 where
  toFun p := chan p.1 p.2
  invFun k := (grp k, ⟨k.val % 16, Nat.mod_lt _ (by decide)⟩)
  left_inv p := by
    obtain ⟨i, d⟩ := p
    apply Prod.ext
    · exact grp_chan i d
    · apply Fin.ext; simp only [chan]; omega
  right_inv k := by
    apply Fin.ext; simp only [chan, grp]; omega

/-- Sixty-four channel values contracted against a group's row give the sum over the group's sixteen channels. -/
theorem sum_mul_oh_chan (g : Fin 64 → EReal) (i : Fin 4) :
    ∑ k : Fin 64, g k * oh k i = ∑ d : Fin 16, g (chan i d) := by
  rw [← chanEquiv.sum_comp, Fintype.sum_prod_type, Finset.sum_eq_single i]
  · refine Finset.sum_congr rfl fun d _ => ?_
    show g (chan i d) * oh (chan i d) i = _
    simp only [oh, grp_chan, if_true, mul_one]
  · intro i' _ hne
    refine Finset.sum_eq_zero fun d _ => ?_
    show g (chan i' d) * oh (chan i' d) i = 0
    simp only [oh, grp_chan, if_neg hne, mul_zero]
  · intro h; exact absurd (Finset.mem_univ i) h

end Cert.Routing

end
-- ==== Proof.RHostOps.lean ====
/-
  The reference program's host operations, each read at one index.

  The reference keeps per-group data in the layouts [4, E], [4, N], [4, N, 16] and [4, E, 16]: entry (i, n, d) of a
  [4, N, 16] array is channel 16 i + d of node n, and entry (i, e) of a [4, E] array belongs to edge e and group i.
  Each lemma below says what ONE printed operation holds at explicit coordinates: a scatter-add is the operand plus the
  sum of the updates over the edges whose index names the node; a gather reads the node the edge's index names; the
  split into groups and its inverse move channel 16 i + d to position (i, ·, d) and back; the softmax over the four
  groups, the sum over the sixteen channels of a group, the mean of two tables and the two halves of a table are read
  likewise. Index entries are assumed to name nodes (0 ≤ v e < 60000), under which the printed wrap of a negative index
  is the identity. All arithmetic is that of the extended reals.
-/
import proofs.«418341_j39728447488527_3_alg».proof.ReferenceIdeal
import proofs.«418341_j39728447488527_3_alg».proof.Proof.Gen.ReferenceIdeal
import proofs.«418341_j39728447488527_3_alg».proof.Proof.OneHot
import proofs.«418341_j39728447488527_3_alg».proof.Proof.Inputs
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.ReferenceIdeal.RefVal

open Idealize.ShloMosaic Idealize.ShloMosaic.ValueIdx Cert.ReferenceIdeal Cert.Routing
open Cert.ReferenceIdeal.Facts₀

variable [Cert.ReferenceIdeal.Facts]

/-- The printed wrap of a possibly negative index: `v + 60000` where `v < 0`, else `v`. -/
abbrev wrapIdx (v : IVec S800000 32) : IVec S800000 32 :=
  select (cmpi .slt v (broadcastInDim S800000 ![] bcast_S_S800000 (constantI S_ 32 0#32)))
    (addi v (broadcastInDim S800000 ![] bcast_S_S800000 (constantI S_ 32 60000#32))) v

/-- The exponentials of a column's four logits less their maximum, as the softmax prints them. -/
abbrev softExp (A : FVec Ideal S4x800000 .f32) : FVec Ideal S4x800000 .f32 :=
  Host.exp (subf A (broadcastInDim S4x800000 ![0, 1] bcast_S1x800000_S4x800000_0_1 (broadcastInDim S1x800000 ![1] bcast_S800000_S1x800000_1 (maximumf (broadcastInDim S800000 ![] bcast_S_S800000 (constant (F := Ideal) S_ .f32 0xFF800000#32)) (Host.reduce FloatOps.maximumf A (constant (F := Ideal) S_ .f32 0xFF800000#32) reducesTo_S4x800000_S800000_d0 h_S_)))))

/-- The softmax over axis 0 of a [4, E] array, as printed. -/
def softCols (A : FVec Ideal S4x800000 .f32) : FVec Ideal S4x800000 .f32 :=
  Host.divf (softExp A) (broadcastInDim S4x800000 ![0, 1] bcast_S1x800000_S4x800000_0_1 (broadcastInDim S1x800000 ![1] bcast_S800000_S1x800000_1 (Host.reduceAdd (softExp A) (constant (F := Ideal) S_ .f32 0x00000000#32) reducesTo_S4x800000_S800000_d0 h_S_)))

theorem zero32 : Ideal.ofBits .f32 0x00000000#32 = 0 := by simp [Ideal.ofBits, Ideal.ieee]

theorem slice_lo_apply (y : FVec Ideal S60000x64 .f32) (r : Fin 30000) (k : Fin 64) :
    extractStridedSlice S30000x64 ![0, 0] y slices_S60000x64_S30000x64_0_0 (ix2 r k) = y (ix2 ⟨r.val, by have := r.isLt; omega⟩ k) :=
  extractStridedSlice_apply _ y _ _ _ fun a => match a with
    | ⟨0, _⟩ => by show r.val = 0 + r.val; omega
    | ⟨1, _⟩ => by show k.val = 0 + k.val; omega

theorem slice_hi_apply (y : FVec Ideal S60000x64 .f32) (r : Fin 30000) (k : Fin 64) :
    extractStridedSlice S30000x64 ![30000, 0] y slices_S60000x64_S30000x64_30000_0 (ix2 r k) = y (ix2 ⟨30000 + r.val, by have := r.isLt; omega⟩ k) :=
  extractStridedSlice_apply _ y _ _ _ fun a => match a with
    | ⟨0, _⟩ => by show 30000 + r.val = 30000 + r.val; rfl
    | ⟨1, _⟩ => by show k.val = 0 + k.val; omega

theorem split_apply (y : FVec Ideal S60000x64 .f32) (i : Fin 4) (n : Fin 60000) (d : Fin 16) :
    transpose S4x60000x16 [1, 0, 2] (shapeCast _ y shapeCasts_S60000x64_S60000x4x16) transposes_S60000x4x16_S4x60000x16_1_0_2 (ix3 i n d)
      = y (ix2 n (chan i d)) := by
  refine (transpose_apply [1, 0, 2] _ transposes_S60000x4x16_S4x60000x16_1_0_2 (ix3 i n d) (ix3 n i d)
    (fun b => match b with | ⟨0, _⟩ => rfl | ⟨1, _⟩ => rfl | ⟨2, _⟩ => rfl)).trans ?_
  refine shapeCast_apply y shapeCasts_S60000x64_S60000x4x16 (ix3 n i d) (ix2 n (chan i d)) ?_
  rw [Shape.rowMajor_val_two, Shape.rowMajor_val_three]
  show n.val * 64 + (16 * i.val + d.val) = (n.val * 4 + i.val) * 16 + d.val
  omega

theorem merge_apply (z : FVec Ideal S4x60000x16 .f32) (n : Fin 60000) (i : Fin 4) (d : Fin 16) :
    shapeCast _ (transpose S60000x4x16 [1, 0, 2] z transposes_S4x60000x16_S60000x4x16_1_0_2) shapeCasts_S60000x4x16_S60000x64 (ix2 n (chan i d))
      = z (ix3 i n d) := by
  refine (shapeCast_apply _ shapeCasts_S60000x4x16_S60000x64 (ix2 n (chan i d)) (ix3 n i d) ?_).trans ?_
  · rw [Shape.rowMajor_val_two, Shape.rowMajor_val_three]
    show (n.val * 4 + i.val) * 16 + d.val = n.val * 64 + (16 * i.val + d.val)
    omega
  · exact transpose_apply [1, 0, 2] z transposes_S4x60000x16_S60000x4x16_1_0_2 (ix3 n i d) (ix3 i n d)
      (fun b => match b with | ⟨0, _⟩ => rfl | ⟨1, _⟩ => rfl | ⟨2, _⟩ => rfl)

theorem stack_apply (a0 a1 : FVec Ideal S30000x64 .f32) (n : Fin 60000) (k : Fin 64) :
    concatenate S60000x64 0 [⟨S30000x64, a0⟩, ⟨S30000x64, a1⟩] concatenates_S30000x64_S30000x64_S60000x64_d0 (ix2 n k) = feats a0 a1 n k := by
  unfold feats
  split
  · next h =>
    exact concatenate_pair_apply_left 0 a0 a1 concatenates_S30000x64_S30000x64_S60000x64_d0 (ix2 n k) rfl (ix2 ⟨n.val, h⟩ k)
      (fun b => match b with | ⟨0, _⟩ => rfl | ⟨1, _⟩ => rfl)
  · next h =>
    exact concatenate_pair_apply_right 0 a0 a1 concatenates_S30000x64_S30000x64_S60000x64_d0 (ix2 n k) rfl rfl
      (ix2 ⟨n.val - 30000, by have := n.isLt; omega⟩ k)
      (fun b hb => match b, hb with | ⟨0, _⟩, hb => absurd rfl hb | ⟨1, _⟩, _ => rfl)
      (by show n.val - 30000 + 30000 = n.val; omega)

/-- The word 2.0 is the real two. -/
theorem two32 : Ideal.ofBits .f32 0x40000000#32 = ((2 : ℝ) : EReal) := by
  simp [Ideal.ofBits, Ideal.ieee, -EReal.coe_mul]; norm_num

/-- The word 0.5 is the real one half. -/
theorem half32_eq : half32 = (((1 : ℝ) / 2 : ℝ) : EReal) := by
  unfold half32; simp [Ideal.ofBits, Ideal.ieee, -EReal.coe_mul]; norm_num

/-- In range, the wrap leaves an entry as it is: the entry is not negative, so the comparison with zero fails. -/
theorem wrap_apply (v : IVec S800000 32) (hv : InRange v) (e : Fin 800000) : wrapIdx v (ix1 e) = v (ix1 e) := by
  obtain ⟨h0, _⟩ := hv e
  have hs : (v (ix1 e)).slt 0#32 = false := by
    first
      | (simp [BitVec.slt]; exact h0)
      | (simp [BitVec.slt]; omega)
      | simp [BitVec.slt, h0]
  have hc : IntOp.cmpi .slt (v (ix1 e)) (0#32) = 0#1 := by
    show BitVec.ofBool ((v (ix1 e)).slt 0#32) = 0#1
    rw [hs]; rfl
  show Scalar.select (IntOp.cmpi .slt (v (ix1 e)) 0#32) _ (v (ix1 e)) = v (ix1 e)
  rw [hc, select_zero]

theorem wrap_eq (v : IVec S800000 32) (hv : InRange v) : wrapIdx v = v := by
  funext j
  obtain ⟨e, rfl⟩ : ∃ e : Fin 800000, j = ix1 e := ⟨j 0, eq_ix1 j⟩
  exact wrap_apply v hv e

theorem rowsum16_apply (y : FVec Ideal S4x800000x16 .f32) (i : Fin 4) (e : Fin 800000) :
    Host.reduceAdd y (constant (F := Ideal) S_ .f32 0x00000000#32) reducesTo_S4x800000x16_S4x800000_d2 h_S_ (ix2 i e) = ∑ d : Fin 16, y (ix3 i e d) := by
  have hR : S4x800000x16.Reduces [2] S4x800000 := by decide
  refine (Ideal.hostReduceAdd_single reducesTo_S4x800000x16_S4x800000_d2 hR y _ (ix2 i e)).trans ?_
  show Ideal.ofBits .f32 0x00000000#32 + ∑ d : Fin 16, y (hR.lift (ix2 i e) d) = _
  rw [zero32, zero_add]
  refine Finset.sum_congr rfl fun d _ => congrArg y ?_
  funext a
  match a with
  | ⟨0, _⟩ => exact Fin.ext rfl
  | ⟨1, _⟩ => exact Fin.ext rfl
  | ⟨2, _⟩ => exact Fin.ext rfl

/-- Two [N, 1, 64] tables stacked along the middle axis and summed over it, over the initial zero: the sum of the two entries. -/
theorem pairsum_apply (p q : FVec Ideal S60000x1x64 .f32) (n : Fin 60000) (k : Fin 64) :
    Host.reduceAdd (concatenate S60000x2x64 1 [⟨S60000x1x64, p⟩, ⟨S60000x1x64, q⟩] concatenates_S60000x1x64_S60000x1x64_S60000x2x64_d1) (constant (F := Ideal) S_ .f32 0x00000000#32) reducesTo_S60000x2x64_S60000x64_d1 h_S_ (ix2 n k)
      = p (ix3 n 0 k) + q (ix3 n 0 k) := by
  have hR : S60000x2x64.Reduces [1] S60000x64 := by decide
  refine (Ideal.hostReduceAdd_single reducesTo_S60000x2x64_S60000x64_d1 hR _ _ (ix2 n k)).trans ?_
  show Ideal.ofBits .f32 0x00000000#32 + ∑ c : Fin 2, concatenate S60000x2x64 1 [⟨S60000x1x64, p⟩, ⟨S60000x1x64, q⟩] concatenates_S60000x1x64_S60000x1x64_S60000x2x64_d1 (hR.lift (ix2 n k) c) = _
  have hl0 : hR.lift (ix2 n k) (0 : Fin 2) = ix3 n (0 : Fin 2) k := by
    funext a
    match a with
    | ⟨0, _⟩ => exact Fin.ext rfl
    | ⟨1, _⟩ => exact Fin.ext rfl
    | ⟨2, _⟩ => exact Fin.ext rfl
  have hl1 : hR.lift (ix2 n k) (1 : Fin 2) = ix3 n (1 : Fin 2) k := by
    funext a
    match a with
    | ⟨0, _⟩ => exact Fin.ext rfl
    | ⟨1, _⟩ => exact Fin.ext rfl
    | ⟨2, _⟩ => exact Fin.ext rfl
  rw [zero32, zero_add, Fin.sum_univ_two, hl0, hl1]
  congr 1
  · exact concatenate_pair_apply_left (t := S60000x2x64) 1 p q concatenates_S60000x1x64_S60000x1x64_S60000x2x64_d1
      (ix3 n (0 : Fin 2) k) rfl (ix3 n (0 : Fin 1) k)
      (fun b => match b with | ⟨0, _⟩ => rfl | ⟨1, _⟩ => rfl | ⟨2, _⟩ => rfl)
  · exact concatenate_pair_apply_right (t := S60000x2x64) 1 p q concatenates_S60000x1x64_S60000x1x64_S60000x2x64_d1
      (ix3 n (1 : Fin 2) k) rfl rfl (ix3 n (0 : Fin 1) k)
      (fun b hb => match b, hb with | ⟨0, _⟩, _ => rfl | ⟨1, _⟩, hb => absurd rfl hb | ⟨2, _⟩, _ => rfl) (by rfl)

theorem mean2_apply (a b : FVec Ideal S60000x64 .f32) (n : Fin 60000) (k : Fin 64) :
    Host.divf (Host.reduceAdd (concatenate S60000x2x64 1 [⟨S60000x1x64, broadcastInDim S60000x1x64 ![0, 2] bcast_S60000x64_S60000x1x64_0_2 a⟩, ⟨S60000x1x64, broadcastInDim S60000x1x64 ![0, 2] bcast_S60000x64_S60000x1x64_0_2 b⟩] concatenates_S60000x1x64_S60000x1x64_S60000x2x64_d1) (constant (F := Ideal) S_ .f32 0x00000000#32) reducesTo_S60000x2x64_S60000x64_d1 h_S_) (broadcastInDim S60000x64 ![] bcast_S_S60000x64 (constant (F := Ideal) S_ .f32 0x40000000#32)) (ix2 n k)
      = (a (ix2 n k) + b (ix2 n k)) * half32 := by
  refine (hostDivf_apply _ _ (ix2 n k)).trans ?_
  refine (congrArg₂ Ideal.div (pairsum_apply _ _ n k) (broadcastInDim_scalar_apply bcast_S_S60000x64 _ (ix2 n k))).trans ?_
  rw [broadcastInDim_apply ![0, 2] bcast_S60000x64_S60000x1x64_0_2 a (ix3 n 0 k) (ix2 n k)
        (fun c => match c with | ⟨0, _⟩ => rfl | ⟨1, _⟩ => rfl),
      broadcastInDim_apply ![0, 2] bcast_S60000x64_S60000x1x64_0_2 b (ix3 n 0 k) (ix2 n k)
        (fun c => match c with | ⟨0, _⟩ => rfl | ⟨1, _⟩ => rfl)]
  show Ideal.div (a (ix2 n k) + b (ix2 n k)) (Ideal.ofBits .f32 0x40000000#32) = _
  rw [two32, half32_eq]
  exact Ideal.div_coe (by norm_num) _

/-! ## The softmax over the four groups -/

/-- The word of minus infinity is the bottom of the extended reals. -/
theorem negInf32 : Ideal.ofBits .f32 0xFF800000#32 = ⊥ := by simp [Ideal.ofBits, Ideal.ieee]

/-- A per-edge value copied to the four groups, read at an index. -/
theorem rowbc_apply (w : FVec Ideal S800000 .f32) (c : Fin 4) (e : Fin 800000) :
    broadcastInDim S4x800000 ![0, 1] bcast_S1x800000_S4x800000_0_1 (broadcastInDim S1x800000 ![1] bcast_S800000_S1x800000_1 w) (ix2 c e)
      = w (ix1 e) :=
  (broadcastInDim_apply _ _ _ (ix2 c e) (ix2 (0 : Fin 1) e) (fun a => match a with | ⟨0, _⟩ => rfl | ⟨1, _⟩ => rfl)).trans
    (broadcastInDim_apply _ _ w (ix2 (0 : Fin 1) e) (ix1 e) (fun a => match a with | ⟨0, _⟩ => rfl))

/-- The maximum of an edge's four logits, as printed (floored at minus infinity twice). -/
theorem colmax_apply (A : FVec Ideal S4x800000 .f32) (e : Fin 800000) :
    maximumf (broadcastInDim S800000 ![] bcast_S_S800000 (constant (F := Ideal) S_ .f32 0xFF800000#32)) (Host.reduce FloatOps.maximumf A (constant (F := Ideal) S_ .f32 0xFF800000#32) reducesTo_S4x800000_S800000_d0 h_S_) (ix1 e)
      = Finset.univ.sup (fun i : Fin 4 => A (ix2 i e)) := by
  have hR : S4x800000.Reduces [0] S800000 := by decide
  refine (maximumf_apply _ _ _).trans ?_
  rw [broadcastInDim_scalar_apply, constant_apply, Host.reduce_eq_fold_single FloatOps.maximumf A _ reducesTo_S4x800000_S800000_d0 hR h_S_ (ix1 e)]
  show max (Ideal.ofBits .f32 0xFF800000#32) (Finset.fold max (Ideal.ofBits .f32 0xFF800000#32) (fun c : Fin 4 => A (hR.lift (ix1 e) c)) Finset.univ) = _
  rw [negInf32, max_eq_right bot_le]
  have hl : ∀ c : Fin 4, hR.lift (ix1 e) c = ix2 c e := fun c => funext fun a => match a with
    | ⟨0, _⟩ => Fin.ext rfl
    | ⟨1, _⟩ => Fin.ext rfl
  simp only [hl]
  rfl

/-- The sum of an edge's four entries, as printed. -/
theorem colsum_apply (B : FVec Ideal S4x800000 .f32) (e : Fin 800000) :
    Host.reduceAdd B (constant (F := Ideal) S_ .f32 0x00000000#32) reducesTo_S4x800000_S800000_d0 h_S_ (ix1 e) = ∑ c : Fin 4, B (ix2 c e) := by
  have hR : S4x800000.Reduces [0] S800000 := by decide
  refine (Ideal.hostReduceAdd_single reducesTo_S4x800000_S800000_d0 hR B _ (ix1 e)).trans ?_
  show Ideal.ofBits .f32 0x00000000#32 + ∑ c : Fin 4, B (hR.lift (ix1 e) c) = _
  rw [zero32, zero_add]
  exact Finset.sum_congr rfl fun c _ => congrArg B (funext fun a => match a with
    | ⟨0, _⟩ => Fin.ext rfl
    | ⟨1, _⟩ => Fin.ext rfl)

/-- The exponential of a logit less its edge's maximum. -/
theorem softExp_apply (A : FVec Ideal S4x800000 .f32) (c : Fin 4) (e : Fin 800000) :
    softExp A (ix2 c e) = Ideal.exp (A (ix2 c e) - Finset.univ.sup (fun i : Fin 4 => A (ix2 i e))) :=
  congrArg Ideal.exp (congrArg (A (ix2 c e) - ·) ((rowbc_apply _ c e).trans (colmax_apply A e)))

theorem soft_apply (A : FVec Ideal S4x800000 .f32) (i : Fin 4) (e : Fin 800000) :
    softCols A (ix2 i e) = soft (fun e i => A (ix2 i e)) e i := by
  unfold softCols
  refine (hostDivf_apply _ _ (ix2 i e)).trans ?_
  exact congrArg₂ Ideal.div (softExp_apply A i e)
    ((rowbc_apply _ i e).trans ((colsum_apply _ e).trans (Finset.sum_congr rfl fun c _ => softExp_apply A c e)))

/-- The index array as the scatter and the gather read it: entry (e, 0) of the [E, 1] array is entry e. -/
theorem col_apply (v : IVec S800000 32) (e : Fin 800000) :
    broadcastInDim S800000x1 ![0] bcast_S800000_S800000x1_0 v (ix2 e (0 : Fin 1)) = v (ix1 e) :=
  broadcastInDim_apply ![0] bcast_S800000_S800000x1_0 v (ix2 e 0) (ix1 e) (fun c => match c with | ⟨0, _⟩ => rfl)

/-! ## The gather: position (i, e, d) reads node `v e` -/

theorem gather3_apply (x : FVec Ideal S4x60000x16 .f32) (v : IVec S800000 32) (hv : InRange v) (i : Fin 4) (e : Fin 800000) (d : Fin 16) :
    Host.gather gather_S4x60000x16_S800000x1_S4x800000x16_02_1_n_n_1_1_4116 x (broadcastInDim S800000x1 ![0] bcast_S800000_S800000x1_0 v) (ix3 i e d)
      = x (ix3 i (node v e) d) := by
  unfold Host.gather
  refine congrArg x (funext fun a => Fin.ext ?_)
  match a with
  | ⟨0, _⟩ =>
    show gather_S4x60000x16_S800000x1_S4x800000x16_02_1_n_n_1_1_4116.start (ix3 i e d) (broadcastInDim S800000x1 ![0] bcast_S800000_S800000x1_0 v) 0 + gather_S4x60000x16_S800000x1_S4x800000x16_02_1_n_n_1_1_4116.batchCoord (ix3 i e d) 0 + gather_S4x60000x16_S800000x1_S4x800000x16_02_1_n_n_1_1_4116.offCoord (ix3 i e d) 0 = i.val
    have hs : gather_S4x60000x16_S800000x1_S4x800000x16_02_1_n_n_1_1_4116.start (ix3 i e d) (broadcastInDim S800000x1 ![0] bcast_S800000_S800000x1_0 v) 0 = 0 := rfl
    have hb : gather_S4x60000x16_S800000x1_S4x800000x16_02_1_n_n_1_1_4116.batchCoord (ix3 i e d) 0 = 0 := rfl
    have ho : gather_S4x60000x16_S800000x1_S4x800000x16_02_1_n_n_1_1_4116.offCoord (ix3 i e d) 0 = i.val := rfl
    rw [hs, hb, ho]; omega
  | ⟨2, _⟩ =>
    show gather_S4x60000x16_S800000x1_S4x800000x16_02_1_n_n_1_1_4116.start (ix3 i e d) (broadcastInDim S800000x1 ![0] bcast_S800000_S800000x1_0 v) 2 + gather_S4x60000x16_S800000x1_S4x800000x16_02_1_n_n_1_1_4116.batchCoord (ix3 i e d) 2 + gather_S4x60000x16_S800000x1_S4x800000x16_02_1_n_n_1_1_4116.offCoord (ix3 i e d) 2 = d.val
    have hs : gather_S4x60000x16_S800000x1_S4x800000x16_02_1_n_n_1_1_4116.start (ix3 i e d) (broadcastInDim S800000x1 ![0] bcast_S800000_S800000x1_0 v) 2 = 0 := rfl
    have hb : gather_S4x60000x16_S800000x1_S4x800000x16_02_1_n_n_1_1_4116.batchCoord (ix3 i e d) 2 = 0 := rfl
    have ho : gather_S4x60000x16_S800000x1_S4x800000x16_02_1_n_n_1_1_4116.offCoord (ix3 i e d) 2 = d.val := rfl
    rw [hs, hb, ho]; omega
  | ⟨1, _⟩ =>
    show gather_S4x60000x16_S800000x1_S4x800000x16_02_1_n_n_1_1_4116.start (ix3 i e d) (broadcastInDim S800000x1 ![0] bcast_S800000_S800000x1_0 v) 1 + gather_S4x60000x16_S800000x1_S4x800000x16_02_1_n_n_1_1_4116.batchCoord (ix3 i e d) 1 + gather_S4x60000x16_S800000x1_S4x800000x16_02_1_n_n_1_1_4116.offCoord (ix3 i e d) 1 = (node v e).val
    have hb : gather_S4x60000x16_S800000x1_S4x800000x16_02_1_n_n_1_1_4116.batchCoord (ix3 i e d) 1 = 0 := rfl
    have ho : gather_S4x60000x16_S800000x1_S4x800000x16_02_1_n_n_1_1_4116.offCoord (ix3 i e d) 1 = 0 := rfl
    have hs : gather_S4x60000x16_S800000x1_S4x800000x16_02_1_n_n_1_1_4116.start (ix3 i e d) (broadcastInDim S800000x1 ![0] bcast_S800000_S800000x1_0 v) 1 = min (v (ix1 e)).toInt.toNat 59999 := by
      unfold GatherDims.start
      rw [dif_pos (show (1 : Fin 3) ∈ gather_S4x60000x16_S800000x1_S4x800000x16_02_1_n_n_1_1_4116.startIndexMap from List.mem_singleton.mpr rfl)]
      have hsi : gather_S4x60000x16_S800000x1_S4x800000x16_02_1_n_n_1_1_4116.siIdx (ix3 i e d) ⟨List.idxOf (1 : Fin 3) gather_S4x60000x16_S800000x1_S4x800000x16_02_1_n_n_1_1_4116.startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi, col_apply]
      rfl
    rw [hs, hb, ho, node_toInt hv e]
    have := (node v e).isLt
    omega

/-! ## The scatter-add into [4, N]: the updates of the edges whose index names the node -/

theorem sc2_start1 (v : IVec S800000 32) (i' : Fin 4) (e : Fin 800000) :
    scatter_S4x60000_S800000x1_S4x800000_0_1_1_1.start (ix2 i' e) (broadcastInDim S800000x1 ![0] bcast_S800000_S800000x1_0 v) 1 = (v (ix1 e)).toInt := by
  unfold ScatterDims.start
  rw [dif_pos (show (1 : Fin 2) ∈ scatter_S4x60000_S800000x1_S4x800000_0_1_1_1.scatterDimsToOperandDims from List.mem_singleton.mpr rfl)]
  have hsi : scatter_S4x60000_S800000x1_S4x800000_0_1_1_1.siIdx (ix2 i' e) ⟨List.idxOf (1 : Fin 2) scatter_S4x60000_S800000x1_S4x800000_0_1_1_1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi, col_apply]

/-- In range, the update at (i', e) lands at (i', node e). -/
theorem sc2_result (v : IVec S800000 32) (hv : InRange v) (i' : Fin 4) (e : Fin 800000) :
    scatter_S4x60000_S800000x1_S4x800000_0_1_1_1.resultIdx? (ix2 i' e) (broadcastInDim S800000x1 ![0] bcast_S800000_S800000x1_0 v) = some (ix2 i' (node v e)) := by
  have h0s : scatter_S4x60000_S800000x1_S4x800000_0_1_1_1.start (ix2 i' e) (broadcastInDim S800000x1 ![0] bcast_S800000_S800000x1_0 v) 0 = 0 := rfl
  have h0w : scatter_S4x60000_S800000x1_S4x800000_0_1_1_1.window (ix2 i' e) 0 = i'.val := rfl
  have h1s := sc2_start1 v i' e
  have h1w : scatter_S4x60000_S800000x1_S4x800000_0_1_1_1.window (ix2 i' e) 1 = 0 := rfl
  have hn := node_toInt hv e
  have hi' := i'.isLt
  have hnl := (node v e).isLt
  unfold ScatterDims.resultIdx?
  split
  · next h =>
    refine congrArg some (funext fun a => Fin.ext ?_)
    match a with
    | ⟨0, _⟩ =>
      show (scatter_S4x60000_S800000x1_S4x800000_0_1_1_1.start (ix2 i' e) (broadcastInDim S800000x1 ![0] bcast_S800000_S800000x1_0 v) 0 + ((scatter_S4x60000_S800000x1_S4x800000_0_1_1_1.window (ix2 i' e) 0 : Nat) : Int)).toNat = i'.val
      rw [h0s, h0w]; omega
    | ⟨1, _⟩ =>
      show (scatter_S4x60000_S800000x1_S4x800000_0_1_1_1.start (ix2 i' e) (broadcastInDim S800000x1 ![0] bcast_S800000_S800000x1_0 v) 1 + ((scatter_S4x60000_S800000x1_S4x800000_0_1_1_1.window (ix2 i' e) 1 : Nat) : Int)).toNat = (node v e).val
      rw [h1s, h1w, hn]; omega
  · next h =>
    refine absurd (fun a => ?_) h
    match a with
    | ⟨0, _⟩ =>
      show 0 ≤ scatter_S4x60000_S800000x1_S4x800000_0_1_1_1.start (ix2 i' e) (broadcastInDim S800000x1 ![0] bcast_S800000_S800000x1_0 v) 0 + ((scatter_S4x60000_S800000x1_S4x800000_0_1_1_1.window (ix2 i' e) 0 : Nat) : Int) ∧ scatter_S4x60000_S800000x1_S4x800000_0_1_1_1.start (ix2 i' e) (broadcastInDim S800000x1 ![0] bcast_S800000_S800000x1_0 v) 0 + ((scatter_S4x60000_S800000x1_S4x800000_0_1_1_1.window (ix2 i' e) 0 : Nat) : Int) < ((4 : Nat) : Int)
      rw [h0s, h0w]; omega
    | ⟨1, _⟩ =>
      show 0 ≤ scatter_S4x60000_S800000x1_S4x800000_0_1_1_1.start (ix2 i' e) (broadcastInDim S800000x1 ![0] bcast_S800000_S800000x1_0 v) 1 + ((scatter_S4x60000_S800000x1_S4x800000_0_1_1_1.window (ix2 i' e) 1 : Nat) : Int) ∧ scatter_S4x60000_S800000x1_S4x800000_0_1_1_1.start (ix2 i' e) (broadcastInDim S800000x1 ![0] bcast_S800000_S800000x1_0 v) 1 + ((scatter_S4x60000_S800000x1_S4x800000_0_1_1_1.window (ix2 i' e) 1 : Nat) : Int) < ((60000 : Nat) : Int)
      rw [h1s, h1w, hn]; omega

/-- An index of a [4, E] array by its two coordinates. -/
theorem idx2_cases (j : S4x800000.Idx) : ∃ (i' : Fin 4) (e : Fin 800000), j = ix2 i' e := ⟨j 0, j 1, eq_ix2 j⟩

theorem sc2_iff (v : IVec S800000 32) (hv : InRange v) (i : Fin 4) (n : Fin 60000) (j : S4x800000.Idx) :
    scatter_S4x60000_S800000x1_S4x800000_0_1_1_1.resultIdx? j (broadcastInDim S800000x1 ![0] bcast_S800000_S800000x1_0 v) = some (ix2 i n) ↔ j 0 = i ∧ node v (j 1) = n := by
  obtain ⟨i', e, rfl⟩ := idx2_cases j
  show _ ↔ i' = i ∧ node v e = n
  rw [sc2_result v hv i' e]
  constructor
  · intro h
    have h' := Option.some.inj h
    exact ⟨congrFun h' 0, congrFun h' 1⟩
  · rintro ⟨rfl, rfl⟩; rfl

theorem scatter2_apply (x : FVec Ideal S4x60000 .f32) (v : IVec S800000 32) (hv : InRange v) (u : FVec Ideal S4x800000 .f32)
    (i : Fin 4) (n : Fin 60000) :
    Host.scatterAdd scatter_S4x60000_S800000x1_S4x800000_0_1_1_1 x (broadcastInDim S800000x1 ![0] bcast_S800000_S800000x1_0 v) u (ix2 i n)
      = x (ix2 i n) + ∑ e ∈ Finset.univ.filter (fun e : Fin 800000 => node v e = n), u (ix2 i e) := by
  unfold Host.scatterAdd
  rw [Ideal.hostScatterAdd_def]
  unfold Ideal.hostScatterAdd
  refine congrArg (x (ix2 i n) + ·) ?_
  refine Finset.sum_nbij' (fun j => (j 1 : Fin 800000)) (fun e => ix2 i e) ?_ ?_ ?_ ?_ ?_
  · intro j hj
    exact Finset.mem_filter.2 ⟨Finset.mem_univ _, ((sc2_iff v hv i n j).1 (Finset.mem_filter.1 hj).2).2⟩
  · intro e he
    exact Finset.mem_filter.2 ⟨Finset.mem_univ _, (sc2_iff v hv i n (ix2 i e)).2 ⟨rfl, (Finset.mem_filter.1 he).2⟩⟩
  · intro j hj
    obtain ⟨rfl, _⟩ := (sc2_iff v hv i n j).1 (Finset.mem_filter.1 hj).2
    exact (eq_ix2 j).symm
  · intro e _; rfl
  · intro j hj
    obtain ⟨rfl, _⟩ := (sc2_iff v hv i n j).1 (Finset.mem_filter.1 hj).2
    exact congrArg u (eq_ix2 j)

/-! ## The scatter-add into [4, N, 16]: the same, channel by channel -/

theorem sc3_start1 (v : IVec S800000 32) (i' : Fin 4) (e : Fin 800000) (d' : Fin 16) :
    scatter_S4x60000x16_S800000x1_S4x800000x16_02_1_1_1.start (ix3 i' e d') (broadcastInDim S800000x1 ![0] bcast_S800000_S800000x1_0 v) 1 = (v (ix1 e)).toInt := by
  unfold ScatterDims.start
  rw [dif_pos (show (1 : Fin 3) ∈ scatter_S4x60000x16_S800000x1_S4x800000x16_02_1_1_1.scatterDimsToOperandDims from List.mem_singleton.mpr rfl)]
  have hsi : scatter_S4x60000x16_S800000x1_S4x800000x16_02_1_1_1.siIdx (ix3 i' e d') ⟨List.idxOf (1 : Fin 3) scatter_S4x60000x16_S800000x1_S4x800000x16_02_1_1_1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi, col_apply]

/-- In range, the update at (i', e, d') lands at (i', node e, d'). -/
theorem sc3_result (v : IVec S800000 32) (hv : InRange v) (i' : Fin 4) (e : Fin 800000) (d' : Fin 16) :
    scatter_S4x60000x16_S800000x1_S4x800000x16_02_1_1_1.resultIdx? (ix3 i' e d') (broadcastInDim S800000x1 ![0] bcast_S800000_S800000x1_0 v) = some (ix3 i' (node v e) d') := by
  have h0s : scatter_S4x60000x16_S800000x1_S4x800000x16_02_1_1_1.start (ix3 i' e d') (broadcastInDim S800000x1 ![0] bcast_S800000_S800000x1_0 v) 0 = 0 := rfl
  have h0w : scatter_S4x60000x16_S800000x1_S4x800000x16_02_1_1_1.window (ix3 i' e d') 0 = i'.val := rfl
  have h1s := sc3_start1 v i' e d'
  have h1w : scatter_S4x60000x16_S800000x1_S4x800000x16_02_1_1_1.window (ix3 i' e d') 1 = 0 := rfl
  have h2s : scatter_S4x60000x16_S800000x1_S4x800000x16_02_1_1_1.start (ix3 i' e d') (broadcastInDim S800000x1 ![0] bcast_S800000_S800000x1_0 v) 2 = 0 := rfl
  have h2w : scatter_S4x60000x16_S800000x1_S4x800000x16_02_1_1_1.window (ix3 i' e d') 2 = d'.val := rfl
  have hn := node_toInt hv e
  have hi' := i'.isLt
  have hd' := d'.isLt
  have hnl := (node v e).isLt
  unfold ScatterDims.resultIdx?
  split
  · next h =>
    refine congrArg some (funext fun a => Fin.ext ?_)
    match a with
    | ⟨0, _⟩ =>
      show (scatter_S4x60000x16_S800000x1_S4x800000x16_02_1_1_1.start (ix3 i' e d') (broadcastInDim S800000x1 ![0] bcast_S800000_S800000x1_0 v) 0 + ((scatter_S4x60000x16_S800000x1_S4x800000x16_02_1_1_1.window (ix3 i' e d') 0 : Nat) : Int)).toNat = i'.val
      rw [h0s, h0w]; omega
    | ⟨1, _⟩ =>
      show (scatter_S4x60000x16_S800000x1_S4x800000x16_02_1_1_1.start (ix3 i' e d') (broadcastInDim S800000x1 ![0] bcast_S800000_S800000x1_0 v) 1 + ((scatter_S4x60000x16_S800000x1_S4x800000x16_02_1_1_1.window (ix3 i' e d') 1 : Nat) : Int)).toNat = (node v e).val
      rw [h1s, h1w, hn]; omega
    | ⟨2, _⟩ =>
      show (scatter_S4x60000x16_S800000x1_S4x800000x16_02_1_1_1.start (ix3 i' e d') (broadcastInDim S800000x1 ![0] bcast_S800000_S800000x1_0 v) 2 + ((scatter_S4x60000x16_S800000x1_S4x800000x16_02_1_1_1.window (ix3 i' e d') 2 : Nat) : Int)).toNat = d'.val
      rw [h2s, h2w]; omega
  · next h =>
    refine absurd (fun a => ?_) h
    match a with
    | ⟨0, _⟩ =>
      show 0 ≤ scatter_S4x60000x16_S800000x1_S4x800000x16_02_1_1_1.start (ix3 i' e d') (broadcastInDim S800000x1 ![0] bcast_S800000_S800000x1_0 v) 0 + ((scatter_S4x60000x16_S800000x1_S4x800000x16_02_1_1_1.window (ix3 i' e d') 0 : Nat) : Int) ∧ scatter_S4x60000x16_S800000x1_S4x800000x16_02_1_1_1.start (ix3 i' e d') (broadcastInDim S800000x1 ![0] bcast_S800000_S800000x1_0 v) 0 + ((scatter_S4x60000x16_S800000x1_S4x800000x16_02_1_1_1.window (ix3 i' e d') 0 : Nat) : Int) < ((4 : Nat) : Int)
      rw [h0s, h0w]; omega
    | ⟨1, _⟩ =>
      show 0 ≤ scatter_S4x60000x16_S800000x1_S4x800000x16_02_1_1_1.start (ix3 i' e d') (broadcastInDim S800000x1 ![0] bcast_S800000_S800000x1_0 v) 1 + ((scatter_S4x60000x16_S800000x1_S4x800000x16_02_1_1_1.window (ix3 i' e d') 1 : Nat) : Int) ∧ scatter_S4x60000x16_S800000x1_S4x800000x16_02_1_1_1.start (ix3 i' e d') (broadcastInDim S800000x1 ![0] bcast_S800000_S800000x1_0 v) 1 + ((scatter_S4x60000x16_S800000x1_S4x800000x16_02_1_1_1.window (ix3 i' e d') 1 : Nat) : Int) < ((60000 : Nat) : Int)
      rw [h1s, h1w, hn]; omega
    | ⟨2, _⟩ =>
      show 0 ≤ scatter_S4x60000x16_S800000x1_S4x800000x16_02_1_1_1.start (ix3 i' e d') (broadcastInDim S800000x1 ![0] bcast_S800000_S800000x1_0 v) 2 + ((scatter_S4x60000x16_S800000x1_S4x800000x16_02_1_1_1.window (ix3 i' e d') 2 : Nat) : Int) ∧ scatter_S4x60000x16_S800000x1_S4x800000x16_02_1_1_1.start (ix3 i' e d') (broadcastInDim S800000x1 ![0] bcast_S800000_S800000x1_0 v) 2 + ((scatter_S4x60000x16_S800000x1_S4x800000x16_02_1_1_1.window (ix3 i' e d') 2 : Nat) : Int) < ((16 : Nat) : Int)
      rw [h2s, h2w]; omega

/-- An index of a [4, E, 16] array by its three coordinates. -/
theorem idx3_cases (j : S4x800000x16.Idx) : ∃ (i' : Fin 4) (e : Fin 800000) (d' : Fin 16), j = ix3 i' e d' :=
  ⟨j 0, j 1, j 2, eq_ix3 j⟩

theorem sc3_iff (v : IVec S800000 32) (hv : InRange v) (i : Fin 4) (n : Fin 60000) (d : Fin 16) (j : S4x800000x16.Idx) :
    scatter_S4x60000x16_S800000x1_S4x800000x16_02_1_1_1.resultIdx? j (broadcastInDim S800000x1 ![0] bcast_S800000_S800000x1_0 v) = some (ix3 i n d) ↔ j 0 = i ∧ node v (j 1) = n ∧ j 2 = d := by
  obtain ⟨i', e, d', rfl⟩ := idx3_cases j
  show _ ↔ i' = i ∧ node v e = n ∧ d' = d
  rw [sc3_result v hv i' e d']
  constructor
  · intro h
    have h' := Option.some.inj h
    exact ⟨congrFun h' 0, congrFun h' 1, congrFun h' 2⟩
  · rintro ⟨rfl, rfl, rfl⟩; rfl

theorem scatter3_apply (x : FVec Ideal S4x60000x16 .f32) (v : IVec S800000 32) (hv : InRange v) (u : FVec Ideal S4x800000x16 .f32)
    (i : Fin 4) (n : Fin 60000) (d : Fin 16) :
    Host.scatterAdd scatter_S4x60000x16_S800000x1_S4x800000x16_02_1_1_1 x (broadcastInDim S800000x1 ![0] bcast_S800000_S800000x1_0 v) u (ix3 i n d)
      = x (ix3 i n d) + ∑ e ∈ Finset.univ.filter (fun e : Fin 800000 => node v e = n), u (ix3 i e d) := by
  unfold Host.scatterAdd
  rw [Ideal.hostScatterAdd_def]
  unfold Ideal.hostScatterAdd
  refine congrArg (x (ix3 i n d) + ·) ?_
  refine Finset.sum_nbij' (fun j => (j 1 : Fin 800000)) (fun e => ix3 i e d) ?_ ?_ ?_ ?_ ?_
  · intro j hj
    exact Finset.mem_filter.2 ⟨Finset.mem_univ _, ((sc3_iff v hv i n d j).1 (Finset.mem_filter.1 hj).2).2.1⟩
  · intro e he
    exact Finset.mem_filter.2 ⟨Finset.mem_univ _, (sc3_iff v hv i n d (ix3 i e d)).2 ⟨rfl, (Finset.mem_filter.1 he).2, rfl⟩⟩
  · intro j hj
    obtain ⟨rfl, _, rfl⟩ := (sc3_iff v hv i n d j).1 (Finset.mem_filter.1 hj).2
    exact (eq_ix3 j).symm
  · intro e _; rfl
  · intro j hj
    obtain ⟨rfl, _, rfl⟩ := (sc3_iff v hv i n d j).1 (Finset.mem_filter.1 hj).2
    exact congrArg u (eq_ix3 j)

end Cert.ReferenceIdeal.RefVal

end
-- ==== Proof.RefChain.lean ====
/-
  The reference program's result is the specification's, entry by entry.

  The generated run names the reference's intermediate arrays as composed terms of the launch contents: the stacked
  feature table, the all-ones logits, the table regrouped as [4, N, 16] (entry (i, n, d) is channel 16 i + d of node n),
  the two softmaxes, the two normalisers, the features of each routing round, and the final mean. Each is read here at
  explicit coordinates and shown to be the corresponding quantity of the specification. The shapes that occur twice
  (the normaliser 1 / sqrt of the weights summed at the heads; a round's features: scale, gather at the tails, weight,
  sum at the heads, scale; a row's groups scaled to unit length; the logit update) are each proved once, over
  arbitrary arrays that agree pointwise with given functions, and used for both rounds. The arithmetic is that of the
  extended reals; only commutativity-free rewriting is used: a scatter's initial zero is dropped by 0 + x = x, and
  the products stand in the same order in the program and in the specification. The index arrays are assumed to name
  nodes, under which the printed wrap of a negative index is the identity.
-/
import proofs.«418341_j39728447488527_3_alg».proof.Proof.Gen.ReferenceIdeal.Run
import proofs.«418341_j39728447488527_3_alg».proof.Proof.RHostOps
import proofs.«418341_j39728447488527_3_alg».proof.Proof.OneHot
import proofs.«418341_j39728447488527_3_alg».proof.Proof.Inputs
import Idealize.ShloMosaic.Lib.ValueIdx
import Idealize.ShloMosaic.Lib.Pipeline.Value

noncomputable section

namespace Cert.ReferenceIdeal.RefVal

open Idealize.ShloMosaic Idealize.ShloMosaic.ValueIdx Cert.ReferenceIdeal Cert.ReferenceIdeal.Gen Cert.ReferenceIdeal.Value Cert.Routing

/-! ### The launch arguments, typed -/

abbrev rarg0 (V0 : Valuation τ sig (Elt Ideal)) : FVec Ideal S30000x64 .f32 := V0 (Proc.devRef .tc main_arg0)
abbrev rarg1 (V0 : Valuation τ sig (Elt Ideal)) : FVec Ideal S30000x64 .f32 := V0 (Proc.devRef .tc main_arg1)
abbrev rarg2 (V0 : Valuation τ sig (Elt Ideal)) : IVec S800000 32 := V0 (Proc.devRef .tc main_arg2)
abbrev rarg3 (V0 : Valuation τ sig (Elt Ideal)) : IVec S800000 32 := V0 (Proc.devRef .tc main_arg3)

/-- The stacked feature table, the heads and the tails of the launch contents. -/
abbrev rx (V0 : Valuation τ sig (Elt Ideal)) : Fin 60000 → Fin 64 → EReal := feats (rarg0 V0) (rarg1 V0)
abbrev reh (V0 : Valuation τ sig (Elt Ideal)) : Fin 800000 → Fin 60000 := node (rarg2 V0)
abbrev ret (V0 : Valuation τ sig (Elt Ideal)) : Fin 800000 → Fin 60000 := node (rarg3 V0)

variable (V0 : Valuation τ sig (Elt Ideal))

theorem res_v0_apply (n : Fin 60000) (k : Fin 64) : res_main_v0 V0 (ix2 n k) = rx V0 n k := by
  unfold res_main_v0
  exact stack_apply _ _ n k

theorem res_v3_apply (i : Fin 4) (n : Fin 60000) (d : Fin 16) : res_main_v3 V0 (ix3 i n d) = rx V0 n (chan i d) := by
  unfold res_main_v3
  exact (split_apply (res_main_v0 V0) i n d).trans (res_v0_apply V0 n (chan i d))

theorem res_v1_apply (i : Fin 4) (e : Fin 800000) : res_main_v1 V0 (ix2 i e) = A1 e i := rfl

theorem res_v14_eq : res_main_v14 V0 = softCols (res_main_v1 V0) := by
  unfold res_main_v14 res_main_v10 softCols
  rfl

theorem res_v14_apply (i : Fin 4) (e : Fin 800000) : res_main_v14 V0 (ix2 i e) = S1 e i := by
  rw [res_v14_eq, soft_apply]
  have h : (fun e i => res_main_v1 V0 (ix2 i e)) = A1 := funext fun e => funext fun i => res_v1_apply V0 i e
  rw [h]
  rfl

/-! ### Broadcasts read at an index -/

/-- A splat scalar broadcast to any shape reads the scalar's word. -/
theorem bcast0_apply {t : Shape} (h : S_.BroadcastsInDim t (![] : Fin 0 → Fin t.rank)) (w : BitVec 32) (j : t.Idx) :
    broadcastInDim t ![] h (constant (F := Ideal) S_ .f32 w) j = Ideal.ofBits .f32 w := rfl

/-- The host's quotient, root, exponential and hyperbolic tangent read at an index. -/
theorem hdivf_apply {s : Shape} (a b : FVec Ideal s .f32) (j : s.Idx) : Host.divf a b j = Ideal.div (a j) (b j) := rfl
theorem hsqrt_apply {s : Shape} (a : FVec Ideal s .f32) (j : s.Idx) : Host.sqrt a j = Ideal.sqrt (a j) := rfl
theorem htanh_apply {s : Shape} (a : FVec Ideal s .f32) (j : s.Idx) : Host.tanh a j = Ideal.tanh (a j) := rfl

/-- A per-(group, node) value with a unit axis appended, read at offset zero. -/
theorem bcN1_apply (D : FVec Ideal S4x60000 .f32) (i : Fin 4) (n : Fin 60000) (z : Fin 1) :
    broadcastInDim S4x60000x1 ![0, 1] bcast_S4x60000_S4x60000x1_0_1 D (ix3 i n z) = D (ix2 i n) :=
  broadcastInDim_apply _ _ D (ix3 i n z) (ix2 i n) (fun a => match a with | ⟨0, _⟩ => rfl | ⟨1, _⟩ => rfl)

/-- The unit axis stretched to the sixteen offsets. -/
theorem bcN16_apply (Y : FVec Ideal S4x60000x1 .f32) (i : Fin 4) (n : Fin 60000) (d : Fin 16) :
    broadcastInDim S4x60000x16 ![0, 1, 2] bcast_S4x60000x1_S4x60000x16_0_1_2 Y (ix3 i n d) = Y (ix3 i n 0) :=
  broadcastInDim_apply _ _ Y (ix3 i n d) (ix3 i n 0) (fun a => match a with | ⟨0, _⟩ => rfl | ⟨1, _⟩ => rfl | ⟨2, _⟩ => rfl)

theorem bcE1_apply (D : FVec Ideal S4x800000 .f32) (i : Fin 4) (e : Fin 800000) (z : Fin 1) :
    broadcastInDim S4x800000x1 ![0, 1] bcast_S4x800000_S4x800000x1_0_1 D (ix3 i e z) = D (ix2 i e) :=
  broadcastInDim_apply _ _ D (ix3 i e z) (ix2 i e) (fun a => match a with | ⟨0, _⟩ => rfl | ⟨1, _⟩ => rfl)

theorem bcE16_apply (Y : FVec Ideal S4x800000x1 .f32) (i : Fin 4) (e : Fin 800000) (d : Fin 16) :
    broadcastInDim S4x800000x16 ![0, 1, 2] bcast_S4x800000x1_S4x800000x16_0_1_2 Y (ix3 i e d) = Y (ix3 i e 0) :=
  broadcastInDim_apply _ _ Y (ix3 i e d) (ix3 i e 0) (fun a => match a with | ⟨0, _⟩ => rfl | ⟨1, _⟩ => rfl | ⟨2, _⟩ => rfl)

/-! ### The normaliser, once for any weights -/

/-- One over the square root of the weights summed at the heads. -/
def normOf (v : IVec S800000 32) (S : FVec Ideal S4x800000 .f32) : FVec Ideal S4x60000 .f32 :=
  Host.divf (broadcastInDim S4x60000 ![] bcast_S_S4x60000 (constant S_ .f32 0x3F800000#32)) (Host.sqrt (Host.scatterAdd scatter_S4x60000_S800000x1_S4x800000_0_1_1_1 (broadcastInDim S4x60000 ![] bcast_S_S4x60000 (constant S_ .f32 0x00000000#32)) (broadcastInDim S800000x1 ![0] bcast_S800000_S800000x1_0 (wrapIdx v)) S))

theorem normOf_apply (v : IVec S800000 32) (hv : InRange v) (S : FVec Ideal S4x800000 .f32) (S' : Fin 800000 → Fin 4 → EReal)
    (hS : ∀ i e, S (ix2 i e) = S' e i) (i : Fin 4) (n : Fin 60000) :
    normOf v S (ix2 i n) = dinv (node v) S' n i := by
  unfold normOf
  rw [wrap_eq v hv]
  rw [hdivf_apply, hsqrt_apply, bcast0_apply, scatter2_apply _ v hv S i n, bcast0_apply, zero32, zero_add]
  unfold dinv deg one32
  exact congrArg (fun t => Ideal.div _ (Ideal.sqrt t)) (Finset.sum_congr rfl fun e _ => hS i e)

theorem res_v25_eq : res_main_v25 V0 = normOf (rarg2 V0) (res_main_v14 V0) := by
  unfold res_main_v25 normOf wrapIdx
  rfl

theorem res_v25_apply (h2 : InRange (rarg2 V0)) (i : Fin 4) (n : Fin 60000) :
    res_main_v25 V0 (ix2 i n) = dinv (reh V0) Routing.S1 n i := by
  rw [res_v25_eq]
  exact normOf_apply (rarg2 V0) h2 _ _ (res_v14_apply V0) i n

/-! ### One round's features, once for any normaliser and weights -/

/-- The normaliser stretched over the sixteen offsets of a group. -/
def nbc (D : FVec Ideal S4x60000 .f32) : FVec Ideal S4x60000x16 .f32 :=
  broadcastInDim S4x60000x16 ![0, 1, 2] bcast_S4x60000x1_S4x60000x16_0_1_2 (broadcastInDim S4x60000x1 ![0, 1] bcast_S4x60000_S4x60000x1_0_1 D)

/-- The edge weights stretched over the sixteen offsets of a group. -/
def ebc (S : FVec Ideal S4x800000 .f32) : FVec Ideal S4x800000x16 .f32 :=
  broadcastInDim S4x800000x16 ![0, 1, 2] bcast_S4x800000x1_S4x800000x16_0_1_2 (broadcastInDim S4x800000x1 ![0, 1] bcast_S4x800000_S4x800000x1_0_1 S)

theorem nbc_apply (D : FVec Ideal S4x60000 .f32) (i : Fin 4) (n : Fin 60000) (d : Fin 16) : nbc D (ix3 i n d) = D (ix2 i n) := by
  unfold nbc
  rw [bcN16_apply, bcN1_apply]

theorem ebc_apply (S : FVec Ideal S4x800000 .f32) (i : Fin 4) (e : Fin 800000) (d : Fin 16) : ebc S (ix3 i e d) = S (ix2 i e) := by
  unfold ebc
  rw [bcE16_apply, bcE1_apply]

/-- Scale by the normaliser, gather at the tails, weight, sum at the heads, scale again. -/
def featOf (v2 v3 : IVec S800000 32) (D : FVec Ideal S4x60000 .f32) (S : FVec Ideal S4x800000 .f32) (X : FVec Ideal S4x60000x16 .f32) :
    FVec Ideal S4x60000x16 .f32 :=
  mulf (nbc D) (Host.scatterAdd scatter_S4x60000x16_S800000x1_S4x800000x16_02_1_1_1 (broadcastInDim S4x60000x16 ![] bcast_S_S4x60000x16 (constant S_ .f32 0x00000000#32)) (broadcastInDim S800000x1 ![0] bcast_S800000_S800000x1_0 (wrapIdx v2)) (mulf (ebc S) (Host.gather gather_S4x60000x16_S800000x1_S4x800000x16_02_1_n_n_1_1_4116 (mulf (nbc D) X) (broadcastInDim S800000x1 ![0] bcast_S800000_S800000x1_0 (wrapIdx v3)))))

theorem featOf_apply (v2 v3 : IVec S800000 32) (h2 : InRange v2) (h3 : InRange v3) (D : FVec Ideal S4x60000 .f32)
    (S : FVec Ideal S4x800000 .f32) (X : FVec Ideal S4x60000x16 .f32) (x : Fin 60000 → Fin 64 → EReal) (S' : Fin 800000 → Fin 4 → EReal)
    (hD : ∀ i n, D (ix2 i n) = dinv (node v2) S' n i) (hS : ∀ i e, S (ix2 i e) = S' e i)
    (hX : ∀ i n d, X (ix3 i n d) = x n (chan i d)) (i : Fin 4) (n : Fin 60000) (d : Fin 16) :
    featOf v2 v3 D S X (ix3 i n d) = feat x (node v2) (node v3) S' n (chan i d) := by
  unfold featOf
  rw [wrap_eq v2 h2, wrap_eq v3 h3, mulf_apply, scatter3_apply _ v2 h2 _ i n d, bcast0_apply, zero32, zero_add, nbc_apply, hD]
  unfold feat gathered
  rw [grp_chan]
  refine congrArg (fun t => dinv (node v2) S' n i * t) (Finset.sum_congr rfl fun e _ => ?_)
  rw [mulf_apply, ebc_apply, hS, gather3_apply _ v3 h3 i e d, mulf_apply, nbc_apply, hD, hX]
  unfold msg scaled
  rw [grp_chan]

theorem res_v56_eq : res_main_v56 V0 = Host.gather gather_S4x60000x16_S800000x1_S4x800000x16_02_1_n_n_1_1_4116
    (featOf (rarg2 V0) (rarg3 V0) (res_main_v25 V0) (res_main_v14 V0) (res_main_v3 V0))
    (broadcastInDim S800000x1 ![0] bcast_S800000_S800000x1_0 (wrapIdx (rarg2 V0))) := by
  unfold res_main_v56 featOf nbc ebc wrapIdx
  rfl

theorem res_v56_apply (h2 : InRange (rarg2 V0)) (h3 : InRange (rarg3 V0)) (i : Fin 4) (e : Fin 800000) (d : Fin 16) :
    res_main_v56 V0 (ix3 i e d) = feat (rx V0) (reh V0) (ret V0) Routing.S1 (reh V0 e) (chan i d) := by
  rw [res_v56_eq, wrap_eq _ h2, gather3_apply _ _ h2 i e d]
  exact featOf_apply (rarg2 V0) (rarg3 V0) h2 h3 _ _ _ (rx V0) Routing.S1 (res_v25_apply V0 h2) (res_v14_apply V0) (res_v3_apply V0) i _ d

theorem res_v71_eq : res_main_v71 V0 = Host.gather gather_S4x60000x16_S800000x1_S4x800000x16_02_1_n_n_1_1_4116 (res_main_v3 V0)
    (broadcastInDim S800000x1 ![0] bcast_S800000_S800000x1_0 (wrapIdx (rarg3 V0))) := by
  unfold res_main_v71 wrapIdx
  rfl

theorem res_v71_apply (h3 : InRange (rarg3 V0)) (i : Fin 4) (e : Fin 800000) (d : Fin 16) :
    res_main_v71 V0 (ix3 i e d) = rx V0 (ret V0 e) (chan i d) := by
  rw [res_v71_eq, wrap_eq _ h3, gather3_apply _ _ h3 i e d]
  exact res_v3_apply V0 i _ d

/-! ### Rows scaled to unit length per group, and the logit update -/

/-- Each group of sixteen entries divided by the root of its sum of squares, floored. -/
def unitOf (Y : FVec Ideal S4x800000x16 .f32) : FVec Ideal S4x800000x16 .f32 :=
  Host.divf Y (broadcastInDim S4x800000x16 ![0, 1, 2] bcast_S4x800000x1_S4x800000x16_0_1_2 (Host.sqrt (maximumf (broadcastInDim S4x800000x1 ![0, 1] bcast_S4x800000_S4x800000x1_0_1 (Host.reduceAdd (mulf Y Y) (constant S_ .f32 0x00000000#32) reducesTo_S4x800000x16_S4x800000_d2 h_S_)) (broadcastInDim S4x800000x1 ![] bcast_S_S4x800000x1 (constant S_ .f32 0x2B8CBCCC#32)))))

theorem unitOf_apply (Y : FVec Ideal S4x800000x16 .f32) (v : Fin 800000 → Fin 64 → EReal)
    (hY : ∀ i e d, Y (ix3 i e d) = v e (chan i d)) (i : Fin 4) (e : Fin 800000) (d : Fin 16) :
    unitOf Y (ix3 i e d) = unit (v e) (chan i d) := by
  unfold unitOf
  rw [hdivf_apply, bcE16_apply, hsqrt_apply, maximumf_apply, bcE1_apply, bcast0_apply, rowsum16_apply, hY]
  unfold unit eps32
  rw [grp_chan]
  refine congrArg (fun t => Ideal.div (v e (chan i d)) (Ideal.sqrt (max t _))) (Finset.sum_congr rfl fun d' _ => ?_)
  rw [mulf_apply, hY]

/-- The logits plus the per-group inner product of the unit head features with the squashed unit tail features. -/
def logitOf (A : FVec Ideal S4x800000 .f32) (P Q : FVec Ideal S4x800000x16 .f32) : FVec Ideal S4x800000 .f32 :=
  addf A (Host.reduceAdd (mulf (unitOf P) (Host.tanh (unitOf Q))) (constant S_ .f32 0x00000000#32) reducesTo_S4x800000x16_S4x800000_d2 h_S_)

theorem logitOf_apply (A : FVec Ideal S4x800000 .f32) (P Q : FVec Ideal S4x800000x16 .f32) (A' : Fin 800000 → Fin 4 → EReal)
    (p q : Fin 800000 → Fin 64 → EReal) (hA : ∀ i e, A (ix2 i e) = A' e i) (hP : ∀ i e d, P (ix3 i e d) = p e (chan i d))
    (hQ : ∀ i e d, Q (ix3 i e d) = q e (chan i d)) (i : Fin 4) (e : Fin 800000) :
    logitOf A P Q (ix2 i e) = A' e i + ∑ d : Fin 16, unit (p e) (chan i d) * Ideal.tanh (unit (q e) (chan i d)) := by
  unfold logitOf
  rw [addf_apply, hA, rowsum16_apply]
  refine congrArg (fun t => A' e i + t) (Finset.sum_congr rfl fun d _ => ?_)
  rw [mulf_apply, htanh_apply, unitOf_apply P p hP, unitOf_apply Q q hQ]

theorem res_v83_eq : res_main_v83 V0 = logitOf (res_main_v1 V0) (res_main_v56 V0) (res_main_v71 V0) := by
  unfold res_main_v83 logitOf unitOf
  rfl

theorem res_v83_apply (h2 : InRange (rarg2 V0)) (h3 : InRange (rarg3 V0)) (i : Fin 4) (e : Fin 800000) :
    res_main_v83 V0 (ix2 i e) = Routing.A2 (rx V0) (reh V0) (ret V0) e i := by
  rw [res_v83_eq]
  exact logitOf_apply _ _ _ Routing.A1 (fun e => feat (rx V0) (reh V0) (ret V0) Routing.S1 (reh V0 e)) (fun e => rx V0 (ret V0 e))
    (res_v1_apply V0) (res_v56_apply V0 h2 h3) (res_v71_apply V0 h3) i e

theorem res_v94_eq : res_main_v94 V0 = softCols (res_main_v83 V0) := by
  unfold res_main_v94 res_main_v90 softCols
  rfl

theorem res_v94_apply (h2 : InRange (rarg2 V0)) (h3 : InRange (rarg3 V0)) (i : Fin 4) (e : Fin 800000) :
    res_main_v94 V0 (ix2 i e) = Routing.S2 (rx V0) (reh V0) (ret V0) e i := by
  rw [res_v94_eq, soft_apply]
  have h : (fun e i => res_main_v83 V0 (ix2 i e)) = Routing.A2 (rx V0) (reh V0) (ret V0) :=
    funext fun e => funext fun i => res_v83_apply V0 h2 h3 i e
  rw [h]
  rfl

theorem res_v105_eq : res_main_v105 V0 = normOf (rarg2 V0) (res_main_v94 V0) := by
  unfold res_main_v105 normOf wrapIdx
  rfl

theorem res_v105_apply (h2 : InRange (rarg2 V0)) (h3 : InRange (rarg3 V0)) (i : Fin 4) (n : Fin 60000) :
    res_main_v105 V0 (ix2 i n) = dinv (reh V0) (Routing.S2 (rx V0) (reh V0) (ret V0)) n i := by
  rw [res_v105_eq]
  exact normOf_apply (rarg2 V0) h2 _ _ (res_v94_apply V0 h2 h3) i n

theorem res_v129_eq : res_main_v129 V0 = featOf (rarg2 V0) (rarg3 V0) (res_main_v105 V0) (res_main_v94 V0) (res_main_v3 V0) := by
  unfold res_main_v129 featOf nbc ebc wrapIdx
  rfl

theorem res_v129_apply (h2 : InRange (rarg2 V0)) (h3 : InRange (rarg3 V0)) (i : Fin 4) (n : Fin 60000) (d : Fin 16) :
    res_main_v129 V0 (ix3 i n d) = feat (rx V0) (reh V0) (ret V0) (Routing.S2 (rx V0) (reh V0) (ret V0)) n (chan i d) := by
  rw [res_v129_eq]
  exact featOf_apply (rarg2 V0) (rarg3 V0) h2 h3 _ _ _ (rx V0) _ (res_v105_apply V0 h2 h3) (res_v94_apply V0 h2 h3) (res_v3_apply V0) i n d

/-- Every channel is an offset of its group. -/
theorem chan_grp (k : Fin 64) : chan (grp k) ⟨k.val % 16, Nat.mod_lt _ (by decide)⟩ = k := chanEquiv.right_inv k

theorem res_v171_apply (h2 : InRange (rarg2 V0)) (h3 : InRange (rarg3 V0)) (n : Fin 60000) (k : Fin 64) :
    res_main_v171 V0 (ix2 n k) = result (rx V0) (reh V0) (ret V0) n k := by
  unfold res_main_v171
  rw [mean2_apply, res_v0_apply]
  unfold result
  refine congrArg (fun t => (rx V0 n k + t) * half32) ?_
  conv_lhs => rw [← chan_grp k]
  rw [merge_apply, res_v129_apply V0 h2 h3, chan_grp]

theorem ref_lo (h2 : InRange (rarg2 V0)) (h3 : InRange (rarg3 V0)) (r : Fin 30000) (k : Fin 64) :
    extractStridedSlice S30000x64 ![0, 0] (res_main_v171 V0) slices_S60000x64_S30000x64_0_0 (ix2 r k)
      = result (rx V0) (reh V0) (ret V0) ⟨r.val, by omega⟩ k := by
  rw [slice_lo_apply]
  exact res_v171_apply V0 h2 h3 _ k

theorem ref_hi (h2 : InRange (rarg2 V0)) (h3 : InRange (rarg3 V0)) (r : Fin 30000) (k : Fin 64) :
    extractStridedSlice S30000x64 ![30000, 0] (res_main_v171 V0) slices_S60000x64_S30000x64_30000_0 (ix2 r k)
      = result (rx V0) (reh V0) (ret V0) ⟨30000 + r.val, by omega⟩ k := by
  rw [slice_hi_apply]
  exact res_v171_apply V0 h2 h3 _ k

end Cert.ReferenceIdeal.RefVal

end
-- ==== Proof.RoundAlgebra.lean ====
/-
  From the equations each stage of the kernel program satisfies to the specification.

  The kernel program produces its arrays stage by stage: edge weights by a softmax; a normaliser from a sum over
  the edges at each head; node features scaled through a contraction with the 0/1 group matrix; rows fetched at
  the tails; messages; their sums at the heads; features; rows fetched at heads and tails; the logit update.
  Here the stages are arbitrary arrays over plain coordinates that satisfy those equations, and the conclusion is
  that they are the specification's `soft`, `dinv`, `scaled`, `msg`, `gathered`, `feat`, `bump` and `result`.
  The only algebra is the contraction with the 0/1 matrix (`sum_mul_oh_grp`), which picks the value of a channel's
  own group.
-/
import proofs.«418341_j39728447488527_3_alg».proof.Proof.OneHot

noncomputable section

namespace Cert.Routing

open Idealize.ShloMosaic

variable (x : Fin 60000 → Fin 64 → EReal) (eh et : Fin 800000 → Fin 60000)

/-- One round, from weights `s` that are the specification's `S`, to the features. -/
theorem round_feat (S s : Fin 800000 → Fin 4 → EReal) (d : Fin 60000 → Fin 4 → EReal)
    (y : Fin 60000 → Fin 64 → EReal) (yt mm : Fin 800000 → Fin 64 → EReal) (zr z : Fin 60000 → Fin 64 → EReal)
    (hs : ∀ e i, s e i = S e i)
    (hd : ∀ n i, d n i = Ideal.div one32 (Ideal.sqrt (∑ e ∈ Finset.univ.filter (fun e => eh e = n), s e i)))
    (hy : ∀ n k, y n k = (∑ i : Fin 4, d n i * oh k i) * x n k)
    (hyt : ∀ e k, yt e k = y (et e) k)
    (hm : ∀ e k, mm e k = (∑ i : Fin 4, s e i * oh k i) * yt e k)
    (hzr : ∀ n k, zr n k = ∑ e ∈ Finset.univ.filter (fun e => eh e = n), mm e k)
    (hz : ∀ n k, z n k = (∑ i : Fin 4, d n i * oh k i) * zr n k) :
    (∀ n i, d n i = dinv eh S n i) ∧ ∀ n k, z n k = feat x eh et S n k := by
  have hd' : ∀ n i, d n i = dinv eh S n i := fun n i => by
    rw [hd n i]
    unfold dinv deg
    exact congrArg (fun t => Ideal.div one32 (Ideal.sqrt t)) (Finset.sum_congr rfl fun e _ => hs e i)
  have hy' : ∀ n k, y n k = scaled x eh S n k := fun n k => by
    rw [hy n k, sum_mul_oh_grp (fun i => d n i) k, hd' n (grp k)]
    rfl
  have hm' : ∀ e k, mm e k = msg x eh et S e k := fun e k => by
    rw [hm e k, sum_mul_oh_grp (fun i => s e i) k, hs e (grp k), hyt e k, hy' (et e) k]
    rfl
  have hzr' : ∀ n k, zr n k = gathered x eh et S n k := fun n k => by
    rw [hzr n k]
    unfold gathered
    exact Finset.sum_congr rfl fun e _ => hm' e k
  refine ⟨hd', fun n k => ?_⟩
  rw [hz n k, sum_mul_oh_grp (fun i => d n i) k, hd' n (grp k), hzr' n k]
  rfl

/-- The logit update from the rows fetched at the heads and tails. -/
theorem bump_of (S : Fin 800000 → Fin 4 → EReal) (z : Fin 60000 → Fin 64 → EReal)
    (zh xt : Fin 800000 → Fin 64 → EReal) (da : Fin 800000 → Fin 4 → EReal)
    (hz : ∀ n k, z n k = feat x eh et S n k)
    (hzh : ∀ e k, zh e k = z (eh e) k) (hxt : ∀ e k, xt e k = x (et e) k)
    (hda : ∀ e i, da e i = ∑ d : Fin 16, unit (zh e) (chan i d) * Ideal.tanh (unit (xt e) (chan i d))) :
    ∀ e i, da e i = bump x eh et S e i := fun e i => by
  have h1 : zh e = feat x eh et S (eh e) := funext fun k => (hzh e k).trans (hz (eh e) k)
  have h2 : xt e = x (et e) := funext fun k => hxt e k
  rw [hda e i, h1, h2]
  rfl

/-- Both rounds and the final mean. -/
theorem result_of
    (s1 : Fin 800000 → Fin 4 → EReal) (d1 : Fin 60000 → Fin 4 → EReal) (y1 : Fin 60000 → Fin 64 → EReal)
    (yt1 m1 : Fin 800000 → Fin 64 → EReal) (zr1 z1 : Fin 60000 → Fin 64 → EReal)
    (zh1 xt1 : Fin 800000 → Fin 64 → EReal) (da a2 : Fin 800000 → Fin 4 → EReal)
    (s2 : Fin 800000 → Fin 4 → EReal) (d2 : Fin 60000 → Fin 4 → EReal) (y2 : Fin 60000 → Fin 64 → EReal)
    (yt2 m2 : Fin 800000 → Fin 64 → EReal) (zr2 z2 : Fin 60000 → Fin 64 → EReal)
    (o : Fin 60000 → Fin 64 → EReal)
    (hs1 : ∀ e i, s1 e i = soft (fun _ _ => one32) e i)
    (hd1 : ∀ n i, d1 n i = Ideal.div one32 (Ideal.sqrt (∑ e ∈ Finset.univ.filter (fun e => eh e = n), s1 e i)))
    (hy1 : ∀ n k, y1 n k = (∑ i : Fin 4, d1 n i * oh k i) * x n k)
    (hyt1 : ∀ e k, yt1 e k = y1 (et e) k)
    (hm1 : ∀ e k, m1 e k = (∑ i : Fin 4, s1 e i * oh k i) * yt1 e k)
    (hzr1 : ∀ n k, zr1 n k = ∑ e ∈ Finset.univ.filter (fun e => eh e = n), m1 e k)
    (hz1 : ∀ n k, z1 n k = (∑ i : Fin 4, d1 n i * oh k i) * zr1 n k)
    (hzh1 : ∀ e k, zh1 e k = z1 (eh e) k) (hxt1 : ∀ e k, xt1 e k = x (et e) k)
    (hda : ∀ e i, da e i = ∑ d : Fin 16, unit (zh1 e) (chan i d) * Ideal.tanh (unit (xt1 e) (chan i d)))
    (ha2 : ∀ e i, a2 e i = one32 + da e i)
    (hs2 : ∀ e i, s2 e i = soft a2 e i)
    (hd2 : ∀ n i, d2 n i = Ideal.div one32 (Ideal.sqrt (∑ e ∈ Finset.univ.filter (fun e => eh e = n), s2 e i)))
    (hy2 : ∀ n k, y2 n k = (∑ i : Fin 4, d2 n i * oh k i) * x n k)
    (hyt2 : ∀ e k, yt2 e k = y2 (et e) k)
    (hm2 : ∀ e k, m2 e k = (∑ i : Fin 4, s2 e i * oh k i) * yt2 e k)
    (hzr2 : ∀ n k, zr2 n k = ∑ e ∈ Finset.univ.filter (fun e => eh e = n), m2 e k)
    (hz2 : ∀ n k, z2 n k = (∑ i : Fin 4, d2 n i * oh k i) * zr2 n k)
    (ho : ∀ n k, o n k = (x n k + z2 n k) * half32) :
    ∀ n k, o n k = result x eh et n k := by
  have r1 := round_feat x eh et S1 s1 d1 y1 yt1 m1 zr1 z1 hs1 hd1 hy1 hyt1 hm1 hzr1 hz1
  have hb := bump_of x eh et S1 z1 zh1 xt1 da r1.2 hzh1 hxt1 hda
  have ha : a2 = A2 x eh et := funext fun e => funext fun i => by
    rw [ha2 e i, hb e i]; rfl
  have hs2' : ∀ e i, s2 e i = S2 x eh et e i := fun e i => by
    rw [hs2 e i, ha]; rfl
  have r2 := round_feat x eh et (S2 x eh et) s2 d2 y2 yt2 m2 zr2 z2 hs2' hd2 hy2 hyt2 hm2 hzr2 hz2
  intro n k
  rw [ho n k, r2.2 n k]
  rfl

end Cert.Routing

end
-- ==== Proof.KBufs.lean ====
/-
  Names for the arrays the kernel program holds at the boundaries between its host stretches and its pallas_call
  regions. `B<k>_<buffer>` is buffer `main_<buffer>` as core `c` holds it at boundary `k` of the generated run
  (`Gen.W<k>`), typed as an array of its literal shape over the extended reals; `arg0 … arg3` are the four
  argument arrays as launched.
-/
import proofs.«418341_j39728447488527_3_alg».proof.Proof.Gen.KernelIdeal.Frame
import proofs.«418341_j39728447488527_3_alg».proof.Proof.Inputs

noncomputable section

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The argument arrays as launched. -/
abbrev arg0 (c : Dev nD) : FVec Ideal S30000x64 .f32 := m ((c.tc : Thread nD τ).loc main_arg0)
abbrev arg1 (c : Dev nD) : FVec Ideal S30000x64 .f32 := m ((c.tc : Thread nD τ).loc main_arg1)
abbrev arg2 (c : Dev nD) : IVec S800000 32 := m ((c.tc : Thread nD τ).loc main_arg2)
abbrev arg3 (c : Dev nD) : IVec S800000 32 := m ((c.tc : Thread nD τ).loc main_arg3)

abbrev B4_v0 (c : Dev nD) : FVec Ideal S60000x64 .f32 := W4 m ρ c (Proc.devRef .tc main_v0)
abbrev B4_v3 (c : Dev nD) : FVec Ideal S64x4 .f32 := W4 m ρ c (Proc.devRef .tc main_v3)
abbrev B4_v4 (c : Dev nD) : FVec Ideal S4x64 .f32 := W4 m ρ c (Proc.devRef .tc main_v4)
abbrev B4_v5 (c : Dev nD) : FVec Ideal S800000x4 .f32 := W4 m ρ c (Proc.devRef .tc main_v5)
abbrev B5_v6 (c : Dev nD) : FVec Ideal S800000x4 .f32 := W5 m ρ c (Proc.devRef .tc main_v6)
abbrev B6_v17 (c : Dev nD) : FVec Ideal S60000x4 .f32 := W6 m ρ c (Proc.devRef .tc main_v17)
abbrev B6_v0 (c : Dev nD) : FVec Ideal S60000x64 .f32 := W6 m ρ c (Proc.devRef .tc main_v0)
abbrev B6_v4 (c : Dev nD) : FVec Ideal S4x64 .f32 := W6 m ρ c (Proc.devRef .tc main_v4)
abbrev B7_v18 (c : Dev nD) : FVec Ideal S60000x64 .f32 := W7 m ρ c (Proc.devRef .tc main_v18)
abbrev B8_v6 (c : Dev nD) : FVec Ideal S800000x4 .f32 := W8 m ρ c (Proc.devRef .tc main_v6)
abbrev B8_v19 (c : Dev nD) : FVec Ideal S800000x64 .f32 := W8 m ρ c (Proc.devRef .tc main_v19)
abbrev B8_v4 (c : Dev nD) : FVec Ideal S4x64 .f32 := W8 m ρ c (Proc.devRef .tc main_v4)
abbrev B9_v20 (c : Dev nD) : FVec Ideal S800000x64 .f32 := W9 m ρ c (Proc.devRef .tc main_v20)
abbrev B10_v17 (c : Dev nD) : FVec Ideal S60000x4 .f32 := W10 m ρ c (Proc.devRef .tc main_v17)
abbrev B10_v28 (c : Dev nD) : FVec Ideal S60000x64 .f32 := W10 m ρ c (Proc.devRef .tc main_v28)
abbrev B10_v4 (c : Dev nD) : FVec Ideal S4x64 .f32 := W10 m ρ c (Proc.devRef .tc main_v4)
abbrev B11_v29 (c : Dev nD) : FVec Ideal S60000x64 .f32 := W11 m ρ c (Proc.devRef .tc main_v29)
abbrev B11_v0 (c : Dev nD) : FVec Ideal S60000x64 .f32 := W11 m ρ c (Proc.devRef .tc main_v0)
abbrev B13_v30 (c : Dev nD) : FVec Ideal S800000x64 .f32 := W13 m ρ c (Proc.devRef .tc main_v30)
abbrev B13_v31 (c : Dev nD) : FVec Ideal S800000x64 .f32 := W13 m ρ c (Proc.devRef .tc main_v31)
abbrev B13_v3 (c : Dev nD) : FVec Ideal S64x4 .f32 := W13 m ρ c (Proc.devRef .tc main_v3)
abbrev B13_v4 (c : Dev nD) : FVec Ideal S4x64 .f32 := W13 m ρ c (Proc.devRef .tc main_v4)
abbrev B14_v32 (c : Dev nD) : FVec Ideal S800000x4 .f32 := W14 m ρ c (Proc.devRef .tc main_v32)
abbrev B14_v5 (c : Dev nD) : FVec Ideal S800000x4 .f32 := W14 m ρ c (Proc.devRef .tc main_v5)
abbrev B15_v33 (c : Dev nD) : FVec Ideal S800000x4 .f32 := W15 m ρ c (Proc.devRef .tc main_v33)
abbrev B16_v34 (c : Dev nD) : FVec Ideal S800000x4 .f32 := W16 m ρ c (Proc.devRef .tc main_v34)
abbrev B17_v45 (c : Dev nD) : FVec Ideal S60000x4 .f32 := W17 m ρ c (Proc.devRef .tc main_v45)
abbrev B17_v0 (c : Dev nD) : FVec Ideal S60000x64 .f32 := W17 m ρ c (Proc.devRef .tc main_v0)
abbrev B17_v4 (c : Dev nD) : FVec Ideal S4x64 .f32 := W17 m ρ c (Proc.devRef .tc main_v4)
abbrev B18_v46 (c : Dev nD) : FVec Ideal S60000x64 .f32 := W18 m ρ c (Proc.devRef .tc main_v46)
abbrev B19_v34 (c : Dev nD) : FVec Ideal S800000x4 .f32 := W19 m ρ c (Proc.devRef .tc main_v34)
abbrev B19_v47 (c : Dev nD) : FVec Ideal S800000x64 .f32 := W19 m ρ c (Proc.devRef .tc main_v47)
abbrev B19_v4 (c : Dev nD) : FVec Ideal S4x64 .f32 := W19 m ρ c (Proc.devRef .tc main_v4)
abbrev B20_v48 (c : Dev nD) : FVec Ideal S800000x64 .f32 := W20 m ρ c (Proc.devRef .tc main_v48)
abbrev B21_v45 (c : Dev nD) : FVec Ideal S60000x4 .f32 := W21 m ρ c (Proc.devRef .tc main_v45)
abbrev B21_v56 (c : Dev nD) : FVec Ideal S60000x64 .f32 := W21 m ρ c (Proc.devRef .tc main_v56)
abbrev B21_v4 (c : Dev nD) : FVec Ideal S4x64 .f32 := W21 m ρ c (Proc.devRef .tc main_v4)
abbrev B22_v57 (c : Dev nD) : FVec Ideal S60000x64 .f32 := W22 m ρ c (Proc.devRef .tc main_v57)
abbrev B26_v0 (c : Dev nD) : FVec Ideal S60000x64 .f32 := W26 m ρ c (Proc.devRef .tc main_v0)
abbrev B26_v57 (c : Dev nD) : FVec Ideal S60000x64 .f32 := W26 m ρ c (Proc.devRef .tc main_v57)
abbrev B27_v62 (c : Dev nD) : FVec Ideal S60000x64 .f32 := W27 m ρ c (Proc.devRef .tc main_v62)
abbrev B28_v63 (c : Dev nD) : FVec Ideal S30000x64 .f32 := W28 m ρ c (Proc.devRef .tc main_v63)
abbrev B28_v64 (c : Dev nD) : FVec Ideal S30000x64 .f32 := W28 m ρ c (Proc.devRef .tc main_v64)

end Cert.KernelIdeal.Val

end
-- ==== Proof.KKeepA.lean ====
/-
  The two index argument arrays of the kernel program are never written: no host operation's result is one of
  them and no region has one among its arrays. So at every boundary of the run each still holds what it was
  launched with. One equation per boundary step, chained from the launch.
-/
import proofs.«418341_j39728447488527_3_alg».proof.Proof.KBufs

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-- A host stretch none of whose operations writes the buffer leaves the buffer's contents as they were:
    the stretch's operation list is unfolded and each operation's written buffer is told apart from ours. -/
local macro "host_keep " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## `main_arg2`: as launched at every boundary up to 20 -/

/-- No operation of the stretch before boundary 1 writes `main_arg2`. -/
theorem step1_arg2 (c : Dev nD) :
    W1 m ρ c (Proc.devRef .tc main_arg2) = W0 m ρ c (Proc.devRef .tc main_arg2) :=
  host_keep hostOps0 main_arg2

/-- No operation of the stretch before boundary 2 writes `main_arg2`. -/
theorem step2_arg2 (c : Dev nD) :
    W2 m ρ c (Proc.devRef .tc main_arg2) = W1 m ρ c (Proc.devRef .tc main_arg2) :=
  host_keep hostOps0_1 main_arg2

/-- No operation of the stretch before boundary 3 writes `main_arg2`. -/
theorem step3_arg2 (c : Dev nD) :
    W3 m ρ c (Proc.devRef .tc main_arg2) = W2 m ρ c (Proc.devRef .tc main_arg2) :=
  host_keep hostOps0_2 main_arg2

/-- No operation of the stretch before boundary 4 writes `main_arg2`. -/
theorem step4_arg2 (c : Dev nD) :
    W4 m ρ c (Proc.devRef .tc main_arg2) = W3 m ρ c (Proc.devRef .tc main_arg2) :=
  host_keep hostOps0_3 main_arg2

/-- `main_arg2` is not an array of region 0. -/
theorem step5_arg2 (c : Dev nD) :
    W5 m ρ c (Proc.devRef .tc main_arg2) = W4 m ρ c (Proc.devRef .tc main_arg2) :=
  W5_of_ne m ρ c main_arg2 (by decide)

/-- No operation of the stretch before boundary 6 writes `main_arg2`. -/
theorem step6_arg2 (c : Dev nD) :
    W6 m ρ c (Proc.devRef .tc main_arg2) = W5 m ρ c (Proc.devRef .tc main_arg2) :=
  host_keep hostOps1 main_arg2

/-- `main_arg2` is not an array of region 1. -/
theorem step7_arg2 (c : Dev nD) :
    W7 m ρ c (Proc.devRef .tc main_arg2) = W6 m ρ c (Proc.devRef .tc main_arg2) :=
  W7_of_ne m ρ c main_arg2 (by decide)

/-- No operation of the stretch before boundary 8 writes `main_arg2`. -/
theorem step8_arg2 (c : Dev nD) :
    W8 m ρ c (Proc.devRef .tc main_arg2) = W7 m ρ c (Proc.devRef .tc main_arg2) :=
  host_keep hostOps2 main_arg2

/-- `main_arg2` is not an array of region 2. -/
theorem step9_arg2 (c : Dev nD) :
    W9 m ρ c (Proc.devRef .tc main_arg2) = W8 m ρ c (Proc.devRef .tc main_arg2) :=
  W9_of_ne m ρ c main_arg2 (by decide)

/-- No operation of the stretch before boundary 10 writes `main_arg2`. -/
theorem step10_arg2 (c : Dev nD) :
    W10 m ρ c (Proc.devRef .tc main_arg2) = W9 m ρ c (Proc.devRef .tc main_arg2) :=
  host_keep hostOps3 main_arg2

/-- `main_arg2` is not an array of region 3. -/
theorem step11_arg2 (c : Dev nD) :
    W11 m ρ c (Proc.devRef .tc main_arg2) = W10 m ρ c (Proc.devRef .tc main_arg2) :=
  W11_of_ne m ρ c main_arg2 (by decide)

/-- No operation of the stretch before boundary 12 writes `main_arg2`. -/
theorem step12_arg2 (c : Dev nD) :
    W12 m ρ c (Proc.devRef .tc main_arg2) = W11 m ρ c (Proc.devRef .tc main_arg2) :=
  host_keep hostOps4 main_arg2

/-- No operation of the stretch before boundary 13 writes `main_arg2`. -/
theorem step13_arg2 (c : Dev nD) :
    W13 m ρ c (Proc.devRef .tc main_arg2) = W12 m ρ c (Proc.devRef .tc main_arg2) :=
  host_keep hostOps4_1 main_arg2

/-- `main_arg2` is not an array of region 4. -/
theorem step14_arg2 (c : Dev nD) :
    W14 m ρ c (Proc.devRef .tc main_arg2) = W13 m ρ c (Proc.devRef .tc main_arg2) :=
  W14_of_ne m ρ c main_arg2 (by decide)

/-- No operation of the stretch before boundary 15 writes `main_arg2`. -/
theorem step15_arg2 (c : Dev nD) :
    W15 m ρ c (Proc.devRef .tc main_arg2) = W14 m ρ c (Proc.devRef .tc main_arg2) :=
  host_keep hostOps5 main_arg2

/-- `main_arg2` is not an array of region 5. -/
theorem step16_arg2 (c : Dev nD) :
    W16 m ρ c (Proc.devRef .tc main_arg2) = W15 m ρ c (Proc.devRef .tc main_arg2) :=
  W16_of_ne m ρ c main_arg2 (by decide)

/-- No operation of the stretch before boundary 17 writes `main_arg2`. -/
theorem step17_arg2 (c : Dev nD) :
    W17 m ρ c (Proc.devRef .tc main_arg2) = W16 m ρ c (Proc.devRef .tc main_arg2) :=
  host_keep hostOps6 main_arg2

/-- `main_arg2` is not an array of region 6. -/
theorem step18_arg2 (c : Dev nD) :
    W18 m ρ c (Proc.devRef .tc main_arg2) = W17 m ρ c (Proc.devRef .tc main_arg2) :=
  W18_of_ne m ρ c main_arg2 (by decide)

/-- No operation of the stretch before boundary 19 writes `main_arg2`. -/
theorem step19_arg2 (c : Dev nD) :
    W19 m ρ c (Proc.devRef .tc main_arg2) = W18 m ρ c (Proc.devRef .tc main_arg2) :=
  host_keep hostOps7 main_arg2

/-- `main_arg2` is not an array of region 7. -/
theorem step20_arg2 (c : Dev nD) :
    W20 m ρ c (Proc.devRef .tc main_arg2) = W19 m ρ c (Proc.devRef .tc main_arg2) :=
  W20_of_ne m ρ c main_arg2 (by decide)

theorem W0_arg2 (c : Dev nD) : (W0 m ρ c (Proc.devRef .tc main_arg2) : IVec S800000 32) = arg2 m c := rfl
theorem W1_arg2 (c : Dev nD) : (W1 m ρ c (Proc.devRef .tc main_arg2) : IVec S800000 32) = arg2 m c :=
  (step1_arg2 m ρ c).trans (W0_arg2 m ρ c)
theorem W2_arg2 (c : Dev nD) : (W2 m ρ c (Proc.devRef .tc main_arg2) : IVec S800000 32) = arg2 m c :=
  (step2_arg2 m ρ c).trans (W1_arg2 m ρ c)
theorem W3_arg2 (c : Dev nD) : (W3 m ρ c (Proc.devRef .tc main_arg2) : IVec S800000 32) = arg2 m c :=
  (step3_arg2 m ρ c).trans (W2_arg2 m ρ c)
theorem W4_arg2 (c : Dev nD) : (W4 m ρ c (Proc.devRef .tc main_arg2) : IVec S800000 32) = arg2 m c :=
  (step4_arg2 m ρ c).trans (W3_arg2 m ρ c)
theorem W5_arg2 (c : Dev nD) : (W5 m ρ c (Proc.devRef .tc main_arg2) : IVec S800000 32) = arg2 m c :=
  (step5_arg2 m ρ c).trans (W4_arg2 m ρ c)
theorem W6_arg2 (c : Dev nD) : (W6 m ρ c (Proc.devRef .tc main_arg2) : IVec S800000 32) = arg2 m c :=
  (step6_arg2 m ρ c).trans (W5_arg2 m ρ c)
theorem W7_arg2 (c : Dev nD) : (W7 m ρ c (Proc.devRef .tc main_arg2) : IVec S800000 32) = arg2 m c :=
  (step7_arg2 m ρ c).trans (W6_arg2 m ρ c)
theorem W8_arg2 (c : Dev nD) : (W8 m ρ c (Proc.devRef .tc main_arg2) : IVec S800000 32) = arg2 m c :=
  (step8_arg2 m ρ c).trans (W7_arg2 m ρ c)
theorem W9_arg2 (c : Dev nD) : (W9 m ρ c (Proc.devRef .tc main_arg2) : IVec S800000 32) = arg2 m c :=
  (step9_arg2 m ρ c).trans (W8_arg2 m ρ c)
theorem W10_arg2 (c : Dev nD) : (W10 m ρ c (Proc.devRef .tc main_arg2) : IVec S800000 32) = arg2 m c :=
  (step10_arg2 m ρ c).trans (W9_arg2 m ρ c)
theorem W11_arg2 (c : Dev nD) : (W11 m ρ c (Proc.devRef .tc main_arg2) : IVec S800000 32) = arg2 m c :=
  (step11_arg2 m ρ c).trans (W10_arg2 m ρ c)
theorem W12_arg2 (c : Dev nD) : (W12 m ρ c (Proc.devRef .tc main_arg2) : IVec S800000 32) = arg2 m c :=
  (step12_arg2 m ρ c).trans (W11_arg2 m ρ c)
theorem W13_arg2 (c : Dev nD) : (W13 m ρ c (Proc.devRef .tc main_arg2) : IVec S800000 32) = arg2 m c :=
  (step13_arg2 m ρ c).trans (W12_arg2 m ρ c)
theorem W14_arg2 (c : Dev nD) : (W14 m ρ c (Proc.devRef .tc main_arg2) : IVec S800000 32) = arg2 m c :=
  (step14_arg2 m ρ c).trans (W13_arg2 m ρ c)
theorem W15_arg2 (c : Dev nD) : (W15 m ρ c (Proc.devRef .tc main_arg2) : IVec S800000 32) = arg2 m c :=
  (step15_arg2 m ρ c).trans (W14_arg2 m ρ c)
theorem W16_arg2 (c : Dev nD) : (W16 m ρ c (Proc.devRef .tc main_arg2) : IVec S800000 32) = arg2 m c :=
  (step16_arg2 m ρ c).trans (W15_arg2 m ρ c)
theorem W17_arg2 (c : Dev nD) : (W17 m ρ c (Proc.devRef .tc main_arg2) : IVec S800000 32) = arg2 m c :=
  (step17_arg2 m ρ c).trans (W16_arg2 m ρ c)
theorem W18_arg2 (c : Dev nD) : (W18 m ρ c (Proc.devRef .tc main_arg2) : IVec S800000 32) = arg2 m c :=
  (step18_arg2 m ρ c).trans (W17_arg2 m ρ c)
theorem W19_arg2 (c : Dev nD) : (W19 m ρ c (Proc.devRef .tc main_arg2) : IVec S800000 32) = arg2 m c :=
  (step19_arg2 m ρ c).trans (W18_arg2 m ρ c)
theorem W20_arg2 (c : Dev nD) : (W20 m ρ c (Proc.devRef .tc main_arg2) : IVec S800000 32) = arg2 m c :=
  (step20_arg2 m ρ c).trans (W19_arg2 m ρ c)

/-! ## `main_arg3`: as launched at every boundary up to 18 -/

/-- No operation of the stretch before boundary 1 writes `main_arg3`. -/
theorem step1_arg3 (c : Dev nD) :
    W1 m ρ c (Proc.devRef .tc main_arg3) = W0 m ρ c (Proc.devRef .tc main_arg3) :=
  host_keep hostOps0 main_arg3

/-- No operation of the stretch before boundary 2 writes `main_arg3`. -/
theorem step2_arg3 (c : Dev nD) :
    W2 m ρ c (Proc.devRef .tc main_arg3) = W1 m ρ c (Proc.devRef .tc main_arg3) :=
  host_keep hostOps0_1 main_arg3

/-- No operation of the stretch before boundary 3 writes `main_arg3`. -/
theorem step3_arg3 (c : Dev nD) :
    W3 m ρ c (Proc.devRef .tc main_arg3) = W2 m ρ c (Proc.devRef .tc main_arg3) :=
  host_keep hostOps0_2 main_arg3

/-- No operation of the stretch before boundary 4 writes `main_arg3`. -/
theorem step4_arg3 (c : Dev nD) :
    W4 m ρ c (Proc.devRef .tc main_arg3) = W3 m ρ c (Proc.devRef .tc main_arg3) :=
  host_keep hostOps0_3 main_arg3

/-- `main_arg3` is not an array of region 0. -/
theorem step5_arg3 (c : Dev nD) :
    W5 m ρ c (Proc.devRef .tc main_arg3) = W4 m ρ c (Proc.devRef .tc main_arg3) :=
  W5_of_ne m ρ c main_arg3 (by decide)

/-- No operation of the stretch before boundary 6 writes `main_arg3`. -/
theorem step6_arg3 (c : Dev nD) :
    W6 m ρ c (Proc.devRef .tc main_arg3) = W5 m ρ c (Proc.devRef .tc main_arg3) :=
  host_keep hostOps1 main_arg3

/-- `main_arg3` is not an array of region 1. -/
theorem step7_arg3 (c : Dev nD) :
    W7 m ρ c (Proc.devRef .tc main_arg3) = W6 m ρ c (Proc.devRef .tc main_arg3) :=
  W7_of_ne m ρ c main_arg3 (by decide)

/-- No operation of the stretch before boundary 8 writes `main_arg3`. -/
theorem step8_arg3 (c : Dev nD) :
    W8 m ρ c (Proc.devRef .tc main_arg3) = W7 m ρ c (Proc.devRef .tc main_arg3) :=
  host_keep hostOps2 main_arg3

/-- `main_arg3` is not an array of region 2. -/
theorem step9_arg3 (c : Dev nD) :
    W9 m ρ c (Proc.devRef .tc main_arg3) = W8 m ρ c (Proc.devRef .tc main_arg3) :=
  W9_of_ne m ρ c main_arg3 (by decide)

/-- No operation of the stretch before boundary 10 writes `main_arg3`. -/
theorem step10_arg3 (c : Dev nD) :
    W10 m ρ c (Proc.devRef .tc main_arg3) = W9 m ρ c (Proc.devRef .tc main_arg3) :=
  host_keep hostOps3 main_arg3

/-- `main_arg3` is not an array of region 3. -/
theorem step11_arg3 (c : Dev nD) :
    W11 m ρ c (Proc.devRef .tc main_arg3) = W10 m ρ c (Proc.devRef .tc main_arg3) :=
  W11_of_ne m ρ c main_arg3 (by decide)

/-- No operation of the stretch before boundary 12 writes `main_arg3`. -/
theorem step12_arg3 (c : Dev nD) :
    W12 m ρ c (Proc.devRef .tc main_arg3) = W11 m ρ c (Proc.devRef .tc main_arg3) :=
  host_keep hostOps4 main_arg3

/-- No operation of the stretch before boundary 13 writes `main_arg3`. -/
theorem step13_arg3 (c : Dev nD) :
    W13 m ρ c (Proc.devRef .tc main_arg3) = W12 m ρ c (Proc.devRef .tc main_arg3) :=
  host_keep hostOps4_1 main_arg3

/-- `main_arg3` is not an array of region 4. -/
theorem step14_arg3 (c : Dev nD) :
    W14 m ρ c (Proc.devRef .tc main_arg3) = W13 m ρ c (Proc.devRef .tc main_arg3) :=
  W14_of_ne m ρ c main_arg3 (by decide)

/-- No operation of the stretch before boundary 15 writes `main_arg3`. -/
theorem step15_arg3 (c : Dev nD) :
    W15 m ρ c (Proc.devRef .tc main_arg3) = W14 m ρ c (Proc.devRef .tc main_arg3) :=
  host_keep hostOps5 main_arg3

/-- `main_arg3` is not an array of region 5. -/
theorem step16_arg3 (c : Dev nD) :
    W16 m ρ c (Proc.devRef .tc main_arg3) = W15 m ρ c (Proc.devRef .tc main_arg3) :=
  W16_of_ne m ρ c main_arg3 (by decide)

/-- No operation of the stretch before boundary 17 writes `main_arg3`. -/
theorem step17_arg3 (c : Dev nD) :
    W17 m ρ c (Proc.devRef .tc main_arg3) = W16 m ρ c (Proc.devRef .tc main_arg3) :=
  host_keep hostOps6 main_arg3

/-- `main_arg3` is not an array of region 6. -/
theorem step18_arg3 (c : Dev nD) :
    W18 m ρ c (Proc.devRef .tc main_arg3) = W17 m ρ c (Proc.devRef .tc main_arg3) :=
  W18_of_ne m ρ c main_arg3 (by decide)

theorem W0_arg3 (c : Dev nD) : (W0 m ρ c (Proc.devRef .tc main_arg3) : IVec S800000 32) = arg3 m c := rfl
theorem W1_arg3 (c : Dev nD) : (W1 m ρ c (Proc.devRef .tc main_arg3) : IVec S800000 32) = arg3 m c :=
  (step1_arg3 m ρ c).trans (W0_arg3 m ρ c)
theorem W2_arg3 (c : Dev nD) : (W2 m ρ c (Proc.devRef .tc main_arg3) : IVec S800000 32) = arg3 m c :=
  (step2_arg3 m ρ c).trans (W1_arg3 m ρ c)
theorem W3_arg3 (c : Dev nD) : (W3 m ρ c (Proc.devRef .tc main_arg3) : IVec S800000 32) = arg3 m c :=
  (step3_arg3 m ρ c).trans (W2_arg3 m ρ c)
theorem W4_arg3 (c : Dev nD) : (W4 m ρ c (Proc.devRef .tc main_arg3) : IVec S800000 32) = arg3 m c :=
  (step4_arg3 m ρ c).trans (W3_arg3 m ρ c)
theorem W5_arg3 (c : Dev nD) : (W5 m ρ c (Proc.devRef .tc main_arg3) : IVec S800000 32) = arg3 m c :=
  (step5_arg3 m ρ c).trans (W4_arg3 m ρ c)
theorem W6_arg3 (c : Dev nD) : (W6 m ρ c (Proc.devRef .tc main_arg3) : IVec S800000 32) = arg3 m c :=
  (step6_arg3 m ρ c).trans (W5_arg3 m ρ c)
theorem W7_arg3 (c : Dev nD) : (W7 m ρ c (Proc.devRef .tc main_arg3) : IVec S800000 32) = arg3 m c :=
  (step7_arg3 m ρ c).trans (W6_arg3 m ρ c)
theorem W8_arg3 (c : Dev nD) : (W8 m ρ c (Proc.devRef .tc main_arg3) : IVec S800000 32) = arg3 m c :=
  (step8_arg3 m ρ c).trans (W7_arg3 m ρ c)
theorem W9_arg3 (c : Dev nD) : (W9 m ρ c (Proc.devRef .tc main_arg3) : IVec S800000 32) = arg3 m c :=
  (step9_arg3 m ρ c).trans (W8_arg3 m ρ c)
theorem W10_arg3 (c : Dev nD) : (W10 m ρ c (Proc.devRef .tc main_arg3) : IVec S800000 32) = arg3 m c :=
  (step10_arg3 m ρ c).trans (W9_arg3 m ρ c)
theorem W11_arg3 (c : Dev nD) : (W11 m ρ c (Proc.devRef .tc main_arg3) : IVec S800000 32) = arg3 m c :=
  (step11_arg3 m ρ c).trans (W10_arg3 m ρ c)
theorem W12_arg3 (c : Dev nD) : (W12 m ρ c (Proc.devRef .tc main_arg3) : IVec S800000 32) = arg3 m c :=
  (step12_arg3 m ρ c).trans (W11_arg3 m ρ c)
theorem W13_arg3 (c : Dev nD) : (W13 m ρ c (Proc.devRef .tc main_arg3) : IVec S800000 32) = arg3 m c :=
  (step13_arg3 m ρ c).trans (W12_arg3 m ρ c)
theorem W14_arg3 (c : Dev nD) : (W14 m ρ c (Proc.devRef .tc main_arg3) : IVec S800000 32) = arg3 m c :=
  (step14_arg3 m ρ c).trans (W13_arg3 m ρ c)
theorem W15_arg3 (c : Dev nD) : (W15 m ρ c (Proc.devRef .tc main_arg3) : IVec S800000 32) = arg3 m c :=
  (step15_arg3 m ρ c).trans (W14_arg3 m ρ c)
theorem W16_arg3 (c : Dev nD) : (W16 m ρ c (Proc.devRef .tc main_arg3) : IVec S800000 32) = arg3 m c :=
  (step16_arg3 m ρ c).trans (W15_arg3 m ρ c)
theorem W17_arg3 (c : Dev nD) : (W17 m ρ c (Proc.devRef .tc main_arg3) : IVec S800000 32) = arg3 m c :=
  (step17_arg3 m ρ c).trans (W16_arg3 m ρ c)
theorem W18_arg3 (c : Dev nD) : (W18 m ρ c (Proc.devRef .tc main_arg3) : IVec S800000 32) = arg3 m c :=
  (step18_arg3 m ρ c).trans (W17_arg3 m ρ c)

end Cert.KernelIdeal.Val

end
-- ==== Proof.KKeepB.lean ====
/-
  Two arrays the kernel program computes before its first region and reads again in later regions: the stacked
  node features (`main_v0`) and the channel-to-group indicator (`main_v4`). After boundary 4 no host operation
  writes either, and a region that has one among its arrays has it as an input window only, whose array leaves the
  region as it entered. So at every later boundary each still holds its boundary-4 contents.
-/
import proofs.«418341_j39728447488527_3_alg».proof.Proof.KBufs

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-- A host stretch none of whose operations writes the buffer leaves the buffer's contents as they were:
    the stretch's operation list is unfolded and each operation's written buffer is told apart from ours. -/
local macro "host_keep " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## `main_v0`: carried unchanged from boundary 4 to boundary 26 -/

/-- `main_v0` is not an array of region 0. -/
theorem step5_v0 (c : Dev nD) :
    W5 m ρ c (Proc.devRef .tc main_v0) = W4 m ρ c (Proc.devRef .tc main_v0) :=
  W5_of_ne m ρ c main_v0 (by decide)

/-- No operation of the stretch before boundary 6 writes `main_v0`. -/
theorem step6_v0 (c : Dev nD) :
    W6 m ρ c (Proc.devRef .tc main_v0) = W5 m ρ c (Proc.devRef .tc main_v0) :=
  host_keep hostOps1 main_v0

/-- `main_v0` is the array of input window 1 of region 1: staged, never written back, so it leaves the region as it entered. -/
theorem step7_v0 (c : Dev nD) :
    W7 m ρ c (Proc.devRef .tc main_v0) = W6 m ρ c (Proc.devRef .tc main_v0) :=
  (W7_arr m ρ c 1).trans (((dat1 (V6 m ρ) c).arrAt_in 1 rfl _).trans (A_eq1 (V6 m ρ) c 1))

/-- No operation of the stretch before boundary 8 writes `main_v0`. -/
theorem step8_v0 (c : Dev nD) :
    W8 m ρ c (Proc.devRef .tc main_v0) = W7 m ρ c (Proc.devRef .tc main_v0) :=
  host_keep hostOps2 main_v0

/-- `main_v0` is not an array of region 2. -/
theorem step9_v0 (c : Dev nD) :
    W9 m ρ c (Proc.devRef .tc main_v0) = W8 m ρ c (Proc.devRef .tc main_v0) :=
  W9_of_ne m ρ c main_v0 (by decide)

/-- No operation of the stretch before boundary 10 writes `main_v0`. -/
theorem step10_v0 (c : Dev nD) :
    W10 m ρ c (Proc.devRef .tc main_v0) = W9 m ρ c (Proc.devRef .tc main_v0) :=
  host_keep hostOps3 main_v0

/-- `main_v0` is not an array of region 3. -/
theorem step11_v0 (c : Dev nD) :
    W11 m ρ c (Proc.devRef .tc main_v0) = W10 m ρ c (Proc.devRef .tc main_v0) :=
  W11_of_ne m ρ c main_v0 (by decide)

/-- No operation of the stretch before boundary 12 writes `main_v0`. -/
theorem step12_v0 (c : Dev nD) :
    W12 m ρ c (Proc.devRef .tc main_v0) = W11 m ρ c (Proc.devRef .tc main_v0) :=
  host_keep hostOps4 main_v0

/-- No operation of the stretch before boundary 13 writes `main_v0`. -/
theorem step13_v0 (c : Dev nD) :
    W13 m ρ c (Proc.devRef .tc main_v0) = W12 m ρ c (Proc.devRef .tc main_v0) :=
  host_keep hostOps4_1 main_v0

/-- `main_v0` is not an array of region 4. -/
theorem step14_v0 (c : Dev nD) :
    W14 m ρ c (Proc.devRef .tc main_v0) = W13 m ρ c (Proc.devRef .tc main_v0) :=
  W14_of_ne m ρ c main_v0 (by decide)

/-- No operation of the stretch before boundary 15 writes `main_v0`. -/
theorem step15_v0 (c : Dev nD) :
    W15 m ρ c (Proc.devRef .tc main_v0) = W14 m ρ c (Proc.devRef .tc main_v0) :=
  host_keep hostOps5 main_v0

/-- `main_v0` is not an array of region 5. -/
theorem step16_v0 (c : Dev nD) :
    W16 m ρ c (Proc.devRef .tc main_v0) = W15 m ρ c (Proc.devRef .tc main_v0) :=
  W16_of_ne m ρ c main_v0 (by decide)

/-- No operation of the stretch before boundary 17 writes `main_v0`. -/
theorem step17_v0 (c : Dev nD) :
    W17 m ρ c (Proc.devRef .tc main_v0) = W16 m ρ c (Proc.devRef .tc main_v0) :=
  host_keep hostOps6 main_v0

/-- `main_v0` is the array of input window 1 of region 6: staged, never written back, so it leaves the region as it entered. -/
theorem step18_v0 (c : Dev nD) :
    W18 m ρ c (Proc.devRef .tc main_v0) = W17 m ρ c (Proc.devRef .tc main_v0) :=
  (W18_arr m ρ c 1).trans (((dat6 (V17 m ρ) c).arrAt_in 1 rfl _).trans (A_eq6 (V17 m ρ) c 1))

/-- No operation of the stretch before boundary 19 writes `main_v0`. -/
theorem step19_v0 (c : Dev nD) :
    W19 m ρ c (Proc.devRef .tc main_v0) = W18 m ρ c (Proc.devRef .tc main_v0) :=
  host_keep hostOps7 main_v0

/-- `main_v0` is not an array of region 7. -/
theorem step20_v0 (c : Dev nD) :
    W20 m ρ c (Proc.devRef .tc main_v0) = W19 m ρ c (Proc.devRef .tc main_v0) :=
  W20_of_ne m ρ c main_v0 (by decide)

/-- No operation of the stretch before boundary 21 writes `main_v0`. -/
theorem step21_v0 (c : Dev nD) :
    W21 m ρ c (Proc.devRef .tc main_v0) = W20 m ρ c (Proc.devRef .tc main_v0) :=
  host_keep hostOps8 main_v0

/-- `main_v0` is not an array of region 8. -/
theorem step22_v0 (c : Dev nD) :
    W22 m ρ c (Proc.devRef .tc main_v0) = W21 m ρ c (Proc.devRef .tc main_v0) :=
  W22_of_ne m ρ c main_v0 (by decide)

/-- No operation of the stretch before boundary 23 writes `main_v0`. -/
theorem step23_v0 (c : Dev nD) :
    W23 m ρ c (Proc.devRef .tc main_v0) = W22 m ρ c (Proc.devRef .tc main_v0) :=
  host_keep hostOps9 main_v0

/-- No operation of the stretch before boundary 24 writes `main_v0`. -/
theorem step24_v0 (c : Dev nD) :
    W24 m ρ c (Proc.devRef .tc main_v0) = W23 m ρ c (Proc.devRef .tc main_v0) :=
  host_keep hostOps9_1 main_v0

/-- `main_v0` is not an array of region 9. -/
theorem step25_v0 (c : Dev nD) :
    W25 m ρ c (Proc.devRef .tc main_v0) = W24 m ρ c (Proc.devRef .tc main_v0) :=
  W25_of_ne m ρ c main_v0 (by decide)

/-- No operation of the stretch before boundary 26 writes `main_v0`. -/
theorem step26_v0 (c : Dev nD) :
    W26 m ρ c (Proc.devRef .tc main_v0) = W25 m ρ c (Proc.devRef .tc main_v0) :=
  host_keep hostOps10 main_v0

theorem K5_v0 (c : Dev nD) : (W5 m ρ c (Proc.devRef .tc main_v0) : FVec Ideal S60000x64 .f32) = B4_v0 m ρ c :=
  step5_v0 m ρ c
theorem K6_v0 (c : Dev nD) : (W6 m ρ c (Proc.devRef .tc main_v0) : FVec Ideal S60000x64 .f32) = B4_v0 m ρ c :=
  (step6_v0 m ρ c).trans (K5_v0 m ρ c)
theorem K7_v0 (c : Dev nD) : (W7 m ρ c (Proc.devRef .tc main_v0) : FVec Ideal S60000x64 .f32) = B4_v0 m ρ c :=
  (step7_v0 m ρ c).trans (K6_v0 m ρ c)
theorem K8_v0 (c : Dev nD) : (W8 m ρ c (Proc.devRef .tc main_v0) : FVec Ideal S60000x64 .f32) = B4_v0 m ρ c :=
  (step8_v0 m ρ c).trans (K7_v0 m ρ c)
theorem K9_v0 (c : Dev nD) : (W9 m ρ c (Proc.devRef .tc main_v0) : FVec Ideal S60000x64 .f32) = B4_v0 m ρ c :=
  (step9_v0 m ρ c).trans (K8_v0 m ρ c)
theorem K10_v0 (c : Dev nD) : (W10 m ρ c (Proc.devRef .tc main_v0) : FVec Ideal S60000x64 .f32) = B4_v0 m ρ c :=
  (step10_v0 m ρ c).trans (K9_v0 m ρ c)
theorem K11_v0 (c : Dev nD) : (W11 m ρ c (Proc.devRef .tc main_v0) : FVec Ideal S60000x64 .f32) = B4_v0 m ρ c :=
  (step11_v0 m ρ c).trans (K10_v0 m ρ c)
theorem K12_v0 (c : Dev nD) : (W12 m ρ c (Proc.devRef .tc main_v0) : FVec Ideal S60000x64 .f32) = B4_v0 m ρ c :=
  (step12_v0 m ρ c).trans (K11_v0 m ρ c)
theorem K13_v0 (c : Dev nD) : (W13 m ρ c (Proc.devRef .tc main_v0) : FVec Ideal S60000x64 .f32) = B4_v0 m ρ c :=
  (step13_v0 m ρ c).trans (K12_v0 m ρ c)
theorem K14_v0 (c : Dev nD) : (W14 m ρ c (Proc.devRef .tc main_v0) : FVec Ideal S60000x64 .f32) = B4_v0 m ρ c :=
  (step14_v0 m ρ c).trans (K13_v0 m ρ c)
theorem K15_v0 (c : Dev nD) : (W15 m ρ c (Proc.devRef .tc main_v0) : FVec Ideal S60000x64 .f32) = B4_v0 m ρ c :=
  (step15_v0 m ρ c).trans (K14_v0 m ρ c)
theorem K16_v0 (c : Dev nD) : (W16 m ρ c (Proc.devRef .tc main_v0) : FVec Ideal S60000x64 .f32) = B4_v0 m ρ c :=
  (step16_v0 m ρ c).trans (K15_v0 m ρ c)
theorem K17_v0 (c : Dev nD) : (W17 m ρ c (Proc.devRef .tc main_v0) : FVec Ideal S60000x64 .f32) = B4_v0 m ρ c :=
  (step17_v0 m ρ c).trans (K16_v0 m ρ c)
theorem K18_v0 (c : Dev nD) : (W18 m ρ c (Proc.devRef .tc main_v0) : FVec Ideal S60000x64 .f32) = B4_v0 m ρ c :=
  (step18_v0 m ρ c).trans (K17_v0 m ρ c)
theorem K19_v0 (c : Dev nD) : (W19 m ρ c (Proc.devRef .tc main_v0) : FVec Ideal S60000x64 .f32) = B4_v0 m ρ c :=
  (step19_v0 m ρ c).trans (K18_v0 m ρ c)
theorem K20_v0 (c : Dev nD) : (W20 m ρ c (Proc.devRef .tc main_v0) : FVec Ideal S60000x64 .f32) = B4_v0 m ρ c :=
  (step20_v0 m ρ c).trans (K19_v0 m ρ c)
theorem K21_v0 (c : Dev nD) : (W21 m ρ c (Proc.devRef .tc main_v0) : FVec Ideal S60000x64 .f32) = B4_v0 m ρ c :=
  (step21_v0 m ρ c).trans (K20_v0 m ρ c)
theorem K22_v0 (c : Dev nD) : (W22 m ρ c (Proc.devRef .tc main_v0) : FVec Ideal S60000x64 .f32) = B4_v0 m ρ c :=
  (step22_v0 m ρ c).trans (K21_v0 m ρ c)
theorem K23_v0 (c : Dev nD) : (W23 m ρ c (Proc.devRef .tc main_v0) : FVec Ideal S60000x64 .f32) = B4_v0 m ρ c :=
  (step23_v0 m ρ c).trans (K22_v0 m ρ c)
theorem K24_v0 (c : Dev nD) : (W24 m ρ c (Proc.devRef .tc main_v0) : FVec Ideal S60000x64 .f32) = B4_v0 m ρ c :=
  (step24_v0 m ρ c).trans (K23_v0 m ρ c)
theorem K25_v0 (c : Dev nD) : (W25 m ρ c (Proc.devRef .tc main_v0) : FVec Ideal S60000x64 .f32) = B4_v0 m ρ c :=
  (step25_v0 m ρ c).trans (K24_v0 m ρ c)
theorem K26_v0 (c : Dev nD) : (W26 m ρ c (Proc.devRef .tc main_v0) : FVec Ideal S60000x64 .f32) = B4_v0 m ρ c :=
  (step26_v0 m ρ c).trans (K25_v0 m ρ c)
theorem B6_v0_eq (c : Dev nD) : B6_v0 m ρ c = B4_v0 m ρ c := K6_v0 m ρ c
theorem B11_v0_eq (c : Dev nD) : B11_v0 m ρ c = B4_v0 m ρ c := K11_v0 m ρ c
theorem B17_v0_eq (c : Dev nD) : B17_v0 m ρ c = B4_v0 m ρ c := K17_v0 m ρ c
theorem B26_v0_eq (c : Dev nD) : B26_v0 m ρ c = B4_v0 m ρ c := K26_v0 m ρ c
theorem W12_v0_eq (c : Dev nD) : (W12 m ρ c (Proc.devRef .tc main_v0) : FVec Ideal S60000x64 .f32) = B4_v0 m ρ c := K12_v0 m ρ c

/-! ## `main_v4`: carried unchanged from boundary 4 to boundary 21 -/

/-- `main_v4` is not an array of region 0. -/
theorem step5_v4 (c : Dev nD) :
    W5 m ρ c (Proc.devRef .tc main_v4) = W4 m ρ c (Proc.devRef .tc main_v4) :=
  W5_of_ne m ρ c main_v4 (by decide)

/-- No operation of the stretch before boundary 6 writes `main_v4`. -/
theorem step6_v4 (c : Dev nD) :
    W6 m ρ c (Proc.devRef .tc main_v4) = W5 m ρ c (Proc.devRef .tc main_v4) :=
  host_keep hostOps1 main_v4

/-- `main_v4` is the array of input window 2 of region 1: staged, never written back, so it leaves the region as it entered. -/
theorem step7_v4 (c : Dev nD) :
    W7 m ρ c (Proc.devRef .tc main_v4) = W6 m ρ c (Proc.devRef .tc main_v4) :=
  (W7_arr m ρ c 2).trans (((dat1 (V6 m ρ) c).arrAt_in 2 rfl _).trans (A_eq1 (V6 m ρ) c 2))

/-- No operation of the stretch before boundary 8 writes `main_v4`. -/
theorem step8_v4 (c : Dev nD) :
    W8 m ρ c (Proc.devRef .tc main_v4) = W7 m ρ c (Proc.devRef .tc main_v4) :=
  host_keep hostOps2 main_v4

/-- `main_v4` is the array of input window 2 of region 2: staged, never written back, so it leaves the region as it entered. -/
theorem step9_v4 (c : Dev nD) :
    W9 m ρ c (Proc.devRef .tc main_v4) = W8 m ρ c (Proc.devRef .tc main_v4) :=
  (W9_arr m ρ c 2).trans (((dat2 (V8 m ρ) c).arrAt_in 2 rfl _).trans (A_eq2 (V8 m ρ) c 2))

/-- No operation of the stretch before boundary 10 writes `main_v4`. -/
theorem step10_v4 (c : Dev nD) :
    W10 m ρ c (Proc.devRef .tc main_v4) = W9 m ρ c (Proc.devRef .tc main_v4) :=
  host_keep hostOps3 main_v4

/-- `main_v4` is the array of input window 2 of region 3: staged, never written back, so it leaves the region as it entered. -/
theorem step11_v4 (c : Dev nD) :
    W11 m ρ c (Proc.devRef .tc main_v4) = W10 m ρ c (Proc.devRef .tc main_v4) :=
  (W11_arr m ρ c 2).trans (((dat3 (V10 m ρ) c).arrAt_in 2 rfl _).trans (A_eq3 (V10 m ρ) c 2))

/-- No operation of the stretch before boundary 12 writes `main_v4`. -/
theorem step12_v4 (c : Dev nD) :
    W12 m ρ c (Proc.devRef .tc main_v4) = W11 m ρ c (Proc.devRef .tc main_v4) :=
  host_keep hostOps4 main_v4

/-- No operation of the stretch before boundary 13 writes `main_v4`. -/
theorem step13_v4 (c : Dev nD) :
    W13 m ρ c (Proc.devRef .tc main_v4) = W12 m ρ c (Proc.devRef .tc main_v4) :=
  host_keep hostOps4_1 main_v4

/-- `main_v4` is the array of input window 3 of region 4: staged, never written back, so it leaves the region as it entered. -/
theorem step14_v4 (c : Dev nD) :
    W14 m ρ c (Proc.devRef .tc main_v4) = W13 m ρ c (Proc.devRef .tc main_v4) :=
  (W14_arr m ρ c 3).trans (((dat4 (V13 m ρ) c).arrAt_in 3 rfl _).trans (A_eq4 (V13 m ρ) c 3))

/-- No operation of the stretch before boundary 15 writes `main_v4`. -/
theorem step15_v4 (c : Dev nD) :
    W15 m ρ c (Proc.devRef .tc main_v4) = W14 m ρ c (Proc.devRef .tc main_v4) :=
  host_keep hostOps5 main_v4

/-- `main_v4` is not an array of region 5. -/
theorem step16_v4 (c : Dev nD) :
    W16 m ρ c (Proc.devRef .tc main_v4) = W15 m ρ c (Proc.devRef .tc main_v4) :=
  W16_of_ne m ρ c main_v4 (by decide)

/-- No operation of the stretch before boundary 17 writes `main_v4`. -/
theorem step17_v4 (c : Dev nD) :
    W17 m ρ c (Proc.devRef .tc main_v4) = W16 m ρ c (Proc.devRef .tc main_v4) :=
  host_keep hostOps6 main_v4

/-- `main_v4` is the array of input window 2 of region 6: staged, never written back, so it leaves the region as it entered. -/
theorem step18_v4 (c : Dev nD) :
    W18 m ρ c (Proc.devRef .tc main_v4) = W17 m ρ c (Proc.devRef .tc main_v4) :=
  (W18_arr m ρ c 2).trans (((dat6 (V17 m ρ) c).arrAt_in 2 rfl _).trans (A_eq6 (V17 m ρ) c 2))

/-- No operation of the stretch before boundary 19 writes `main_v4`. -/
theorem step19_v4 (c : Dev nD) :
    W19 m ρ c (Proc.devRef .tc main_v4) = W18 m ρ c (Proc.devRef .tc main_v4) :=
  host_keep hostOps7 main_v4

/-- `main_v4` is the array of input window 2 of region 7: staged, never written back, so it leaves the region as it entered. -/
theorem step20_v4 (c : Dev nD) :
    W20 m ρ c (Proc.devRef .tc main_v4) = W19 m ρ c (Proc.devRef .tc main_v4) :=
  (W20_arr m ρ c 2).trans (((dat7 (V19 m ρ) c).arrAt_in 2 rfl _).trans (A_eq7 (V19 m ρ) c 2))

/-- No operation of the stretch before boundary 21 writes `main_v4`. -/
theorem step21_v4 (c : Dev nD) :
    W21 m ρ c (Proc.devRef .tc main_v4) = W20 m ρ c (Proc.devRef .tc main_v4) :=
  host_keep hostOps8 main_v4

theorem K5_v4 (c : Dev nD) : (W5 m ρ c (Proc.devRef .tc main_v4) : FVec Ideal S4x64 .f32) = B4_v4 m ρ c :=
  step5_v4 m ρ c
theorem K6_v4 (c : Dev nD) : (W6 m ρ c (Proc.devRef .tc main_v4) : FVec Ideal S4x64 .f32) = B4_v4 m ρ c :=
  (step6_v4 m ρ c).trans (K5_v4 m ρ c)
theorem K7_v4 (c : Dev nD) : (W7 m ρ c (Proc.devRef .tc main_v4) : FVec Ideal S4x64 .f32) = B4_v4 m ρ c :=
  (step7_v4 m ρ c).trans (K6_v4 m ρ c)
theorem K8_v4 (c : Dev nD) : (W8 m ρ c (Proc.devRef .tc main_v4) : FVec Ideal S4x64 .f32) = B4_v4 m ρ c :=
  (step8_v4 m ρ c).trans (K7_v4 m ρ c)
theorem K9_v4 (c : Dev nD) : (W9 m ρ c (Proc.devRef .tc main_v4) : FVec Ideal S4x64 .f32) = B4_v4 m ρ c :=
  (step9_v4 m ρ c).trans (K8_v4 m ρ c)
theorem K10_v4 (c : Dev nD) : (W10 m ρ c (Proc.devRef .tc main_v4) : FVec Ideal S4x64 .f32) = B4_v4 m ρ c :=
  (step10_v4 m ρ c).trans (K9_v4 m ρ c)
theorem K11_v4 (c : Dev nD) : (W11 m ρ c (Proc.devRef .tc main_v4) : FVec Ideal S4x64 .f32) = B4_v4 m ρ c :=
  (step11_v4 m ρ c).trans (K10_v4 m ρ c)
theorem K12_v4 (c : Dev nD) : (W12 m ρ c (Proc.devRef .tc main_v4) : FVec Ideal S4x64 .f32) = B4_v4 m ρ c :=
  (step12_v4 m ρ c).trans (K11_v4 m ρ c)
theorem K13_v4 (c : Dev nD) : (W13 m ρ c (Proc.devRef .tc main_v4) : FVec Ideal S4x64 .f32) = B4_v4 m ρ c :=
  (step13_v4 m ρ c).trans (K12_v4 m ρ c)
theorem K14_v4 (c : Dev nD) : (W14 m ρ c (Proc.devRef .tc main_v4) : FVec Ideal S4x64 .f32) = B4_v4 m ρ c :=
  (step14_v4 m ρ c).trans (K13_v4 m ρ c)
theorem K15_v4 (c : Dev nD) : (W15 m ρ c (Proc.devRef .tc main_v4) : FVec Ideal S4x64 .f32) = B4_v4 m ρ c :=
  (step15_v4 m ρ c).trans (K14_v4 m ρ c)
theorem K16_v4 (c : Dev nD) : (W16 m ρ c (Proc.devRef .tc main_v4) : FVec Ideal S4x64 .f32) = B4_v4 m ρ c :=
  (step16_v4 m ρ c).trans (K15_v4 m ρ c)
theorem K17_v4 (c : Dev nD) : (W17 m ρ c (Proc.devRef .tc main_v4) : FVec Ideal S4x64 .f32) = B4_v4 m ρ c :=
  (step17_v4 m ρ c).trans (K16_v4 m ρ c)
theorem K18_v4 (c : Dev nD) : (W18 m ρ c (Proc.devRef .tc main_v4) : FVec Ideal S4x64 .f32) = B4_v4 m ρ c :=
  (step18_v4 m ρ c).trans (K17_v4 m ρ c)
theorem K19_v4 (c : Dev nD) : (W19 m ρ c (Proc.devRef .tc main_v4) : FVec Ideal S4x64 .f32) = B4_v4 m ρ c :=
  (step19_v4 m ρ c).trans (K18_v4 m ρ c)
theorem K20_v4 (c : Dev nD) : (W20 m ρ c (Proc.devRef .tc main_v4) : FVec Ideal S4x64 .f32) = B4_v4 m ρ c :=
  (step20_v4 m ρ c).trans (K19_v4 m ρ c)
theorem K21_v4 (c : Dev nD) : (W21 m ρ c (Proc.devRef .tc main_v4) : FVec Ideal S4x64 .f32) = B4_v4 m ρ c :=
  (step21_v4 m ρ c).trans (K20_v4 m ρ c)
theorem B6_v4_eq (c : Dev nD) : B6_v4 m ρ c = B4_v4 m ρ c := K6_v4 m ρ c
theorem B8_v4_eq (c : Dev nD) : B8_v4 m ρ c = B4_v4 m ρ c := K8_v4 m ρ c
theorem B10_v4_eq (c : Dev nD) : B10_v4 m ρ c = B4_v4 m ρ c := K10_v4 m ρ c
theorem B13_v4_eq (c : Dev nD) : B13_v4 m ρ c = B4_v4 m ρ c := K13_v4 m ρ c
theorem B17_v4_eq (c : Dev nD) : B17_v4 m ρ c = B4_v4 m ρ c := K17_v4 m ρ c
theorem B19_v4_eq (c : Dev nD) : B19_v4 m ρ c = B4_v4 m ρ c := K19_v4 m ρ c
theorem B21_v4_eq (c : Dev nD) : B21_v4 m ρ c = B4_v4 m ρ c := K21_v4 m ρ c

end Cert.KernelIdeal.Val

end
-- ==== Proof.KKeepC.lean ====
/-
  Arrays of the kernel program that are written once (by a host operation or as a region's output) and read
  again some boundaries later. Between the two boundaries named in each statement no host operation writes the
  array, and a region that has it among its arrays has it as an input window only, whose array leaves the region as
  it entered. So the later contents are the earlier contents.
-/
import proofs.«418341_j39728447488527_3_alg».proof.Proof.KBufs

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-- A host stretch none of whose operations writes the buffer leaves the buffer's contents as they were:
    the stretch's operation list is unfolded and each operation's written buffer is told apart from ours. -/
local macro "host_keep " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## `main_v3`: carried unchanged from boundary 4 to boundary 13 -/

/-- `main_v3` is not an array of region 0. -/
theorem step5_v3 (c : Dev nD) :
    W5 m ρ c (Proc.devRef .tc main_v3) = W4 m ρ c (Proc.devRef .tc main_v3) :=
  W5_of_ne m ρ c main_v3 (by decide)

/-- No operation of the stretch before boundary 6 writes `main_v3`. -/
theorem step6_v3 (c : Dev nD) :
    W6 m ρ c (Proc.devRef .tc main_v3) = W5 m ρ c (Proc.devRef .tc main_v3) :=
  host_keep hostOps1 main_v3

/-- `main_v3` is not an array of region 1. -/
theorem step7_v3 (c : Dev nD) :
    W7 m ρ c (Proc.devRef .tc main_v3) = W6 m ρ c (Proc.devRef .tc main_v3) :=
  W7_of_ne m ρ c main_v3 (by decide)

/-- No operation of the stretch before boundary 8 writes `main_v3`. -/
theorem step8_v3 (c : Dev nD) :
    W8 m ρ c (Proc.devRef .tc main_v3) = W7 m ρ c (Proc.devRef .tc main_v3) :=
  host_keep hostOps2 main_v3

/-- `main_v3` is not an array of region 2. -/
theorem step9_v3 (c : Dev nD) :
    W9 m ρ c (Proc.devRef .tc main_v3) = W8 m ρ c (Proc.devRef .tc main_v3) :=
  W9_of_ne m ρ c main_v3 (by decide)

/-- No operation of the stretch before boundary 10 writes `main_v3`. -/
theorem step10_v3 (c : Dev nD) :
    W10 m ρ c (Proc.devRef .tc main_v3) = W9 m ρ c (Proc.devRef .tc main_v3) :=
  host_keep hostOps3 main_v3

/-- `main_v3` is not an array of region 3. -/
theorem step11_v3 (c : Dev nD) :
    W11 m ρ c (Proc.devRef .tc main_v3) = W10 m ρ c (Proc.devRef .tc main_v3) :=
  W11_of_ne m ρ c main_v3 (by decide)

/-- No operation of the stretch before boundary 12 writes `main_v3`. -/
theorem step12_v3 (c : Dev nD) :
    W12 m ρ c (Proc.devRef .tc main_v3) = W11 m ρ c (Proc.devRef .tc main_v3) :=
  host_keep hostOps4 main_v3

/-- No operation of the stretch before boundary 13 writes `main_v3`. -/
theorem step13_v3 (c : Dev nD) :
    W13 m ρ c (Proc.devRef .tc main_v3) = W12 m ρ c (Proc.devRef .tc main_v3) :=
  host_keep hostOps4_1 main_v3

theorem K5_v3 (c : Dev nD) : (W5 m ρ c (Proc.devRef .tc main_v3) : FVec Ideal S64x4 .f32) = B4_v3 m ρ c :=
  step5_v3 m ρ c
theorem K6_v3 (c : Dev nD) : (W6 m ρ c (Proc.devRef .tc main_v3) : FVec Ideal S64x4 .f32) = B4_v3 m ρ c :=
  (step6_v3 m ρ c).trans (K5_v3 m ρ c)
theorem K7_v3 (c : Dev nD) : (W7 m ρ c (Proc.devRef .tc main_v3) : FVec Ideal S64x4 .f32) = B4_v3 m ρ c :=
  (step7_v3 m ρ c).trans (K6_v3 m ρ c)
theorem K8_v3 (c : Dev nD) : (W8 m ρ c (Proc.devRef .tc main_v3) : FVec Ideal S64x4 .f32) = B4_v3 m ρ c :=
  (step8_v3 m ρ c).trans (K7_v3 m ρ c)
theorem K9_v3 (c : Dev nD) : (W9 m ρ c (Proc.devRef .tc main_v3) : FVec Ideal S64x4 .f32) = B4_v3 m ρ c :=
  (step9_v3 m ρ c).trans (K8_v3 m ρ c)
theorem K10_v3 (c : Dev nD) : (W10 m ρ c (Proc.devRef .tc main_v3) : FVec Ideal S64x4 .f32) = B4_v3 m ρ c :=
  (step10_v3 m ρ c).trans (K9_v3 m ρ c)
theorem K11_v3 (c : Dev nD) : (W11 m ρ c (Proc.devRef .tc main_v3) : FVec Ideal S64x4 .f32) = B4_v3 m ρ c :=
  (step11_v3 m ρ c).trans (K10_v3 m ρ c)
theorem K12_v3 (c : Dev nD) : (W12 m ρ c (Proc.devRef .tc main_v3) : FVec Ideal S64x4 .f32) = B4_v3 m ρ c :=
  (step12_v3 m ρ c).trans (K11_v3 m ρ c)
theorem K13_v3 (c : Dev nD) : (W13 m ρ c (Proc.devRef .tc main_v3) : FVec Ideal S64x4 .f32) = B4_v3 m ρ c :=
  (step13_v3 m ρ c).trans (K12_v3 m ρ c)
theorem B13_v3_eq (c : Dev nD) : B13_v3 m ρ c = B4_v3 m ρ c := K13_v3 m ρ c

/-! ## `main_v5`: carried unchanged from boundary 4 to boundary 14 -/

/-- `main_v5` is the array of input window 0 of region 0: staged, never written back, so it leaves the region as it entered. -/
theorem step5_v5 (c : Dev nD) :
    W5 m ρ c (Proc.devRef .tc main_v5) = W4 m ρ c (Proc.devRef .tc main_v5) :=
  (W5_arr m ρ c 0).trans (((dat0 (V4 m ρ) c).arrAt_in 0 rfl _).trans (A_eq0 (V4 m ρ) c 0))

/-- No operation of the stretch before boundary 6 writes `main_v5`. -/
theorem step6_v5 (c : Dev nD) :
    W6 m ρ c (Proc.devRef .tc main_v5) = W5 m ρ c (Proc.devRef .tc main_v5) :=
  host_keep hostOps1 main_v5

/-- `main_v5` is not an array of region 1. -/
theorem step7_v5 (c : Dev nD) :
    W7 m ρ c (Proc.devRef .tc main_v5) = W6 m ρ c (Proc.devRef .tc main_v5) :=
  W7_of_ne m ρ c main_v5 (by decide)

/-- No operation of the stretch before boundary 8 writes `main_v5`. -/
theorem step8_v5 (c : Dev nD) :
    W8 m ρ c (Proc.devRef .tc main_v5) = W7 m ρ c (Proc.devRef .tc main_v5) :=
  host_keep hostOps2 main_v5

/-- `main_v5` is not an array of region 2. -/
theorem step9_v5 (c : Dev nD) :
    W9 m ρ c (Proc.devRef .tc main_v5) = W8 m ρ c (Proc.devRef .tc main_v5) :=
  W9_of_ne m ρ c main_v5 (by decide)

/-- No operation of the stretch before boundary 10 writes `main_v5`. -/
theorem step10_v5 (c : Dev nD) :
    W10 m ρ c (Proc.devRef .tc main_v5) = W9 m ρ c (Proc.devRef .tc main_v5) :=
  host_keep hostOps3 main_v5

/-- `main_v5` is not an array of region 3. -/
theorem step11_v5 (c : Dev nD) :
    W11 m ρ c (Proc.devRef .tc main_v5) = W10 m ρ c (Proc.devRef .tc main_v5) :=
  W11_of_ne m ρ c main_v5 (by decide)

/-- No operation of the stretch before boundary 12 writes `main_v5`. -/
theorem step12_v5 (c : Dev nD) :
    W12 m ρ c (Proc.devRef .tc main_v5) = W11 m ρ c (Proc.devRef .tc main_v5) :=
  host_keep hostOps4 main_v5

/-- No operation of the stretch before boundary 13 writes `main_v5`. -/
theorem step13_v5 (c : Dev nD) :
    W13 m ρ c (Proc.devRef .tc main_v5) = W12 m ρ c (Proc.devRef .tc main_v5) :=
  host_keep hostOps4_1 main_v5

/-- `main_v5` is not an array of region 4. -/
theorem step14_v5 (c : Dev nD) :
    W14 m ρ c (Proc.devRef .tc main_v5) = W13 m ρ c (Proc.devRef .tc main_v5) :=
  W14_of_ne m ρ c main_v5 (by decide)

theorem K5_v5 (c : Dev nD) : (W5 m ρ c (Proc.devRef .tc main_v5) : FVec Ideal S800000x4 .f32) = B4_v5 m ρ c :=
  step5_v5 m ρ c
theorem K6_v5 (c : Dev nD) : (W6 m ρ c (Proc.devRef .tc main_v5) : FVec Ideal S800000x4 .f32) = B4_v5 m ρ c :=
  (step6_v5 m ρ c).trans (K5_v5 m ρ c)
theorem K7_v5 (c : Dev nD) : (W7 m ρ c (Proc.devRef .tc main_v5) : FVec Ideal S800000x4 .f32) = B4_v5 m ρ c :=
  (step7_v5 m ρ c).trans (K6_v5 m ρ c)
theorem K8_v5 (c : Dev nD) : (W8 m ρ c (Proc.devRef .tc main_v5) : FVec Ideal S800000x4 .f32) = B4_v5 m ρ c :=
  (step8_v5 m ρ c).trans (K7_v5 m ρ c)
theorem K9_v5 (c : Dev nD) : (W9 m ρ c (Proc.devRef .tc main_v5) : FVec Ideal S800000x4 .f32) = B4_v5 m ρ c :=
  (step9_v5 m ρ c).trans (K8_v5 m ρ c)
theorem K10_v5 (c : Dev nD) : (W10 m ρ c (Proc.devRef .tc main_v5) : FVec Ideal S800000x4 .f32) = B4_v5 m ρ c :=
  (step10_v5 m ρ c).trans (K9_v5 m ρ c)
theorem K11_v5 (c : Dev nD) : (W11 m ρ c (Proc.devRef .tc main_v5) : FVec Ideal S800000x4 .f32) = B4_v5 m ρ c :=
  (step11_v5 m ρ c).trans (K10_v5 m ρ c)
theorem K12_v5 (c : Dev nD) : (W12 m ρ c (Proc.devRef .tc main_v5) : FVec Ideal S800000x4 .f32) = B4_v5 m ρ c :=
  (step12_v5 m ρ c).trans (K11_v5 m ρ c)
theorem K13_v5 (c : Dev nD) : (W13 m ρ c (Proc.devRef .tc main_v5) : FVec Ideal S800000x4 .f32) = B4_v5 m ρ c :=
  (step13_v5 m ρ c).trans (K12_v5 m ρ c)
theorem K14_v5 (c : Dev nD) : (W14 m ρ c (Proc.devRef .tc main_v5) : FVec Ideal S800000x4 .f32) = B4_v5 m ρ c :=
  (step14_v5 m ρ c).trans (K13_v5 m ρ c)
theorem B14_v5_eq (c : Dev nD) : B14_v5 m ρ c = B4_v5 m ρ c := K14_v5 m ρ c

/-! ## `main_v6`: carried unchanged from boundary 5 to boundary 8 -/

/-- No operation of the stretch before boundary 6 writes `main_v6`. -/
theorem step6_v6 (c : Dev nD) :
    W6 m ρ c (Proc.devRef .tc main_v6) = W5 m ρ c (Proc.devRef .tc main_v6) :=
  host_keep hostOps1 main_v6

/-- `main_v6` is not an array of region 1. -/
theorem step7_v6 (c : Dev nD) :
    W7 m ρ c (Proc.devRef .tc main_v6) = W6 m ρ c (Proc.devRef .tc main_v6) :=
  W7_of_ne m ρ c main_v6 (by decide)

/-- No operation of the stretch before boundary 8 writes `main_v6`. -/
theorem step8_v6 (c : Dev nD) :
    W8 m ρ c (Proc.devRef .tc main_v6) = W7 m ρ c (Proc.devRef .tc main_v6) :=
  host_keep hostOps2 main_v6

theorem K6_v6 (c : Dev nD) : (W6 m ρ c (Proc.devRef .tc main_v6) : FVec Ideal S800000x4 .f32) = B5_v6 m ρ c :=
  step6_v6 m ρ c
theorem K7_v6 (c : Dev nD) : (W7 m ρ c (Proc.devRef .tc main_v6) : FVec Ideal S800000x4 .f32) = B5_v6 m ρ c :=
  (step7_v6 m ρ c).trans (K6_v6 m ρ c)
theorem K8_v6 (c : Dev nD) : (W8 m ρ c (Proc.devRef .tc main_v6) : FVec Ideal S800000x4 .f32) = B5_v6 m ρ c :=
  (step8_v6 m ρ c).trans (K7_v6 m ρ c)
theorem B8_v6_eq (c : Dev nD) : B8_v6 m ρ c = B5_v6 m ρ c := K8_v6 m ρ c

/-! ## `main_v17`: carried unchanged from boundary 6 to boundary 10 -/

/-- `main_v17` is the array of input window 0 of region 1: staged, never written back, so it leaves the region as it entered. -/
theorem step7_v17 (c : Dev nD) :
    W7 m ρ c (Proc.devRef .tc main_v17) = W6 m ρ c (Proc.devRef .tc main_v17) :=
  (W7_arr m ρ c 0).trans (((dat1 (V6 m ρ) c).arrAt_in 0 rfl _).trans (A_eq1 (V6 m ρ) c 0))

/-- No operation of the stretch before boundary 8 writes `main_v17`. -/
theorem step8_v17 (c : Dev nD) :
    W8 m ρ c (Proc.devRef .tc main_v17) = W7 m ρ c (Proc.devRef .tc main_v17) :=
  host_keep hostOps2 main_v17

/-- `main_v17` is not an array of region 2. -/
theorem step9_v17 (c : Dev nD) :
    W9 m ρ c (Proc.devRef .tc main_v17) = W8 m ρ c (Proc.devRef .tc main_v17) :=
  W9_of_ne m ρ c main_v17 (by decide)

/-- No operation of the stretch before boundary 10 writes `main_v17`. -/
theorem step10_v17 (c : Dev nD) :
    W10 m ρ c (Proc.devRef .tc main_v17) = W9 m ρ c (Proc.devRef .tc main_v17) :=
  host_keep hostOps3 main_v17

theorem K7_v17 (c : Dev nD) : (W7 m ρ c (Proc.devRef .tc main_v17) : FVec Ideal S60000x4 .f32) = B6_v17 m ρ c :=
  step7_v17 m ρ c
theorem K8_v17 (c : Dev nD) : (W8 m ρ c (Proc.devRef .tc main_v17) : FVec Ideal S60000x4 .f32) = B6_v17 m ρ c :=
  (step8_v17 m ρ c).trans (K7_v17 m ρ c)
theorem K9_v17 (c : Dev nD) : (W9 m ρ c (Proc.devRef .tc main_v17) : FVec Ideal S60000x4 .f32) = B6_v17 m ρ c :=
  (step9_v17 m ρ c).trans (K8_v17 m ρ c)
theorem K10_v17 (c : Dev nD) : (W10 m ρ c (Proc.devRef .tc main_v17) : FVec Ideal S60000x4 .f32) = B6_v17 m ρ c :=
  (step10_v17 m ρ c).trans (K9_v17 m ρ c)
theorem B10_v17_eq (c : Dev nD) : B10_v17 m ρ c = B6_v17 m ρ c := K10_v17 m ρ c

/-! ## `main_v34`: carried unchanged from boundary 16 to boundary 19 -/

/-- No operation of the stretch before boundary 17 writes `main_v34`. -/
theorem step17_v34 (c : Dev nD) :
    W17 m ρ c (Proc.devRef .tc main_v34) = W16 m ρ c (Proc.devRef .tc main_v34) :=
  host_keep hostOps6 main_v34

/-- `main_v34` is not an array of region 6. -/
theorem step18_v34 (c : Dev nD) :
    W18 m ρ c (Proc.devRef .tc main_v34) = W17 m ρ c (Proc.devRef .tc main_v34) :=
  W18_of_ne m ρ c main_v34 (by decide)

/-- No operation of the stretch before boundary 19 writes `main_v34`. -/
theorem step19_v34 (c : Dev nD) :
    W19 m ρ c (Proc.devRef .tc main_v34) = W18 m ρ c (Proc.devRef .tc main_v34) :=
  host_keep hostOps7 main_v34

theorem K17_v34 (c : Dev nD) : (W17 m ρ c (Proc.devRef .tc main_v34) : FVec Ideal S800000x4 .f32) = B16_v34 m ρ c :=
  step17_v34 m ρ c
theorem K18_v34 (c : Dev nD) : (W18 m ρ c (Proc.devRef .tc main_v34) : FVec Ideal S800000x4 .f32) = B16_v34 m ρ c :=
  (step18_v34 m ρ c).trans (K17_v34 m ρ c)
theorem K19_v34 (c : Dev nD) : (W19 m ρ c (Proc.devRef .tc main_v34) : FVec Ideal S800000x4 .f32) = B16_v34 m ρ c :=
  (step19_v34 m ρ c).trans (K18_v34 m ρ c)
theorem B19_v34_eq (c : Dev nD) : B19_v34 m ρ c = B16_v34 m ρ c := K19_v34 m ρ c

/-! ## `main_v45`: carried unchanged from boundary 17 to boundary 21 -/

/-- `main_v45` is the array of input window 0 of region 6: staged, never written back, so it leaves the region as it entered. -/
theorem step18_v45 (c : Dev nD) :
    W18 m ρ c (Proc.devRef .tc main_v45) = W17 m ρ c (Proc.devRef .tc main_v45) :=
  (W18_arr m ρ c 0).trans (((dat6 (V17 m ρ) c).arrAt_in 0 rfl _).trans (A_eq6 (V17 m ρ) c 0))

/-- No operation of the stretch before boundary 19 writes `main_v45`. -/
theorem step19_v45 (c : Dev nD) :
    W19 m ρ c (Proc.devRef .tc main_v45) = W18 m ρ c (Proc.devRef .tc main_v45) :=
  host_keep hostOps7 main_v45

/-- `main_v45` is not an array of region 7. -/
theorem step20_v45 (c : Dev nD) :
    W20 m ρ c (Proc.devRef .tc main_v45) = W19 m ρ c (Proc.devRef .tc main_v45) :=
  W20_of_ne m ρ c main_v45 (by decide)

/-- No operation of the stretch before boundary 21 writes `main_v45`. -/
theorem step21_v45 (c : Dev nD) :
    W21 m ρ c (Proc.devRef .tc main_v45) = W20 m ρ c (Proc.devRef .tc main_v45) :=
  host_keep hostOps8 main_v45

theorem K18_v45 (c : Dev nD) : (W18 m ρ c (Proc.devRef .tc main_v45) : FVec Ideal S60000x4 .f32) = B17_v45 m ρ c :=
  step18_v45 m ρ c
theorem K19_v45 (c : Dev nD) : (W19 m ρ c (Proc.devRef .tc main_v45) : FVec Ideal S60000x4 .f32) = B17_v45 m ρ c :=
  (step19_v45 m ρ c).trans (K18_v45 m ρ c)
theorem K20_v45 (c : Dev nD) : (W20 m ρ c (Proc.devRef .tc main_v45) : FVec Ideal S60000x4 .f32) = B17_v45 m ρ c :=
  (step20_v45 m ρ c).trans (K19_v45 m ρ c)
theorem K21_v45 (c : Dev nD) : (W21 m ρ c (Proc.devRef .tc main_v45) : FVec Ideal S60000x4 .f32) = B17_v45 m ρ c :=
  (step21_v45 m ρ c).trans (K20_v45 m ρ c)
theorem B21_v45_eq (c : Dev nD) : B21_v45 m ρ c = B17_v45 m ρ c := K21_v45 m ρ c

/-! ## `main_v57`: carried unchanged from boundary 22 to boundary 26 -/

/-- No operation of the stretch before boundary 23 writes `main_v57`. -/
theorem step23_v57 (c : Dev nD) :
    W23 m ρ c (Proc.devRef .tc main_v57) = W22 m ρ c (Proc.devRef .tc main_v57) :=
  host_keep hostOps9 main_v57

/-- No operation of the stretch before boundary 24 writes `main_v57`. -/
theorem step24_v57 (c : Dev nD) :
    W24 m ρ c (Proc.devRef .tc main_v57) = W23 m ρ c (Proc.devRef .tc main_v57) :=
  host_keep hostOps9_1 main_v57

/-- `main_v57` is not an array of region 9. -/
theorem step25_v57 (c : Dev nD) :
    W25 m ρ c (Proc.devRef .tc main_v57) = W24 m ρ c (Proc.devRef .tc main_v57) :=
  W25_of_ne m ρ c main_v57 (by decide)

/-- No operation of the stretch before boundary 26 writes `main_v57`. -/
theorem step26_v57 (c : Dev nD) :
    W26 m ρ c (Proc.devRef .tc main_v57) = W25 m ρ c (Proc.devRef .tc main_v57) :=
  host_keep hostOps10 main_v57

theorem K23_v57 (c : Dev nD) : (W23 m ρ c (Proc.devRef .tc main_v57) : FVec Ideal S60000x64 .f32) = B22_v57 m ρ c :=
  step23_v57 m ρ c
theorem K24_v57 (c : Dev nD) : (W24 m ρ c (Proc.devRef .tc main_v57) : FVec Ideal S60000x64 .f32) = B22_v57 m ρ c :=
  (step24_v57 m ρ c).trans (K23_v57 m ρ c)
theorem K25_v57 (c : Dev nD) : (W25 m ρ c (Proc.devRef .tc main_v57) : FVec Ideal S60000x64 .f32) = B22_v57 m ρ c :=
  (step25_v57 m ρ c).trans (K24_v57 m ρ c)
theorem K26_v57 (c : Dev nD) : (W26 m ρ c (Proc.devRef .tc main_v57) : FVec Ideal S60000x64 .f32) = B22_v57 m ρ c :=
  (step26_v57 m ρ c).trans (K25_v57 m ρ c)
theorem B26_v57_eq (c : Dev nD) : B26_v57 m ρ c = B22_v57 m ρ c := K26_v57 m ρ c

end Cert.KernelIdeal.Val

end
-- ==== Proof.KKeep.lean ====
/-
  The arrays of the kernel program that are carried unchanged from one boundary of its run to a later one, gathered:
  the index arguments (KKeepA), the stacked node features and the channel-to-group indicator (KKeepB), and the
  arrays written once and read again a few boundaries later (KKeepC).
-/
import proofs.«418341_j39728447488527_3_alg».proof.Proof.KKeepA
import proofs.«418341_j39728447488527_3_alg».proof.Proof.KKeepB
import proofs.«418341_j39728447488527_3_alg».proof.Proof.KKeepC

noncomputable section

end
-- ==== Proof.KEntry.lean ====
/-
  The arrays the kernel program has computed on the host before its first region.

  Four of them matter later. The node-feature table is the two argument tables stacked: rows below 30000 come from
  the first, the rest from the second. The group matrix is built from the channel numbers 0 … 63: each is divided by
  16 with the quotient rounded toward minus infinity (a truncated quotient, lowered by one when the signs differ and
  the remainder is not zero; for these non-negative operands the plain quotient), the quotients are compared with the
  group numbers 0 … 3, and each truth value becomes the real number 1 or 0. So entry (k, i) is one exactly when
  channel k lies in group i. Its transpose is kept as well. The starting logits are a table filled with the word of
  the float 1.
-/
import proofs.«418341_j39728447488527_3_alg».proof.Proof.KBufs
import proofs.«418341_j39728447488527_3_alg».proof.Proof.OneHot
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

namespace Entry

/-! ## The stacked feature table -/

/-- The table is the concatenation of the two argument tables along the rows. -/
theorem B4_v0_eq (c : Dev nD) :
    B4_v0 m ρ c = concatenate S60000x64 0 [⟨S30000x64, arg0 m c⟩, ⟨S30000x64, arg1 m c⟩]
      concatenates_S30000x64_S30000x64_S60000x64_d0 := by
  show StableHlo.after hostOps0_3 (StableHlo.after hostOps0_2 (StableHlo.after hostOps0_1
    (StableHlo.after hostOps0 (W0 m ρ c)))) (Proc.devRef .tc main_v0) = _
  after_results

/-- Two stacked tables read at a row: the first table below its height, the second from there on. -/
theorem concat_rows_apply (a0 a1 : FVec Ideal S30000x64 .f32) (n : Fin 60000) (k : Fin 64) :
    concatenate S60000x64 0 [⟨S30000x64, a0⟩, ⟨S30000x64, a1⟩] concatenates_S30000x64_S30000x64_S60000x64_d0 (ix2 n k)
      = feats a0 a1 n k := by
  unfold feats
  split
  · next h =>
    exact concatenate_pair_apply_left (0 : Fin 2) a0 a1 concatenates_S30000x64_S30000x64_S60000x64_d0 (ix2 n k) rfl
      (ix2 ⟨n.val, h⟩ k) (fun b => match b with | ⟨0, _⟩ => rfl | ⟨1, _⟩ => rfl)
  · next h =>
    refine concatenate_pair_apply_right (0 : Fin 2) a0 a1 concatenates_S30000x64_S30000x64_S60000x64_d0 (ix2 n k) rfl rfl
      (ix2 ⟨n.val - 30000, by omega⟩ k)
      (fun b => match b with | ⟨0, _⟩ => fun hb => absurd rfl hb | ⟨1, _⟩ => fun _ => rfl) ?_
    show n.val - 30000 + 30000 = n.val
    omega

/-! ## The group matrix -/

/-- The channel numbers divided by 16, the quotient rounded toward minus infinity, as the operations spell it. -/
def entryQuot : IVec S64 32 :=
  select
    (andi
      (cmpi .ne (signi (iotaInDim S64 32 0)) (broadcastInDim S64 ![] bcast_S_S64 (signi (constantI S_ 32 16#32))))
      (cmpi .ne (Host.remsi (iotaInDim S64 32 0) (broadcastInDim S64 ![] bcast_S_S64 (constantI S_ 32 16#32)))
        (broadcastInDim S64 ![] bcast_S_S64 (constantI S_ 32 0#32))))
    (subi (Host.divsi (iotaInDim S64 32 0) (broadcastInDim S64 ![] bcast_S_S64 (constantI S_ 32 16#32)))
      (broadcastInDim S64 ![] bcast_S_S64 (constantI S_ 32 1#32)))
    (Host.divsi (iotaInDim S64 32 0) (broadcastInDim S64 ![] bcast_S_S64 (constantI S_ 32 16#32)))

/-- Entry k is the word of k / 16: the operands are non-negative, so no correction applies (64 entries, each a
    computation on words). -/
theorem entryQuot_apply : ∀ k : Fin 64, entryQuot (ix1 k) = BitVec.ofNat 32 (k.val / 16) := by
  decide

/-- The quotients laid down the rows, compared with the group numbers laid along the columns, each truth value made a
    real number. -/
def entryOneHot : FVec Ideal S64x4 .f32 :=
  uitofp .f32
    (cmpi .eq
      (broadcastInDim S64x4 ![0, 1] bcast_S64x1_S64x4_0_1 (broadcastInDim S64x1 ![0] bcast_S64_S64x1_0 entryQuot))
      (broadcastInDim S64x4 ![0, 1] bcast_S1x4_S64x4_0_1 (iotaInDim S1x4 32 1)))

theorem B4_v3_eq (c : Dev nD) : B4_v3 m ρ c = entryOneHot := by
  show StableHlo.after hostOps0_3 (StableHlo.after hostOps0_2 (StableHlo.after hostOps0_1
    (StableHlo.after hostOps0 (W0 m ρ c)))) (Proc.devRef .tc main_v3) = _
  after_results_simp
  simp only [StableHlo.TRef.ofBuf, StableHlo.TRef.toBuf, cast_eq]
  rfl

theorem B4_v4_eq (c : Dev nD) : B4_v4 m ρ c = transpose S4x64 [1, 0] entryOneHot transposes_S64x4_S4x64_1_0 := by
  show StableHlo.after hostOps0_3 (StableHlo.after hostOps0_2 (StableHlo.after hostOps0_1
    (StableHlo.after hostOps0 (W0 m ρ c)))) (Proc.devRef .tc main_v4) = _
  after_results_simp
  simp only [StableHlo.TRef.ofBuf, StableHlo.TRef.toBuf, cast_eq]
  rfl

/-- A vector laid down the rows of a 64 × 4 table reads, at (k, i), its entry k. -/
theorem bcast_rows_apply (v : IVec S64 32) (k : Fin 64) (i : Fin 4) :
    broadcastInDim S64x4 ![0, 1] bcast_S64x1_S64x4_0_1 (broadcastInDim S64x1 ![0] bcast_S64_S64x1_0 v) (ix2 k i)
      = v (ix1 k) := by
  simp only [broadcastInDim]
  congr 1
  funext a
  match a with
  | ⟨0, _⟩ => rfl

/-- The column numbers of a 64 × 4 table read, at (k, i), the word of i. -/
theorem bcast_iota_apply (k : Fin 64) (i : Fin 4) :
    broadcastInDim S64x4 ![0, 1] bcast_S1x4_S64x4_0_1 (iotaInDim S1x4 32 1) (ix2 k i) = BitVec.ofNat 32 i.val := rfl

/-- The words of k / 16 and of i are equal exactly when channel k lies in group i. -/
theorem cmp_grp : ∀ (k : Fin 64) (i : Fin 4),
    IntOp.cmpi .eq (BitVec.ofNat 32 (k.val / 16)) (BitVec.ofNat 32 i.val) = if grp k = i then 1#1 else 0#1 := by
  decide

/-- A truth value read unsigned as a real number is 1 or 0. -/
theorem uitofp_bit (p : Prop) [Decidable p] :
    FloatOps.uitofp (F := Ideal) .f32 (if p then 1#1 else 0#1 : BitVec 1) = if p then (1 : EReal) else 0 := by
  split
  · show (((1 : ℕ) : ℝ) : EReal) = 1
    rw [Nat.cast_one, EReal.coe_one]
  · show (((0 : ℕ) : ℝ) : EReal) = 0
    rw [Nat.cast_zero, EReal.coe_zero]

theorem entryOneHot_apply (k : Fin 64) (i : Fin 4) : entryOneHot (ix2 k i) = oh k i := by
  show FloatOps.uitofp (F := Ideal) .f32 (IntOp.cmpi .eq
      (broadcastInDim S64x4 ![0, 1] bcast_S64x1_S64x4_0_1 (broadcastInDim S64x1 ![0] bcast_S64_S64x1_0 entryQuot) (ix2 k i))
      (broadcastInDim S64x4 ![0, 1] bcast_S1x4_S64x4_0_1 (iotaInDim S1x4 32 1) (ix2 k i))) = oh k i
  rw [bcast_rows_apply, bcast_iota_apply, entryQuot_apply, cmp_grp, uitofp_bit]
  rfl

end Entry

/-! ## The four arrays at explicit coordinates -/

theorem B4_v0_apply (c : Dev nD) (n : Fin 60000) (k : Fin 64) :
    B4_v0 m ρ c (ix2 n k) = feats (arg0 m c) (arg1 m c) n k := by
  rw [Entry.B4_v0_eq]
  exact Entry.concat_rows_apply _ _ n k

theorem B4_v3_apply (c : Dev nD) (k : Fin 64) (i : Fin 4) : B4_v3 m ρ c (ix2 k i) = oh k i := by
  rw [Entry.B4_v3_eq]
  exact Entry.entryOneHot_apply k i

theorem B4_v4_apply (c : Dev nD) (i : Fin 4) (k : Fin 64) : B4_v4 m ρ c (ix2 i k) = oh k i := by
  rw [Entry.B4_v4_eq]
  exact (transpose_ix2_apply Entry.entryOneHot transposes_S64x4_S4x64_1_0 i k).trans (Entry.entryOneHot_apply k i)

/-- The starting logits: the word of the float 1 broadcast over the table. -/
theorem B4_v5_apply (c : Dev nD) (e : Fin 800000) (i : Fin 4) : B4_v5 m ρ c (ix2 e i) = one32 := by
  have h : B4_v5 m ρ c
      = broadcastInDim S800000x4 ![] bcast_S_S800000x4 (constant (F := Ideal) S_ .f32 0x3F800000#32) := by
    show StableHlo.after hostOps0_3 (W3 m ρ c) (Proc.devRef .tc main_v5) = _
    after_results
  rw [h]
  rfl

end Cert.KernelIdeal.Val

end
-- ==== Proof.RegSoft.lean ====
/-
  The two softmax regions of the kernel program.

  Each takes an 800000 × 4 array of logits, one row per edge and one lane per group, and writes the array of the
  rows' softmaxes: with `M` the largest of a row's four entries, entry `i` of the result is
  `exp (a i − M) / Σ_i' exp (a i' − M)`. A grid point works on a block of 8000 consecutive rows; a row's result
  depends on that row alone, so what point `t` writes back is block `t` of one whole-array function, and the
  hundred blocks cover the array. The row maximum is read off the lane reduction as the supremum over the four
  lanes (the reduction starts from −∞, the least extended real), the row sum as a sum over the four lanes.
-/
import proofs.«418341_j39728447488527_3_alg».proof.Proof.KBufs
import proofs.«418341_j39728447488527_3_alg».proof.Proof.OneHot
import Idealize.ShloMosaic.PureOps.Ideal.Laws
import Idealize.ShloMosaic.Lib.ValueLayout
import Idealize.ShloMosaic.Lib.Pipeline.Value

noncomputable section

namespace Cert.KernelIdeal.Val.Soft

open Idealize.ShloMosaic Idealize.ShloMosaic.TcCoe Idealize.ShloMosaic.ValueIdx Idealize.SL.Sem Cert.KernelIdeal Cert.KernelIdeal.Gen Cert.Routing
open Idealize.ShloMosaic.Pipeline (Dat)

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row maximum over the four lanes. -/
theorem rowMax_apply (x : FVec Ideal S8000x4 .f32) (h : S8000x4.Reduces [1] S8000) (hφ : FKind.Formats .f32)
    (hacc : (0xFF800000#32 : BitVec 32) = 0xFF800000#32) (r : Fin 8000) :
    multiReduction .maximumf [1] S8000 x 0xFF800000#32 h hφ hacc (ix1 r) = Finset.univ.sup (fun i : Fin 4 => x (ix2 r i)) := by
  refine (Ideal.multiReduction_maximumf_single x 0xFF800000#32 h hφ hacc (ix1 r)).trans ?_
  have e : (FloatOps.ofBits (F := Ideal) .f32 0xFF800000#32 : EReal) = ⊥ := by simp [Ideal.ofBits, Ideal.ieee]
  have hf : (x ∘ h.lift (ix1 r) : Fin 4 → EReal) = fun i : Fin 4 => x (ix2 r i) :=
    funext fun k => congrArg x (funext fun a => Fin.ext (match a with | ⟨0, _⟩ => rfl | ⟨1, _⟩ => rfl))
  rw [e]
  show Finset.fold max ⊥ (x ∘ h.lift (ix1 r) : Fin 4 → EReal) (Finset.univ : Finset (Fin 4)) = _
  rw [hf]
  rfl

/-- The row sum over the four lanes. -/
theorem rowSum_apply (x : FVec Ideal S8000x4 .f32) (h : S8000x4.Reduces [1] S8000) (hφ : FKind.Formats .f32)
    (hacc : (0x00000000#32 : BitVec 32) = 0x00000000#32) (r : Fin 8000) :
    multiReduction .add [1] S8000 x 0x00000000#32 h hφ hacc (ix1 r) = ∑ i : Fin 4, x (ix2 r i) := by
  refine (Ideal.multiReduction_add_single x 0x00000000#32 h hφ hacc (ix1 r)).trans ?_
  show ∑ k : Fin 4, x (h.lift (ix1 r) k) = _
  exact Finset.sum_congr rfl fun k _ => congrArg x (funext fun a => Fin.ext (match a with | ⟨0, _⟩ => rfl | ⟨1, _⟩ => rfl))

/-- A per-row value spread over the row's four lanes. -/
theorem col_apply (v : FVec Ideal S8000 .f32) (hc : S8000.ShapeCasts S8000x1) (hb : S8000x1.Broadcasts S8000x4)
    (r : Fin 8000) (i : Fin 4) : broadcastTo S8000x4 (shapeCast S8000x1 v hc) hb (ix2 r i) = v (ix1 r) :=
  (broadcastTo_a1_ab_apply _ hb r i).trans (shapeCast_a_a1_apply v hc r 0)

end Layout

/-- A zero offset on both axes. -/
theorem zero_off2 : (![0, 0] : Fin 2 → Nat) = fun _ => 0 := funext fun a => by fin_cases a <;> rfl

/-- The softmax of every row of an 800000 × 4 array. -/
def softArr (A : S800000x4.Idx → EReal) : S800000x4.Idx → EReal :=
  fun j => soft (fun e i => A (ix2 e i)) (j 0) (j 1)

theorem softArr_apply (A : S800000x4.Idx → EReal) (e : Fin 800000) (i : Fin 4) :
    softArr A (ix2 e i) = soft (fun e i => A (ix2 e i)) e i := rfl

/-! ## The first softmax region -/

/-- The body's result at row `r`, lane `i` of a block: the softmax of the block's row. -/
theorem softPay0_apply (x : Vec Ideal S8000x4 .f32) (r : Fin 8000) (i : Fin 4) :
    k0_pay1 (F := Ideal) x (ix2 r i) = Ideal.div (Ideal.exp (x (ix2 r i) - Finset.univ.sup fun i' : Fin 4 => x (ix2 r i')))
      (∑ i' : Fin 4, Ideal.exp (x (ix2 r i') - Finset.univ.sup fun i'' : Fin 4 => x (ix2 r i''))) := by
  unfold k0_pay1
  simp only [shapeCast_self]
  rw [divf_apply, col_apply, rowSum_apply]
  show Ideal.div (Ideal.exp (x (ix2 r i) - broadcastTo _ _ _ (ix2 r i))) (∑ i' : Fin 4, Ideal.exp (x (ix2 r i') - broadcastTo _ _ _ (ix2 r i'))) = _
  simp only [col_apply]
  rw [rowMax_apply]

section Region0
variable (V : (c : Dev nD) → (b : Ref sig .tc) → Buf (Elt Ideal) ((c : Thread nD τ).loc b))

/-- Grid point `t` works on block `t` of the rows, all four lanes, for the input and the output alike. -/
theorem soft0_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block of grid point `t` at row `p` is the array's row `8000 t + p`. -/
theorem soft0_blk_apply (c : Dev nD) (t : Fin cfg0.N) (p : Fin 8000) (q : Fin 4) (e : Fin 800000)
    (he : e.val = 8000 * t.val + p.val) :
    (iblk0 V c 0 t : Vec Ideal S8000x4 .f32) (ix2 p q) = (V c main_v5 : S800000x4.Idx → EReal) (ix2 e q) := by
  obtain ⟨i0, i1, -, -⟩ := soft0_idx t
  unfold iblk0
  rw [View.read_apply]
  show V c main_v5 _ = V c main_v5 _
  congr 1
  funext a
  apply Fin.ext
  match a with
  | ⟨0, _⟩ => show win0_0.index t 0 * 8000 + 1 * p.val = e.val; rw [i0, he]; omega
  | ⟨1, _⟩ => show win0_0.index t 1 * 4 + 1 * q.val = q.val; rw [i1]; omega

/-- What grid point `t` writes back is block `t` of the row-wise softmax of the input array. -/
theorem soft0_flushed (c : Dev nD) (t : Fin cfg0.N) :
    (dat0 (F := Ideal) V c).flushed 1 t = ((cfg0.win 1).blk t).view.read (Elt Ideal) (softArr (V c main_v5)) := by
  show (cfg0.win 1).cut (grid0.coords t) ((dat0 V c).after 1 t) = _
  rw [after0_1]
  unfold out0_1
  rw [View.canon_unit_zero zero_off2]
  simp only [View.ld_unit_zero (S := S8000x4) zero_off2]
  obtain ⟨-, -, o0, o1⟩ := soft0_idx t
  have hN : t.val < 100 := t.isLt
  funext j
  have h0 : (j 0).val < 8000 := (j 0).isLt
  have h1 : (j 1).val < 4 := (j 1).isLt
  have hx : (cfg0.win 1).xinj (grid0.coords t) j = ix2 (⟨(j 0).val, h0⟩ : Fin 8000) (⟨(j 1).val, h1⟩ : Fin 4) :=
    funext fun a => match a with | ⟨0, _⟩ => rfl | ⟨1, _⟩ => rfl
  have hemb : ((cfg0.win 1).blk t).view.emb j
      = ix2 (⟨8000 * t.val + (j 0).val, by omega⟩ : Fin 800000) (⟨(j 1).val, h1⟩ : Fin 4) := by
    funext a; apply Fin.ext
    match a with
    | ⟨0, _⟩ => show win0_1.index t 0 * 8000 + 1 * (j 0).val = 8000 * t.val + (j 0).val; rw [o0]; omega
    | ⟨1, _⟩ => show win0_1.index t 1 * 4 + 1 * (j 1).val = (j 1).val; rw [o1]; omega
  show k0_pay1 (iblk0 V c 0 t) ((cfg0.win 1).xinj (grid0.coords t) j)
    = softArr (V c main_v5) (((cfg0.win 1).blk t).view.emb j)
  rw [hx, hemb]
  refine (softPay0_apply (iblk0 V c 0 t) _ _).trans ?_
  have hb : ∀ i' : Fin 4, (iblk0 V c 0 t : Vec Ideal S8000x4 .f32) (ix2 (⟨(j 0).val, h0⟩ : Fin 8000) i')
      = (V c main_v5 : S800000x4.Idx → EReal) (ix2 (⟨8000 * t.val + (j 0).val, by omega⟩ : Fin 800000) i') :=
    fun i' => soft0_blk_apply V c t _ i' _ rfl
  simp only [hb]
  rfl

/-- An index of the output array lies in grid point `t`'s block iff each coordinate lies in the block's range. -/
theorem soft0_mem_blk (t : Fin cfg0.N) (i : S800000x4.Idx) :
    i ∈ ((cfg0.win 1).blk t).view.set ↔ ∀ a : Fin 2, win0_1.index t a * S8000x4.size a ≤ (i a).val
      ∧ (i a).val < win0_1.index t a * S8000x4.size a + S8000x4.size a := by
  show i ∈ ((View.whole main_v6).slice (win0_1.rect t)).set ↔ _
  rw [View.set_slice_whole, Rect.mem_set_unit]
  exact Iff.rfl

/-- The hundred blocks cover the rows (row `r` lies in block `r / 8000`), so the output array ends as the
    row-wise softmax of the input array. -/
theorem soft0_arr (c : Dev nD) : (dat0 (F := Ideal) V c).arrAt 1 cfg0.N = softArr (V c main_v5) :=
  (dat0 V c).arrAt_eq_of_cover 1 (softArr (V c main_v5)) (fun t _ => soft0_flushed V c t) fun i => by
    have hi0 : (i 0).val < 800000 := (i 0).isLt
    have hi1 : (i 1).val < 4 := (i 1).isLt
    have hN : cfg0.N = 100 := N_0
    have ht : (i 0).val / 8000 < cfg0.N := by rw [hN]; omega
    refine ⟨⟨(i 0).val / 8000, ht⟩, flush0_1 _, ?_⟩
    rw [soft0_mem_blk]
    obtain ⟨-, -, o0, o1⟩ := soft0_idx ⟨(i 0).val / 8000, ht⟩
    intro a
    match a with
    | ⟨0, _⟩ =>
      show win0_1.index ⟨(i 0).val / 8000, ht⟩ 0 * 8000 ≤ (i 0).val
        ∧ (i 0).val < win0_1.index ⟨(i 0).val / 8000, ht⟩ 0 * 8000 + 8000
      rw [o0]; show (i 0).val / 8000 * 8000 ≤ (i 0).val ∧ (i 0).val < (i 0).val / 8000 * 8000 + 8000; omega
    | ⟨1, _⟩ =>
      show win0_1.index ⟨(i 0).val / 8000, ht⟩ 1 * 4 ≤ (i 1).val
        ∧ (i 1).val < win0_1.index ⟨(i 0).val / 8000, ht⟩ 1 * 4 + 4
      rw [o1]; omega

end Region0

/-! ## The second softmax region -/

/-- The body's result at row `r`, lane `i` of a block: the softmax of the block's row. -/
theorem softPay5_apply (x : Vec Ideal S8000x4 .f32) (r : Fin 8000) (i : Fin 4) :
    k5_pay1 (F := Ideal) x (ix2 r i) = Ideal.div (Ideal.exp (x (ix2 r i) - Finset.univ.sup fun i' : Fin 4 => x (ix2 r i')))
      (∑ i' : Fin 4, Ideal.exp (x (ix2 r i') - Finset.univ.sup fun i'' : Fin 4 => x (ix2 r i''))) := by
  unfold k5_pay1
  simp only [shapeCast_self]
  rw [divf_apply, col_apply, rowSum_apply]
  show Ideal.div (Ideal.exp (x (ix2 r i) - broadcastTo _ _ _ (ix2 r i))) (∑ i' : Fin 4, Ideal.exp (x (ix2 r i') - broadcastTo _ _ _ (ix2 r i'))) = _
  simp only [col_apply]
  rw [rowMax_apply]

section Region5
variable (V : (c : Dev nD) → (b : Ref sig .tc) → Buf (Elt Ideal) ((c : Thread nD τ).loc b))

/-- Grid point `t` works on block `t` of the rows, all four lanes, for the input and the output alike. -/
theorem soft5_idx : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- The input block of grid point `t` at row `p` is the array's row `8000 t + p`. -/
theorem soft5_blk_apply (c : Dev nD) (t : Fin cfg5.N) (p : Fin 8000) (q : Fin 4) (e : Fin 800000)
    (he : e.val = 8000 * t.val + p.val) :
    (iblk5 V c 0 t : Vec Ideal S8000x4 .f32) (ix2 p q) = (V c main_v33 : S800000x4.Idx → EReal) (ix2 e q) := by
  obtain ⟨i0, i1, -, -⟩ := soft5_idx t
  unfold iblk5
  rw [View.read_apply]
  show V c main_v33 _ = V c main_v33 _
  congr 1
  funext a
  apply Fin.ext
  match a with
  | ⟨0, _⟩ => show win5_0.index t 0 * 8000 + 1 * p.val = e.val; rw [i0, he]; omega
  | ⟨1, _⟩ => show win5_0.index t 1 * 4 + 1 * q.val = q.val; rw [i1]; omega

/-- What grid point `t` writes back is block `t` of the row-wise softmax of the input array. -/
theorem soft5_flushed (c : Dev nD) (t : Fin cfg5.N) :
    (dat5 (F := Ideal) V c).flushed 1 t = ((cfg5.win 1).blk t).view.read (Elt Ideal) (softArr (V c main_v33)) := by
  show (cfg5.win 1).cut (grid5.coords t) ((dat5 V c).after 1 t) = _
  rw [after5_1]
  unfold out5_1
  rw [View.canon_unit_zero zero_off2]
  simp only [View.ld_unit_zero (S := S8000x4) zero_off2]
  obtain ⟨-, -, o0, o1⟩ := soft5_idx t
  have hN : t.val < 100 := t.isLt
  funext j
  have h0 : (j 0).val < 8000 := (j 0).isLt
  have h1 : (j 1).val < 4 := (j 1).isLt
  have hx : (cfg5.win 1).xinj (grid5.coords t) j = ix2 (⟨(j 0).val, h0⟩ : Fin 8000) (⟨(j 1).val, h1⟩ : Fin 4) :=
    funext fun a => match a with | ⟨0, _⟩ => rfl | ⟨1, _⟩ => rfl
  have hemb : ((cfg5.win 1).blk t).view.emb j
      = ix2 (⟨8000 * t.val + (j 0).val, by omega⟩ : Fin 800000) (⟨(j 1).val, h1⟩ : Fin 4) := by
    funext a; apply Fin.ext
    match a with
    | ⟨0, _⟩ => show win5_1.index t 0 * 8000 + 1 * (j 0).val = 8000 * t.val + (j 0).val; rw [o0]; omega
    | ⟨1, _⟩ => show win5_1.index t 1 * 4 + 1 * (j 1).val = (j 1).val; rw [o1]; omega
  show k5_pay1 (iblk5 V c 0 t) ((cfg5.win 1).xinj (grid5.coords t) j)
    = softArr (V c main_v33) (((cfg5.win 1).blk t).view.emb j)
  rw [hx, hemb]
  refine (softPay5_apply (iblk5 V c 0 t) _ _).trans ?_
  have hb : ∀ i' : Fin 4, (iblk5 V c 0 t : Vec Ideal S8000x4 .f32) (ix2 (⟨(j 0).val, h0⟩ : Fin 8000) i')
      = (V c main_v33 : S800000x4.Idx → EReal) (ix2 (⟨8000 * t.val + (j 0).val, by omega⟩ : Fin 800000) i') :=
    fun i' => soft5_blk_apply V c t _ i' _ rfl
  simp only [hb]
  rfl

/-- An index of the output array lies in grid point `t`'s block iff each coordinate lies in the block's range. -/
theorem soft5_mem_blk (t : Fin cfg5.N) (i : S800000x4.Idx) :
    i ∈ ((cfg5.win 1).blk t).view.set ↔ ∀ a : Fin 2, win5_1.index t a * S8000x4.size a ≤ (i a).val
      ∧ (i a).val < win5_1.index t a * S8000x4.size a + S8000x4.size a := by
  show i ∈ ((View.whole main_v34).slice (win5_1.rect t)).set ↔ _
  rw [View.set_slice_whole, Rect.mem_set_unit]
  exact Iff.rfl

/-- The hundred blocks cover the rows (row `r` lies in block `r / 8000`), so the output array ends as the
    row-wise softmax of the input array. -/
theorem soft5_arr (c : Dev nD) : (dat5 (F := Ideal) V c).arrAt 1 cfg5.N = softArr (V c main_v33) :=
  (dat5 V c).arrAt_eq_of_cover 1 (softArr (V c main_v33)) (fun t _ => soft5_flushed V c t) fun i => by
    have hi0 : (i 0).val < 800000 := (i 0).isLt
    have hi1 : (i 1).val < 4 := (i 1).isLt
    have hN : cfg5.N = 100 := N_5
    have ht : (i 0).val / 8000 < cfg5.N := by rw [hN]; omega
    refine ⟨⟨(i 0).val / 8000, ht⟩, flush5_1 _, ?_⟩
    rw [soft5_mem_blk]
    obtain ⟨-, -, o0, o1⟩ := soft5_idx ⟨(i 0).val / 8000, ht⟩
    intro a
    match a with
    | ⟨0, _⟩ =>
      show win5_1.index ⟨(i 0).val / 8000, ht⟩ 0 * 8000 ≤ (i 0).val
        ∧ (i 0).val < win5_1.index ⟨(i 0).val / 8000, ht⟩ 0 * 8000 + 8000
      rw [o0]; show (i 0).val / 8000 * 8000 ≤ (i 0).val ∧ (i 0).val < (i 0).val / 8000 * 8000 + 8000; omega
    | ⟨1, _⟩ =>
      show win5_1.index ⟨(i 0).val / 8000, ht⟩ 1 * 4 ≤ (i 1).val
        ∧ (i 1).val < win5_1.index ⟨(i 0).val / 8000, ht⟩ 1 * 4 + 4
      rw [o1]; omega

end Region5

end Cert.KernelIdeal.Val.Soft

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-- The first softmax region's output is the row-wise softmax of its input. -/
theorem B5_v6_apply (c : Dev nD) (e : Fin 800000) (i : Fin 4) :
    B5_v6 m ρ c (ix2 e i) = soft (fun e i => B4_v5 m ρ c (ix2 e i)) e i := by
  have h : B5_v6 m ρ c = Soft.softArr (B4_v5 m ρ c) := (W5_arr m ρ c 1).trans (Soft.soft0_arr (V4 m ρ) c)
  rw [h, Soft.softArr_apply]

/-- The second softmax region's output is the row-wise softmax of its input. -/
theorem B16_v34_apply (c : Dev nD) (e : Fin 800000) (i : Fin 4) :
    B16_v34 m ρ c (ix2 e i) = soft (fun e i => B15_v33 m ρ c (ix2 e i)) e i := by
  have h : B16_v34 m ρ c = Soft.softArr (B15_v33 m ρ c) := (W16_arr m ρ c 1).trans (Soft.soft5_arr (V15 m ρ) c)
  rw [h, Soft.softArr_apply]

end Cert.KernelIdeal.Val

end
-- ==== Proof.RegAvg.lean ====
/-
  The averaging region of the kernel program.

  It takes two 60000 × 64 arrays of node features and writes their mean, entry by entry: `(a + b) · ½`, the half
  being the float word 0x3F000000. A grid point works on a block of 6000 consecutive rows of all three arrays; the
  operation is pointwise, so what point `t` writes back is block `t` of one whole-array function, and the ten
  blocks cover the array.
-/
import proofs.«418341_j39728447488527_3_alg».proof.Proof.KBufs
import proofs.«418341_j39728447488527_3_alg».proof.Proof.OneHot
import Idealize.ShloMosaic.Lib.ValueLayout
import Idealize.ShloMosaic.Lib.Pipeline.Value

noncomputable section

namespace Cert.KernelIdeal.Val.Avg

open Idealize.ShloMosaic Idealize.ShloMosaic.TcCoe Idealize.ShloMosaic.ValueIdx Idealize.SL.Sem Cert.KernelIdeal Cert.KernelIdeal.Gen Cert.Routing
open Idealize.ShloMosaic.Pipeline (Dat)

/-- A zero offset on both axes. -/
theorem zero_off2 : (![0, 0] : Fin 2 → Nat) = fun _ => 0 := funext fun a => by fin_cases a <;> rfl

/-- The entrywise mean of two 60000 × 64 arrays. -/
def avgArr (A B : S60000x64.Idx → EReal) : S60000x64.Idx → EReal := fun j => (A j + B j) * half32

/-- The body's result at an entry of a block: the mean of the two blocks' entries there. -/
theorem avgPay_apply (x0 x1 : Vec Ideal S6000x64 .f32) (j : S6000x64.Idx) :
    k10_pay1 (F := Ideal) x0 x1 j = (x0 j + x1 j) * half32 := by
  unfold k10_pay1
  simp only [shapeCast_self]
  rfl

section Region
variable (V : (c : Dev nD) → (b : Ref sig .tc) → Buf (Elt Ideal) ((c : Thread nD τ).loc b))

/-- Grid point `t` works on block `t` of the rows, all 64 lanes, for the two inputs and the output alike. -/
theorem avg_idx : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What grid point `t` writes back is block `t` of the entrywise mean of the two input arrays. -/
theorem avg_flushed (c : Dev nD) (t : Fin cfg10.N) :
    (dat10 (F := Ideal) V c).flushed 2 t
      = ((cfg10.win 2).blk t).view.read (Elt Ideal) (avgArr (V c main_v0) (V c main_v57)) := by
  show (cfg10.win 2).cut (grid10.coords t) ((dat10 V c).after 2 t) = _
  rw [after10_2]
  unfold out10_2
  rw [View.canon_unit_zero zero_off2]
  simp only [View.ld_unit_zero (S := S6000x64) zero_off2]
  obtain ⟨a0, a1, b0, b1, o0, o1⟩ := avg_idx t
  funext j
  have h0 : ((cfg10.win 0).blk t).view.emb j = ((cfg10.win 2).blk t).view.emb j := by
    funext a; apply Fin.ext
    match a with
    | ⟨0, _⟩ =>
      show win10_0.index t 0 * 6000 + 1 * (j 0).val = win10_2.index t 0 * 6000 + 1 * (j 0).val
      rw [a0, o0]
    | ⟨1, _⟩ =>
      show win10_0.index t 1 * 64 + 1 * (j 1).val = win10_2.index t 1 * 64 + 1 * (j 1).val
      rw [a1, o1]
  have h1 : ((cfg10.win 1).blk t).view.emb j = ((cfg10.win 2).blk t).view.emb j := by
    funext a; apply Fin.ext
    match a with
    | ⟨0, _⟩ =>
      show win10_1.index t 0 * 6000 + 1 * (j 0).val = win10_2.index t 0 * 6000 + 1 * (j 0).val
      rw [b0, o0]
    | ⟨1, _⟩ =>
      show win10_1.index t 1 * 64 + 1 * (j 1).val = win10_2.index t 1 * 64 + 1 * (j 1).val
      rw [b1, o1]
  have e0 : (iblk10 V c 0 t : Vec Ideal S6000x64 .f32) ((cfg10.win 2).xinj (grid10.coords t) j)
      = (V c main_v0 : S60000x64.Idx → EReal) (((cfg10.win 2).blk t).view.emb j) := by
    show V c main_v0 (((cfg10.win 0).blk t).view.emb j) = V c main_v0 (((cfg10.win 2).blk t).view.emb j)
    rw [h0]
  have e1 : (iblk10 V c 1 t : Vec Ideal S6000x64 .f32) ((cfg10.win 2).xinj (grid10.coords t) j)
      = (V c main_v57 : S60000x64.Idx → EReal) (((cfg10.win 2).blk t).view.emb j) := by
    show V c main_v57 (((cfg10.win 1).blk t).view.emb j) = V c main_v57 (((cfg10.win 2).blk t).view.emb j)
    rw [h1]
  show k10_pay1 (iblk10 V c 0 t) (iblk10 V c 1 t) ((cfg10.win 2).xinj (grid10.coords t) j)
    = avgArr (V c main_v0) (V c main_v57) (((cfg10.win 2).blk t).view.emb j)
  exact (avgPay_apply (iblk10 V c 0 t) (iblk10 V c 1 t) _).trans
    (congrArg₂ (fun a b : EReal => (a + b) * half32) e0 e1)

/-- An index of the output array lies in grid point `t`'s block iff each coordinate lies in the block's range. -/
theorem avg_mem_blk (t : Fin cfg10.N) (i : S60000x64.Idx) :
    i ∈ ((cfg10.win 2).blk t).view.set ↔ ∀ a : Fin 2, win10_2.index t a * S6000x64.size a ≤ (i a).val
      ∧ (i a).val < win10_2.index t a * S6000x64.size a + S6000x64.size a := by
  show i ∈ ((View.whole main_v62).slice (win10_2.rect t)).set ↔ _
  rw [View.set_slice_whole, Rect.mem_set_unit]
  exact Iff.rfl

/-- The ten blocks cover the rows (row `r` lies in block `r / 6000`), so the output array ends as the entrywise
    mean of the two input arrays. -/
theorem avg_arr (c : Dev nD) : (dat10 (F := Ideal) V c).arrAt 2 cfg10.N = avgArr (V c main_v0) (V c main_v57) :=
  (dat10 V c).arrAt_eq_of_cover 2 (avgArr (V c main_v0) (V c main_v57)) (fun t _ => avg_flushed V c t) fun i => by
    have hi0 : (i 0).val < 60000 := (i 0).isLt
    have hi1 : (i 1).val < 64 := (i 1).isLt
    have hN : cfg10.N = 10 := N_10
    have ht : (i 0).val / 6000 < cfg10.N := by rw [hN]; omega
    refine ⟨⟨(i 0).val / 6000, ht⟩, flush10_2 _, ?_⟩
    rw [avg_mem_blk]
    obtain ⟨-, -, -, -, o0, o1⟩ := avg_idx ⟨(i 0).val / 6000, ht⟩
    intro a
    match a with
    | ⟨0, _⟩ =>
      show win10_2.index ⟨(i 0).val / 6000, ht⟩ 0 * 6000 ≤ (i 0).val
        ∧ (i 0).val < win10_2.index ⟨(i 0).val / 6000, ht⟩ 0 * 6000 + 6000
      rw [o0]; show (i 0).val / 6000 * 6000 ≤ (i 0).val ∧ (i 0).val < (i 0).val / 6000 * 6000 + 6000; omega
    | ⟨1, _⟩ =>
      show win10_2.index ⟨(i 0).val / 6000, ht⟩ 1 * 64 ≤ (i 1).val
        ∧ (i 1).val < win10_2.index ⟨(i 0).val / 6000, ht⟩ 1 * 64 + 64
      rw [o1]; omega

end Region

end Cert.KernelIdeal.Val.Avg

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-- The averaging region's output is the entrywise mean of its two inputs. -/
theorem B27_v62_apply (c : Dev nD) (n : Fin 60000) (k : Fin 64) :
    B27_v62 m ρ c (ix2 n k) = (B26_v0 m ρ c (ix2 n k) + B26_v57 m ρ c (ix2 n k)) * half32 := by
  have h : B27_v62 m ρ c = Avg.avgArr (B26_v0 m ρ c) (B26_v57 m ρ c) :=
    (W27_arr m ρ c 2).trans (Avg.avg_arr (V26 m ρ) c)
  rw [h]
  rfl

end Cert.KernelIdeal.Val

end
-- ==== Proof.RegScale1.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale1

theorem scale1_hz : (![0, 0] : Fin 2 → Nat) = fun _ => 0 := funext fun a => by fin_cases a <;> rfl

theorem scale1_lhs_0 (j : S6000x64.Idx) (k : dot_S6000x4_S4x64_S6000x64_1_0_0_1_n_n.contr.Idx) :
    (dot_S6000x4_S4x64_S6000x64_1_0_0_1_n_n.lhsIdx j k 0).val = (j 0).val := by
  unfold DotDims.lhsIdx
  rw [dif_neg (show ¬(0 : Fin S6000x4.rank) ∈ dot_S6000x4_S4x64_S6000x64_1_0_0_1_n_n.lhsBatch by decide),
    dif_pos (show (0 : Fin S6000x4.rank) ∈ dot_S6000x4_S4x64_S6000x64_1_0_0_1_n_n.lhsNonContracting by decide)]
  rfl

theorem scale1_lhs_1 (j : S6000x64.Idx) (k : dot_S6000x4_S4x64_S6000x64_1_0_0_1_n_n.contr.Idx) :
    (dot_S6000x4_S4x64_S6000x64_1_0_0_1_n_n.lhsIdx j k 1).val = (k ⟨0, by decide⟩).val :=
  DotDims.lhsIdx_val_of_single (d := dot_S6000x4_S4x64_S6000x64_1_0_0_1_n_n) (cl := 1) rfl j k

theorem scale1_rhs_0 (j : S6000x64.Idx) (k : dot_S6000x4_S4x64_S6000x64_1_0_0_1_n_n.contr.Idx) :
    (dot_S6000x4_S4x64_S6000x64_1_0_0_1_n_n.rhsIdx j k 0).val = (k ⟨0, by decide⟩).val :=
  DotDims.rhsIdx_val_of_single (d := dot_S6000x4_S4x64_S6000x64_1_0_0_1_n_n) (cr := 0) rfl j k

theorem scale1_rhs_1 (j : S6000x64.Idx) (k : dot_S6000x4_S4x64_S6000x64_1_0_0_1_n_n.contr.Idx) :
    (dot_S6000x4_S4x64_S6000x64_1_0_0_1_n_n.rhsIdx j k 1).val = (j 1).val := by
  unfold DotDims.rhsIdx
  rw [dif_neg (show ¬(1 : Fin S4x64.rank) ∈ dot_S6000x4_S4x64_S6000x64_1_0_0_1_n_n.rhsBatch by decide),
    dif_pos (show (1 : Fin S4x64.rank) ∈ dot_S6000x4_S4x64_S6000x64_1_0_0_1_n_n.rhsNonContracting by decide)]
  rfl

/-- The product of a block of rows by the small matrix, read at an entry: the sum over the four shared coordinates. -/
theorem scale1_matmul (f : FVec Ideal S6000x4 .f32) (g : FVec Ideal S4x64 .f32) (r : Fin 6000) (k : Fin 64) :
    matmul dot_S6000x4_S4x64_S6000x64_1_0_0_1_n_n (some .fp32) f g (constant (F := Ideal) S6000x64 .f32 0x00000000#32) (ix2 r k)
      = ∑ i : Fin 4, f (ix2 r i) * g (ix2 i k) := by
  refine (Ideal.matmul_constant_zero_apply dot_S6000x4_S4x64_S6000x64_1_0_0_1_n_n (some .fp32) f g (ix2 r k)).trans ?_
  rw [← Equiv.sum_comp (contrEquiv1 dot_S6000x4_S4x64_S6000x64_1_0_0_1_n_n 4 rfl rfl).symm]
  refine Finset.sum_congr rfl fun i _ => ?_
  have ci := contrEquiv1_symm_val dot_S6000x4_S4x64_S6000x64_1_0_0_1_n_n 4 rfl rfl i
  have hl : dot_S6000x4_S4x64_S6000x64_1_0_0_1_n_n.lhsIdx (ix2 r k) ((contrEquiv1 dot_S6000x4_S4x64_S6000x64_1_0_0_1_n_n 4 rfl rfl).symm i) = ix2 r i := by
    funext a; apply Fin.ext
    match a with
    | ⟨0, _⟩ => exact scale1_lhs_0 _ _
    | ⟨1, _⟩ => exact (scale1_lhs_1 _ _).trans ci
  have hr : dot_S6000x4_S4x64_S6000x64_1_0_0_1_n_n.rhsIdx (ix2 r k) ((contrEquiv1 dot_S6000x4_S4x64_S6000x64_1_0_0_1_n_n 4 rfl rfl).symm i) = ix2 i k := by
    funext a; apply Fin.ext
    match a with
    | ⟨0, _⟩ => exact (scale1_rhs_0 _ _).trans ci
    | ⟨1, _⟩ => exact scale1_rhs_1 _ _
  rw [hl, hr]

/-- What one grid point's body stores, entry by entry. -/
theorem scale1_pay (x0 : Vec Ideal S6000x4 .f32) (x1 : Vec Ideal S6000x64 .f32) (x2 : Vec Ideal S4x64 .f32) (r : Fin 6000) (k : Fin 64) :
    k1_pay1 (F := Ideal) x0 x1 x2 (ix2 r k) = (∑ i : Fin 4, x0 (ix2 r i) * x2 (ix2 i k)) * x1 (ix2 r k) := by
  unfold k1_pay1
  simp only [shapeCast_self]
  refine (mulf_apply _ _ _).trans ?_
  exact congrArg (· * x1 (ix2 r k)) (scale1_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale1_f (c : Dev nD) : FVec Ideal S60000x4 .f32 := V c main_v17
abbrev scale1_x (c : Dev nD) : FVec Ideal S60000x64 .f32 := V c main_v0
abbrev scale1_g (c : Dev nD) : FVec Ideal S4x64 .f32 := V c main_v4

/-- Each row of `x` scaled entry by entry by the row of `f` times the small matrix `g`. -/
def scale1_rows (f : FVec Ideal S60000x4 .f32) (x : FVec Ideal S60000x64 .f32) (g : FVec Ideal S4x64 .f32) : FVec Ideal S60000x64 .f32 :=
  fun j => (∑ i : Fin 4, f (ix2 (n0 := 60000) (j 0) i) * g (ix2 (n1 := 64) i (j 1))) * x (ix2 (n0 := 60000) (n1 := 64) (j 0) (j 1))

theorem scale1_rows_apply (f : FVec Ideal S60000x4 .f32) (x : FVec Ideal S60000x64 .f32) (g : FVec Ideal S4x64 .f32) (n : Fin 60000) (k : Fin 64) :
    scale1_rows f x g (ix2 n k) = (∑ i : Fin 4, f (ix2 n i) * g (ix2 i k)) * x (ix2 n k) := rfl

/-- The printed index maps over the grid: point `t` takes block `t` of the rows of `f`, of `x` and of the result, and all of `g`. -/
theorem scale1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Block `t` of the row factors is the `6000` rows of the array from row `6000 t` on. -/
theorem scale1_blk0 (c : Dev nD) (t : Fin cfg1.N) (r : Fin 6000) (i : Fin 4) (n : Fin 60000) (hn : n.val = 6000 * t.val + r.val) :
    (iblk1 V c 0 t : Vec Ideal S6000x4 .f32) (ix2 r i) = scale1_f V c (ix2 n i) := by
  obtain ⟨h0, h1, -⟩ := scale1_idx t
  unfold iblk1
  rw [View.read_apply]
  refine congrArg (scale1_f V c) ?_
  funext a; apply Fin.ext
  match a with
  | ⟨0, _⟩ => show win1_0.index t (0 : Fin 2) * 6000 + 1 * r.val = n.val; rw [h0, hn]; omega
  | ⟨1, _⟩ => show win1_0.index t (1 : Fin 2) * 4 + 1 * i.val = i.val; rw [h1]; omega

/-- Block `t` of the rows to scale, likewise. -/
theorem scale1_blk1 (c : Dev nD) (t : Fin cfg1.N) (r : Fin 6000) (k : Fin 64) (n : Fin 60000) (hn : n.val = 6000 * t.val + r.val) :
    (iblk1 V c 1 t : Vec Ideal S6000x64 .f32) (ix2 r k) = scale1_x V c (ix2 n k) := by
  obtain ⟨-, -, h0, h1, -⟩ := scale1_idx t
  unfold iblk1
  rw [View.read_apply]
  refine congrArg (scale1_x V c) ?_
  funext a; apply Fin.ext
  match a with
  | ⟨0, _⟩ => show win1_1.index t (0 : Fin 2) * 6000 + 1 * r.val = n.val; rw [h0, hn]; omega
  | ⟨1, _⟩ => show win1_1.index t (1 : Fin 2) * 64 + 1 * k.val = k.val; rw [h1]; omega

/-- Every point's block of the small matrix is the whole matrix. -/
theorem scale1_blk2 (c : Dev nD) (t : Fin cfg1.N) (i : Fin 4) (k : Fin 64) :
    (iblk1 V c 2 t : Vec Ideal S4x64 .f32) (ix2 i k) = scale1_g V c (ix2 i k) := by
  obtain ⟨-, -, -, -, h0, h1, -⟩ := scale1_idx t
  unfold iblk1
  rw [View.read_apply]
  refine congrArg (scale1_g V c) ?_
  funext a; apply Fin.ext
  match a with
  | ⟨0, _⟩ => show win1_2.index t (0 : Fin 2) * 4 + 1 * i.val = i.val; rw [h0]; omega
  | ⟨1, _⟩ => show win1_2.index t (1 : Fin 2) * 64 + 1 * k.val = k.val; rw [h1]; omega

/-- What point `t` writes back is block `t` of the scaled rows. -/
theorem scale1_flushed (c : Dev nD) (t : Fin cfg1.N) :
    (dat1 V c).flushed 3 t = ((cfg1.win 3).blk t).view.read (Elt Ideal) (scale1_rows (scale1_f V c) (scale1_x V c) (scale1_g V c)) := by
  show (cfg1.win 3).cut (grid1.coords t) ((dat1 V c).after 3 t) = _
  rw [after1_3]
  unfold out1_3
  rw [View.canon_unit_zero scale1_hz]
  simp only [View.ld_unit_zero (S := S6000x4) scale1_hz, View.ld_unit_zero (S := S6000x64) scale1_hz, View.ld_unit_zero (S := S4x64) scale1_hz]
  obtain ⟨-, -, -, -, -, -, h0, h1, ht⟩ := scale1_idx t
  funext j
  obtain ⟨r, k, rfl⟩ : ∃ (r : Fin 6000) (k : Fin 64), j = ix2 r k := ⟨j 0, j 1, eq_ix2 j⟩
  rw [View.read_apply]
  have hemb : ((cfg1.win 3).blk t).view.emb (ix2 r k) = ix2 (⟨6000 * t.val + r.val, by omega⟩ : Fin 60000) k := by
    funext a; apply Fin.ext
    match a with
    | ⟨0, _⟩ => show win1_3.index t (0 : Fin 2) * 6000 + 1 * r.val = 6000 * t.val + r.val; rw [h0]; omega
    | ⟨1, _⟩ => show win1_3.index t (1 : Fin 2) * 64 + 1 * k.val = k.val; rw [h1]; omega
  rw [hemb, scale1_rows_apply]
  refine (scale1_pay (iblk1 V c 0 t) (iblk1 V c 1 t) (iblk1 V c 2 t) r k).trans ?_
  exact congrArg₂ (· * ·)
    (Finset.sum_congr rfl fun i _ => congrArg₂ (· * ·) (scale1_blk0 V c t r i _ rfl) (scale1_blk2 V c t i k))
    (scale1_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale1_mem_blk (t : Fin cfg1.N) (i : S60000x64.Idx) :
    i ∈ ((cfg1.win 3).blk t).view.set ↔ ∀ a : Fin 2, win1_3.index t a * S6000x64.size a ≤ (i a).val ∧ (i a).val < win1_3.index t a * S6000x64.size a + S6000x64.size a := by
  show i ∈ ((View.whole main_v18).slice (win1_3.rect t)).set ↔ _
  rw [View.set_slice_whole, Rect.mem_set_unit]
  exact Iff.rfl

/-- The blocks cover the array: row `n` lies in the block of point `n / 6000`. -/
theorem scale1_cover (i : S60000x64.Idx) : ∃ t : Fin cfg1.N, (cfg1.win 3).flush t = true ∧ i ∈ ((cfg1.win 3).blk t).view.set := by
  have hi0 : (i 0).val < 60000 := (i 0).isLt
  have hi1 : (i 1).val < 64 := (i 1).isLt
  have hN : cfg1.N = 10 := N_1
  have hlt : (i 0).val / 6000 < cfg1.N := by omega
  obtain ⟨-, -, -, -, -, -, h0, h1, -⟩ := scale1_idx ⟨(i 0).val / 6000, hlt⟩
  have h0' : win1_3.index ⟨(i 0).val / 6000, hlt⟩ (0 : Fin 2) = (i 0).val / 6000 := h0
  refine ⟨⟨(i 0).val / 6000, hlt⟩, flush1_3 _, ?_⟩
  rw [scale1_mem_blk]
  intro a
  match a with
  | ⟨0, _⟩ =>
    show win1_3.index ⟨(i 0).val / 6000, hlt⟩ (0 : Fin 2) * 6000 ≤ (i 0).val ∧ (i 0).val < win1_3.index ⟨(i 0).val / 6000, hlt⟩ (0 : Fin 2) * 6000 + 6000
    rw [h0']; omega
  | ⟨1, _⟩ =>
    show win1_3.index ⟨(i 0).val / 6000, hlt⟩ (1 : Fin 2) * 64 ≤ (i 1).val ∧ (i 1).val < win1_3.index ⟨(i 0).val / 6000, hlt⟩ (1 : Fin 2) * 64 + 64
    rw [h1]; omega

/-- The result array after the region: the scaled rows. -/
theorem scale1_arr (c : Dev nD) : (dat1 V c).arrAt 3 cfg1.N = scale1_rows (scale1_f V c) (scale1_x V c) (scale1_g V c) :=
  (dat1 V c).arrAt_eq_of_cover 3 _ (fun t _ => scale1_flushed V c t) scale1_cover

end Region

end Scale1

open Scale1

variable (m : (ℓ : Loc nD τ sig) → Buf (Elt Ideal) ℓ) (ρ : Dev nD → PrngReg)

/-- The region's result, entry by entry, over the arrays it was entered with. -/
theorem B7_v18_apply (c : Dev nD) (n : Fin 60000) (k : Fin 64) :
    B7_v18 m ρ c (ix2 n k) = (∑ i : Fin 4, B6_v17 m ρ c (ix2 n i) * B6_v4 m ρ c (ix2 i k)) * B6_v0 m ρ c (ix2 n k) := by
  have h : B7_v18 m ρ c = scale1_rows (B6_v17 m ρ c) (B6_v0 m ρ c) (B6_v4 m ρ c) :=
    (W7_arr m ρ c 3).trans (scale1_arr (V6 m ρ) c)
  rw [h, scale1_rows_apply]

end Cert.KernelIdeal.Val

end
-- ==== Proof.RegScale2.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale2

theorem scale2_hz : (![0, 0] : Fin 2 → Nat) = fun _ => 0 := funext fun a => by fin_cases a <;> rfl

theorem scale2_lhs_0 (j : S8000x64.Idx) (k : dot_S8000x4_S4x64_S8000x64_1_0_0_1_n_n.contr.Idx) :
    (dot_S8000x4_S4x64_S8000x64_1_0_0_1_n_n.lhsIdx j k 0).val = (j 0).val := by
  unfold DotDims.lhsIdx
  rw [dif_neg (show ¬(0 : Fin S8000x4.rank) ∈ dot_S8000x4_S4x64_S8000x64_1_0_0_1_n_n.lhsBatch by decide),
    dif_pos (show (0 : Fin S8000x4.rank) ∈ dot_S8000x4_S4x64_S8000x64_1_0_0_1_n_n.lhsNonContracting by decide)]
  rfl

theorem scale2_lhs_1 (j : S8000x64.Idx) (k : dot_S8000x4_S4x64_S8000x64_1_0_0_1_n_n.contr.Idx) :
    (dot_S8000x4_S4x64_S8000x64_1_0_0_1_n_n.lhsIdx j k 1).val = (k ⟨0, by decide⟩).val :=
  DotDims.lhsIdx_val_of_single (d := dot_S8000x4_S4x64_S8000x64_1_0_0_1_n_n) (cl := 1) rfl j k

theorem scale2_rhs_0 (j : S8000x64.Idx) (k : dot_S8000x4_S4x64_S8000x64_1_0_0_1_n_n.contr.Idx) :
    (dot_S8000x4_S4x64_S8000x64_1_0_0_1_n_n.rhsIdx j k 0).val = (k ⟨0, by decide⟩).val :=
  DotDims.rhsIdx_val_of_single (d := dot_S8000x4_S4x64_S8000x64_1_0_0_1_n_n) (cr := 0) rfl j k

theorem scale2_rhs_1 (j : S8000x64.Idx) (k : dot_S8000x4_S4x64_S8000x64_1_0_0_1_n_n.contr.Idx) :
    (dot_S8000x4_S4x64_S8000x64_1_0_0_1_n_n.rhsIdx j k 1).val = (j 1).val := by
  unfold DotDims.rhsIdx
  rw [dif_neg (show ¬(1 : Fin S4x64.rank) ∈ dot_S8000x4_S4x64_S8000x64_1_0_0_1_n_n.rhsBatch by decide),
    dif_pos (show (1 : Fin S4x64.rank) ∈ dot_S8000x4_S4x64_S8000x64_1_0_0_1_n_n.rhsNonContracting by decide)]
  rfl

/-- The product of a block of rows by the small matrix, read at an entry: the sum over the four shared coordinates. -/
theorem scale2_matmul (f : FVec Ideal S8000x4 .f32) (g : FVec Ideal S4x64 .f32) (r : Fin 8000) (k : Fin 64) :
    matmul dot_S8000x4_S4x64_S8000x64_1_0_0_1_n_n (some .fp32) f g (constant (F := Ideal) S8000x64 .f32 0x00000000#32) (ix2 r k)
      = ∑ i : Fin 4, f (ix2 r i) * g (ix2 i k) := by
  refine (Ideal.matmul_constant_zero_apply dot_S8000x4_S4x64_S8000x64_1_0_0_1_n_n (some .fp32) f g (ix2 r k)).trans ?_
  rw [← Equiv.sum_comp (contrEquiv1 dot_S8000x4_S4x64_S8000x64_1_0_0_1_n_n 4 rfl rfl).symm]
  refine Finset.sum_congr rfl fun i _ => ?_
  have ci := contrEquiv1_symm_val dot_S8000x4_S4x64_S8000x64_1_0_0_1_n_n 4 rfl rfl i
  have hl : dot_S8000x4_S4x64_S8000x64_1_0_0_1_n_n.lhsIdx (ix2 r k) ((contrEquiv1 dot_S8000x4_S4x64_S8000x64_1_0_0_1_n_n 4 rfl rfl).symm i) = ix2 r i := by
    funext a; apply Fin.ext
    match a with
    | ⟨0, _⟩ => exact scale2_lhs_0 _ _
    | ⟨1, _⟩ => exact (scale2_lhs_1 _ _).trans ci
  have hr : dot_S8000x4_S4x64_S8000x64_1_0_0_1_n_n.rhsIdx (ix2 r k) ((contrEquiv1 dot_S8000x4_S4x64_S8000x64_1_0_0_1_n_n 4 rfl rfl).symm i) = ix2 i k := by
    funext a; apply Fin.ext
    match a with
    | ⟨0, _⟩ => exact (scale2_rhs_0 _ _).trans ci
    | ⟨1, _⟩ => exact scale2_rhs_1 _ _
  rw [hl, hr]

/-- What one grid point's body stores, entry by entry. -/
theorem scale2_pay (x0 : Vec Ideal S8000x4 .f32) (x1 : Vec Ideal S8000x64 .f32) (x2 : Vec Ideal S4x64 .f32) (r : Fin 8000) (k : Fin 64) :
    k2_pay1 (F := Ideal) x0 x1 x2 (ix2 r k) = (∑ i : Fin 4, x0 (ix2 r i) * x2 (ix2 i k)) * x1 (ix2 r k) := by
  unfold k2_pay1
  simp only [shapeCast_self]
  refine (mulf_apply _ _ _).trans ?_
  exact congrArg (· * x1 (ix2 r k)) (scale2_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale2_f (c : Dev nD) : FVec Ideal S800000x4 .f32 := V c main_v6
abbrev scale2_x (c : Dev nD) : FVec Ideal S800000x64 .f32 := V c main_v19
abbrev scale2_g (c : Dev nD) : FVec Ideal S4x64 .f32 := V c main_v4

/-- Each row of `x` scaled entry by entry by the row of `f` times the small matrix `g`. -/
def scale2_rows (f : FVec Ideal S800000x4 .f32) (x : FVec Ideal S800000x64 .f32) (g : FVec Ideal S4x64 .f32) : FVec Ideal S800000x64 .f32 :=
  fun j => (∑ i : Fin 4, f (ix2 (n0 := 800000) (j 0) i) * g (ix2 (n1 := 64) i (j 1))) * x (ix2 (n0 := 800000) (n1 := 64) (j 0) (j 1))

theorem scale2_rows_apply (f : FVec Ideal S800000x4 .f32) (x : FVec Ideal S800000x64 .f32) (g : FVec Ideal S4x64 .f32) (n : Fin 800000) (k : Fin 64) :
    scale2_rows f x g (ix2 n k) = (∑ i : Fin 4, f (ix2 n i) * g (ix2 i k)) * x (ix2 n k) := rfl

/-- The printed index maps over the grid: point `t` takes block `t` of the rows of `f`, of `x` and of the result, and all of `g`. -/
theorem scale2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 100 :=
  (by decide +kernel : ∀ t : Fin grid2.N, _)

/-- Block `t` of the row factors is the `8000` rows of the array from row `8000 t` on. -/
theorem scale2_blk0 (c : Dev nD) (t : Fin cfg2.N) (r : Fin 8000) (i : Fin 4) (n : Fin 800000) (hn : n.val = 8000 * t.val + r.val) :
    (iblk2 V c 0 t : Vec Ideal S8000x4 .f32) (ix2 r i) = scale2_f V c (ix2 n i) := by
  obtain ⟨h0, h1, -⟩ := scale2_idx t
  unfold iblk2
  rw [View.read_apply]
  refine congrArg (scale2_f V c) ?_
  funext a; apply Fin.ext
  match a with
  | ⟨0, _⟩ => show win2_0.index t (0 : Fin 2) * 8000 + 1 * r.val = n.val; rw [h0, hn]; omega
  | ⟨1, _⟩ => show win2_0.index t (1 : Fin 2) * 4 + 1 * i.val = i.val; rw [h1]; omega

/-- Block `t` of the rows to scale, likewise. -/
theorem scale2_blk1 (c : Dev nD) (t : Fin cfg2.N) (r : Fin 8000) (k : Fin 64) (n : Fin 800000) (hn : n.val = 8000 * t.val + r.val) :
    (iblk2 V c 1 t : Vec Ideal S8000x64 .f32) (ix2 r k) = scale2_x V c (ix2 n k) := by
  obtain ⟨-, -, h0, h1, -⟩ := scale2_idx t
  unfold iblk2
  rw [View.read_apply]
  refine congrArg (scale2_x V c) ?_
  funext a; apply Fin.ext
  match a with
  | ⟨0, _⟩ => show win2_1.index t (0 : Fin 2) * 8000 + 1 * r.val = n.val; rw [h0, hn]; omega
  | ⟨1, _⟩ => show win2_1.index t (1 : Fin 2) * 64 + 1 * k.val = k.val; rw [h1]; omega

/-- Every point's block of the small matrix is the whole matrix. -/
theorem scale2_blk2 (c : Dev nD) (t : Fin cfg2.N) (i : Fin 4) (k : Fin 64) :
    (iblk2 V c 2 t : Vec Ideal S4x64 .f32) (ix2 i k) = scale2_g V c (ix2 i k) := by
  obtain ⟨-, -, -, -, h0, h1, -⟩ := scale2_idx t
  unfold iblk2
  rw [View.read_apply]
  refine congrArg (scale2_g V c) ?_
  funext a; apply Fin.ext
  match a with
  | ⟨0, _⟩ => show win2_2.index t (0 : Fin 2) * 4 + 1 * i.val = i.val; rw [h0]; omega
  | ⟨1, _⟩ => show win2_2.index t (1 : Fin 2) * 64 + 1 * k.val = k.val; rw [h1]; omega

/-- What point `t` writes back is block `t` of the scaled rows. -/
theorem scale2_flushed (c : Dev nD) (t : Fin cfg2.N) :
    (dat2 V c).flushed 3 t = ((cfg2.win 3).blk t).view.read (Elt Ideal) (scale2_rows (scale2_f V c) (scale2_x V c) (scale2_g V c)) := by
  show (cfg2.win 3).cut (grid2.coords t) ((dat2 V c).after 3 t) = _
  rw [after2_3]
  unfold out2_3
  rw [View.canon_unit_zero scale2_hz]
  simp only [View.ld_unit_zero (S := S8000x4) scale2_hz, View.ld_unit_zero (S := S8000x64) scale2_hz, View.ld_unit_zero (S := S4x64) scale2_hz]
  obtain ⟨-, -, -, -, -, -, h0, h1, ht⟩ := scale2_idx t
  funext j
  obtain ⟨r, k, rfl⟩ : ∃ (r : Fin 8000) (k : Fin 64), j = ix2 r k := ⟨j 0, j 1, eq_ix2 j⟩
  rw [View.read_apply]
  have hemb : ((cfg2.win 3).blk t).view.emb (ix2 r k) = ix2 (⟨8000 * t.val + r.val, by omega⟩ : Fin 800000) k := by
    funext a; apply Fin.ext
    match a with
    | ⟨0, _⟩ => show win2_3.index t (0 : Fin 2) * 8000 + 1 * r.val = 8000 * t.val + r.val; rw [h0]; omega
    | ⟨1, _⟩ => show win2_3.index t (1 : Fin 2) * 64 + 1 * k.val = k.val; rw [h1]; omega
  rw [hemb, scale2_rows_apply]
  refine (scale2_pay (iblk2 V c 0 t) (iblk2 V c 1 t) (iblk2 V c 2 t) r k).trans ?_
  exact congrArg₂ (· * ·)
    (Finset.sum_congr rfl fun i _ => congrArg₂ (· * ·) (scale2_blk0 V c t r i _ rfl) (scale2_blk2 V c t i k))
    (scale2_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale2_mem_blk (t : Fin cfg2.N) (i : S800000x64.Idx) :
    i ∈ ((cfg2.win 3).blk t).view.set ↔ ∀ a : Fin 2, win2_3.index t a * S8000x64.size a ≤ (i a).val ∧ (i a).val < win2_3.index t a * S8000x64.size a + S8000x64.size a := by
  show i ∈ ((View.whole main_v20).slice (win2_3.rect t)).set ↔ _
  rw [View.set_slice_whole, Rect.mem_set_unit]
  exact Iff.rfl

/-- The blocks cover the array: row `n` lies in the block of point `n / 8000`. -/
theorem scale2_cover (i : S800000x64.Idx) : ∃ t : Fin cfg2.N, (cfg2.win 3).flush t = true ∧ i ∈ ((cfg2.win 3).blk t).view.set := by
  have hi0 : (i 0).val < 800000 := (i 0).isLt
  have hi1 : (i 1).val < 64 := (i 1).isLt
  have hN : cfg2.N = 100 := N_2
  have hlt : (i 0).val / 8000 < cfg2.N := by omega
  obtain ⟨-, -, -, -, -, -, h0, h1, -⟩ := scale2_idx ⟨(i 0).val / 8000, hlt⟩
  have h0' : win2_3.index ⟨(i 0).val / 8000, hlt⟩ (0 : Fin 2) = (i 0).val / 8000 := h0
  refine ⟨⟨(i 0).val / 8000, hlt⟩, flush2_3 _, ?_⟩
  rw [scale2_mem_blk]
  intro a
  match a with
  | ⟨0, _⟩ =>
    show win2_3.index ⟨(i 0).val / 8000, hlt⟩ (0 : Fin 2) * 8000 ≤ (i 0).val ∧ (i 0).val < win2_3.index ⟨(i 0).val / 8000, hlt⟩ (0 : Fin 2) * 8000 + 8000
    rw [h0']; omega
  | ⟨1, _⟩ =>
    show win2_3.index ⟨(i 0).val / 8000, hlt⟩ (1 : Fin 2) * 64 ≤ (i 1).val ∧ (i 1).val < win2_3.index ⟨(i 0).val / 8000, hlt⟩ (1 : Fin 2) * 64 + 64
    rw [h1]; omega

/-- The result array after the region: the scaled rows. -/
theorem scale2_arr (c : Dev nD) : (dat2 V c).arrAt 3 cfg2.N = scale2_rows (scale2_f V c) (scale2_x V c) (scale2_g V c) :=
  (dat2 V c).arrAt_eq_of_cover 3 _ (fun t _ => scale2_flushed V c t) scale2_cover

end Region

end Scale2

open Scale2

variable (m : (ℓ : Loc nD τ sig) → Buf (Elt Ideal) ℓ) (ρ : Dev nD → PrngReg)

/-- The region's result, entry by entry, over the arrays it was entered with. -/
theorem B9_v20_apply (c : Dev nD) (n : Fin 800000) (k : Fin 64) :
    B9_v20 m ρ c (ix2 n k) = (∑ i : Fin 4, B8_v6 m ρ c (ix2 n i) * B8_v4 m ρ c (ix2 i k)) * B8_v19 m ρ c (ix2 n k) := by
  have h : B9_v20 m ρ c = scale2_rows (B8_v6 m ρ c) (B8_v19 m ρ c) (B8_v4 m ρ c) :=
    (W9_arr m ρ c 3).trans (scale2_arr (V8 m ρ) c)
  rw [h, scale2_rows_apply]

end Cert.KernelIdeal.Val

end
-- ==== Proof.RegScale3.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale3

theorem scale3_hz : (![0, 0] : Fin 2 → Nat) = fun _ => 0 := funext fun a => by fin_cases a <;> rfl

theorem scale3_lhs_0 (j : S6000x64.Idx) (k : dot_S6000x4_S4x64_S6000x64_1_0_0_1_n_n.contr.Idx) :
    (dot_S6000x4_S4x64_S6000x64_1_0_0_1_n_n.lhsIdx j k 0).val = (j 0).val := by
  unfold DotDims.lhsIdx
  rw [dif_neg (show ¬(0 : Fin S6000x4.rank) ∈ dot_S6000x4_S4x64_S6000x64_1_0_0_1_n_n.lhsBatch by decide),
    dif_pos (show (0 : Fin S6000x4.rank) ∈ dot_S6000x4_S4x64_S6000x64_1_0_0_1_n_n.lhsNonContracting by decide)]
  rfl

theorem scale3_lhs_1 (j : S6000x64.Idx) (k : dot_S6000x4_S4x64_S6000x64_1_0_0_1_n_n.contr.Idx) :
    (dot_S6000x4_S4x64_S6000x64_1_0_0_1_n_n.lhsIdx j k 1).val = (k ⟨0, by decide⟩).val :=
  DotDims.lhsIdx_val_of_single (d := dot_S6000x4_S4x64_S6000x64_1_0_0_1_n_n) (cl := 1) rfl j k

theorem scale3_rhs_0 (j : S6000x64.Idx) (k : dot_S6000x4_S4x64_S6000x64_1_0_0_1_n_n.contr.Idx) :
    (dot_S6000x4_S4x64_S6000x64_1_0_0_1_n_n.rhsIdx j k 0).val = (k ⟨0, by decide⟩).val :=
  DotDims.rhsIdx_val_of_single (d := dot_S6000x4_S4x64_S6000x64_1_0_0_1_n_n) (cr := 0) rfl j k

theorem scale3_rhs_1 (j : S6000x64.Idx) (k : dot_S6000x4_S4x64_S6000x64_1_0_0_1_n_n.contr.Idx) :
    (dot_S6000x4_S4x64_S6000x64_1_0_0_1_n_n.rhsIdx j k 1).val = (j 1).val := by
  unfold DotDims.rhsIdx
  rw [dif_neg (show ¬(1 : Fin S4x64.rank) ∈ dot_S6000x4_S4x64_S6000x64_1_0_0_1_n_n.rhsBatch by decide),
    dif_pos (show (1 : Fin S4x64.rank) ∈ dot_S6000x4_S4x64_S6000x64_1_0_0_1_n_n.rhsNonContracting by decide)]
  rfl

/-- The product of a block of rows by the small matrix, read at an entry: the sum over the four shared coordinates. -/
theorem scale3_matmul (f : FVec Ideal S6000x4 .f32) (g : FVec Ideal S4x64 .f32) (r : Fin 6000) (k : Fin 64) :
    matmul dot_S6000x4_S4x64_S6000x64_1_0_0_1_n_n (some .fp32) f g (constant (F := Ideal) S6000x64 .f32 0x00000000#32) (ix2 r k)
      = ∑ i : Fin 4, f (ix2 r i) * g (ix2 i k) := by
  refine (Ideal.matmul_constant_zero_apply dot_S6000x4_S4x64_S6000x64_1_0_0_1_n_n (some .fp32) f g (ix2 r k)).trans ?_
  rw [← Equiv.sum_comp (contrEquiv1 dot_S6000x4_S4x64_S6000x64_1_0_0_1_n_n 4 rfl rfl).symm]
  refine Finset.sum_congr rfl fun i _ => ?_
  have ci := contrEquiv1_symm_val dot_S6000x4_S4x64_S6000x64_1_0_0_1_n_n 4 rfl rfl i
  have hl : dot_S6000x4_S4x64_S6000x64_1_0_0_1_n_n.lhsIdx (ix2 r k) ((contrEquiv1 dot_S6000x4_S4x64_S6000x64_1_0_0_1_n_n 4 rfl rfl).symm i) = ix2 r i := by
    funext a; apply Fin.ext
    match a with
    | ⟨0, _⟩ => exact scale3_lhs_0 _ _
    | ⟨1, _⟩ => exact (scale3_lhs_1 _ _).trans ci
  have hr : dot_S6000x4_S4x64_S6000x64_1_0_0_1_n_n.rhsIdx (ix2 r k) ((contrEquiv1 dot_S6000x4_S4x64_S6000x64_1_0_0_1_n_n 4 rfl rfl).symm i) = ix2 i k := by
    funext a; apply Fin.ext
    match a with
    | ⟨0, _⟩ => exact (scale3_rhs_0 _ _).trans ci
    | ⟨1, _⟩ => exact scale3_rhs_1 _ _
  rw [hl, hr]

/-- What one grid point's body stores, entry by entry. -/
theorem scale3_pay (x0 : Vec Ideal S6000x4 .f32) (x1 : Vec Ideal S6000x64 .f32) (x2 : Vec Ideal S4x64 .f32) (r : Fin 6000) (k : Fin 64) :
    k3_pay1 (F := Ideal) x0 x1 x2 (ix2 r k) = (∑ i : Fin 4, x0 (ix2 r i) * x2 (ix2 i k)) * x1 (ix2 r k) := by
  unfold k3_pay1
  simp only [shapeCast_self]
  refine (mulf_apply _ _ _).trans ?_
  exact congrArg (· * x1 (ix2 r k)) (scale3_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale3_f (c : Dev nD) : FVec Ideal S60000x4 .f32 := V c main_v17
abbrev scale3_x (c : Dev nD) : FVec Ideal S60000x64 .f32 := V c main_v28
abbrev scale3_g (c : Dev nD) : FVec Ideal S4x64 .f32 := V c main_v4

/-- Each row of `x` scaled entry by entry by the row of `f` times the small matrix `g`. -/
def scale3_rows (f : FVec Ideal S60000x4 .f32) (x : FVec Ideal S60000x64 .f32) (g : FVec Ideal S4x64 .f32) : FVec Ideal S60000x64 .f32 :=
  fun j => (∑ i : Fin 4, f (ix2 (n0 := 60000) (j 0) i) * g (ix2 (n1 := 64) i (j 1))) * x (ix2 (n0 := 60000) (n1 := 64) (j 0) (j 1))

theorem scale3_rows_apply (f : FVec Ideal S60000x4 .f32) (x : FVec Ideal S60000x64 .f32) (g : FVec Ideal S4x64 .f32) (n : Fin 60000) (k : Fin 64) :
    scale3_rows f x g (ix2 n k) = (∑ i : Fin 4, f (ix2 n i) * g (ix2 i k)) * x (ix2 n k) := rfl

/-- The printed index maps over the grid: point `t` takes block `t` of the rows of `f`, of `x` and of the result, and all of `g`. -/
theorem scale3_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- Block `t` of the row factors is the `6000` rows of the array from row `6000 t` on. -/
theorem scale3_blk0 (c : Dev nD) (t : Fin cfg3.N) (r : Fin 6000) (i : Fin 4) (n : Fin 60000) (hn : n.val = 6000 * t.val + r.val) :
    (iblk3 V c 0 t : Vec Ideal S6000x4 .f32) (ix2 r i) = scale3_f V c (ix2 n i) := by
  obtain ⟨h0, h1, -⟩ := scale3_idx t
  unfold iblk3
  rw [View.read_apply]
  refine congrArg (scale3_f V c) ?_
  funext a; apply Fin.ext
  match a with
  | ⟨0, _⟩ => show win3_0.index t (0 : Fin 2) * 6000 + 1 * r.val = n.val; rw [h0, hn]; omega
  | ⟨1, _⟩ => show win3_0.index t (1 : Fin 2) * 4 + 1 * i.val = i.val; rw [h1]; omega

/-- Block `t` of the rows to scale, likewise. -/
theorem scale3_blk1 (c : Dev nD) (t : Fin cfg3.N) (r : Fin 6000) (k : Fin 64) (n : Fin 60000) (hn : n.val = 6000 * t.val + r.val) :
    (iblk3 V c 1 t : Vec Ideal S6000x64 .f32) (ix2 r k) = scale3_x V c (ix2 n k) := by
  obtain ⟨-, -, h0, h1, -⟩ := scale3_idx t
  unfold iblk3
  rw [View.read_apply]
  refine congrArg (scale3_x V c) ?_
  funext a; apply Fin.ext
  match a with
  | ⟨0, _⟩ => show win3_1.index t (0 : Fin 2) * 6000 + 1 * r.val = n.val; rw [h0, hn]; omega
  | ⟨1, _⟩ => show win3_1.index t (1 : Fin 2) * 64 + 1 * k.val = k.val; rw [h1]; omega

/-- Every point's block of the small matrix is the whole matrix. -/
theorem scale3_blk2 (c : Dev nD) (t : Fin cfg3.N) (i : Fin 4) (k : Fin 64) :
    (iblk3 V c 2 t : Vec Ideal S4x64 .f32) (ix2 i k) = scale3_g V c (ix2 i k) := by
  obtain ⟨-, -, -, -, h0, h1, -⟩ := scale3_idx t
  unfold iblk3
  rw [View.read_apply]
  refine congrArg (scale3_g V c) ?_
  funext a; apply Fin.ext
  match a with
  | ⟨0, _⟩ => show win3_2.index t (0 : Fin 2) * 4 + 1 * i.val = i.val; rw [h0]; omega
  | ⟨1, _⟩ => show win3_2.index t (1 : Fin 2) * 64 + 1 * k.val = k.val; rw [h1]; omega

/-- What point `t` writes back is block `t` of the scaled rows. -/
theorem scale3_flushed (c : Dev nD) (t : Fin cfg3.N) :
    (dat3 V c).flushed 3 t = ((cfg3.win 3).blk t).view.read (Elt Ideal) (scale3_rows (scale3_f V c) (scale3_x V c) (scale3_g V c)) := by
  show (cfg3.win 3).cut (grid3.coords t) ((dat3 V c).after 3 t) = _
  rw [after3_3]
  unfold out3_3
  rw [View.canon_unit_zero scale3_hz]
  simp only [View.ld_unit_zero (S := S6000x4) scale3_hz, View.ld_unit_zero (S := S6000x64) scale3_hz, View.ld_unit_zero (S := S4x64) scale3_hz]
  obtain ⟨-, -, -, -, -, -, h0, h1, ht⟩ := scale3_idx t
  funext j
  obtain ⟨r, k, rfl⟩ : ∃ (r : Fin 6000) (k : Fin 64), j = ix2 r k := ⟨j 0, j 1, eq_ix2 j⟩
  rw [View.read_apply]
  have hemb : ((cfg3.win 3).blk t).view.emb (ix2 r k) = ix2 (⟨6000 * t.val + r.val, by omega⟩ : Fin 60000) k := by
    funext a; apply Fin.ext
    match a with
    | ⟨0, _⟩ => show win3_3.index t (0 : Fin 2) * 6000 + 1 * r.val = 6000 * t.val + r.val; rw [h0]; omega
    | ⟨1, _⟩ => show win3_3.index t (1 : Fin 2) * 64 + 1 * k.val = k.val; rw [h1]; omega
  rw [hemb, scale3_rows_apply]
  refine (scale3_pay (iblk3 V c 0 t) (iblk3 V c 1 t) (iblk3 V c 2 t) r k).trans ?_
  exact congrArg₂ (· * ·)
    (Finset.sum_congr rfl fun i _ => congrArg₂ (· * ·) (scale3_blk0 V c t r i _ rfl) (scale3_blk2 V c t i k))
    (scale3_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale3_mem_blk (t : Fin cfg3.N) (i : S60000x64.Idx) :
    i ∈ ((cfg3.win 3).blk t).view.set ↔ ∀ a : Fin 2, win3_3.index t a * S6000x64.size a ≤ (i a).val ∧ (i a).val < win3_3.index t a * S6000x64.size a + S6000x64.size a := by
  show i ∈ ((View.whole main_v29).slice (win3_3.rect t)).set ↔ _
  rw [View.set_slice_whole, Rect.mem_set_unit]
  exact Iff.rfl

/-- The blocks cover the array: row `n` lies in the block of point `n / 6000`. -/
theorem scale3_cover (i : S60000x64.Idx) : ∃ t : Fin cfg3.N, (cfg3.win 3).flush t = true ∧ i ∈ ((cfg3.win 3).blk t).view.set := by
  have hi0 : (i 0).val < 60000 := (i 0).isLt
  have hi1 : (i 1).val < 64 := (i 1).isLt
  have hN : cfg3.N = 10 := N_3
  have hlt : (i 0).val / 6000 < cfg3.N := by omega
  obtain ⟨-, -, -, -, -, -, h0, h1, -⟩ := scale3_idx ⟨(i 0).val / 6000, hlt⟩
  have h0' : win3_3.index ⟨(i 0).val / 6000, hlt⟩ (0 : Fin 2) = (i 0).val / 6000 := h0
  refine ⟨⟨(i 0).val / 6000, hlt⟩, flush3_3 _, ?_⟩
  rw [scale3_mem_blk]
  intro a
  match a with
  | ⟨0, _⟩ =>
    show win3_3.index ⟨(i 0).val / 6000, hlt⟩ (0 : Fin 2) * 6000 ≤ (i 0).val ∧ (i 0).val < win3_3.index ⟨(i 0).val / 6000, hlt⟩ (0 : Fin 2) * 6000 + 6000
    rw [h0']; omega
  | ⟨1, _⟩ =>
    show win3_3.index ⟨(i 0).val / 6000, hlt⟩ (1 : Fin 2) * 64 ≤ (i 1).val ∧ (i 1).val < win3_3.index ⟨(i 0).val / 6000, hlt⟩ (1 : Fin 2) * 64 + 64
    rw [h1]; omega

/-- The result array after the region: the scaled rows. -/
theorem scale3_arr (c : Dev nD) : (dat3 V c).arrAt 3 cfg3.N = scale3_rows (scale3_f V c) (scale3_x V c) (scale3_g V c) :=
  (dat3 V c).arrAt_eq_of_cover 3 _ (fun t _ => scale3_flushed V c t) scale3_cover

end Region

end Scale3

open Scale3

variable (m : (ℓ : Loc nD τ sig) → Buf (Elt Ideal) ℓ) (ρ : Dev nD → PrngReg)

/-- The region's result, entry by entry, over the arrays it was entered with. -/
theorem B11_v29_apply (c : Dev nD) (n : Fin 60000) (k : Fin 64) :
    B11_v29 m ρ c (ix2 n k) = (∑ i : Fin 4, B10_v17 m ρ c (ix2 n i) * B10_v4 m ρ c (ix2 i k)) * B10_v28 m ρ c (ix2 n k) := by
  have h : B11_v29 m ρ c = scale3_rows (B10_v17 m ρ c) (B10_v28 m ρ c) (B10_v4 m ρ c) :=
    (W11_arr m ρ c 3).trans (scale3_arr (V10 m ρ) c)
  rw [h, scale3_rows_apply]

end Cert.KernelIdeal.Val

end
-- ==== Proof.RegScale6.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale6

theorem scale6_hz : (![0, 0] : Fin 2 → Nat) = fun _ => 0 := funext fun a => by fin_cases a <;> rfl

theorem scale6_lhs_0 (j : S6000x64.Idx) (k : dot_S6000x4_S4x64_S6000x64_1_0_0_1_n_n.contr.Idx) :
    (dot_S6000x4_S4x64_S6000x64_1_0_0_1_n_n.lhsIdx j k 0).val = (j 0).val := by
  unfold DotDims.lhsIdx
  rw [dif_neg (show ¬(0 : Fin S6000x4.rank) ∈ dot_S6000x4_S4x64_S6000x64_1_0_0_1_n_n.lhsBatch by decide),
    dif_pos (show (0 : Fin S6000x4.rank) ∈ dot_S6000x4_S4x64_S6000x64_1_0_0_1_n_n.lhsNonContracting by decide)]
  rfl

theorem scale6_lhs_1 (j : S6000x64.Idx) (k : dot_S6000x4_S4x64_S6000x64_1_0_0_1_n_n.contr.Idx) :
    (dot_S6000x4_S4x64_S6000x64_1_0_0_1_n_n.lhsIdx j k 1).val = (k ⟨0, by decide⟩).val :=
  DotDims.lhsIdx_val_of_single (d := dot_S6000x4_S4x64_S6000x64_1_0_0_1_n_n) (cl := 1) rfl j k

theorem scale6_rhs_0 (j : S6000x64.Idx) (k : dot_S6000x4_S4x64_S6000x64_1_0_0_1_n_n.contr.Idx) :
    (dot_S6000x4_S4x64_S6000x64_1_0_0_1_n_n.rhsIdx j k 0).val = (k ⟨0, by decide⟩).val :=
  DotDims.rhsIdx_val_of_single (d := dot_S6000x4_S4x64_S6000x64_1_0_0_1_n_n) (cr := 0) rfl j k

theorem scale6_rhs_1 (j : S6000x64.Idx) (k : dot_S6000x4_S4x64_S6000x64_1_0_0_1_n_n.contr.Idx) :
    (dot_S6000x4_S4x64_S6000x64_1_0_0_1_n_n.rhsIdx j k 1).val = (j 1).val := by
  unfold DotDims.rhsIdx
  rw [dif_neg (show ¬(1 : Fin S4x64.rank) ∈ dot_S6000x4_S4x64_S6000x64_1_0_0_1_n_n.rhsBatch by decide),
    dif_pos (show (1 : Fin S4x64.rank) ∈ dot_S6000x4_S4x64_S6000x64_1_0_0_1_n_n.rhsNonContracting by decide)]
  rfl

/-- The product of a block of rows by the small matrix, read at an entry: the sum over the four shared coordinates. -/
theorem scale6_matmul (f : FVec Ideal S6000x4 .f32) (g : FVec Ideal S4x64 .f32) (r : Fin 6000) (k : Fin 64) :
    matmul dot_S6000x4_S4x64_S6000x64_1_0_0_1_n_n (some .fp32) f g (constant (F := Ideal) S6000x64 .f32 0x00000000#32) (ix2 r k)
      = ∑ i : Fin 4, f (ix2 r i) * g (ix2 i k) := by
  refine (Ideal.matmul_constant_zero_apply dot_S6000x4_S4x64_S6000x64_1_0_0_1_n_n (some .fp32) f g (ix2 r k)).trans ?_
  rw [← Equiv.sum_comp (contrEquiv1 dot_S6000x4_S4x64_S6000x64_1_0_0_1_n_n 4 rfl rfl).symm]
  refine Finset.sum_congr rfl fun i _ => ?_
  have ci := contrEquiv1_symm_val dot_S6000x4_S4x64_S6000x64_1_0_0_1_n_n 4 rfl rfl i
  have hl : dot_S6000x4_S4x64_S6000x64_1_0_0_1_n_n.lhsIdx (ix2 r k) ((contrEquiv1 dot_S6000x4_S4x64_S6000x64_1_0_0_1_n_n 4 rfl rfl).symm i) = ix2 r i := by
    funext a; apply Fin.ext
    match a with
    | ⟨0, _⟩ => exact scale6_lhs_0 _ _
    | ⟨1, _⟩ => exact (scale6_lhs_1 _ _).trans ci
  have hr : dot_S6000x4_S4x64_S6000x64_1_0_0_1_n_n.rhsIdx (ix2 r k) ((contrEquiv1 dot_S6000x4_S4x64_S6000x64_1_0_0_1_n_n 4 rfl rfl).symm i) = ix2 i k := by
    funext a; apply Fin.ext
    match a with
    | ⟨0, _⟩ => exact (scale6_rhs_0 _ _).trans ci
    | ⟨1, _⟩ => exact scale6_rhs_1 _ _
  rw [hl, hr]

/-- What one grid point's body stores, entry by entry. -/
theorem scale6_pay (x0 : Vec Ideal S6000x4 .f32) (x1 : Vec Ideal S6000x64 .f32) (x2 : Vec Ideal S4x64 .f32) (r : Fin 6000) (k : Fin 64) :
    k6_pay1 (F := Ideal) x0 x1 x2 (ix2 r k) = (∑ i : Fin 4, x0 (ix2 r i) * x2 (ix2 i k)) * x1 (ix2 r k) := by
  unfold k6_pay1
  simp only [shapeCast_self]
  refine (mulf_apply _ _ _).trans ?_
  exact congrArg (· * x1 (ix2 r k)) (scale6_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale6_f (c : Dev nD) : FVec Ideal S60000x4 .f32 := V c main_v45
abbrev scale6_x (c : Dev nD) : FVec Ideal S60000x64 .f32 := V c main_v0
abbrev scale6_g (c : Dev nD) : FVec Ideal S4x64 .f32 := V c main_v4

/-- Each row of `x` scaled entry by entry by the row of `f` times the small matrix `g`. -/
def scale6_rows (f : FVec Ideal S60000x4 .f32) (x : FVec Ideal S60000x64 .f32) (g : FVec Ideal S4x64 .f32) : FVec Ideal S60000x64 .f32 :=
  fun j => (∑ i : Fin 4, f (ix2 (n0 := 60000) (j 0) i) * g (ix2 (n1 := 64) i (j 1))) * x (ix2 (n0 := 60000) (n1 := 64) (j 0) (j 1))

theorem scale6_rows_apply (f : FVec Ideal S60000x4 .f32) (x : FVec Ideal S60000x64 .f32) (g : FVec Ideal S4x64 .f32) (n : Fin 60000) (k : Fin 64) :
    scale6_rows f x g (ix2 n k) = (∑ i : Fin 4, f (ix2 n i) * g (ix2 i k)) * x (ix2 n k) := rfl

/-- The printed index maps over the grid: point `t` takes block `t` of the rows of `f`, of `x` and of the result, and all of `g`. -/
theorem scale6_idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 ∧ t.val < 10 :=
  (by decide +kernel : ∀ t : Fin grid6.N, _)

/-- Block `t` of the row factors is the `6000` rows of the array from row `6000 t` on. -/
theorem scale6_blk0 (c : Dev nD) (t : Fin cfg6.N) (r : Fin 6000) (i : Fin 4) (n : Fin 60000) (hn : n.val = 6000 * t.val + r.val) :
    (iblk6 V c 0 t : Vec Ideal S6000x4 .f32) (ix2 r i) = scale6_f V c (ix2 n i) := by
  obtain ⟨h0, h1, -⟩ := scale6_idx t
  unfold iblk6
  rw [View.read_apply]
  refine congrArg (scale6_f V c) ?_
  funext a; apply Fin.ext
  match a with
  | ⟨0, _⟩ => show win6_0.index t (0 : Fin 2) * 6000 + 1 * r.val = n.val; rw [h0, hn]; omega
  | ⟨1, _⟩ => show win6_0.index t (1 : Fin 2) * 4 + 1 * i.val = i.val; rw [h1]; omega

/-- Block `t` of the rows to scale, likewise. -/
theorem scale6_blk1 (c : Dev nD) (t : Fin cfg6.N) (r : Fin 6000) (k : Fin 64) (n : Fin 60000) (hn : n.val = 6000 * t.val + r.val) :
    (iblk6 V c 1 t : Vec Ideal S6000x64 .f32) (ix2 r k) = scale6_x V c (ix2 n k) := by
  obtain ⟨-, -, h0, h1, -⟩ := scale6_idx t
  unfold iblk6
  rw [View.read_apply]
  refine congrArg (scale6_x V c) ?_
  funext a; apply Fin.ext
  match a with
  | ⟨0, _⟩ => show win6_1.index t (0 : Fin 2) * 6000 + 1 * r.val = n.val; rw [h0, hn]; omega
  | ⟨1, _⟩ => show win6_1.index t (1 : Fin 2) * 64 + 1 * k.val = k.val; rw [h1]; omega

/-- Every point's block of the small matrix is the whole matrix. -/
theorem scale6_blk2 (c : Dev nD) (t : Fin cfg6.N) (i : Fin 4) (k : Fin 64) :
    (iblk6 V c 2 t : Vec Ideal S4x64 .f32) (ix2 i k) = scale6_g V c (ix2 i k) := by
  obtain ⟨-, -, -, -, h0, h1, -⟩ := scale6_idx t
  unfold iblk6
  rw [View.read_apply]
  refine congrArg (scale6_g V c) ?_
  funext a; apply Fin.ext
  match a with
  | ⟨0, _⟩ => show win6_2.index t (0 : Fin 2) * 4 + 1 * i.val = i.val; rw [h0]; omega
  | ⟨1, _⟩ => show win6_2.index t (1 : Fin 2) * 64 + 1 * k.val = k.val; rw [h1]; omega

/-- What point `t` writes back is block `t` of the scaled rows. -/
theorem scale6_flushed (c : Dev nD) (t : Fin cfg6.N) :
    (dat6 V c).flushed 3 t = ((cfg6.win 3).blk t).view.read (Elt Ideal) (scale6_rows (scale6_f V c) (scale6_x V c) (scale6_g V c)) := by
  show (cfg6.win 3).cut (grid6.coords t) ((dat6 V c).after 3 t) = _
  rw [after6_3]
  unfold out6_3
  rw [View.canon_unit_zero scale6_hz]
  simp only [View.ld_unit_zero (S := S6000x4) scale6_hz, View.ld_unit_zero (S := S6000x64) scale6_hz, View.ld_unit_zero (S := S4x64) scale6_hz]
  obtain ⟨-, -, -, -, -, -, h0, h1, ht⟩ := scale6_idx t
  funext j
  obtain ⟨r, k, rfl⟩ : ∃ (r : Fin 6000) (k : Fin 64), j = ix2 r k := ⟨j 0, j 1, eq_ix2 j⟩
  rw [View.read_apply]
  have hemb : ((cfg6.win 3).blk t).view.emb (ix2 r k) = ix2 (⟨6000 * t.val + r.val, by omega⟩ : Fin 60000) k := by
    funext a; apply Fin.ext
    match a with
    | ⟨0, _⟩ => show win6_3.index t (0 : Fin 2) * 6000 + 1 * r.val = 6000 * t.val + r.val; rw [h0]; omega
    | ⟨1, _⟩ => show win6_3.index t (1 : Fin 2) * 64 + 1 * k.val = k.val; rw [h1]; omega
  rw [hemb, scale6_rows_apply]
  refine (scale6_pay (iblk6 V c 0 t) (iblk6 V c 1 t) (iblk6 V c 2 t) r k).trans ?_
  exact congrArg₂ (· * ·)
    (Finset.sum_congr rfl fun i _ => congrArg₂ (· * ·) (scale6_blk0 V c t r i _ rfl) (scale6_blk2 V c t i k))
    (scale6_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale6_mem_blk (t : Fin cfg6.N) (i : S60000x64.Idx) :
    i ∈ ((cfg6.win 3).blk t).view.set ↔ ∀ a : Fin 2, win6_3.index t a * S6000x64.size a ≤ (i a).val ∧ (i a).val < win6_3.index t a * S6000x64.size a + S6000x64.size a := by
  show i ∈ ((View.whole main_v46).slice (win6_3.rect t)).set ↔ _
  rw [View.set_slice_whole, Rect.mem_set_unit]
  exact Iff.rfl

/-- The blocks cover the array: row `n` lies in the block of point `n / 6000`. -/
theorem scale6_cover (i : S60000x64.Idx) : ∃ t : Fin cfg6.N, (cfg6.win 3).flush t = true ∧ i ∈ ((cfg6.win 3).blk t).view.set := by
  have hi0 : (i 0).val < 60000 := (i 0).isLt
  have hi1 : (i 1).val < 64 := (i 1).isLt
  have hN : cfg6.N = 10 := N_6
  have hlt : (i 0).val / 6000 < cfg6.N := by omega
  obtain ⟨-, -, -, -, -, -, h0, h1, -⟩ := scale6_idx ⟨(i 0).val / 6000, hlt⟩
  have h0' : win6_3.index ⟨(i 0).val / 6000, hlt⟩ (0 : Fin 2) = (i 0).val / 6000 := h0
  refine ⟨⟨(i 0).val / 6000, hlt⟩, flush6_3 _, ?_⟩
  rw [scale6_mem_blk]
  intro a
  match a with
  | ⟨0, _⟩ =>
    show win6_3.index ⟨(i 0).val / 6000, hlt⟩ (0 : Fin 2) * 6000 ≤ (i 0).val ∧ (i 0).val < win6_3.index ⟨(i 0).val / 6000, hlt⟩ (0 : Fin 2) * 6000 + 6000
    rw [h0']; omega
  | ⟨1, _⟩ =>
    show win6_3.index ⟨(i 0).val / 6000, hlt⟩ (1 : Fin 2) * 64 ≤ (i 1).val ∧ (i 1).val < win6_3.index ⟨(i 0).val / 6000, hlt⟩ (1 : Fin 2) * 64 + 64
    rw [h1]; omega

/-- The result array after the region: the scaled rows. -/
theorem scale6_arr (c : Dev nD) : (dat6 V c).arrAt 3 cfg6.N = scale6_rows (scale6_f V c) (scale6_x V c) (scale6_g V c) :=
  (dat6 V c).arrAt_eq_of_cover 3 _ (fun t _ => scale6_flushed V c t) scale6_cover

end Region

end Scale6

open Scale6

variable (m : (ℓ : Loc nD τ sig) → Buf (Elt Ideal) ℓ) (ρ : Dev nD → PrngReg)

/-- The region's result, entry by entry, over the arrays it was entered with. -/
theorem B18_v46_apply (c : Dev nD) (n : Fin 60000) (k : Fin 64) :
    B18_v46 m ρ c (ix2 n k) = (∑ i : Fin 4, B17_v45 m ρ c (ix2 n i) * B17_v4 m ρ c (ix2 i k)) * B17_v0 m ρ c (ix2 n k) := by
  have h : B18_v46 m ρ c = scale6_rows (B17_v45 m ρ c) (B17_v0 m ρ c) (B17_v4 m ρ c) :=
    (W18_arr m ρ c 3).trans (scale6_arr (V17 m ρ) c)
  rw [h, scale6_rows_apply]

end Cert.KernelIdeal.Val

end
-- ==== Proof.RegScale7.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale7

theorem scale7_hz : (![0, 0] : Fin 2 → Nat) = fun _ => 0 := funext fun a => by fin_cases a <;> rfl

theorem scale7_lhs_0 (j : S8000x64.Idx) (k : dot_S8000x4_S4x64_S8000x64_1_0_0_1_n_n.contr.Idx) :
    (dot_S8000x4_S4x64_S8000x64_1_0_0_1_n_n.lhsIdx j k 0).val = (j 0).val := by
  unfold DotDims.lhsIdx
  rw [dif_neg (show ¬(0 : Fin S8000x4.rank) ∈ dot_S8000x4_S4x64_S8000x64_1_0_0_1_n_n.lhsBatch by decide),
    dif_pos (show (0 : Fin S8000x4.rank) ∈ dot_S8000x4_S4x64_S8000x64_1_0_0_1_n_n.lhsNonContracting by decide)]
  rfl

theorem scale7_lhs_1 (j : S8000x64.Idx) (k : dot_S8000x4_S4x64_S8000x64_1_0_0_1_n_n.contr.Idx) :
    (dot_S8000x4_S4x64_S8000x64_1_0_0_1_n_n.lhsIdx j k 1).val = (k ⟨0, by decide⟩).val :=
  DotDims.lhsIdx_val_of_single (d := dot_S8000x4_S4x64_S8000x64_1_0_0_1_n_n) (cl := 1) rfl j k

theorem scale7_rhs_0 (j : S8000x64.Idx) (k : dot_S8000x4_S4x64_S8000x64_1_0_0_1_n_n.contr.Idx) :
    (dot_S8000x4_S4x64_S8000x64_1_0_0_1_n_n.rhsIdx j k 0).val = (k ⟨0, by decide⟩).val :=
  DotDims.rhsIdx_val_of_single (d := dot_S8000x4_S4x64_S8000x64_1_0_0_1_n_n) (cr := 0) rfl j k

theorem scale7_rhs_1 (j : S8000x64.Idx) (k : dot_S8000x4_S4x64_S8000x64_1_0_0_1_n_n.contr.Idx) :
    (dot_S8000x4_S4x64_S8000x64_1_0_0_1_n_n.rhsIdx j k 1).val = (j 1).val := by
  unfold DotDims.rhsIdx
  rw [dif_neg (show ¬(1 : Fin S4x64.rank) ∈ dot_S8000x4_S4x64_S8000x64_1_0_0_1_n_n.rhsBatch by decide),
    dif_pos (show (1 : Fin S4x64.rank) ∈ dot_S8000x4_S4x64_S8000x64_1_0_0_1_n_n.rhsNonContracting by decide)]
  rfl

/-- The product of a block of rows by the small matrix, read at an entry: the sum over the four shared coordinates. -/
theorem scale7_matmul (f : FVec Ideal S8000x4 .f32) (g : FVec Ideal S4x64 .f32) (r : Fin 8000) (k : Fin 64) :
    matmul dot_S8000x4_S4x64_S8000x64_1_0_0_1_n_n (some .fp32) f g (constant (F := Ideal) S8000x64 .f32 0x00000000#32) (ix2 r k)
      = ∑ i : Fin 4, f (ix2 r i) * g (ix2 i k) := by
  refine (Ideal.matmul_constant_zero_apply dot_S8000x4_S4x64_S8000x64_1_0_0_1_n_n (some .fp32) f g (ix2 r k)).trans ?_
  rw [← Equiv.sum_comp (contrEquiv1 dot_S8000x4_S4x64_S8000x64_1_0_0_1_n_n 4 rfl rfl).symm]
  refine Finset.sum_congr rfl fun i _ => ?_
  have ci := contrEquiv1_symm_val dot_S8000x4_S4x64_S8000x64_1_0_0_1_n_n 4 rfl rfl i
  have hl : dot_S8000x4_S4x64_S8000x64_1_0_0_1_n_n.lhsIdx (ix2 r k) ((contrEquiv1 dot_S8000x4_S4x64_S8000x64_1_0_0_1_n_n 4 rfl rfl).symm i) = ix2 r i := by
    funext a; apply Fin.ext
    match a with
    | ⟨0, _⟩ => exact scale7_lhs_0 _ _
    | ⟨1, _⟩ => exact (scale7_lhs_1 _ _).trans ci
  have hr : dot_S8000x4_S4x64_S8000x64_1_0_0_1_n_n.rhsIdx (ix2 r k) ((contrEquiv1 dot_S8000x4_S4x64_S8000x64_1_0_0_1_n_n 4 rfl rfl).symm i) = ix2 i k := by
    funext a; apply Fin.ext
    match a with
    | ⟨0, _⟩ => exact (scale7_rhs_0 _ _).trans ci
    | ⟨1, _⟩ => exact scale7_rhs_1 _ _
  rw [hl, hr]

/-- What one grid point's body stores, entry by entry. -/
theorem scale7_pay (x0 : Vec Ideal S8000x4 .f32) (x1 : Vec Ideal S8000x64 .f32) (x2 : Vec Ideal S4x64 .f32) (r : Fin 8000) (k : Fin 64) :
    k7_pay1 (F := Ideal) x0 x1 x2 (ix2 r k) = (∑ i : Fin 4, x0 (ix2 r i) * x2 (ix2 i k)) * x1 (ix2 r k) := by
  unfold k7_pay1
  simp only [shapeCast_self]
  refine (mulf_apply _ _ _).trans ?_
  exact congrArg (· * x1 (ix2 r k)) (scale7_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale7_f (c : Dev nD) : FVec Ideal S800000x4 .f32 := V c main_v34
abbrev scale7_x (c : Dev nD) : FVec Ideal S800000x64 .f32 := V c main_v47
abbrev scale7_g (c : Dev nD) : FVec Ideal S4x64 .f32 := V c main_v4

/-- Each row of `x` scaled entry by entry by the row of `f` times the small matrix `g`. -/
def scale7_rows (f : FVec Ideal S800000x4 .f32) (x : FVec Ideal S800000x64 .f32) (g : FVec Ideal S4x64 .f32) : FVec Ideal S800000x64 .f32 :=
  fun j => (∑ i : Fin 4, f (ix2 (n0 := 800000) (j 0) i) * g (ix2 (n1 := 64) i (j 1))) * x (ix2 (n0 := 800000) (n1 := 64) (j 0) (j 1))

theorem scale7_rows_apply (f : FVec Ideal S800000x4 .f32) (x : FVec Ideal S800000x64 .f32) (g : FVec Ideal S4x64 .f32) (n : Fin 800000) (k : Fin 64) :
    scale7_rows f x g (ix2 n k) = (∑ i : Fin 4, f (ix2 n i) * g (ix2 i k)) * x (ix2 n k) := rfl

/-- The printed index maps over the grid: point `t` takes block `t` of the rows of `f`, of `x` and of the result, and all of `g`. -/
theorem scale7_idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 ∧ t.val < 100 :=
  (by decide +kernel : ∀ t : Fin grid7.N, _)

/-- Block `t` of the row factors is the `8000` rows of the array from row `8000 t` on. -/
theorem scale7_blk0 (c : Dev nD) (t : Fin cfg7.N) (r : Fin 8000) (i : Fin 4) (n : Fin 800000) (hn : n.val = 8000 * t.val + r.val) :
    (iblk7 V c 0 t : Vec Ideal S8000x4 .f32) (ix2 r i) = scale7_f V c (ix2 n i) := by
  obtain ⟨h0, h1, -⟩ := scale7_idx t
  unfold iblk7
  rw [View.read_apply]
  refine congrArg (scale7_f V c) ?_
  funext a; apply Fin.ext
  match a with
  | ⟨0, _⟩ => show win7_0.index t (0 : Fin 2) * 8000 + 1 * r.val = n.val; rw [h0, hn]; omega
  | ⟨1, _⟩ => show win7_0.index t (1 : Fin 2) * 4 + 1 * i.val = i.val; rw [h1]; omega

/-- Block `t` of the rows to scale, likewise. -/
theorem scale7_blk1 (c : Dev nD) (t : Fin cfg7.N) (r : Fin 8000) (k : Fin 64) (n : Fin 800000) (hn : n.val = 8000 * t.val + r.val) :
    (iblk7 V c 1 t : Vec Ideal S8000x64 .f32) (ix2 r k) = scale7_x V c (ix2 n k) := by
  obtain ⟨-, -, h0, h1, -⟩ := scale7_idx t
  unfold iblk7
  rw [View.read_apply]
  refine congrArg (scale7_x V c) ?_
  funext a; apply Fin.ext
  match a with
  | ⟨0, _⟩ => show win7_1.index t (0 : Fin 2) * 8000 + 1 * r.val = n.val; rw [h0, hn]; omega
  | ⟨1, _⟩ => show win7_1.index t (1 : Fin 2) * 64 + 1 * k.val = k.val; rw [h1]; omega

/-- Every point's block of the small matrix is the whole matrix. -/
theorem scale7_blk2 (c : Dev nD) (t : Fin cfg7.N) (i : Fin 4) (k : Fin 64) :
    (iblk7 V c 2 t : Vec Ideal S4x64 .f32) (ix2 i k) = scale7_g V c (ix2 i k) := by
  obtain ⟨-, -, -, -, h0, h1, -⟩ := scale7_idx t
  unfold iblk7
  rw [View.read_apply]
  refine congrArg (scale7_g V c) ?_
  funext a; apply Fin.ext
  match a with
  | ⟨0, _⟩ => show win7_2.index t (0 : Fin 2) * 4 + 1 * i.val = i.val; rw [h0]; omega
  | ⟨1, _⟩ => show win7_2.index t (1 : Fin 2) * 64 + 1 * k.val = k.val; rw [h1]; omega

/-- What point `t` writes back is block `t` of the scaled rows. -/
theorem scale7_flushed (c : Dev nD) (t : Fin cfg7.N) :
    (dat7 V c).flushed 3 t = ((cfg7.win 3).blk t).view.read (Elt Ideal) (scale7_rows (scale7_f V c) (scale7_x V c) (scale7_g V c)) := by
  show (cfg7.win 3).cut (grid7.coords t) ((dat7 V c).after 3 t) = _
  rw [after7_3]
  unfold out7_3
  rw [View.canon_unit_zero scale7_hz]
  simp only [View.ld_unit_zero (S := S8000x4) scale7_hz, View.ld_unit_zero (S := S8000x64) scale7_hz, View.ld_unit_zero (S := S4x64) scale7_hz]
  obtain ⟨-, -, -, -, -, -, h0, h1, ht⟩ := scale7_idx t
  funext j
  obtain ⟨r, k, rfl⟩ : ∃ (r : Fin 8000) (k : Fin 64), j = ix2 r k := ⟨j 0, j 1, eq_ix2 j⟩
  rw [View.read_apply]
  have hemb : ((cfg7.win 3).blk t).view.emb (ix2 r k) = ix2 (⟨8000 * t.val + r.val, by omega⟩ : Fin 800000) k := by
    funext a; apply Fin.ext
    match a with
    | ⟨0, _⟩ => show win7_3.index t (0 : Fin 2) * 8000 + 1 * r.val = 8000 * t.val + r.val; rw [h0]; omega
    | ⟨1, _⟩ => show win7_3.index t (1 : Fin 2) * 64 + 1 * k.val = k.val; rw [h1]; omega
  rw [hemb, scale7_rows_apply]
  refine (scale7_pay (iblk7 V c 0 t) (iblk7 V c 1 t) (iblk7 V c 2 t) r k).trans ?_
  exact congrArg₂ (· * ·)
    (Finset.sum_congr rfl fun i _ => congrArg₂ (· * ·) (scale7_blk0 V c t r i _ rfl) (scale7_blk2 V c t i k))
    (scale7_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale7_mem_blk (t : Fin cfg7.N) (i : S800000x64.Idx) :
    i ∈ ((cfg7.win 3).blk t).view.set ↔ ∀ a : Fin 2, win7_3.index t a * S8000x64.size a ≤ (i a).val ∧ (i a).val < win7_3.index t a * S8000x64.size a + S8000x64.size a := by
  show i ∈ ((View.whole main_v48).slice (win7_3.rect t)).set ↔ _
  rw [View.set_slice_whole, Rect.mem_set_unit]
  exact Iff.rfl

/-- The blocks cover the array: row `n` lies in the block of point `n / 8000`. -/
theorem scale7_cover (i : S800000x64.Idx) : ∃ t : Fin cfg7.N, (cfg7.win 3).flush t = true ∧ i ∈ ((cfg7.win 3).blk t).view.set := by
  have hi0 : (i 0).val < 800000 := (i 0).isLt
  have hi1 : (i 1).val < 64 := (i 1).isLt
  have hN : cfg7.N = 100 := N_7
  have hlt : (i 0).val / 8000 < cfg7.N := by omega
  obtain ⟨-, -, -, -, -, -, h0, h1, -⟩ := scale7_idx ⟨(i 0).val / 8000, hlt⟩
  have h0' : win7_3.index ⟨(i 0).val / 8000, hlt⟩ (0 : Fin 2) = (i 0).val / 8000 := h0
  refine ⟨⟨(i 0).val / 8000, hlt⟩, flush7_3 _, ?_⟩
  rw [scale7_mem_blk]
  intro a
  match a with
  | ⟨0, _⟩ =>
    show win7_3.index ⟨(i 0).val / 8000, hlt⟩ (0 : Fin 2) * 8000 ≤ (i 0).val ∧ (i 0).val < win7_3.index ⟨(i 0).val / 8000, hlt⟩ (0 : Fin 2) * 8000 + 8000
    rw [h0']; omega
  | ⟨1, _⟩ =>
    show win7_3.index ⟨(i 0).val / 8000, hlt⟩ (1 : Fin 2) * 64 ≤ (i 1).val ∧ (i 1).val < win7_3.index ⟨(i 0).val / 8000, hlt⟩ (1 : Fin 2) * 64 + 64
    rw [h1]; omega

/-- The result array after the region: the scaled rows. -/
theorem scale7_arr (c : Dev nD) : (dat7 V c).arrAt 3 cfg7.N = scale7_rows (scale7_f V c) (scale7_x V c) (scale7_g V c) :=
  (dat7 V c).arrAt_eq_of_cover 3 _ (fun t _ => scale7_flushed V c t) scale7_cover

end Region

end Scale7

open Scale7

variable (m : (ℓ : Loc nD τ sig) → Buf (Elt Ideal) ℓ) (ρ : Dev nD → PrngReg)

/-- The region's result, entry by entry, over the arrays it was entered with. -/
theorem B20_v48_apply (c : Dev nD) (n : Fin 800000) (k : Fin 64) :
    B20_v48 m ρ c (ix2 n k) = (∑ i : Fin 4, B19_v34 m ρ c (ix2 n i) * B19_v4 m ρ c (ix2 i k)) * B19_v47 m ρ c (ix2 n k) := by
  have h : B20_v48 m ρ c = scale7_rows (B19_v34 m ρ c) (B19_v47 m ρ c) (B19_v4 m ρ c) :=
    (W20_arr m ρ c 3).trans (scale7_arr (V19 m ρ) c)
  rw [h, scale7_rows_apply]

end Cert.KernelIdeal.Val

end
-- ==== Proof.RegScale8.lean ====
/-
  One of the program's row-scaling regions, read as one statement about whole arrays. The region's body takes a block
  of rows of a factor array `f` (rows × 4), the same rows of an array `x` (rows × 64) and the whole of a small matrix
  `g` (4 × 64), and stores `(f · g) * x` entry by entry: the matrix product is a sum over the four shared coordinates,
  started from zero, and the scaling is entrywise. Here: that sum read at an entry; what one grid point stores, entry by
  entry; each input block as rows of its array (point `t` reads and writes the rows of block `t`, and all of `g`);
  what a point writes back as the restriction of ONE whole-array function to its block; the blocks cover the array (row
  `n` lies in the block of point `n / rows-per-block`), so the result array ends holding
  `out n k = (∑ i, f n i * g i k) * x n k`, stated last over the arrays the region was entered with. Only commutativity
  and associativity of the extended reals' + and * and `0 + s = s` are used, through the library's lemmas.
-/
import proofs.«418341_j39728447488527_3_alg».proof.Proof.KBufs
import proofs.«418341_j39728447488527_3_alg».proof.Proof.OneHot
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing
open Idealize.ShloMosaic.Pipeline (Dat)

namespace Scale8

theorem scale8_hz : (![0, 0] : Fin 2 → Nat) = fun _ => 0 := funext fun a => by fin_cases a <;> rfl

theorem scale8_lhs_0 (j : S6000x64.Idx) (k : dot_S6000x4_S4x64_S6000x64_1_0_0_1_n_n.contr.Idx) :
    (dot_S6000x4_S4x64_S6000x64_1_0_0_1_n_n.lhsIdx j k 0).val = (j 0).val := by
  unfold DotDims.lhsIdx
  rw [dif_neg (show ¬(0 : Fin S6000x4.rank) ∈ dot_S6000x4_S4x64_S6000x64_1_0_0_1_n_n.lhsBatch by decide),
    dif_pos (show (0 : Fin S6000x4.rank) ∈ dot_S6000x4_S4x64_S6000x64_1_0_0_1_n_n.lhsNonContracting by decide)]
  rfl

theorem scale8_lhs_1 (j : S6000x64.Idx) (k : dot_S6000x4_S4x64_S6000x64_1_0_0_1_n_n.contr.Idx) :
    (dot_S6000x4_S4x64_S6000x64_1_0_0_1_n_n.lhsIdx j k 1).val = (k ⟨0, by decide⟩).val :=
  DotDims.lhsIdx_val_of_single (d := dot_S6000x4_S4x64_S6000x64_1_0_0_1_n_n) (cl := 1) rfl j k

theorem scale8_rhs_0 (j : S6000x64.Idx) (k : dot_S6000x4_S4x64_S6000x64_1_0_0_1_n_n.contr.Idx) :
    (dot_S6000x4_S4x64_S6000x64_1_0_0_1_n_n.rhsIdx j k 0).val = (k ⟨0, by decide⟩).val :=
  DotDims.rhsIdx_val_of_single (d := dot_S6000x4_S4x64_S6000x64_1_0_0_1_n_n) (cr := 0) rfl j k

theorem scale8_rhs_1 (j : S6000x64.Idx) (k : dot_S6000x4_S4x64_S6000x64_1_0_0_1_n_n.contr.Idx) :
    (dot_S6000x4_S4x64_S6000x64_1_0_0_1_n_n.rhsIdx j k 1).val = (j 1).val := by
  unfold DotDims.rhsIdx
  rw [dif_neg (show ¬(1 : Fin S4x64.rank) ∈ dot_S6000x4_S4x64_S6000x64_1_0_0_1_n_n.rhsBatch by decide),
    dif_pos (show (1 : Fin S4x64.rank) ∈ dot_S6000x4_S4x64_S6000x64_1_0_0_1_n_n.rhsNonContracting by decide)]
  rfl

/-- The product of a block of rows by the small matrix, read at an entry: the sum over the four shared coordinates. -/
theorem scale8_matmul (f : FVec Ideal S6000x4 .f32) (g : FVec Ideal S4x64 .f32) (r : Fin 6000) (k : Fin 64) :
    matmul dot_S6000x4_S4x64_S6000x64_1_0_0_1_n_n (some .fp32) f g (constant (F := Ideal) S6000x64 .f32 0x00000000#32) (ix2 r k)
      = ∑ i : Fin 4, f (ix2 r i) * g (ix2 i k) := by
  refine (Ideal.matmul_constant_zero_apply dot_S6000x4_S4x64_S6000x64_1_0_0_1_n_n (some .fp32) f g (ix2 r k)).trans ?_
  rw [← Equiv.sum_comp (contrEquiv1 dot_S6000x4_S4x64_S6000x64_1_0_0_1_n_n 4 rfl rfl).symm]
  refine Finset.sum_congr rfl fun i _ => ?_
  have ci := contrEquiv1_symm_val dot_S6000x4_S4x64_S6000x64_1_0_0_1_n_n 4 rfl rfl i
  have hl : dot_S6000x4_S4x64_S6000x64_1_0_0_1_n_n.lhsIdx (ix2 r k) ((contrEquiv1 dot_S6000x4_S4x64_S6000x64_1_0_0_1_n_n 4 rfl rfl).symm i) = ix2 r i := by
    funext a; apply Fin.ext
    match a with
    | ⟨0, _⟩ => exact scale8_lhs_0 _ _
    | ⟨1, _⟩ => exact (scale8_lhs_1 _ _).trans ci
  have hr : dot_S6000x4_S4x64_S6000x64_1_0_0_1_n_n.rhsIdx (ix2 r k) ((contrEquiv1 dot_S6000x4_S4x64_S6000x64_1_0_0_1_n_n 4 rfl rfl).symm i) = ix2 i k := by
    funext a; apply Fin.ext
    match a with
    | ⟨0, _⟩ => exact (scale8_rhs_0 _ _).trans ci
    | ⟨1, _⟩ => exact scale8_rhs_1 _ _
  rw [hl, hr]

/-- What one grid point's body stores, entry by entry. -/
theorem scale8_pay (x0 : Vec Ideal S6000x4 .f32) (x1 : Vec Ideal S6000x64 .f32) (x2 : Vec Ideal S4x64 .f32) (r : Fin 6000) (k : Fin 64) :
    k8_pay1 (F := Ideal) x0 x1 x2 (ix2 r k) = (∑ i : Fin 4, x0 (ix2 r i) * x2 (ix2 i k)) * x1 (ix2 r k) := by
  unfold k8_pay1
  simp only [shapeCast_self]
  refine (mulf_apply _ _ _).trans ?_
  exact congrArg (· * x1 (ix2 r k)) (scale8_matmul x0 x2 r k)

/-! ## From the blocks to the whole array -/

section Region
variable (V : (c : Dev nD) → (b : Ref sig .tc) → Buf (Elt Ideal) ((c : Thread nD τ).loc b))

/-- The three arrays the region reads, as it finds them: the row factors, the rows to scale, the small matrix. -/
abbrev scale8_f (c : Dev nD) : FVec Ideal S60000x4 .f32 := V c main_v45
abbrev scale8_x (c : Dev nD) : FVec Ideal S60000x64 .f32 := V c main_v56
abbrev scale8_g (c : Dev nD) : FVec Ideal S4x64 .f32 := V c main_v4

/-- Each row of `x` scaled entry by entry by the row of `f` times the small matrix `g`. -/
def scale8_rows (f : FVec Ideal S60000x4 .f32) (x : FVec Ideal S60000x64 .f32) (g : FVec Ideal S4x64 .f32) : FVec Ideal S60000x64 .f32 :=
  fun j => (∑ i : Fin 4, f (ix2 (n0 := 60000) (j 0) i) * g (ix2 (n1 := 64) i (j 1))) * x (ix2 (n0 := 60000) (n1 := 64) (j 0) (j 1))

theorem scale8_rows_apply (f : FVec Ideal S60000x4 .f32) (x : FVec Ideal S60000x64 .f32) (g : FVec Ideal S4x64 .f32) (n : Fin 60000) (k : Fin 64) :
    scale8_rows f x g (ix2 n k) = (∑ i : Fin 4, f (ix2 n i) * g (ix2 i k)) * x (ix2 n k) := rfl

/-- The printed index maps over the grid: point `t` takes block `t` of the rows of `f`, of `x` and of the result, and all of `g`. -/
theorem scale8_idx : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 ∧ t.val < 10 :=
  (by decide +kernel : ∀ t : Fin grid8.N, _)

/-- Block `t` of the row factors is the `6000` rows of the array from row `6000 t` on. -/
theorem scale8_blk0 (c : Dev nD) (t : Fin cfg8.N) (r : Fin 6000) (i : Fin 4) (n : Fin 60000) (hn : n.val = 6000 * t.val + r.val) :
    (iblk8 V c 0 t : Vec Ideal S6000x4 .f32) (ix2 r i) = scale8_f V c (ix2 n i) := by
  obtain ⟨h0, h1, -⟩ := scale8_idx t
  unfold iblk8
  rw [View.read_apply]
  refine congrArg (scale8_f V c) ?_
  funext a; apply Fin.ext
  match a with
  | ⟨0, _⟩ => show win8_0.index t (0 : Fin 2) * 6000 + 1 * r.val = n.val; rw [h0, hn]; omega
  | ⟨1, _⟩ => show win8_0.index t (1 : Fin 2) * 4 + 1 * i.val = i.val; rw [h1]; omega

/-- Block `t` of the rows to scale, likewise. -/
theorem scale8_blk1 (c : Dev nD) (t : Fin cfg8.N) (r : Fin 6000) (k : Fin 64) (n : Fin 60000) (hn : n.val = 6000 * t.val + r.val) :
    (iblk8 V c 1 t : Vec Ideal S6000x64 .f32) (ix2 r k) = scale8_x V c (ix2 n k) := by
  obtain ⟨-, -, h0, h1, -⟩ := scale8_idx t
  unfold iblk8
  rw [View.read_apply]
  refine congrArg (scale8_x V c) ?_
  funext a; apply Fin.ext
  match a with
  | ⟨0, _⟩ => show win8_1.index t (0 : Fin 2) * 6000 + 1 * r.val = n.val; rw [h0, hn]; omega
  | ⟨1, _⟩ => show win8_1.index t (1 : Fin 2) * 64 + 1 * k.val = k.val; rw [h1]; omega

/-- Every point's block of the small matrix is the whole matrix. -/
theorem scale8_blk2 (c : Dev nD) (t : Fin cfg8.N) (i : Fin 4) (k : Fin 64) :
    (iblk8 V c 2 t : Vec Ideal S4x64 .f32) (ix2 i k) = scale8_g V c (ix2 i k) := by
  obtain ⟨-, -, -, -, h0, h1, -⟩ := scale8_idx t
  unfold iblk8
  rw [View.read_apply]
  refine congrArg (scale8_g V c) ?_
  funext a; apply Fin.ext
  match a with
  | ⟨0, _⟩ => show win8_2.index t (0 : Fin 2) * 4 + 1 * i.val = i.val; rw [h0]; omega
  | ⟨1, _⟩ => show win8_2.index t (1 : Fin 2) * 64 + 1 * k.val = k.val; rw [h1]; omega

/-- What point `t` writes back is block `t` of the scaled rows. -/
theorem scale8_flushed (c : Dev nD) (t : Fin cfg8.N) :
    (dat8 V c).flushed 3 t = ((cfg8.win 3).blk t).view.read (Elt Ideal) (scale8_rows (scale8_f V c) (scale8_x V c) (scale8_g V c)) := by
  show (cfg8.win 3).cut (grid8.coords t) ((dat8 V c).after 3 t) = _
  rw [after8_3]
  unfold out8_3
  rw [View.canon_unit_zero scale8_hz]
  simp only [View.ld_unit_zero (S := S6000x4) scale8_hz, View.ld_unit_zero (S := S6000x64) scale8_hz, View.ld_unit_zero (S := S4x64) scale8_hz]
  obtain ⟨-, -, -, -, -, -, h0, h1, ht⟩ := scale8_idx t
  funext j
  obtain ⟨r, k, rfl⟩ : ∃ (r : Fin 6000) (k : Fin 64), j = ix2 r k := ⟨j 0, j 1, eq_ix2 j⟩
  rw [View.read_apply]
  have hemb : ((cfg8.win 3).blk t).view.emb (ix2 r k) = ix2 (⟨6000 * t.val + r.val, by omega⟩ : Fin 60000) k := by
    funext a; apply Fin.ext
    match a with
    | ⟨0, _⟩ => show win8_3.index t (0 : Fin 2) * 6000 + 1 * r.val = 6000 * t.val + r.val; rw [h0]; omega
    | ⟨1, _⟩ => show win8_3.index t (1 : Fin 2) * 64 + 1 * k.val = k.val; rw [h1]; omega
  rw [hemb, scale8_rows_apply]
  refine (scale8_pay (iblk8 V c 0 t) (iblk8 V c 1 t) (iblk8 V c 2 t) r k).trans ?_
  exact congrArg₂ (· * ·)
    (Finset.sum_congr rfl fun i _ => congrArg₂ (· * ·) (scale8_blk0 V c t r i _ rfl) (scale8_blk2 V c t i k))
    (scale8_blk1 V c t r k _ rfl)

end Region

section Region
variable (V : (c : Dev nD) → (b : Ref sig .tc) → Buf (Elt Ideal) ((c : Thread nD τ).loc b))

/-- An index of the array lies in point `t`'s block of the result iff each coordinate lies in the block's range. -/
theorem scale8_mem_blk (t : Fin cfg8.N) (i : S60000x64.Idx) :
    i ∈ ((cfg8.win 3).blk t).view.set ↔ ∀ a : Fin 2, win8_3.index t a * S6000x64.size a ≤ (i a).val ∧ (i a).val < win8_3.index t a * S6000x64.size a + S6000x64.size a := by
  show i ∈ ((View.whole main_v57).slice (win8_3.rect t)).set ↔ _
  rw [View.set_slice_whole, Rect.mem_set_unit]
  exact Iff.rfl

/-- The blocks cover the array: row `n` lies in the block of point `n / 6000`. -/
theorem scale8_cover (i : S60000x64.Idx) : ∃ t : Fin cfg8.N, (cfg8.win 3).flush t = true ∧ i ∈ ((cfg8.win 3).blk t).view.set := by
  have hi0 : (i 0).val < 60000 := (i 0).isLt
  have hi1 : (i 1).val < 64 := (i 1).isLt
  have hN : cfg8.N = 10 := N_8
  have hlt : (i 0).val / 6000 < cfg8.N := by omega
  obtain ⟨-, -, -, -, -, -, h0, h1, -⟩ := scale8_idx ⟨(i 0).val / 6000, hlt⟩
  have h0' : win8_3.index ⟨(i 0).val / 6000, hlt⟩ (0 : Fin 2) = (i 0).val / 6000 := h0
  refine ⟨⟨(i 0).val / 6000, hlt⟩, flush8_3 _, ?_⟩
  rw [scale8_mem_blk]
  intro a
  match a with
  | ⟨0, _⟩ =>
    show win8_3.index ⟨(i 0).val / 6000, hlt⟩ (0 : Fin 2) * 6000 ≤ (i 0).val ∧ (i 0).val < win8_3.index ⟨(i 0).val / 6000, hlt⟩ (0 : Fin 2) * 6000 + 6000
    rw [h0']; omega
  | ⟨1, _⟩ =>
    show win8_3.index ⟨(i 0).val / 6000, hlt⟩ (1 : Fin 2) * 64 ≤ (i 1).val ∧ (i 1).val < win8_3.index ⟨(i 0).val / 6000, hlt⟩ (1 : Fin 2) * 64 + 64
    rw [h1]; omega

/-- The result array after the region: the scaled rows. -/
theorem scale8_arr (c : Dev nD) : (dat8 V c).arrAt 3 cfg8.N = scale8_rows (scale8_f V c) (scale8_x V c) (scale8_g V c) :=
  (dat8 V c).arrAt_eq_of_cover 3 _ (fun t _ => scale8_flushed V c t) scale8_cover

end Region

end Scale8

open Scale8

variable (m : (ℓ : Loc nD τ sig) → Buf (Elt Ideal) ℓ) (ρ : Dev nD → PrngReg)

/-- The region's result, entry by entry, over the arrays it was entered with. -/
theorem B22_v57_apply (c : Dev nD) (n : Fin 60000) (k : Fin 64) :
    B22_v57 m ρ c (ix2 n k) = (∑ i : Fin 4, B21_v45 m ρ c (ix2 n i) * B21_v4 m ρ c (ix2 i k)) * B21_v56 m ρ c (ix2 n k) := by
  have h : B22_v57 m ρ c = scale8_rows (B21_v45 m ρ c) (B21_v56 m ρ c) (B21_v4 m ρ c) :=
    (W22_arr m ρ c 3).trans (scale8_arr (V21 m ρ) c)
  rw [h, scale8_rows_apply]

end Cert.KernelIdeal.Val

end
-- ==== Proof.RegAttnBody.lean ====
/-
  The attention-update body on one block of 2000 rows, read entry by entry.

  Each row holds 64 channels in four groups of sixteen. Contracting the squared row against the 0/1 matrix of
  "channel k lies in group i" sums the squares of a group; the square root of that sum floored at a small
  constant is the group's length; contracting the four lengths against the transposed matrix gives every channel
  the length of its own group; dividing the row by that scales each group to unit length. The body does this to
  two rows, multiplies the first by the hyperbolic tangent of the second, and contracts the product against the
  0/1 matrix again: entry (r, i) of the result is the sum over the sixteen channels of group i.
-/
import proofs.«418341_j39728447488527_3_alg».proof.Proof.KBufs
import proofs.«418341_j39728447488527_3_alg».proof.Proof.OneHot
import Idealize.ShloMosaic.Lib.ValueIdx
import Idealize.ShloMosaic.Lib.Pipeline.Value
import Idealize.ShloMosaic.PureOps.Ideal.Laws

noncomputable section

namespace Cert.KernelIdeal.Val.Attn4

open Idealize.ShloMosaic Idealize.ShloMosaic.TcCoe Idealize.ShloMosaic.ValueIdx Idealize.SL.Sem Cert.KernelIdeal
  Cert.KernelIdeal.Gen Cert.Routing

/-! ## The two contractions' operand indices -/

/-- rows × 64 against 64 × 4. -/
abbrev dotG := dot_S2000x64_S64x4_S2000x4_1_0_0_1_n_n
/-- rows × 4 against 4 × 64. -/
abbrev dotGt := dot_S2000x4_S4x64_S2000x64_1_0_0_1_n_n

theorem lhs_dotG_0 (i : S2000x4.Idx) (q : dot_S2000x64_S64x4_S2000x4_1_0_0_1_n_n.contr.Idx) :
    (dot_S2000x64_S64x4_S2000x4_1_0_0_1_n_n.lhsIdx i q 0).val = (i 0).val := by
  unfold DotDims.lhsIdx
  rw [dif_neg (show ¬(0 : Fin S2000x64.rank) ∈ dot_S2000x64_S64x4_S2000x4_1_0_0_1_n_n.lhsBatch by decide),
    dif_pos (show (0 : Fin S2000x64.rank) ∈ dot_S2000x64_S64x4_S2000x4_1_0_0_1_n_n.lhsNonContracting by decide)]
  rfl
theorem lhs_dotG_1 (i : S2000x4.Idx) (q : dot_S2000x64_S64x4_S2000x4_1_0_0_1_n_n.contr.Idx) :
    (dot_S2000x64_S64x4_S2000x4_1_0_0_1_n_n.lhsIdx i q 1).val = (q ⟨0, by decide⟩).val :=
  dot_S2000x64_S64x4_S2000x4_1_0_0_1_n_n.lhsIdx_val_of_single rfl i q
theorem rhs_dotG_0 (i : S2000x4.Idx) (q : dot_S2000x64_S64x4_S2000x4_1_0_0_1_n_n.contr.Idx) :
    (dot_S2000x64_S64x4_S2000x4_1_0_0_1_n_n.rhsIdx i q 0).val = (q ⟨0, by decide⟩).val :=
  dot_S2000x64_S64x4_S2000x4_1_0_0_1_n_n.rhsIdx_val_of_single rfl i q
theorem rhs_dotG_1 (i : S2000x4.Idx) (q : dot_S2000x64_S64x4_S2000x4_1_0_0_1_n_n.contr.Idx) :
    (dot_S2000x64_S64x4_S2000x4_1_0_0_1_n_n.rhsIdx i q 1).val = (i 1).val := by
  unfold DotDims.rhsIdx
  rw [dif_neg (show ¬(1 : Fin S64x4.rank) ∈ dot_S2000x64_S64x4_S2000x4_1_0_0_1_n_n.rhsBatch by decide),
    dif_pos (show (1 : Fin S64x4.rank) ∈ dot_S2000x64_S64x4_S2000x4_1_0_0_1_n_n.rhsNonContracting by decide)]
  rfl

theorem lhs_dotGt_0 (i : S2000x64.Idx) (q : dot_S2000x4_S4x64_S2000x64_1_0_0_1_n_n.contr.Idx) :
    (dot_S2000x4_S4x64_S2000x64_1_0_0_1_n_n.lhsIdx i q 0).val = (i 0).val := by
  unfold DotDims.lhsIdx
  rw [dif_neg (show ¬(0 : Fin S2000x4.rank) ∈ dot_S2000x4_S4x64_S2000x64_1_0_0_1_n_n.lhsBatch by decide),
    dif_pos (show (0 : Fin S2000x4.rank) ∈ dot_S2000x4_S4x64_S2000x64_1_0_0_1_n_n.lhsNonContracting by decide)]
  rfl
theorem lhs_dotGt_1 (i : S2000x64.Idx) (q : dot_S2000x4_S4x64_S2000x64_1_0_0_1_n_n.contr.Idx) :
    (dot_S2000x4_S4x64_S2000x64_1_0_0_1_n_n.lhsIdx i q 1).val = (q ⟨0, by decide⟩).val :=
  dot_S2000x4_S4x64_S2000x64_1_0_0_1_n_n.lhsIdx_val_of_single rfl i q
theorem rhs_dotGt_0 (i : S2000x64.Idx) (q : dot_S2000x4_S4x64_S2000x64_1_0_0_1_n_n.contr.Idx) :
    (dot_S2000x4_S4x64_S2000x64_1_0_0_1_n_n.rhsIdx i q 0).val = (q ⟨0, by decide⟩).val :=
  dot_S2000x4_S4x64_S2000x64_1_0_0_1_n_n.rhsIdx_val_of_single rfl i q
theorem rhs_dotGt_1 (i : S2000x64.Idx) (q : dot_S2000x4_S4x64_S2000x64_1_0_0_1_n_n.contr.Idx) :
    (dot_S2000x4_S4x64_S2000x64_1_0_0_1_n_n.rhsIdx i q 1).val = (i 1).val := by
  unfold DotDims.rhsIdx
  rw [dif_neg (show ¬(1 : Fin S4x64.rank) ∈ dot_S2000x4_S4x64_S2000x64_1_0_0_1_n_n.rhsBatch by decide),
    dif_pos (show (1 : Fin S4x64.rank) ∈ dot_S2000x4_S4x64_S2000x64_1_0_0_1_n_n.rhsNonContracting by decide)]
  rfl

/-- A block of rows times a 64 × 4 matrix, into zeros: entry (r, i) is the sum over the 64 channels. -/
theorem matmul_dotG_apply (a : FVec Ideal S2000x64 .f32) (b : FVec Ideal S64x4 .f32) (r : Fin 2000) (i : Fin 4) :
    matmul dot_S2000x64_S64x4_S2000x4_1_0_0_1_n_n (some .fp32) a b (constant (F := Ideal) S2000x4 .f32 0x00000000#32) (ix2 r i)
      = ∑ k : Fin 64, a (ix2 r k) * b (ix2 k i) := by
  simp only [matmul]
  rw [Ideal.matmul_constant_zero_apply,
    ← Equiv.sum_comp (contrEquiv1 dot_S2000x64_S64x4_S2000x4_1_0_0_1_n_n 64 rfl rfl).symm]
  refine Finset.sum_congr rfl fun k _ => ?_
  have hk := contrEquiv1_symm_val dot_S2000x64_S64x4_S2000x4_1_0_0_1_n_n 64 rfl rfl k
  have el : dot_S2000x64_S64x4_S2000x4_1_0_0_1_n_n.lhsIdx (ix2 r i)
      ((contrEquiv1 dot_S2000x64_S64x4_S2000x4_1_0_0_1_n_n 64 rfl rfl).symm k) = ix2 r k := funext fun a => Fin.ext (by
    match a with
    | ⟨0, _⟩ => exact lhs_dotG_0 _ _
    | ⟨1, _⟩ => exact (lhs_dotG_1 _ _).trans hk)
  have er : dot_S2000x64_S64x4_S2000x4_1_0_0_1_n_n.rhsIdx (ix2 r i)
      ((contrEquiv1 dot_S2000x64_S64x4_S2000x4_1_0_0_1_n_n 64 rfl rfl).symm k) = ix2 k i := funext fun a => Fin.ext (by
    match a with
    | ⟨0, _⟩ => exact (rhs_dotG_0 _ _).trans hk
    | ⟨1, _⟩ => exact rhs_dotG_1 _ _)
  rw [el, er]

/-- A block of rows of four times a 4 × 64 matrix, into zeros: entry (r, k) is the sum over the four groups. -/
theorem matmul_dotGt_apply (a : FVec Ideal S2000x4 .f32) (b : FVec Ideal S4x64 .f32) (r : Fin 2000) (k : Fin 64) :
    matmul dot_S2000x4_S4x64_S2000x64_1_0_0_1_n_n (some .fp32) a b (constant (F := Ideal) S2000x64 .f32 0x00000000#32) (ix2 r k)
      = ∑ i : Fin 4, a (ix2 r i) * b (ix2 i k) := by
  simp only [matmul]
  rw [Ideal.matmul_constant_zero_apply,
    ← Equiv.sum_comp (contrEquiv1 dot_S2000x4_S4x64_S2000x64_1_0_0_1_n_n 4 rfl rfl).symm]
  refine Finset.sum_congr rfl fun i _ => ?_
  have hk := contrEquiv1_symm_val dot_S2000x4_S4x64_S2000x64_1_0_0_1_n_n 4 rfl rfl i
  have el : dot_S2000x4_S4x64_S2000x64_1_0_0_1_n_n.lhsIdx (ix2 r k)
      ((contrEquiv1 dot_S2000x4_S4x64_S2000x64_1_0_0_1_n_n 4 rfl rfl).symm i) = ix2 r i := funext fun a => Fin.ext (by
    match a with
    | ⟨0, _⟩ => exact lhs_dotGt_0 _ _
    | ⟨1, _⟩ => exact (lhs_dotGt_1 _ _).trans hk)
  have er : dot_S2000x4_S4x64_S2000x64_1_0_0_1_n_n.rhsIdx (ix2 r k)
      ((contrEquiv1 dot_S2000x4_S4x64_S2000x64_1_0_0_1_n_n 4 rfl rfl).symm i) = ix2 i k := funext fun a => Fin.ext (by
    match a with
    | ⟨0, _⟩ => exact (rhs_dotGt_0 _ _).trans hk
    | ⟨1, _⟩ => exact rhs_dotGt_1 _ _)
  rw [el, er]

/-! ## One row scaled to unit groups -/

/-- The block with every group of every row scaled to unit length, as the body computes it. -/
def unitBlock (x : FVec Ideal S2000x64 .f32) (g : FVec Ideal S64x4 .f32) (gt : FVec Ideal S4x64 .f32) : FVec Ideal S2000x64 .f32 :=
  divf x (matmul dot_S2000x4_S4x64_S2000x64_1_0_0_1_n_n (some .fp32)
    (sqrt (maximumf (matmul dot_S2000x64_S64x4_S2000x4_1_0_0_1_n_n (some .fp32) (mulf x x) g (constant (F := Ideal) S2000x4 .f32 0x00000000#32))
      (broadcast S2000x4 (Scalar.ofBits (F := Ideal) .f32 0x2B8CBCCC#32))))
    gt (constant (F := Ideal) S2000x64 .f32 0x00000000#32))

theorem unitBlock_apply (x : FVec Ideal S2000x64 .f32) (g : FVec Ideal S64x4 .f32) (gt : FVec Ideal S4x64 .f32)
    (hg : ∀ (k : Fin 64) (i : Fin 4), g (ix2 k i) = oh k i) (hgt : ∀ (i : Fin 4) (k : Fin 64), gt (ix2 i k) = oh k i)
    (r : Fin 2000) (k : Fin 64) :
    unitBlock x g gt (ix2 r k) = unit (fun k' => x (ix2 r k')) k := by
  unfold unitBlock
  rw [divf_apply, matmul_dotGt_apply]
  simp only [hgt]
  rw [sum_mul_oh_grp (fun i => sqrt (maximumf (matmul dot_S2000x64_S64x4_S2000x4_1_0_0_1_n_n (some .fp32) (mulf x x) g (constant (F := Ideal) S2000x4 .f32 0x00000000#32))
      (broadcast S2000x4 (Scalar.ofBits (F := Ideal) .f32 0x2B8CBCCC#32))) (ix2 r i)) k]
  show Ideal.div (x (ix2 r k)) (Ideal.sqrt (max (matmul dot_S2000x64_S64x4_S2000x4_1_0_0_1_n_n (some .fp32) (mulf x x) g (constant (F := Ideal) S2000x4 .f32 0x00000000#32) (ix2 r (grp k))) eps32)) = _
  rw [matmul_dotG_apply]
  simp only [hg, mulf_apply]
  rw [sum_mul_oh_chan (fun k' => x (ix2 r k') * x (ix2 r k')) (grp k)]
  rfl

/-- THE BODY'S RESULT at row r and group i. -/
theorem pay_apply (zh xt : FVec Ideal S2000x64 .f32) (g : FVec Ideal S64x4 .f32) (gt : FVec Ideal S4x64 .f32)
    (hg : ∀ (k : Fin 64) (i : Fin 4), g (ix2 k i) = oh k i) (hgt : ∀ (i : Fin 4) (k : Fin 64), gt (ix2 i k) = oh k i)
    (r : Fin 2000) (i : Fin 4) :
    k4_pay1 (F := Ideal) zh xt g gt (ix2 r i)
      = ∑ d : Fin 16, unit (fun k => zh (ix2 r k)) (chan i d) * Ideal.tanh (unit (fun k => xt (ix2 r k)) (chan i d)) := by
  have e : k4_pay1 (F := Ideal) zh xt g gt = matmul dot_S2000x64_S64x4_S2000x4_1_0_0_1_n_n (some .fp32)
      (mulf (unitBlock zh g gt) (tanh (unitBlock xt g gt))) g (constant (F := Ideal) S2000x4 .f32 0x00000000#32) := by
    unfold k4_pay1 unitBlock
    simp only [shapeCast_self]
  rw [e, matmul_dotG_apply]
  simp only [hg]
  rw [sum_mul_oh_chan (fun k => mulf (unitBlock zh g gt) (tanh (unitBlock xt g gt)) (ix2 r k)) i]
  refine Finset.sum_congr rfl fun d _ => ?_
  rw [mulf_apply]
  show unitBlock zh g gt (ix2 r (chan i d)) * Ideal.tanh (unitBlock xt g gt (ix2 r (chan i d))) = _
  rw [unitBlock_apply zh g gt hg hgt, unitBlock_apply xt g gt hg hgt]

end Cert.KernelIdeal.Val.Attn4

end
-- ==== Proof.RegAttn.lean ====
/-
  The attention-update region: what its output array holds after the 400 grid points have written back.

  Point t works on rows 2000 t … 2000 t + 1999 of the two edge-feature arrays and of the output, and on the whole
  of the two small 0/1 matrices. What it writes back is rows 2000 t … of ONE function of the input arrays: at
  edge e and group i, the sum over the sixteen channels of the group of the first array's unit-scaled row e
  times the hyperbolic tangent of the second array's unit-scaled row e. The 400 blocks cover all 800000 rows.
-/
import proofs.«418341_j39728447488527_3_alg».proof.Proof.RegAttnBody
import Idealize.ShloMosaic.Lib.Pipeline.Value

noncomputable section

namespace Cert.KernelIdeal.Val.Attn4

open Idealize.ShloMosaic Idealize.ShloMosaic.TcCoe Idealize.ShloMosaic.ValueIdx Idealize.SL.Sem Cert.KernelIdeal
  Cert.KernelIdeal.Gen Cert.Routing
open Idealize.ShloMosaic.Pipeline (Dat)

/-- The result at edge e and group i, from the two edge-feature arrays. -/
def attnRow (zh xt : FVec Ideal S800000x64 .f32) (e : Fin 800000) (i : Fin 4) : EReal :=
  ∑ d : Fin 16, unit (fun k => zh (ix2 e k)) (chan i d) * Ideal.tanh (unit (fun k => xt (ix2 e k)) (chan i d))

/-- The whole output array as one function of the two edge-feature arrays. -/
def attnArr (zh xt : FVec Ideal S800000x64 .f32) : FVec Ideal S800000x4 .f32 :=
  fun j => attnRow zh xt ⟨(j 0).val, idx2_lt0 j⟩ ⟨(j 1).val, idx2_lt1 j⟩

theorem attnArr_apply (zh xt : FVec Ideal S800000x64 .f32) (e : Fin 800000) (i : Fin 4) :
    attnArr zh xt (ix2 e i) = attnRow zh xt e i := rfl

section AtEntry

variable (V : (c : Dev nD) → (b : Ref sig .tc) → Buf (Elt Ideal) ((c : Thread nD τ).loc b))

/-- The region's four input arrays as it finds them, at their literal types. -/
abbrev zhArr (c : Dev nD) : FVec Ideal S800000x64 .f32 := V c main_v30
abbrev xtArr (c : Dev nD) : FVec Ideal S800000x64 .f32 := V c main_v31
abbrev gArr (c : Dev nD) : FVec Ideal S64x4 .f32 := V c main_v3
abbrev gtArr (c : Dev nD) : FVec Ideal S4x64 .f32 := V c main_v4

/-- Their blocks at point t. -/
abbrev zhBlk (c : Dev nD) (t : Fin cfg4.N) : FVec Ideal S2000x64 .f32 := iblk4 V c 0 t
abbrev xtBlk (c : Dev nD) (t : Fin cfg4.N) : FVec Ideal S2000x64 .f32 := iblk4 V c 1 t
abbrev gBlk (c : Dev nD) (t : Fin cfg4.N) : FVec Ideal S64x4 .f32 := iblk4 V c 2 t
abbrev gtBlk (c : Dev nD) (t : Fin cfg4.N) : FVec Ideal S4x64 .f32 := iblk4 V c 3 t

theorem hz : (![0, 0] : Fin 2 → Nat) = fun _ => 0 := funext fun a => by fin_cases a <;> rfl

/-- The printed index maps, decided over the grid: the three row-blocked windows sit at block (t, 0), the two
    small matrices at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row r of point t's block is row 2000 t + r of the array. -/
def rowAt (t : Fin cfg4.N) (r : Fin 2000) : Fin 800000 :=
  ⟨t.val * 2000 + r.val, by have h : t.val < 400 := Nat.lt_of_lt_of_eq t.isLt N_4; have := r.isLt; omega⟩

theorem zhBlk_apply (c : Dev nD) (t : Fin cfg4.N) (r : Fin 2000) (k : Fin 64) :
    zhBlk V c t (ix2 r k) = zhArr V c (ix2 (rowAt t r) k) := by
  obtain ⟨e0, e1, -⟩ := idx_facts t
  show V c main_v30 (((cfg4.win 0).blk t).view.emb (ix2 r k)) = V c main_v30 (ix2 (rowAt t r) k)
  refine congrArg _ (funext fun a => Fin.ext ?_)
  match a with
  | ⟨0, _⟩ => show win4_0.index t (0 : Fin 2) * 2000 + 1 * r.val = t.val * 2000 + r.val; omega
  | ⟨1, _⟩ => show win4_0.index t (1 : Fin 2) * 64 + 1 * k.val = k.val; omega

theorem xtBlk_apply (c : Dev nD) (t : Fin cfg4.N) (r : Fin 2000) (k : Fin 64) :
    xtBlk V c t (ix2 r k) = xtArr V c (ix2 (rowAt t r) k) := by
  obtain ⟨-, -, e0, e1, -⟩ := idx_facts t
  show V c main_v31 (((cfg4.win 1).blk t).view.emb (ix2 r k)) = V c main_v31 (ix2 (rowAt t r) k)
  refine congrArg _ (funext fun a => Fin.ext ?_)
  match a with
  | ⟨0, _⟩ => show win4_1.index t (0 : Fin 2) * 2000 + 1 * r.val = t.val * 2000 + r.val; omega
  | ⟨1, _⟩ => show win4_1.index t (1 : Fin 2) * 64 + 1 * k.val = k.val; omega

theorem gBlk_apply (c : Dev nD) (t : Fin cfg4.N) (k : Fin 64) (i : Fin 4) :
    gBlk V c t (ix2 k i) = gArr V c (ix2 k i) := by
  obtain ⟨-, -, -, -, e0, e1, -⟩ := idx_facts t
  show V c main_v3 (((cfg4.win 2).blk t).view.emb (ix2 k i)) = V c main_v3 (ix2 k i)
  refine congrArg _ (funext fun a => Fin.ext ?_)
  match a with
  | ⟨0, _⟩ => show win4_2.index t (0 : Fin 2) * 64 + 1 * k.val = k.val; omega
  | ⟨1, _⟩ => show win4_2.index t (1 : Fin 2) * 4 + 1 * i.val = i.val; omega

theorem gtBlk_apply (c : Dev nD) (t : Fin cfg4.N) (i : Fin 4) (k : Fin 64) :
    gtBlk V c t (ix2 i k) = gtArr V c (ix2 i k) := by
  obtain ⟨-, -, -, -, -, -, e0, e1, -⟩ := idx_facts t
  show V c main_v4 (((cfg4.win 3).blk t).view.emb (ix2 i k)) = V c main_v4 (ix2 i k)
  refine congrArg _ (funext fun a => Fin.ext ?_)
  match a with
  | ⟨0, _⟩ => show win4_3.index t (0 : Fin 2) * 4 + 1 * i.val = i.val; omega
  | ⟨1, _⟩ => show win4_3.index t (1 : Fin 2) * 64 + 1 * k.val = k.val; omega

/-- Entry (r, i) of point t's output block sits at (2000 t + r, i) of the output array. -/
theorem out_emb (t : Fin cfg4.N) (r : Fin 2000) (i : Fin 4) :
    ((cfg4.win 4).blk t).view.emb (ix2 r i) = ix2 (rowAt t r) i := by
  obtain ⟨-, -, -, -, -, -, -, -, e0, e1⟩ := idx_facts t
  refine funext fun a => Fin.ext ?_
  match a with
  | ⟨0, _⟩ => show win4_4.index t (0 : Fin 2) * 2000 + 1 * r.val = t.val * 2000 + r.val; omega
  | ⟨1, _⟩ => show win4_4.index t (1 : Fin 2) * 4 + 1 * i.val = i.val; omega

/-- WHAT POINT t WRITES BACK is block t of the one whole-array function. -/
theorem flushed_eq (c : Dev nD) (hG : ∀ (k : Fin 64) (i : Fin 4), gArr V c (ix2 k i) = oh k i)
    (hGt : ∀ (i : Fin 4) (k : Fin 64), gtArr V c (ix2 i k) = oh k i) (t : Fin cfg4.N) :
    (dat4 V c).flushed 4 t = ((cfg4.win 4).blk t).view.read (Elt Ideal) (attnArr (zhArr V c) (xtArr V c)) := by
  show (cfg4.win 4).cut (grid4.coords t) ((dat4 V c).after 4 t) = _
  rw [after4_4]
  unfold out4_4
  rw [View.canon_unit_zero hz]
  simp only [View.ld_unit_zero (S := S2000x64) hz, View.ld_unit_zero (S := S64x4) hz, View.ld_unit_zero (S := S4x64) hz]
  funext y
  obtain ⟨r, i, rfl⟩ : ∃ (r : Fin 2000) (i : Fin 4), y = ix2 r i := ⟨y 0, y 1, eq_ix2 (n0 := 2000) (n1 := 4) y⟩
  show k4_pay1 (F := Ideal) (zhBlk V c t) (xtBlk V c t) (gBlk V c t) (gtBlk V c t) (ix2 r i)
    = attnArr (zhArr V c) (xtArr V c) (((cfg4.win 4).blk t).view.emb (ix2 r i))
  rw [out_emb t r i, attnArr_apply]
  refine (pay_apply (zhBlk V c t) (xtBlk V c t) (gBlk V c t) (gtBlk V c t)
    (fun k i => (gBlk_apply V c t k i).trans (hG k i)) (fun i k => (gtBlk_apply V c t i k).trans (hGt i k)) r i).trans ?_
  unfold attnRow
  simp only [zhBlk_apply V c t r, xtBlk_apply V c t r]

/-- Every row of the output array lies in some point's block. -/
theorem mem_blk (t : Fin cfg4.N) (i : S800000x4.Idx) :
    i ∈ ((cfg4.win 4).blk t).view.set ↔ ∀ a : Fin 2, win4_4.index t a * S2000x4.size a ≤ (i a).val ∧ (i a).val < win4_4.index t a * S2000x4.size a + S2000x4.size a := by
  show i ∈ ((View.whole main_v32).slice (win4_4.rect t)).set ↔ _
  rw [View.set_slice_whole, Rect.mem_set_unit]
  exact Iff.rfl

theorem cover (i : S800000x4.Idx) : ∃ t : Fin cfg4.N, (cfg4.win 4).flush t = true ∧ i ∈ ((cfg4.win 4).blk t).view.set := by
  have h0 : (i 0).val < 800000 := idx2_lt0 i
  have h1 : (i 1).val < 4 := idx2_lt1 i
  have hN : cfg4.N = 400 := N_4
  let t : Fin cfg4.N := ⟨(i 0).val / 2000, by rw [hN]; omega⟩
  obtain ⟨-, -, -, -, -, -, -, -, e0, e1⟩ := idx_facts t
  have ht : t.val = (i 0).val / 2000 := rfl
  refine ⟨t, flush4_4 t, ?_⟩
  rw [mem_blk]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 4 ≤ (i 1).val ∧ (i 1).val < win4_4.index t (1 : Fin 2) * 4 + 4; omega

/-- THE OUTPUT ARRAY after the region. -/
theorem arr_eq (c : Dev nD) (hG : ∀ (k : Fin 64) (i : Fin 4), gArr V c (ix2 k i) = oh k i)
    (hGt : ∀ (i : Fin 4) (k : Fin 64), gtArr V c (ix2 i k) = oh k i) :
    (dat4 V c).arrAt 4 cfg4.N = attnArr (zhArr V c) (xtArr V c) :=
  (dat4 V c).arrAt_eq_of_cover 4 (attnArr (zhArr V c) (xtArr V c)) (fun t _ => flushed_eq V c hG hGt t) cover

end AtEntry

end Cert.KernelIdeal.Val.Attn4

namespace Cert.KernelIdeal.Val

open Idealize.ShloMosaic Idealize.ShloMosaic.TcCoe Idealize.ShloMosaic.ValueIdx Idealize.SL.Sem Cert.KernelIdeal
  Cert.KernelIdeal.Gen Cert.Routing
open Attn4

variable (m : (ℓ : Loc nD τ sig) → Buf (Elt Ideal) ℓ) (ρ : Dev nD → PrngReg)

/-- THE REGION'S OUTPUT, entry by entry, over the arrays it is entered with. -/
theorem B14_v32_apply (c : Dev nD) (hG : ∀ (k : Fin 64) (i : Fin 4), B13_v3 m ρ c (ix2 k i) = oh k i)
    (hGt : ∀ (i : Fin 4) (k : Fin 64), B13_v4 m ρ c (ix2 i k) = oh k i) (e : Fin 800000) (i : Fin 4) :
    B14_v32 m ρ c (ix2 e i) = ∑ d : Fin 16, unit (fun k => B13_v30 m ρ c (ix2 e k)) (chan i d)
      * Ideal.tanh (unit (fun k => B13_v31 m ρ c (ix2 e k)) (chan i d)) := by
  have h : B14_v32 m ρ c = attnArr (B13_v30 m ρ c) (B13_v31 m ρ c) :=
    (W14_arr m ρ c 4).trans (arr_eq (V13 m ρ) c hG hGt)
  rw [h, attnArr_apply]
  rfl

end Cert.KernelIdeal.Val

end
-- ==== Proof.KHostOps.lean ====
/-
  The host operations of the kernel program that read or write through an index array, read at one coordinate:
  the wrap of negative indices is the identity on an in-range array; the accumulating scatter over rows adds, to
  entry (n, i) of its operand, the updates' entries (e, i) over the edges e whose index names node n; the row take
  reads, at (e, k), the table at row (node of e), column k.
-/
import proofs.«418341_j39728447488527_3_alg».proof.KernelIdeal
import proofs.«418341_j39728447488527_3_alg».proof.Proof.Gen.KernelIdeal
import proofs.«418341_j39728447488527_3_alg».proof.Proof.Inputs
import Idealize.ShloMosaic.Lib.ValueIdx
import Idealize.ShloMosaic.Lib.ReduceAll
import Idealize.ShloMosaic.Lib.StableHlo.Predicate
import Idealize.ShloMosaic.PureOps.Ideal
import Idealize.ShloMosaic.PureOps.Ideal.Laws

noncomputable section

namespace Cert.KernelIdeal.Val

open Idealize.ShloMosaic Idealize.ShloMosaic.ValueIdx Idealize.SL.Sem Cert.KernelIdeal Cert.Routing
open Cert.KernelIdeal.Facts₀

/-! ## A scatter of rows, read at an entry -/

/-- The dimension numbers of a scatter of rows: updates `[E, W]` land on the rows of an operand `[N, W]` that a column
    `[E, 1]` of indices names. -/
abbrev rowScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable {N E W : Nat} (wf : ScatterDims.WF ⟨2, ![N, W]⟩ ⟨2, ![E, 1]⟩ ⟨2, ![E, W]⟩ [1] [0] [0] 1)

theorem rowScatter_siIdx (e : Fin E) (i' : Fin W) (c : Fin (rowScatter N E W wf).scatterDimsToOperandDims.length) :
    (rowScatter N E W wf).siIdx (ix2 e i') c = ix2 e (0 : Fin 1) := by
  funext b
  match b with
  | ⟨0, _⟩ => rfl
  | ⟨1, _⟩ =>
    apply Fin.ext
    have := c.isLt
    show c.val = 0
    change c.val < 1 at this
    omega

theorem rowScatter_start0 {w : Nat} (idx : IVec ⟨2, ![E, 1]⟩ w) (e : Fin E) (i' : Fin W) :
    (rowScatter N E W wf).start (ix2 e i') idx 0 = (idx (ix2 e (0 : Fin 1))).toInt := by
  unfold ScatterDims.start
  rw [dif_pos (show (0 : Fin 2) ∈ (rowScatter N E W wf).scatterDimsToOperandDims from List.mem_singleton.mpr rfl)]
  rw [rowScatter_siIdx]

theorem rowScatter_start1 {w : Nat} (idx : IVec ⟨2, ![E, 1]⟩ w) (e : Fin E) (i' : Fin W) :
    (rowScatter N E W wf).start (ix2 e i') idx 1 = 0 := by
  unfold ScatterDims.start
  rw [dif_neg (show (1 : Fin 2) ∉ (rowScatter N E W wf).scatterDimsToOperandDims from (by decide : (1 : Fin 2) ∉ ([0] : List (Fin 2))))]

theorem rowScatter_window0 (e : Fin E) (i' : Fin W) : (rowScatter N E W wf).window (ix2 e i') 0 = 0 := by
  unfold ScatterDims.window
  rw [dif_neg (show (0 : Fin 2) ∉ (rowScatter N E W wf).sKept from (by decide : (0 : Fin 2) ∉ ([1] : List (Fin 2))))]

theorem rowScatter_window1 (e : Fin E) (i' : Fin W) : (rowScatter N E W wf).window (ix2 e i') 1 = i'.val := by
  unfold ScatterDims.window
  rw [dif_pos (show (1 : Fin 2) ∈ (rowScatter N E W wf).sKept from (by decide : (1 : Fin 2) ∈ ([1] : List (Fin 2))))]
  rfl

theorem rowScatter_resultIdx (idx : IVec ⟨2, ![E, 1]⟩ 32) (e : Fin E) (i' : Fin W) (n : Fin N) (i : Fin W) :
    (rowScatter N E W wf).resultIdx? (ix2 e i') idx = some (ix2 n i)
      ↔ (idx (ix2 e (0 : Fin 1))).toInt = (n.val : Int) ∧ i' = i := by
  have hs0 : (rowScatter N E W wf).start (ix2 e i') idx 0 + ((rowScatter N E W wf).window (ix2 e i') 0 : Int)
      = (idx (ix2 e (0 : Fin 1))).toInt := by
    rw [rowScatter_start0, rowScatter_window0]; simp
  have hs1 : (rowScatter N E W wf).start (ix2 e i') idx 1 + ((rowScatter N E W wf).window (ix2 e i') 1 : Int)
      = (i'.val : Int) := by
    rw [rowScatter_start1, rowScatter_window1]; simp
  unfold ScatterDims.resultIdx?
  constructor
  · intro h
    split at h
    · rename_i hall
      have h' := Option.some.inj h
      have c0 := congrArg Fin.val (congrFun h' ⟨0, (by decide : 0 < 2)⟩)
      have c1 := congrArg Fin.val (congrFun h' ⟨1, (by decide : 1 < 2)⟩)
      have a0 := (hall 0).1
      change ((rowScatter N E W wf).start (ix2 e i') idx 0 + ((rowScatter N E W wf).window (ix2 e i') 0 : Int)).toNat = n.val at c0
      change ((rowScatter N E W wf).start (ix2 e i') idx 1 + ((rowScatter N E W wf).window (ix2 e i') 1 : Int)).toNat = i.val at c1
      rw [hs0] at c0 a0
      rw [hs1] at c1
      refine ⟨by omega, Fin.ext (by omega)⟩
    · exact absurd h (by simp)
  · rintro ⟨hn, rfl⟩
    have hall : ∀ a, 0 ≤ (rowScatter N E W wf).start (ix2 e i') idx a + ((rowScatter N E W wf).window (ix2 e i') a : Int)
        ∧ (rowScatter N E W wf).start (ix2 e i') idx a + ((rowScatter N E W wf).window (ix2 e i') a : Int)
          < ((⟨2, ![N, W]⟩ : Shape).size a : Int) := by
      intro a
      match a with
      | ⟨0, _⟩ =>
        have := n.isLt
        show 0 ≤ (rowScatter N E W wf).start (ix2 e i') idx 0 + ((rowScatter N E W wf).window (ix2 e i') 0 : Int) ∧
          (rowScatter N E W wf).start (ix2 e i') idx 0 + ((rowScatter N E W wf).window (ix2 e i') 0 : Int) < (N : Int)
        rw [hs0, hn]; omega
      | ⟨1, _⟩ =>
        have := i'.isLt
        show 0 ≤ (rowScatter N E W wf).start (ix2 e i') idx 1 + ((rowScatter N E W wf).window (ix2 e i') 1 : Int) ∧
          (rowScatter N E W wf).start (ix2 e i') idx 1 + ((rowScatter N E W wf).window (ix2 e i') 1 : Int) < (W : Int)
        rw [hs1]; omega
    rw [dif_pos hall]
    congr 1
    funext a
    apply Fin.ext
    match a with
    | ⟨0, _⟩ =>
      show ((rowScatter N E W wf).start (ix2 e i') idx 0 + ((rowScatter N E W wf).window (ix2 e i') 0 : Int)).toNat = n.val
      rw [hs0, hn]; simp
    | ⟨1, _⟩ =>
      show ((rowScatter N E W wf).start (ix2 e i') idx 1 + ((rowScatter N E W wf).window (ix2 e i') 1 : Int)).toNat = i'.val
      rw [hs1]; simp

end RowScatter

/-- The accumulating scatter of rows at entry `(n, i)`: the operand's entry plus the updates' entries `(e, i)` over the
    rows `e` whose index, read signed, is `n`. -/
theorem rowScatter_apply {φ : FTy} {N E W : Nat} (wf : ScatterDims.WF ⟨2, ![N, W]⟩ ⟨2, ![E, 1]⟩ ⟨2, ![E, W]⟩ [1] [0] [0] 1)
    (x : FVec Ideal ⟨2, ![N, W]⟩ φ) (idx : IVec ⟨2, ![E, 1]⟩ 32) (u : FVec Ideal ⟨2, ![E, W]⟩ φ) (n : Fin N) (i : Fin W) :
    Ideal.hostScatterAdd (rowScatter N E W wf) x idx u (ix2 n i)
      = x (ix2 n i) + ∑ e ∈ Finset.univ.filter (fun e : Fin E => (idx (ix2 e (0 : Fin 1))).toInt = (n.val : Int)), u (ix2 e i) := by
  unfold Ideal.hostScatterAdd
  congr 1
  rw [Finset.sum_filter, sum_idx2, Finset.sum_filter]
  refine Finset.sum_congr rfl fun e _ => ?_
  rw [Finset.sum_eq_single i]
  · by_cases hn : (idx (ix2 e (0 : Fin 1))).toInt = (n.val : Int)
    · rw [if_pos ((rowScatter_resultIdx wf idx e i n i).2 ⟨hn, rfl⟩), if_pos hn]
    · rw [if_neg (fun h => hn ((rowScatter_resultIdx wf idx e i n i).1 h).1), if_neg hn]
  · intro b _ hb
    rw [if_neg (fun h => hb ((rowScatter_resultIdx wf idx e b n i).1 h).2)]
  · intro h; exact absurd (Finset.mem_univ i) h

/-! ## A take of rows, a reduction of ones, a vector laid as a column or along rows -/

/-- The dimension numbers of a take of rows: result row `e` of `[E, W]` is the row of the operand `[N, W]` that entry
    `e` of a column `[E, 1]` of indices names. -/
abbrev rowGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section RowGather
variable {α : Type} {N E W : Nat} (wf : GatherDims.WF ⟨2, ![N, W]⟩ ⟨2, ![E, 1]⟩ ⟨2, ![E, W]⟩ [1] [0] [] [0] [] 1 ![1, W])

theorem rowGather_siIdx (e : Fin E) (k : Fin W) (c : Fin (rowGather N E W wf).startIndexMap.length) :
    (rowGather N E W wf).siIdx (ix2 e k) c = ix2 e (0 : Fin 1) := by
  funext b
  match b with
  | ⟨0, _⟩ => rfl
  | ⟨1, _⟩ =>
    apply Fin.ext
    have := c.isLt
    show c.val = 0
    change c.val < 1 at this
    omega

/-- The take read at `(e, k)`: the operand at the row the start index names (read signed, clamped into the table), column `k`. -/
theorem rowGather_apply {w : Nat} (hN : 0 < N) (x : (⟨2, ![N, W]⟩ : Shape).Idx → α) (idx : IVec ⟨2, ![E, 1]⟩ w)
    (e : Fin E) (k : Fin W) :
    Host.gather (rowGather N E W wf) x idx (ix2 e k)
      = x (ix2 ⟨min (idx (ix2 e (0 : Fin 1))).toInt.toNat (N - 1), by omega⟩ k) := by
  unfold Host.gather
  congr 1
  funext a
  apply Fin.ext
  match a with
  | ⟨0, _⟩ =>
    show (rowGather N E W wf).start (ix2 e k) idx 0 + (rowGather N E W wf).batchCoord (ix2 e k) 0
      + (rowGather N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E W wf).startIndexMap from List.mem_singleton.mpr rfl)]
    rw [rowGather_siIdx]
    rfl
  | ⟨1, _⟩ =>
    show (rowGather N E W wf).start (ix2 e k) idx 1 + (rowGather N E W wf).batchCoord (ix2 e k) 1
      + (rowGather N E W wf).offCoord (ix2 e k) 1 = k.val
    rw [GatherDims.batchCoord_eq_zero _ _ _ List.not_mem_nil]
    unfold GatherDims.start
    rw [dif_neg (show (1 : Fin 2) ∉ (rowGather N E W wf).startIndexMap from (by decide : (1 : Fin 2) ∉ ([0] : List (Fin 2))))]
    unfold GatherDims.offCoord
    rw [dif_pos (show (1 : Fin 2) ∈ (rowGather N E W wf).sKept from (by decide : (1 : Fin 2) ∈ ([1] : List (Fin 2))))]
    simp only [Nat.zero_add, Nat.add_zero]
    rfl

end RowGather

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  unfold Host.reduce
  rw [hi]
  generalize (List.finRange s.numel).filter (fun n => h.drop (s.rowMajor.symm n) = j) = l
  induction l with
  | nil => rfl
  | cons a l ih =>
    rw [List.foldl_cons, hx]
    exact ih

/-- A vector laid as a column reads, at `(e, 0)`, the vector at `e`. -/
theorem bcast_col_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  simp only [broadcastInDim]
  congr 1
  funext a
  match a with
  | ⟨0, _⟩ =>
    apply Fin.ext
    have he := e.isLt
    split
    · next h1 => change n = 1 at h1; show (0 : Nat) = e.val; omega
    · rfl

/-- A vector laid along the rows of a rectangle reads, at `(e, k)`, the vector at `e`. -/
theorem bcast_rows_apply {α : Type} {n m : Nat} (h : (⟨1, ![n]⟩ : Shape).BroadcastsInDim ⟨2, ![n, m]⟩ ![0])
    (v : (⟨1, ![n]⟩ : Shape).Idx → α) (e : Fin n) (k : Fin m) :
    broadcastInDim ⟨2, ![n, m]⟩ ![0] h v (ix2 e k) = v (ix1 e) := by
  simp only [broadcastInDim]
  congr 1
  funext a
  match a with
  | ⟨0, _⟩ =>
    apply Fin.ext
    have he := e.isLt
    split
    · next h1 => change n = 1 at h1; show (0 : Nat) = e.val; omega
    · rfl

/-! ## The program's operations -/

/-- The zero word of the 32-bit format is the extended real zero. -/
theorem zero32 : Ideal.ofBits .f32 0x00000000#32 = 0 := Ideal.ofBits_zero_f32

/-- The wrap of negative indices (add the table's height where the entry is negative) is the identity in range. -/
theorem wrap_eq (v : IVec S800000 32) (hv : InRange v) :
    select (cmpi .slt v (broadcastInDim S800000 ![] bcast_S_S800000 (constantI S_ 32 0#32)))
      (addi v (broadcastInDim S800000 ![] bcast_S_S800000 (constantI S_ 32 60000#32))) v = v := by
  funext j
  rw [eq_ix1 j]
  obtain ⟨h0, -⟩ := hv (j 0)
  show Scalar.select (IntOp.cmpi .slt (v (ix1 (j 0))) 0#32) _ _ = _
  have hc : IntOp.cmpi .slt (v (ix1 (j 0))) 0#32 = 0#1 := by
    apply eq_zero_of_ne_one
    rw [IntOp.cmpi_slt]
    have z : (0#32 : BitVec 32).toInt = 0 := by decide
    rw [z]
    omega
  rw [hc, select_zero]

/-- The column of an in-range index array, read signed at row `e`, is the node `e` names. -/
theorem col_toInt (v : IVec S800000 32) (hv : InRange v) (e : Fin 800000) :
    (broadcastInDim S800000x1 ![0] bcast_S800000_S800000x1_0 v (ix2 e (0 : Fin 1))).toInt = ((node v e).val : Int) := by
  rw [bcast_col_apply]
  exact node_toInt hv e

theorem scatter4_apply (x : FVec Ideal S60000x4 .f32) (v : IVec S800000 32) (hv : InRange v)
    (u : FVec Ideal S800000x4 .f32) (n : Fin 60000) (i : Fin 4) :
    Host.scatterAdd scatter_S60000x4_S800000x1_S800000x4_1_0_0_1 x
        (broadcastInDim S800000x1 ![0] bcast_S800000_S800000x1_0 v) u (ix2 n i)
      = x (ix2 n i) + ∑ e ∈ Finset.univ.filter (fun e : Fin 800000 => node v e = n), u (ix2 e i) := by
  have h := rowScatter_apply (φ := .f32) (N := 60000) (E := 800000) (W := 4) scatter_S60000x4_S800000x1_S800000x4_1_0_0_1_wf x
    (broadcastInDim S800000x1 ![0] bcast_S800000_S800000x1_0 v) u n i
  have h0 : Host.scatterAdd scatter_S60000x4_S800000x1_S800000x4_1_0_0_1 x
        (broadcastInDim S800000x1 ![0] bcast_S800000_S800000x1_0 v) u (ix2 n i)
      = Ideal.hostScatterAdd (rowScatter 60000 800000 4 scatter_S60000x4_S800000x1_S800000x4_1_0_0_1_wf) x
        (broadcastInDim S800000x1 ![0] bcast_S800000_S800000x1_0 v) u (ix2 n i) := rfl
  rw [h0, h]
  refine congrArg (fun t => x (ix2 n i) + t) ?_
  refine Finset.sum_congr ?_ fun _ _ => rfl
  ext e
  simp only [Finset.mem_filter, Finset.mem_univ, true_and]
  rw [col_toInt v hv e]
  constructor
  · intro h; exact Fin.ext (by exact_mod_cast h)
  · intro h; rw [h]

theorem scatter64_apply (x : FVec Ideal S60000x64 .f32) (v : IVec S800000 32) (hv : InRange v)
    (u : FVec Ideal S800000x64 .f32) (n : Fin 60000) (k : Fin 64) :
    Host.scatterAdd scatter_S60000x64_S800000x1_S800000x64_1_0_0_1 x
        (broadcastInDim S800000x1 ![0] bcast_S800000_S800000x1_0 v) u (ix2 n k)
      = x (ix2 n k) + ∑ e ∈ Finset.univ.filter (fun e : Fin 800000 => node v e = n), u (ix2 e k) := by
  have h := rowScatter_apply (φ := .f32) (N := 60000) (E := 800000) (W := 64) scatter_S60000x64_S800000x1_S800000x64_1_0_0_1_wf x
    (broadcastInDim S800000x1 ![0] bcast_S800000_S800000x1_0 v) u n k
  have h0 : Host.scatterAdd scatter_S60000x64_S800000x1_S800000x64_1_0_0_1 x
        (broadcastInDim S800000x1 ![0] bcast_S800000_S800000x1_0 v) u (ix2 n k)
      = Ideal.hostScatterAdd (rowScatter 60000 800000 64 scatter_S60000x64_S800000x1_S800000x64_1_0_0_1_wf) x
        (broadcastInDim S800000x1 ![0] bcast_S800000_S800000x1_0 v) u (ix2 n k) := rfl
  rw [h0, h]
  refine congrArg (fun t => x (ix2 n k) + t) ?_
  refine Finset.sum_congr ?_ fun _ _ => rfl
  ext e
  simp only [Finset.mem_filter, Finset.mem_univ, true_and]
  rw [col_toInt v hv e]
  constructor
  · intro h; exact Fin.ext (by exact_mod_cast h)
  · intro h; rw [h]

/-- The row take as the program composes it: wrap the indices, lay them as a column, mask the rows whose index is in
    `[0, 59999]`, gather the rows, and keep the gathered row where the mask holds (a fill word elsewhere). -/
def takeRows (x : FVec Ideal S60000x64 .f32) (v : IVec S800000 32) : FVec Ideal S800000x64 .f32 :=
  let c : IVec S_ 32 := constantI S_ 32 0#32
  let v0 : IVec S800000 32 := broadcastInDim S800000 ![] bcast_S_S800000 c
  let v1 : IVec S800000 1 := cmpi .slt v v0
  let c_0 : IVec S_ 32 := constantI S_ 32 60000#32
  let v2 : IVec S800000 32 := broadcastInDim S800000 ![] bcast_S_S800000 c_0
  let v3 : IVec S800000 32 := addi v v2
  let v4 : IVec S800000 32 := select v1 v3 v
  let v5 : IVec S800000x1 32 := broadcastInDim S800000x1 ![0] bcast_S800000_S800000x1_0 v4
  let c_1 : IVec S1 32 := constantI S1 32 59999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := Host.reduce IntOp.andi v11 c_3 reducesTo_S800000x1_S800000_d1 h_S_
  let v13 : FVec Ideal S800000x64 .f32 := Host.gather gather_S60000x64_S800000x1_S800000x64_1_0_n_n_0_1_164 x v5
  let v14 : IVec S800000x64 1 := broadcastInDim S800000x64 ![0] bcast_S800000_S800000x64_0 v12
  let cst : FVec Ideal S_ .f32 := constant S_ .f32 0x7FC00000#32
  let v15 : FVec Ideal S800000x64 .f32 := broadcastInDim S800000x64 ![] bcast_S_S800000x64 cst
  select v14 v13 v15

/-- Every entry of the column of an in-range index array passes the mask `0 ≤ · ≤ 59999`. -/
theorem mask_one (v : IVec S800000 32) (hv : InRange v) (j : S800000x1.Idx) :
    andi (cmpi .sge (broadcastInDim S800000x1 ![0] bcast_S800000_S800000x1_0 v)
          (broadcastInDim S800000x1 ![] bcast_S_S800000x1 (constantI S_ 32 0#32)))
        (cmpi .sle (broadcastInDim S800000x1 ![0] bcast_S800000_S800000x1_0 v)
          (broadcastInDim S800000x1 ![0, 1] bcast_S1x1_S800000x1_0_1
            (broadcastInDim S1x1 ![1] bcast_S1_S1x1_1 (constantI S1 32 59999#32)))) j = 1#1 := by
  have hj : j = ix2 (⟨(j 0).val, idx2_lt0 j⟩ : Fin 800000) (0 : Fin 1) := by
    funext a
    match a with
    | ⟨0, _⟩ => rfl
    | ⟨1, _⟩ =>
      apply Fin.ext
      have := (j ⟨1, (by decide : 1 < 2)⟩).isLt
      change (j ⟨1, _⟩).val < 1 at this
      show (j ⟨1, _⟩).val = 0
      omega
  rw [hj]
  generalize (⟨(j 0).val, idx2_lt0 j⟩ : Fin 800000) = e
  show IntOp.andi (IntOp.cmpi .sge (broadcastInDim S800000x1 ![0] bcast_S800000_S800000x1_0 v (ix2 e (0 : Fin 1))) 0#32)
    (IntOp.cmpi .sle (broadcastInDim S800000x1 ![0] bcast_S800000_S800000x1_0 v (ix2 e (0 : Fin 1))) 59999#32) = 1#1
  have ht := col_toInt v hv e
  have hlt := (node v e).isLt
  rw [IntOp.andi_eq_one, IntOp.cmpi_sge, IntOp.cmpi_sle, ht]
  have z : (0#32 : BitVec 32).toInt = 0 := by decide
  have s : (59999#32 : BitVec 32).toInt = 59999 := by decide
  rw [z, s]
  omega

theorem takeRows_apply (x : FVec Ideal S60000x64 .f32) (v : IVec S800000 32) (hv : InRange v) (e : Fin 800000) (k : Fin 64) :
    takeRows x v (ix2 e k) = x (ix2 (node v e) k) := by
  unfold takeRows
  dsimp only
  rw [wrap_eq v hv]
  rw [select_apply, bcast_rows_apply,
    reduce_andi_ones _ (constantI S_ 1 1#1) _ _ _ (mask_one v hv) (fun _ => rfl), select_one]
  show Host.gather (rowGather 60000 800000 64 gather_S60000x64_S800000x1_S800000x64_1_0_n_n_0_1_164_wf) x _ (ix2 e k) = _
  rw [rowGather_apply _ (by decide)]
  congr 2
  apply Fin.ext
  have ht := col_toInt v hv e
  have hlt := (node v e).isLt
  show min (broadcastInDim S800000x1 ![0] bcast_S800000_S800000x1_0 v (ix2 e (0 : Fin 1))).toInt.toNat (60000 - 1) = (node v e).val
  rw [ht]
  simp only [Int.toNat_natCast]
  omega

end Cert.KernelIdeal.Val

end
-- ==== Proof.KFoldA.lean ====
/-
  What the host operations between the pallas_call regions of the first routing round compute, for the stretches
  that scatter and add: at boundary 6 the table of one over the square root of each node's summed incoming edge
  weights; at boundary 10 each node's summed incoming edge messages; at boundary 15 the entrywise sum of the
  carried logits and the new agreement terms. Each is first stated as the operations' composed term over the
  arrays the stretch enters with, then read at one entry.
-/
import proofs.«418341_j39728447488527_3_alg».proof.Proof.KBufs
import proofs.«418341_j39728447488527_3_alg».proof.Proof.KHostOps
import proofs.«418341_j39728447488527_3_alg».proof.Proof.KKeepA
import proofs.«418341_j39728447488527_3_alg».proof.Proof.KKeepB
import Idealize.ShloMosaic.Lib.ValueIdx
import Idealize.ShloMosaic.Lib.IdealHost
import Idealize.ShloMosaic.Lib.StableHlo.Run
import Idealize.ShloMosaic.PureOps.Ideal
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

namespace FoldA

/-- The host's square root at an index is the square root of the entry. -/
theorem hostSqrt_apply {s : Shape} {φ : FTy} (a : FVec Ideal s φ) (i : s.Idx) :
    Host.sqrt a i = Ideal.sqrt (a i) := rfl

/-- The first host stretch as one term over the arrays it enters with: one over the square root of the
    accumulating scatter of the edge weights into a zero table. -/
theorem B6_v17_raw (c : Dev nD) : B6_v17 m ρ c =
    Host.divf (broadcastInDim S60000x4 ![] bcast_S_S60000x4 (constant (F := Ideal) S_ .f32 0x3F800000#32))
      (Host.sqrt (Host.scatterAdd scatter_S60000x4_S800000x1_S800000x4_1_0_0_1
          (broadcastInDim S60000x4 ![] bcast_S_S60000x4 (constant (F := Ideal) S_ .f32 0x00000000#32))
          (broadcastInDim S800000x1 ![0] bcast_S800000_S800000x1_0
            (select (cmpi .slt (arg2 m c) (broadcastInDim S800000 ![] bcast_S_S800000 (constantI S_ 32 0#32)))
              (addi (arg2 m c) (broadcastInDim S800000 ![] bcast_S_S800000 (constantI S_ 32 60000#32)))
              (arg2 m c)))
          (B5_v6 m ρ c))) := by
  have e2 := W5_arg2 m ρ c
  show StableHlo.after hostOps1 (W5 m ρ c) (Proc.devRef .tc main_v17) = _
  after_results_simp
  rw [e2]

/-- The third host stretch as one term over the arrays it enters with: the accumulating scatter of the edge
    messages into a zero table. -/
theorem B10_v28_raw (c : Dev nD) : B10_v28 m ρ c =
    Host.scatterAdd scatter_S60000x64_S800000x1_S800000x64_1_0_0_1
      (broadcastInDim S60000x64 ![] bcast_S_S60000x64 (constant (F := Ideal) S_ .f32 0x00000000#32))
      (broadcastInDim S800000x1 ![0] bcast_S800000_S800000x1_0
        (select (cmpi .slt (arg2 m c) (broadcastInDim S800000 ![] bcast_S_S800000 (constantI S_ 32 0#32)))
          (addi (arg2 m c) (broadcastInDim S800000 ![] bcast_S_S800000 (constantI S_ 32 60000#32)))
          (arg2 m c)))
      (B9_v20 m ρ c) := by
  have e2 := W9_arg2 m ρ c
  show StableHlo.after hostOps3 (W9 m ρ c) (Proc.devRef .tc main_v28) = _
  after_results_simp
  rw [e2]

/-- The one host operation between the fifth and the sixth region: an entrywise sum. -/
theorem B15_v33_raw (c : Dev nD) : B15_v33 m ρ c = addf (B14_v5 m ρ c) (B14_v32 m ρ c) := by
  show StableHlo.after hostOps5 (W14 m ρ c) (Proc.devRef .tc main_v33) = _
  after_results_simp

end FoldA

/-- Entry (n, i): one over the square root of the sum of the weights of the edges into node n. -/
theorem B6_v17_apply (c : Dev nD) (h2 : InRange (arg2 m c)) (n : Fin 60000) (i : Fin 4) :
    B6_v17 m ρ c (ix2 n i) = Ideal.div one32 (Ideal.sqrt (∑ e ∈ Finset.univ.filter
      (fun e : Fin 800000 => node (arg2 m c) e = n), B5_v6 m ρ c (ix2 e i))) := by
  unfold one32
  rw [FoldA.B6_v17_raw, wrap_eq _ h2, hostDivf_apply, FoldA.hostSqrt_apply, scatter4_apply _ _ h2,
    broadcastInDim_scalar_apply, broadcastInDim_scalar_apply, constant_apply, constant_apply, zero32, zero_add]

/-- Entry (n, k): the sum of the messages of the edges into node n. -/
theorem B10_v28_apply (c : Dev nD) (h2 : InRange (arg2 m c)) (n : Fin 60000) (k : Fin 64) :
    B10_v28 m ρ c (ix2 n k) = ∑ e ∈ Finset.univ.filter
      (fun e : Fin 800000 => node (arg2 m c) e = n), B9_v20 m ρ c (ix2 e k) := by
  rw [FoldA.B10_v28_raw, wrap_eq _ h2, scatter64_apply _ _ h2, broadcastInDim_scalar_apply, constant_apply, zero32,
    zero_add]

/-- Entry (e, i): the sum of the two entries. -/
theorem B15_v33_apply (c : Dev nD) (e : Fin 800000) (i : Fin 4) :
    B15_v33 m ρ c (ix2 e i) = B14_v5 m ρ c (ix2 e i) + B14_v32 m ρ c (ix2 e i) := by
  rw [FoldA.B15_v33_raw]; rfl

end Cert.KernelIdeal.Val
end
-- ==== Proof.KFoldB.lean ====
/-
  What the host operations of the second routing round and the final slices compute, read at one coordinate.

  Between the pallas_call regions of the second round the program runs three stretches of host operations. The first
  forms the normaliser: it scatters the edge weights, adding from an exact zero, onto the nodes the head indices name,
  takes the square root and divides one by it; at node n and group i that is 1 / sqrt (the sum of the weights of the
  edges headed at n). The third scatters the edge messages the same way; at node n and channel k that is the sum of
  the messages of the edges headed at n. (The second, a row take, is read in the companion module.) Both use that the
  wrap of negative indices is the identity on an in-range index array and that 0 + x = x in the extended reals.
  The last stretch cuts the averaged table of 60000 rows into its two halves of 30000 rows: the two results.
-/
import proofs.«418341_j39728447488527_3_alg».proof.Proof.KBufs
import proofs.«418341_j39728447488527_3_alg».proof.Proof.KHostOps
import proofs.«418341_j39728447488527_3_alg».proof.Proof.KKeepA
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

namespace FoldB

/-- The host division and square root read at an index. -/
theorem hostDivf_at {s : Shape} (a b : FVec Ideal s .f32) (j : s.Idx) : Host.divf a b j = Ideal.div (a j) (b j) := rfl
theorem hostSqrt_at {s : Shape} (a : FVec Ideal s .f32) (j : s.Idx) : Host.sqrt a j = Ideal.sqrt (a j) := rfl

/-- A scalar word broadcast to any shape reads, everywhere, the extended real the word denotes. -/
theorem bcast_const_at {T : Shape} (h : S_.BroadcastsInDim T ![]) (w : BitVec 32) (j : T.Idx) :
    broadcastInDim T ![] h (constant (F := Ideal) S_ .f32 w) j = Ideal.ofBits .f32 w := by
  rw [broadcastInDim_scalar_apply, constant_apply]

/-! ## The normaliser of the second round -/

/-- One over the square root of the accumulating scatter, from zeros, of per-edge group values `u` along the wrapped
    index array `v`: the composed term of the stretch's operations, over variables. -/
def dinvRaw (v : IVec S800000 32) (u : FVec Ideal S800000x4 .f32) : FVec Ideal S60000x4 .f32 :=
  Host.divf (broadcastInDim S60000x4 ![] bcast_S_S60000x4 (constant (F := Ideal) S_ .f32 0x3F800000#32))
    (Host.sqrt (Host.scatterAdd scatter_S60000x4_S800000x1_S800000x4_1_0_0_1
      (broadcastInDim S60000x4 ![] bcast_S_S60000x4 (constant (F := Ideal) S_ .f32 0x00000000#32))
      (broadcastInDim S800000x1 ![0] bcast_S800000_S800000x1_0
        (select (cmpi .slt v (broadcastInDim S800000 ![] bcast_S_S800000 (constantI S_ 32 0#32)))
          (addi v (broadcastInDim S800000 ![] bcast_S_S800000 (constantI S_ 32 60000#32))) v))
      u))

/-- At node `n` and group `i` it is one over the square root of the sum of `u` over the edges whose index names `n`:
    the scatter starts from an exact zero, and `0 + x = x`. -/
theorem dinvRaw_apply (v : IVec S800000 32) (hv : InRange v) (u : FVec Ideal S800000x4 .f32) (n : Fin 60000) (i : Fin 4) :
    dinvRaw v u (ix2 n i)
      = Ideal.div one32 (Ideal.sqrt (∑ e ∈ Finset.univ.filter (fun e : Fin 800000 => node v e = n), u (ix2 e i))) := by
  unfold dinvRaw
  rw [wrap_eq v hv, hostDivf_at, hostSqrt_at, scatter4_apply _ v hv, bcast_const_at, bcast_const_at, zero32, zero_add, one32]

theorem B17_v45_raw (c : Dev nD) :
    B17_v45 m ρ c = dinvRaw (W16 m ρ c (Proc.devRef .tc main_arg2) : IVec S800000 32) (B16_v34 m ρ c) := by
  show StableHlo.after hostOps6 (W16 m ρ c) (Proc.devRef .tc main_v45) = _
  unfold dinvRaw
  after_results

theorem B17_v45_eq (c : Dev nD) : B17_v45 m ρ c = dinvRaw (arg2 m c) (B16_v34 m ρ c) :=
  (B17_v45_raw m ρ c).trans (congrArg (fun v => dinvRaw v (B16_v34 m ρ c)) (W16_arg2 m ρ c))

/-! ## The gathered messages of the second round -/

/-- The accumulating scatter, from zeros, of per-edge channel values `u` along the wrapped index array `v`. -/
def gathRaw (v : IVec S800000 32) (u : FVec Ideal S800000x64 .f32) : FVec Ideal S60000x64 .f32 :=
  Host.scatterAdd scatter_S60000x64_S800000x1_S800000x64_1_0_0_1
    (broadcastInDim S60000x64 ![] bcast_S_S60000x64 (constant (F := Ideal) S_ .f32 0x00000000#32))
    (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 60000#32))) v))
    u

theorem gathRaw_apply (v : IVec S800000 32) (hv : InRange v) (u : FVec Ideal S800000x64 .f32) (n : Fin 60000) (k : Fin 64) :
    gathRaw v u (ix2 n k) = ∑ e ∈ Finset.univ.filter (fun e : Fin 800000 => node v e = n), u (ix2 e k) := by
  unfold gathRaw
  rw [wrap_eq v hv, scatter64_apply _ v hv, bcast_const_at, zero32, zero_add]

theorem B21_v56_raw (c : Dev nD) :
    B21_v56 m ρ c = gathRaw (W20 m ρ c (Proc.devRef .tc main_arg2) : IVec S800000 32) (B20_v48 m ρ c) := by
  show StableHlo.after hostOps8 (W20 m ρ c) (Proc.devRef .tc main_v56) = _
  unfold gathRaw
  after_results

theorem B21_v56_eq (c : Dev nD) : B21_v56 m ρ c = gathRaw (arg2 m c) (B20_v48 m ρ c) :=
  (B21_v56_raw m ρ c).trans (congrArg (fun v => gathRaw v (B20_v48 m ρ c)) (W20_arg2 m ρ c))

/-! ## The two halves of the averaged table -/

/-- The first result: rows 0 … 29999 of the averaged table. -/
theorem B28_v63_raw (c : Dev nD) :
    B28_v63 m ρ c = extractStridedSlice S30000x64 ![0, 0] (B27_v62 m ρ c) slices_S60000x64_S30000x64_0_0 := by
  show StableHlo.after hostOps11 (W27 m ρ c) (Proc.devRef .tc main_v63) = _
  after_results

/-- The second result: rows 30000 … 59999 of the averaged table. -/
theorem B28_v64_raw (c : Dev nD) :
    B28_v64 m ρ c = extractStridedSlice S30000x64 ![30000, 0] (B27_v62 m ρ c) slices_S60000x64_S30000x64_30000_0 := by
  show StableHlo.after hostOps11 (W27 m ρ c) (Proc.devRef .tc main_v64) = _
  after_results

end FoldB

open FoldB

/-! ## The four reads -/

/-- The second round's normaliser at node `n` and group `i`: one over the square root of the summed weights of the
    edges headed at `n`. -/
theorem B17_v45_apply (c : Dev nD) (h2 : InRange (arg2 m c)) (n : Fin 60000) (i : Fin 4) :
    B17_v45 m ρ c (ix2 n i) = Ideal.div one32 (Ideal.sqrt
      (∑ e ∈ Finset.univ.filter (fun e : Fin 800000 => node (arg2 m c) e = n), B16_v34 m ρ c (ix2 e i))) :=
  (congrFun (B17_v45_eq m ρ c) (ix2 n i)).trans (dinvRaw_apply (arg2 m c) h2 (B16_v34 m ρ c) n i)

/-- The second round's gathered messages at node `n` and channel `k`: the sum of the messages of the edges headed at `n`. -/
theorem B21_v56_apply (c : Dev nD) (h2 : InRange (arg2 m c)) (n : Fin 60000) (k : Fin 64) :
    B21_v56 m ρ c (ix2 n k)
      = ∑ e ∈ Finset.univ.filter (fun e : Fin 800000 => node (arg2 m c) e = n), B20_v48 m ρ c (ix2 e k) :=
  (congrFun (B21_v56_eq m ρ c) (ix2 n k)).trans (gathRaw_apply (arg2 m c) h2 (B20_v48 m ρ c) n k)

/-- The first result at row `r`, channel `k`: row `r` of the averaged table. -/
theorem B28_v63_apply (c : Dev nD) (r : Fin 30000) (k : Fin 64) :
    B28_v63 m ρ c (ix2 r k) = B27_v62 m ρ c (ix2 ⟨r.val, by omega⟩ k) := by
  rw [B28_v63_raw]
  exact slice2_axis0_apply 0 (B27_v62 m ρ c) slices_S60000x64_S30000x64_0_0 r k ⟨r.val, by omega⟩ (by simp)

/-- The second result at row `r`, channel `k`: row `30000 + r` of the averaged table. -/
theorem B28_v64_apply (c : Dev nD) (r : Fin 30000) (k : Fin 64) :
    B28_v64 m ρ c (ix2 r k) = B27_v62 m ρ c (ix2 ⟨30000 + r.val, by omega⟩ k) := by
  rw [B28_v64_raw]
  exact slice2_axis0_apply 30000 (B27_v62 m ρ c) slices_S60000x64_S30000x64_30000_0 r k ⟨30000 + r.val, by omega⟩ rfl

end Cert.KernelIdeal.Val

end
-- ==== Proof.KTake.lean ====
/-
  The four row takes of the kernel program, read at an entry. Each take is one stretch of host operations; from any
  contents the stretch leaves, in its result buffer, the row take (as composed in the program) of the table and the
  index array it reads. At the boundaries of the run the index array is the launched one, which names a node at every
  edge, so entry (e, k) of the result is the table's entry (node of e, k).
-/
import proofs.«418341_j39728447488527_3_alg».proof.Proof.KBufs
import proofs.«418341_j39728447488527_3_alg».proof.Proof.KHostOps
import proofs.«418341_j39728447488527_3_alg».proof.Proof.KKeepA
import proofs.«418341_j39728447488527_3_alg».proof.Proof.KKeepB
import Idealize.ShloMosaic.Lib.StableHlo.Run

noncomputable section

namespace Cert.KernelIdeal.Val

open Idealize.ShloMosaic Idealize.ShloMosaic.TcCoe Idealize.ShloMosaic.ValueIdx Idealize.SL.Sem Cert.KernelIdeal Cert.KernelIdeal.Gen Cert.Routing

namespace Take

/-- Contents moved to a buffer's own type and back are the contents. -/
theorem ofBuf_toBuf {T : BufTy} (x : StableHlo.TRef sig T) (v : T.Contents (Elt Ideal)) :
    x.ofBuf (x.toBuf v) = v := by
  obtain ⟨r, rfl, _, _⟩ := x
  rfl

/-! Contents of a literal buffer read at the buffer's literal type are the contents. -/

theorem ofBuf_v19 (z : (main_v19 : Ref sig .tc).ty.Contents (Elt Ideal)) :
    StableHlo.TRef.ofBuf (StableHlo.TRef.of main_v19 : StableHlo.TRef sig ⟨S800000x64, .f32⟩) z = (z : FVec Ideal S800000x64 .f32) := rfl

theorem ofBuf_v30 (z : (main_v30 : Ref sig .tc).ty.Contents (Elt Ideal)) :
    StableHlo.TRef.ofBuf (StableHlo.TRef.of main_v30 : StableHlo.TRef sig ⟨S800000x64, .f32⟩) z = (z : FVec Ideal S800000x64 .f32) := rfl

theorem ofBuf_v31 (z : (main_v31 : Ref sig .tc).ty.Contents (Elt Ideal)) :
    StableHlo.TRef.ofBuf (StableHlo.TRef.of main_v31 : StableHlo.TRef sig ⟨S800000x64, .f32⟩) z = (z : FVec Ideal S800000x64 .f32) := rfl

theorem ofBuf_v47 (z : (main_v47 : Ref sig .tc).ty.Contents (Elt Ideal)) :
    StableHlo.TRef.ofBuf (StableHlo.TRef.of main_v47 : StableHlo.TRef sig ⟨S800000x64, .f32⟩) z = (z : FVec Ideal S800000x64 .f32) := rfl

theorem ofBuf_v18 (z : (main_v18 : Ref sig .tc).ty.Contents (Elt Ideal)) :
    StableHlo.TRef.ofBuf (StableHlo.TRef.of main_v18 : StableHlo.TRef sig ⟨S60000x64, .f32⟩) z = (z : FVec Ideal S60000x64 .f32) := rfl

theorem ofBuf_v29 (z : (main_v29 : Ref sig .tc).ty.Contents (Elt Ideal)) :
    StableHlo.TRef.ofBuf (StableHlo.TRef.of main_v29 : StableHlo.TRef sig ⟨S60000x64, .f32⟩) z = (z : FVec Ideal S60000x64 .f32) := rfl

theorem ofBuf_v0 (z : (main_v0 : Ref sig .tc).ty.Contents (Elt Ideal)) :
    StableHlo.TRef.ofBuf (StableHlo.TRef.of main_v0 : StableHlo.TRef sig ⟨S60000x64, .f32⟩) z = (z : FVec Ideal S60000x64 .f32) := rfl

theorem ofBuf_v46 (z : (main_v46 : Ref sig .tc).ty.Contents (Elt Ideal)) :
    StableHlo.TRef.ofBuf (StableHlo.TRef.of main_v46 : StableHlo.TRef sig ⟨S60000x64, .f32⟩) z = (z : FVec Ideal S60000x64 .f32) := rfl

theorem ofBuf_arg2 (z : (main_arg2 : Ref sig .tc).ty.Contents (Elt Ideal)) :
    StableHlo.TRef.ofBuf (StableHlo.TRef.of main_arg2 : StableHlo.TRef sig ⟨S800000, .i32⟩) z = (z : IVec S800000 32) := rfl

theorem ofBuf_arg3 (z : (main_arg3 : Ref sig .tc).ty.Contents (Elt Ideal)) :
    StableHlo.TRef.ofBuf (StableHlo.TRef.of main_arg3 : StableHlo.TRef sig ⟨S800000, .i32⟩) z = (z : IVec S800000 32) := rfl

set_option maxHeartbeats 1000000 in
/-- The take stretch `hostOps2`, from any contents `V`: its result buffer holds the row take of what `V` holds at the
    table and at the index array. -/
theorem take2_after (V : Valuation τ sig (Elt Ideal)) :
    StableHlo.TRef.ofBuf (StableHlo.TRef.of main_v19 : StableHlo.TRef sig ⟨S800000x64, .f32⟩)
        (StableHlo.after hostOps2 V (Proc.devRef .tc main_v19))
      = takeRows
          (StableHlo.TRef.ofBuf (StableHlo.TRef.of main_v18 : StableHlo.TRef sig ⟨S60000x64, .f32⟩) (V (Proc.devRef .tc main_v18)))
          (StableHlo.TRef.ofBuf (StableHlo.TRef.of main_arg3 : StableHlo.TRef sig ⟨S800000, .i32⟩) (V (Proc.devRef .tc main_arg3))) := by
  delta hostOps2
  after_results_simp
  simp only [ofBuf_toBuf]
  generalize StableHlo.TRef.ofBuf (StableHlo.TRef.of main_v18 : StableHlo.TRef sig ⟨S60000x64, .f32⟩) (V (Proc.devRef .tc main_v18)) = x
  generalize StableHlo.TRef.ofBuf (StableHlo.TRef.of main_arg3 : StableHlo.TRef sig ⟨S800000, .i32⟩) (V (Proc.devRef .tc main_arg3)) = v
  unfold takeRows
  with_reducible rfl

set_option maxHeartbeats 1000000 in
/-- The take stretch `hostOps4`, from any contents `V`: its result buffer holds the row take of what `V` holds at the
    table and at the index array. -/
theorem take4_after (V : Valuation τ sig (Elt Ideal)) :
    StableHlo.TRef.ofBuf (StableHlo.TRef.of main_v30 : StableHlo.TRef sig ⟨S800000x64, .f32⟩)
        (StableHlo.after hostOps4 V (Proc.devRef .tc main_v30))
      = takeRows
          (StableHlo.TRef.ofBuf (StableHlo.TRef.of main_v29 : StableHlo.TRef sig ⟨S60000x64, .f32⟩) (V (Proc.devRef .tc main_v29)))
          (StableHlo.TRef.ofBuf (StableHlo.TRef.of main_arg2 : StableHlo.TRef sig ⟨S800000, .i32⟩) (V (Proc.devRef .tc main_arg2))) := by
  delta hostOps4
  after_results_simp
  simp only [ofBuf_toBuf]
  generalize StableHlo.TRef.ofBuf (StableHlo.TRef.of main_v29 : StableHlo.TRef sig ⟨S60000x64, .f32⟩) (V (Proc.devRef .tc main_v29)) = x
  generalize StableHlo.TRef.ofBuf (StableHlo.TRef.of main_arg2 : StableHlo.TRef sig ⟨S800000, .i32⟩) (V (Proc.devRef .tc main_arg2)) = v
  unfold takeRows
  with_reducible rfl

set_option maxHeartbeats 1000000 in
/-- The take stretch `hostOps4_1`, from any contents `V`: its result buffer holds the row take of what `V` holds at the
    table and at the index array. -/
theorem take4_1_after (V : Valuation τ sig (Elt Ideal)) :
    StableHlo.TRef.ofBuf (StableHlo.TRef.of main_v31 : StableHlo.TRef sig ⟨S800000x64, .f32⟩)
        (StableHlo.after hostOps4_1 V (Proc.devRef .tc main_v31))
      = takeRows
          (StableHlo.TRef.ofBuf (StableHlo.TRef.of main_v0 : StableHlo.TRef sig ⟨S60000x64, .f32⟩) (V (Proc.devRef .tc main_v0)))
          (StableHlo.TRef.ofBuf (StableHlo.TRef.of main_arg3 : StableHlo.TRef sig ⟨S800000, .i32⟩) (V (Proc.devRef .tc main_arg3))) := by
  delta hostOps4_1
  after_results_simp
  simp only [ofBuf_toBuf]
  generalize StableHlo.TRef.ofBuf (StableHlo.TRef.of main_v0 : StableHlo.TRef sig ⟨S60000x64, .f32⟩) (V (Proc.devRef .tc main_v0)) = x
  generalize StableHlo.TRef.ofBuf (StableHlo.TRef.of main_arg3 : StableHlo.TRef sig ⟨S800000, .i32⟩) (V (Proc.devRef .tc main_arg3)) = v
  unfold takeRows
  with_reducible rfl

set_option maxHeartbeats 1000000 in
/-- The take stretch `hostOps7`, from any contents `V`: its result buffer holds the row take of what `V` holds at the
    table and at the index array. -/
theorem take7_after (V : Valuation τ sig (Elt Ideal)) :
    StableHlo.TRef.ofBuf (StableHlo.TRef.of main_v47 : StableHlo.TRef sig ⟨S800000x64, .f32⟩)
        (StableHlo.after hostOps7 V (Proc.devRef .tc main_v47))
      = takeRows
          (StableHlo.TRef.ofBuf (StableHlo.TRef.of main_v46 : StableHlo.TRef sig ⟨S60000x64, .f32⟩) (V (Proc.devRef .tc main_v46)))
          (StableHlo.TRef.ofBuf (StableHlo.TRef.of main_arg3 : StableHlo.TRef sig ⟨S800000, .i32⟩) (V (Proc.devRef .tc main_arg3))) := by
  delta hostOps7
  after_results_simp
  simp only [ofBuf_toBuf]
  generalize StableHlo.TRef.ofBuf (StableHlo.TRef.of main_v46 : StableHlo.TRef sig ⟨S60000x64, .f32⟩) (V (Proc.devRef .tc main_v46)) = x
  generalize StableHlo.TRef.ofBuf (StableHlo.TRef.of main_arg3 : StableHlo.TRef sig ⟨S800000, .i32⟩) (V (Proc.devRef .tc main_arg3)) = v
  unfold takeRows
  with_reducible rfl

/-- The second take stretch before boundary 13 does not write the first one's result. -/
theorem keep_v30 (V : Valuation τ sig (Elt Ideal)) :
    StableHlo.after hostOps4_1 V (Proc.devRef .tc main_v30) = V (Proc.devRef .tc main_v30) :=
  StableHlo.after_of_forall_not_mem (b := Proc.devRef .tc main_v30) _ _ (List.forall_iff_forall_mem.mp (by
      simp only [hostOps4_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

variable (m : (ℓ : Loc nD τ sig) → Buf (Elt Ideal) ℓ) (ρ : Dev nD → PrngReg)

theorem B8_v19_eq (c : Dev nD) : B8_v19 m ρ c = takeRows (B7_v18 m ρ c) (arg3 m c) :=
  (ofBuf_v19 (StableHlo.after hostOps2 (W7 m ρ c) (Proc.devRef .tc main_v19))).symm.trans
    ((take2_after (W7 m ρ c)).trans
      (congrArg₂ takeRows (ofBuf_v18 (W7 m ρ c (Proc.devRef .tc main_v18)))
        ((ofBuf_arg3 (W7 m ρ c (Proc.devRef .tc main_arg3))).trans (W7_arg3 m ρ c))))

theorem B13_v30_eq (c : Dev nD) : B13_v30 m ρ c = takeRows (B11_v29 m ρ c) (arg2 m c) :=
  (keep_v30 (W12 m ρ c)).trans
    ((ofBuf_v30 (StableHlo.after hostOps4 (W11 m ρ c) (Proc.devRef .tc main_v30))).symm.trans
      ((take4_after (W11 m ρ c)).trans
        (congrArg₂ takeRows (ofBuf_v29 (W11 m ρ c (Proc.devRef .tc main_v29)))
          ((ofBuf_arg2 (W11 m ρ c (Proc.devRef .tc main_arg2))).trans (W11_arg2 m ρ c)))))

theorem B13_v31_eq (c : Dev nD) : B13_v31 m ρ c = takeRows (B4_v0 m ρ c) (arg3 m c) :=
  (ofBuf_v31 (StableHlo.after hostOps4_1 (W12 m ρ c) (Proc.devRef .tc main_v31))).symm.trans
    ((take4_1_after (W12 m ρ c)).trans
      (congrArg₂ takeRows ((ofBuf_v0 (W12 m ρ c (Proc.devRef .tc main_v0))).trans (W12_v0_eq m ρ c))
        ((ofBuf_arg3 (W12 m ρ c (Proc.devRef .tc main_arg3))).trans (W12_arg3 m ρ c))))

theorem B19_v47_eq (c : Dev nD) : B19_v47 m ρ c = takeRows (B18_v46 m ρ c) (arg3 m c) :=
  (ofBuf_v47 (StableHlo.after hostOps7 (W18 m ρ c) (Proc.devRef .tc main_v47))).symm.trans
    ((take7_after (W18 m ρ c)).trans
      (congrArg₂ takeRows (ofBuf_v46 (W18 m ρ c (Proc.devRef .tc main_v46)))
        ((ofBuf_arg3 (W18 m ρ c (Proc.devRef .tc main_arg3))).trans (W18_arg3 m ρ c))))

end Take

variable (m : (ℓ : Loc nD τ sig) → Buf (Elt Ideal) ℓ) (ρ : Dev nD → PrngReg)

/-- The first take (boundary 8): entry `(e, k)` is the table of boundary 7 at the row the second index array names. -/
theorem B8_v19_apply (c : Dev nD) (h3 : InRange (arg3 m c)) (e : Fin 800000) (k : Fin 64) :
    B8_v19 m ρ c (ix2 e k) = B7_v18 m ρ c (ix2 (node (arg3 m c) e) k) :=
  (congrFun (Take.B8_v19_eq m ρ c) (ix2 e k)).trans (takeRows_apply _ _ h3 e k)

/-- The take by the first index array (boundary 13) of the table of boundary 11. -/
theorem B13_v30_apply (c : Dev nD) (h2 : InRange (arg2 m c)) (e : Fin 800000) (k : Fin 64) :
    B13_v30 m ρ c (ix2 e k) = B11_v29 m ρ c (ix2 (node (arg2 m c) e) k) :=
  (congrFun (Take.B13_v30_eq m ρ c) (ix2 e k)).trans (takeRows_apply _ _ h2 e k)

/-- The take by the second index array (boundary 13) of the stacked feature table. -/
theorem B13_v31_apply (c : Dev nD) (h3 : InRange (arg3 m c)) (e : Fin 800000) (k : Fin 64) :
    B13_v31 m ρ c (ix2 e k) = B4_v0 m ρ c (ix2 (node (arg3 m c) e) k) :=
  (congrFun (Take.B13_v31_eq m ρ c) (ix2 e k)).trans (takeRows_apply _ _ h3 e k)

/-- The take by the second index array (boundary 19) of the table of boundary 18. -/
theorem B19_v47_apply (c : Dev nD) (h3 : InRange (arg3 m c)) (e : Fin 800000) (k : Fin 64) :
    B19_v47 m ρ c (ix2 e k) = B18_v46 m ρ c (ix2 (node (arg3 m c) e) k) :=
  (congrFun (Take.B19_v47_eq m ρ c) (ix2 e k)).trans (takeRows_apply _ _ h3 e k)

end Cert.KernelIdeal.Val

end
-- ==== Proof.KChain.lean ====
/-
  The kernel program's two result arrays are the two halves of the specification's `result`.

  Each boundary array of the run satisfies one stage equation (a region's closed form, a host stretch's value, or
  "carried unchanged"); together they are the hypotheses of `Cert.Routing.result_of`, whose conclusion is read
  through the final slices.
-/
import proofs.«418341_j39728447488527_3_alg».proof.Proof.RoundAlgebra
import proofs.«418341_j39728447488527_3_alg».proof.Proof.KBufs
import proofs.«418341_j39728447488527_3_alg».proof.Proof.KKeep
import proofs.«418341_j39728447488527_3_alg».proof.Proof.KEntry
import proofs.«418341_j39728447488527_3_alg».proof.Proof.RegSoft
import proofs.«418341_j39728447488527_3_alg».proof.Proof.RegAvg
import proofs.«418341_j39728447488527_3_alg».proof.Proof.RegScale1
import proofs.«418341_j39728447488527_3_alg».proof.Proof.RegScale2
import proofs.«418341_j39728447488527_3_alg».proof.Proof.RegScale3
import proofs.«418341_j39728447488527_3_alg».proof.Proof.RegScale6
import proofs.«418341_j39728447488527_3_alg».proof.Proof.RegScale7
import proofs.«418341_j39728447488527_3_alg».proof.Proof.RegScale8
import proofs.«418341_j39728447488527_3_alg».proof.Proof.RegAttn
import proofs.«418341_j39728447488527_3_alg».proof.Proof.KFoldA
import proofs.«418341_j39728447488527_3_alg».proof.Proof.KFoldB
import proofs.«418341_j39728447488527_3_alg».proof.Proof.KTake

noncomputable section

namespace Cert.KernelIdeal.Val

open Idealize.ShloMosaic Idealize.ShloMosaic.TcCoe Idealize.ShloMosaic.ValueIdx Idealize.SL.Sem Cert.KernelIdeal Cert.KernelIdeal.Gen Cert.Routing

variable (m : (ℓ : Loc nD τ sig) → Buf (Elt Ideal) ℓ) (ρ : Dev nD → PrngReg)

/-! ## The kernel program's result arrays are the specification's -/

section Chain

variable (c : Dev nD) (h2 : InRange (arg2 m c)) (h3 : InRange (arg3 m c))

include h2 h3 in
/-- The array the last region leaves is the mean of the input features and the second round's features. -/
theorem out_whole (n : Fin 60000) (k : Fin 64) :
    B27_v62 m ρ c (ix2 n k) = result (feats (arg0 m c) (arg1 m c)) (node (arg2 m c)) (node (arg3 m c)) n k := by
  have hs1 : ∀ (e : Fin 800000) (i : Fin 4), B5_v6 m ρ c (ix2 e i) = soft (fun _ _ => one32) e i := fun e i => by
    rw [B5_v6_apply]
    exact congrArg (fun A => soft A e i) (funext fun e' => funext fun i' => B4_v5_apply m ρ c e' i')
  have hd1 := fun (n : Fin 60000) (i : Fin 4) => B6_v17_apply m ρ c h2 n i
  have hy1 : ∀ (n : _) (k : Fin 64), B7_v18 m ρ c (ix2 n k) = (∑ i : Fin 4, B6_v17 m ρ c (ix2 n i) * oh k i) * feats (arg0 m c) (arg1 m c) n k := fun n k => by
    rw [B7_v18_apply, B6_v4_eq, B6_v0_eq, B4_v0_apply]
    rw [Finset.sum_congr rfl fun (i : Fin 4) _ => congrArg (_ * ·) (B4_v4_apply m ρ c i k)]
  have hyt1 := fun (e : Fin 800000) (k : Fin 64) => B8_v19_apply m ρ c h3 e k
  have hm1 : ∀ (e : _) (k : Fin 64), B9_v20 m ρ c (ix2 e k) = (∑ i : Fin 4, B5_v6 m ρ c (ix2 e i) * oh k i) * B8_v19 m ρ c (ix2 e k) := fun e k => by
    rw [B9_v20_apply, B8_v6_eq, B8_v4_eq]
    rw [Finset.sum_congr rfl fun (i : Fin 4) _ => congrArg (_ * ·) (B4_v4_apply m ρ c i k)]
  have hzr1 := fun (n : Fin 60000) (k : Fin 64) => B10_v28_apply m ρ c h2 n k
  have hz1 : ∀ (n : _) (k : Fin 64), B11_v29 m ρ c (ix2 n k) = (∑ i : Fin 4, B6_v17 m ρ c (ix2 n i) * oh k i) * B10_v28 m ρ c (ix2 n k) := fun n k => by
    rw [B11_v29_apply, B10_v17_eq, B10_v4_eq]
    rw [Finset.sum_congr rfl fun (i : Fin 4) _ => congrArg (_ * ·) (B4_v4_apply m ρ c i k)]
  have hzh1 := fun (e : Fin 800000) (k : Fin 64) => B13_v30_apply m ρ c h2 e k
  have hxt1 : ∀ (e : Fin 800000) (k : Fin 64), B13_v31 m ρ c (ix2 e k) = feats (arg0 m c) (arg1 m c) (node (arg3 m c) e) k :=
    fun e k => by rw [B13_v31_apply m ρ c h3, B4_v0_apply]
  have hG : ∀ (k : Fin 64) (i : Fin 4), B13_v3 m ρ c (ix2 k i) = oh k i := fun k i => by rw [B13_v3_eq, B4_v3_apply]
  have hGt : ∀ (i : Fin 4) (k : Fin 64), B13_v4 m ρ c (ix2 i k) = oh k i := fun i k => by rw [B13_v4_eq, B4_v4_apply]
  have hda := fun (e : Fin 800000) (i : Fin 4) => B14_v32_apply m ρ c hG hGt e i
  have ha2 : ∀ (e : Fin 800000) (i : Fin 4), B15_v33 m ρ c (ix2 e i) = one32 + B14_v32 m ρ c (ix2 e i) := fun e i => by
    rw [B15_v33_apply, B14_v5_eq, B4_v5_apply]
  have hs2 := fun (e : Fin 800000) (i : Fin 4) => B16_v34_apply m ρ c e i
  have hd2 := fun (n : Fin 60000) (i : Fin 4) => B17_v45_apply m ρ c h2 n i
  have hy2 : ∀ (n : _) (k : Fin 64), B18_v46 m ρ c (ix2 n k) = (∑ i : Fin 4, B17_v45 m ρ c (ix2 n i) * oh k i) * feats (arg0 m c) (arg1 m c) n k := fun n k => by
    rw [B18_v46_apply, B17_v4_eq, B17_v0_eq, B4_v0_apply]
    rw [Finset.sum_congr rfl fun (i : Fin 4) _ => congrArg (_ * ·) (B4_v4_apply m ρ c i k)]
  have hyt2 := fun (e : Fin 800000) (k : Fin 64) => B19_v47_apply m ρ c h3 e k
  have hm2 : ∀ (e : _) (k : Fin 64), B20_v48 m ρ c (ix2 e k) = (∑ i : Fin 4, B16_v34 m ρ c (ix2 e i) * oh k i) * B19_v47 m ρ c (ix2 e k) := fun e k => by
    rw [B20_v48_apply, B19_v34_eq, B19_v4_eq]
    rw [Finset.sum_congr rfl fun (i : Fin 4) _ => congrArg (_ * ·) (B4_v4_apply m ρ c i k)]
  have hzr2 := fun (n : Fin 60000) (k : Fin 64) => B21_v56_apply m ρ c h2 n k
  have hz2 : ∀ (n : _) (k : Fin 64), B22_v57 m ρ c (ix2 n k) = (∑ i : Fin 4, B17_v45 m ρ c (ix2 n i) * oh k i) * B21_v56 m ρ c (ix2 n k) := fun n k => by
    rw [B22_v57_apply, B21_v45_eq, B21_v4_eq]
    rw [Finset.sum_congr rfl fun (i : Fin 4) _ => congrArg (_ * ·) (B4_v4_apply m ρ c i k)]
  have ho : ∀ (n : Fin 60000) (k : Fin 64), B27_v62 m ρ c (ix2 n k) = (feats (arg0 m c) (arg1 m c) n k + B22_v57 m ρ c (ix2 n k)) * half32 := fun n k => by
    rw [B27_v62_apply, B26_v0_eq, B26_v57_eq, B4_v0_apply]
  exact result_of (feats (arg0 m c) (arg1 m c)) (node (arg2 m c)) (node (arg3 m c))
    (fun e i => B5_v6 m ρ c (ix2 e i)) (fun n i => B6_v17 m ρ c (ix2 n i)) (fun n k => B7_v18 m ρ c (ix2 n k))
    (fun e k => B8_v19 m ρ c (ix2 e k)) (fun e k => B9_v20 m ρ c (ix2 e k)) (fun n k => B10_v28 m ρ c (ix2 n k))
    (fun n k => B11_v29 m ρ c (ix2 n k)) (fun e k => B13_v30 m ρ c (ix2 e k)) (fun e k => B13_v31 m ρ c (ix2 e k))
    (fun e i => B14_v32 m ρ c (ix2 e i)) (fun e i => B15_v33 m ρ c (ix2 e i))
    (fun e i => B16_v34 m ρ c (ix2 e i)) (fun n i => B17_v45 m ρ c (ix2 n i)) (fun n k => B18_v46 m ρ c (ix2 n k))
    (fun e k => B19_v47 m ρ c (ix2 e k)) (fun e k => B20_v48 m ρ c (ix2 e k)) (fun n k => B21_v56 m ρ c (ix2 n k))
    (fun n k => B22_v57 m ρ c (ix2 n k)) (fun n k => B27_v62 m ρ c (ix2 n k))
    hs1 hd1 hy1 hyt1 hm1 hzr1 hz1 hzh1 hxt1 hda ha2 hs2 hd2 hy2 hyt2 hm2 hzr2 hz2 ho n k

/-- The first result: rows 0 … 29999. -/
def outLo : FVec Ideal S30000x64 .f32 := fun j =>
  result (feats (arg0 m c) (arg1 m c)) (node (arg2 m c)) (node (arg3 m c))
    ⟨(j 0).val, Nat.lt_trans (idx2_lt0 j) (by decide)⟩ ⟨(j 1).val, idx2_lt1 j⟩

/-- The second result: rows 30000 … 59999. -/
def outHi : FVec Ideal S30000x64 .f32 := fun j =>
  result (feats (arg0 m c) (arg1 m c)) (node (arg2 m c)) (node (arg3 m c))
    ⟨30000 + (j 0).val, by have := idx2_lt0 j; omega⟩ ⟨(j 1).val, idx2_lt1 j⟩

include h2 h3 in
theorem out_lo : B28_v63 m ρ c = outLo m c := by
  funext j
  obtain ⟨r, q, rfl⟩ : ∃ (r : Fin 30000) (q : Fin 64), j = ix2 r q := ⟨j 0, j 1, eq_ix2 j⟩
  rw [B28_v63_apply, out_whole m ρ c h2 h3]
  rfl

include h2 h3 in
theorem out_hi : B28_v64 m ρ c = outHi m c := by
  funext j
  obtain ⟨r, q, rfl⟩ : ∃ (r : Fin 30000) (q : Fin 64), j = ix2 r q := ⟨j 0, j 1, eq_ix2 j⟩
  rw [B28_v64_apply, out_whole m ρ c h2 h3]
  rfl

end Chain

end Cert.KernelIdeal.Val

end
-- ==== Proof.lean ====
/-
  The certificate's five claims.

  The kernel program and the reference both compute two rounds of intent routing on a graph of 60000 nodes and
  800000 edges (proof/Proof/Spec.lean states the mathematics): the kernel in a node-by-channel layout, with the
  per-group quantities expanded to channels by a contraction with a 0/1 matrix, the reference in a
  group-by-node-by-offset layout. Under the precondition every index names a node, so both programs' gathers read the
  named rows and their scatters add at the named rows; at the extended reals each program's two result arrays are then
  the two halves of the specification's `result` of the graph the arguments denote — the kernel's by reading its
  run boundary by boundary (proof/Proof/KChain.lean), the reference's by reading its run's composed terms
  (proof/Proof/RefChain.lean). The three frames are the generated frame certificates and the reference's generated run;
  the ideal pass rewrote nothing, so `preserves` is trivial.
-/
import proofs.«418341_j39728447488527_3_alg».proof.Defs
import proofs.«418341_j39728447488527_3_alg».proof.Proof.Gen.Kernel
import proofs.«418341_j39728447488527_3_alg».proof.Proof.Gen.Kernel.Frame
import proofs.«418341_j39728447488527_3_alg».proof.Proof.Gen.KernelIdeal
import proofs.«418341_j39728447488527_3_alg».proof.Proof.Gen.ReferenceIdeal
import proofs.«418341_j39728447488527_3_alg».proof.Proof.Gen.Pre_finite_inputs
import proofs.«418341_j39728447488527_3_alg».proof.Proof.KernelRun
import proofs.«418341_j39728447488527_3_alg».proof.Proof.PreRange
import proofs.«418341_j39728447488527_3_alg».proof.Proof.RefChain
import Idealize.ShloMosaic.Adequacy
import Idealize.ShloMosaic.Init
import proofs.«418341_j39728447488527_3_alg».proof.Proof.KChain

noncomputable section

namespace Cert.Proof

open Idealize.ShloMosaic Idealize.ShloMosaic.TcCoe Idealize.ShloMosaic.ValueIdx Idealize.SL.Sem Cert.Routing

/-- The word-level kernel runs and leaves its arguments as launched: the generated frame. -/
theorem frame_kernel : @Cert.frame_Kernel Cert.Kernel.Gen.facts Cert.Pre_finite_inputs.Gen.facts :=
  fun m ρ _ => Cert.Kernel.Gen.frame m ρ

/-- The idealized kernel likewise. -/
theorem frame_kernelIdeal : @Cert.frame_KernelIdeal Cert.KernelIdeal.Gen.facts Cert.Pre_finite_inputs.Gen.facts :=
  fun m ρ _ => Cert.KernelIdeal.Gen.frame m ρ

/-- The reference has no kernel: its frame is its generated run with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories agreeing on the arguments, with every index in range, both programs end with the two halves of
    the specification's `result` of the graph the arguments denote. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hr := fun c => Cert.KernelIdeal.Val.inRange_of_pre m hpre c
  refine ⟨fun c => Cert.KernelIdeal.Val.outLo m c, fun c => Cert.KernelIdeal.Val.outHi m c, ?_, ?_⟩
  · refine (θ_run Cert.KernelIdeal.defs _ _).mono (fun r h c => ?_) (Cert.KernelIdeal.Gen.run_out (F := Ideal) m ρ)
    obtain ⟨h63, h64, hrest⟩ := h c
    exact ⟨h63.trans (Cert.KernelIdeal.Val.out_lo m ρ c (hr c).1 (hr c).2),
      h64.trans (Cert.KernelIdeal.Val.out_hi m ρ c (hr c).1 (hr c).2), hrest⟩
  · refine (θ_run Cert.ReferenceIdeal.defs _ _).mono (fun r h c => ?_)
      (Cert.ReferenceIdeal.Value.run (F := Ideal) m' ρ')
    obtain ⟨h172, h173, hrest⟩ := h c
    obtain ⟨e0, e1, e2, e3⟩ := hagree c
    have h2' : InRange (Cert.ReferenceIdeal.RefVal.rarg2 (StableHlo.launchContents m' c)) := by
      show InRange (m' ((c.tc : Thread Cert.ReferenceIdeal.nD Cert.ReferenceIdeal.τ).loc Cert.ReferenceIdeal.main_arg2))
      rw [e2]; exact (hr c).1
    have h3' : InRange (Cert.ReferenceIdeal.RefVal.rarg3 (StableHlo.launchContents m' c)) := by
      show InRange (m' ((c.tc : Thread Cert.ReferenceIdeal.nD Cert.ReferenceIdeal.τ).loc Cert.ReferenceIdeal.main_arg3))
      rw [e3]; exact (hr c).2
    refine ⟨h172.trans ?_, h173.trans ?_, hrest⟩
    · funext j
      obtain ⟨r', q, rfl⟩ : ∃ (r' : Fin 30000) (q : Fin 64), j = ix2 r' q := ⟨j 0, j 1, eq_ix2 j⟩
      refine (Cert.ReferenceIdeal.RefVal.ref_lo (StableHlo.launchContents m' c) h2' h3' r' q).trans ?_
      show result (feats (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) (node (m' ((c.tc : Thread Cert.ReferenceIdeal.nD Cert.ReferenceIdeal.τ).loc Cert.ReferenceIdeal.main_arg2))) (node (m' ((c.tc : Thread Cert.ReferenceIdeal.nD Cert.ReferenceIdeal.τ).loc Cert.ReferenceIdeal.main_arg3))) _ _ = _
      rw [e0, e1, e2, e3]
      rfl
    · funext j
      obtain ⟨r', q, rfl⟩ : ∃ (r' : Fin 30000) (q : Fin 64), j = ix2 r' q := ⟨j 0, j 1, eq_ix2 j⟩
      refine (Cert.ReferenceIdeal.RefVal.ref_hi (StableHlo.launchContents m' c) h2' h3' r' q).trans ?_
      show result (feats (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) (node (m' ((c.tc : Thread Cert.ReferenceIdeal.nD Cert.ReferenceIdeal.τ).loc Cert.ReferenceIdeal.main_arg2))) (node (m' ((c.tc : Thread Cert.ReferenceIdeal.nD Cert.ReferenceIdeal.τ).loc Cert.ReferenceIdeal.main_arg3))) _ _ = _
      rw [e0, e1, e2, e3]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
